-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)) →
    ∃ (v0 : (c : Dev Cert.KernelIdeal.nD) → Buf (Elt Ideal) ((c.tc : Thread Cert.KernelIdeal.nD Cert.KernelIdeal.τ).loc Cert.KernelIdeal.main_v484)) (v1 : (c : Dev Cert.KernelIdeal.nD) → Buf (Elt Ideal) ((c.tc : Thread Cert.KernelIdeal.nD Cert.KernelIdeal.τ).loc Cert.KernelIdeal.main_v485)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v484) = v0 c
          ∧ r.2.mem ((c.tc : Thread Cert.KernelIdeal.nD Cert.KernelIdeal.τ).loc Cert.KernelIdeal.main_v485) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v500) = v0 c
          ∧ r.2.mem ((c.tc : Thread Cert.ReferenceIdeal.nD Cert.ReferenceIdeal.τ).loc Cert.ReferenceIdeal.main_v501) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part9 {F : FTy → Type} [FloatOps F] (main_arg37 : FVec F S64 .f32) (main_v153 : IVec S_ 1) : IVec S_ 1 :=
  let main_v154 : FVec F S64 .f32 := Host.absf main_arg37
  let main_cst_60 : FVec F S_ .f32 := constant S_ .f32 0x7F800000#32
  let main_v155 : FVec F S64 .f32 := broadcastInDim S64 ![] bcast_S_S64 main_cst_60
  let main_v156 : IVec S64 1 := cmpf .olt main_v154 main_v155
  let main_c_61 : IVec S_ 1 := constantI S_ 1 1#1
  let main_v157 : IVec S_ 1 := (fun x v => Host.reduce IntOp.andi x v reducesTo_S64_S_d0 h_S_) main_v156 main_c_61
  let main_v158 : IVec S_ 1 := andi main_v153 main_v157
  main_v158

def fn_part8 {F : FTy → Type} [FloatOps F] (main_arg34 : FVec F S128x64 .f32) (main_arg35 : FVec F S64 .f32) (main_arg36 : FVec F S128x64 .f32) (main_arg37 : FVec F S64 .f32) (main_v133 : IVec S_ 1) (main_v136 : IVec S128x64 1) : IVec S_ 1 :=
  let main_c_53 : IVec S_ 1 := constantI S_ 1 1#1
  let main_v137 : IVec S_ 1 := (fun x v => Host.reduce IntOp.andi x v reducesTo_S128x64_S_d0_1 h_S_) main_v136 main_c_53
  let main_v138 : IVec S_ 1 := andi main_v133 main_v137
  let main_v139 : FVec F S128x64 .f32 := Host.absf main_arg34
  let main_cst_54 : FVec F S_ .f32 := constant S_ .f32 0x7F800000#32
  let main_v140 : FVec F S128x64 .f32 := broadcastInDim S128x64 ![] bcast_S_S128x64 main_cst_54
  let main_v141 : IVec S128x64 1 := cmpf .olt main_v139 main_v140
  let main_c_55 : IVec S_ 1 := constantI S_ 1 1#1
  let main_v142 : IVec S_ 1 := (fun x v => Host.reduce IntOp.andi x v reducesTo_S128x64_S_d0_1 h_S_) main_v141 main_c_55
  let main_v143 : IVec S_ 1 := andi main_v138 main_v142
  let main_v144 : FVec F S64 .f32 := Host.absf main_arg35
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S128x64 .f32 := Host.absf main_arg36
  let main_cst_58 : FVec F S_ .f32 := constant S_ .f32 0x7F800000#32
  let main_v150 : FVec F S128x64 .f32 := broadcastInDim S128x64 ![] bcast_S_S128x64 main_cst_58
  let main_v151 : IVec S128x64 1 := cmpf .olt main_v149 main_v150
  let main_c_59 : IVec S_ 1 := constantI S_ 1 1#1
  let main_v152 : IVec S_ 1 := (fun x v => Host.reduce IntOp.andi x v reducesTo_S128x64_S_d0_1 h_S_) main_v151 main_c_59
  let main_v153 : IVec S_ 1 := andi main_v148 main_v152
  fn_part9 (F := F) main_arg37 main_v153

def fn_part7 {F : FTy → Type} [FloatOps F] (main_arg31 : FVec F S128x64 .f32) (main_arg32 : FVec F S64 .f32) (main_arg33 : FVec F S128x64 .f32) (main_arg34 : FVec F S128x64 .f32) (main_arg35 : FVec F S64 .f32) (main_arg36 : FVec F S128x64 .f32) (main_arg37 : FVec F S64 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x64 .f32 := Host.absf main_arg31
  let main_cst_48 : FVec F S_ .f32 := constant S_ .f32 0x7F800000#32
  let main_v125 : FVec F S128x64 .f32 := broadcastInDim S128x64 ![] bcast_S_S128x64 main_cst_48
  let main_v126 : IVec S128x64 1 := cmpf .olt main_v124 main_v125
  let main_c_49 : IVec S_ 1 := constantI S_ 1 1#1
  let main_v127 : IVec S_ 1 := (fun x v => Host.reduce IntOp.andi x v reducesTo_S128x64_S_d0_1 h_S_) main_v126 main_c_49
  let main_v128 : IVec S_ 1 := andi main_v123 main_v127
  let main_v129 : FVec F S64 .f32 := Host.absf main_arg32
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S128x64 .f32 := Host.absf main_arg33
  let main_cst_52 : FVec F S_ .f32 := constant S_ .f32 0x7F800000#32
  let main_v135 : FVec F S128x64 .f32 := broadcastInDim S128x64 ![] bcast_S_S128x64 main_cst_52
  let main_v136 : IVec S128x64 1 := cmpf .olt main_v134 main_v135
  fn_part8 (F := F) main_arg34 main_arg35 main_arg36 main_arg37 main_v133 main_v136

def fn_part6 {F : FTy → Type} [FloatOps F] (main_arg27 : FVec F S128x128 .f32) (main_arg28 : FVec F S128 .f32) (main_arg29 : FVec F S128x128 .f32) (main_arg30 : FVec F S128 .f32) (main_arg31 : FVec F S128x64 .f32) (main_arg32 : FVec F S64 .f32) (main_arg33 : FVec F S128x64 .f32) (main_arg34 : FVec F S128x64 .f32) (main_arg35 : FVec F S64 .f32) (main_arg36 : FVec F S128x64 .f32) (main_arg37 : FVec F S64 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128x128 .f32 := Host.absf main_arg27
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg28
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg29
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg30
  fn_part7 (F := F) main_arg31 main_arg32 main_arg33 main_arg34 main_arg35 main_arg36 main_arg37 main_v118 main_v119

def fn_part5 {F : FTy → Type} [FloatOps F] (main_arg24 : FVec F S128x128 .f32) (main_arg25 : FVec F S128 .f32) (main_arg26 : FVec F S128x128 .f32) (main_arg27 : FVec F S128x128 .f32) (main_arg28 : FVec F S128 .f32) (main_arg29 : FVec F S128x128 .f32) (main_arg30 : FVec F S128 .f32) (main_arg31 : FVec F S128x64 .f32) (main_arg32 : FVec F S64 .f32) (main_arg33 : FVec F S128x64 .f32) (main_arg34 : FVec F S128x64 .f32) (main_arg35 : FVec F S64 .f32) (main_arg36 : FVec F S128x64 .f32) (main_arg37 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128x128 .f32 := Host.absf main_arg24
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg25
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg26
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg27 main_arg28 main_arg29 main_arg30 main_arg31 main_arg32 main_arg33 main_arg34 main_arg35 main_arg36 main_arg37 main_v98 main_v101 main_c_39

def fn_part4 {F : FTy → Type} [FloatOps F] (main_arg20 : FVec F S128x64 .f32) (main_arg21 : FVec F S64 .f32) (main_arg22 : FVec F S128x64 .f32) (main_arg23 : FVec F S64 .f32) (main_arg24 : FVec F S128x128 .f32) (main_arg25 : FVec F S128 .f32) (main_arg26 : FVec F S128x128 .f32) (main_arg27 : FVec F S128x128 .f32) (main_arg28 : FVec F S128 .f32) (main_arg29 : FVec F S128x128 .f32) (main_arg30 : FVec F S128 .f32) (main_arg31 : FVec F S128x64 .f32) (main_arg32 : FVec F S64 .f32) (main_arg33 : FVec F S128x64 .f32) (main_arg34 : FVec F S128x64 .f32) (main_arg35 : FVec F S64 .f32) (main_arg36 : FVec F S128x64 .f32) (main_arg37 : FVec F S64 .f32) (main_v63 : IVec S_ 1) (main_v67 : IVec S_ 1) : IVec S_ 1 :=
  let main_v68 : IVec S_ 1 := andi main_v63 main_v67
  let main_v69 : FVec F S128x64 .f32 := Host.absf main_arg20
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg21
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S128x64 .f32 := Host.absf main_arg22
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg23
  let main_cst_32 : FVec F S_ .f32 := constant S_ .f32 0x7F800000#32
  fn_part5 (F := F) main_arg24 main_arg25 main_arg26 main_arg27 main_arg28 main_arg29 main_arg30 main_arg31 main_arg32 main_arg33 main_arg34 main_arg35 main_arg36 main_arg37 main_v83 main_v84 main_cst_32

def fn_part3 {F : FTy → Type} [FloatOps F] (main_arg17 : FVec F S128x64 .f32) (main_arg18 : FVec F S64 .f32) (main_arg19 : FVec F S128x64 .f32) (main_arg20 : FVec F S128x64 .f32) (main_arg21 : FVec F S64 .f32) (main_arg22 : FVec F S128x64 .f32) (main_arg23 : FVec F S64 .f32) (main_arg24 : FVec F S128x128 .f32) (main_arg25 : FVec F S128 .f32) (main_arg26 : FVec F S128x128 .f32) (main_arg27 : FVec F S128x128 .f32) (main_arg28 : FVec F S128 .f32) (main_arg29 : FVec F S128x128 .f32) (main_arg30 : FVec F S128 .f32) (main_arg31 : FVec F S128x64 .f32) (main_arg32 : FVec F S64 .f32) (main_arg33 : FVec F S128x64 .f32) (main_arg34 : FVec F S128x64 .f32) (main_arg35 : FVec F S64 .f32) (main_arg36 : FVec F S128x64 .f32) (main_arg37 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg17
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg18
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg19
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg20 main_arg21 main_arg22 main_arg23 main_arg24 main_arg25 main_arg26 main_arg27 main_arg28 main_arg29 main_arg30 main_arg31 main_arg32 main_arg33 main_arg34 main_arg35 main_arg36 main_arg37 main_v63 main_v67

def fn_part2 {F : FTy → Type} [FloatOps F] (main_arg13 : FVec F S128x128 .f32) (main_arg14 : FVec F S128 .f32) (main_arg15 : FVec F S128x128 .f32) (main_arg16 : FVec F S128 .f32) (main_arg17 : FVec F S128x64 .f32) (main_arg18 : FVec F S64 .f32) (main_arg19 : FVec F S128x64 .f32) (main_arg20 : FVec F S128x64 .f32) (main_arg21 : FVec F S64 .f32) (main_arg22 : FVec F S128x64 .f32) (main_arg23 : FVec F S64 .f32) (main_arg24 : FVec F S128x128 .f32) (main_arg25 : FVec F S128 .f32) (main_arg26 : FVec F S128x128 .f32) (main_arg27 : FVec F S128x128 .f32) (main_arg28 : FVec F S128 .f32) (main_arg29 : FVec F S128x128 .f32) (main_arg30 : FVec F S128 .f32) (main_arg31 : FVec F S128x64 .f32) (main_arg32 : FVec F S64 .f32) (main_arg33 : FVec F S128x64 .f32) (main_arg34 : FVec F S128x64 .f32) (main_arg35 : FVec F S64 .f32) (main_arg36 : FVec F S128x64 .f32) (main_arg37 : FVec F S64 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v48 main_v49 main_v50

def fn_part1 {F : FTy → Type} [FloatOps F] (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_arg19 : FVec F S128x64 .f32) (main_arg20 : FVec F S128x64 .f32) (main_arg21 : FVec F S64 .f32) (main_arg22 : FVec F S128x64 .f32) (main_arg23 : FVec F S64 .f32) (main_arg24 : FVec F S128x128 .f32) (main_arg25 : FVec F S128 .f32) (main_arg26 : FVec F S128x128 .f32) (main_arg27 : FVec F S128x128 .f32) (main_arg28 : FVec F S128 .f32) (main_arg29 : FVec F S128x128 .f32) (main_arg30 : FVec F S128 .f32) (main_arg31 : FVec F S128x64 .f32) (main_arg32 : FVec F S64 .f32) (main_arg33 : FVec F S128x64 .f32) (main_arg34 : FVec F S128x64 .f32) (main_arg35 : FVec F S64 .f32) (main_arg36 : FVec F S128x64 .f32) (main_arg37 : FVec F S64 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v33

def fn {F : FTy → Type} [FloatOps F] (main_arg0 : FVec F S100000x128 .f32) (main_arg1 : FVec F S100000x128 .f32) (main_arg2 : FVec F S100000x128 .f32) (main_arg3 : FVec F S100000x128 .f32) (main_arg4 : IVec S2x500000 32) (main_arg5 : IVec S2x500000 32) (main_arg6 : IVec S2x500000 32) (main_arg7 : IVec S2x500000 32) (main_arg8 : IVec S2x500000 32) (main_arg9 : IVec S2x500000 32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_arg19 : FVec F S128x64 .f32) (main_arg20 : FVec F S128x64 .f32) (main_arg21 : FVec F S64 .f32) (main_arg22 : FVec F S128x64 .f32) (main_arg23 : FVec F S64 .f32) (main_arg24 : FVec F S128x128 .f32) (main_arg25 : FVec F S128 .f32) (main_arg26 : FVec F S128x128 .f32) (main_arg27 : FVec F S128x128 .f32) (main_arg28 : FVec F S128 .f32) (main_arg29 : FVec F S128x128 .f32) (main_arg30 : FVec F S128 .f32) (main_arg31 : FVec F S128x64 .f32) (main_arg32 : FVec F S64 .f32) (main_arg33 : FVec F S128x64 .f32) (main_arg34 : FVec F S128x64 .f32) (main_arg35 : FVec F S64 .f32) (main_arg36 : FVec F S128x64 .f32) (main_arg37 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_v13 main_v16
-- ==== Kernel.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S600000 : Shape := ⟨1, ![600000]⟩
abbrev S600000x1 : Shape := ⟨2, ![600000, 1]⟩
abbrev S600000x128 : Shape := ⟨2, ![600000, 128]⟩
abbrev S1x64 : Shape := ⟨2, ![1, 64]⟩
abbrev S100000x64 : Shape := ⟨2, ![100000, 64]⟩
abbrev S5000x64 : Shape := ⟨2, ![5000, 64]⟩
abbrev S600000x64 : Shape := ⟨2, ![600000, 64]⟩

abbrev nBuf : Space → Nat
  | .hbm => 660
  | .vmem => 76
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S2x500000, .i32⟩
  | 5 => ⟨S2x500000, .i32⟩
  | 6 => ⟨S2x500000, .i32⟩
  | 7 => ⟨S2x500000, .i32⟩
  | 8 => ⟨S2x500000, .i32⟩
  | 9 => ⟨S2x500000, .i32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128, .f32⟩
  | 17 => ⟨S128x64, .f32⟩
  | 18 => ⟨S64, .f32⟩
  | 19 => ⟨S128x64, .f32⟩
  | 20 => ⟨S128x64, .f32⟩
  | 21 => ⟨S64, .f32⟩
  | 22 => ⟨S128x64, .f32⟩
  | 23 => ⟨S64, .f32⟩
  | 24 => ⟨S128x128, .f32⟩
  | 25 => ⟨S128, .f32⟩
  | 26 => ⟨S128x128, .f32⟩
  | 27 => ⟨S128x128, .f32⟩
  | 28 => ⟨S128, .f32⟩
  | 29 => ⟨S128x128, .f32⟩
  | 30 => ⟨S128, .f32⟩
  | 31 => ⟨S128x64, .f32⟩
  | 32 => ⟨S64, .f32⟩
  | 33 => ⟨S128x64, .f32⟩
  | 34 => ⟨S128x64, .f32⟩
  | 35 => ⟨S64, .f32⟩
  | 36 => ⟨S128x64, .f32⟩
  | 37 => ⟨S64, .f32⟩
  | 38 => ⟨S1x500000, .i32⟩
  | 39 => ⟨S500000, .i32⟩
  | 40 => ⟨S1x500000, .i32⟩
  | 41 => ⟨S500000, .i32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x128, .f32⟩
  | 51 => ⟨S_, .f32⟩
  | 52 => ⟨S100000x128, .f32⟩
  | 53 => ⟨S500000x1, .i32⟩
  | 54 => ⟨S100000x128, .f32⟩
  | 55 => ⟨S_, .f32⟩
  | 56 => ⟨S500000, .f32⟩
  | 57 => ⟨S_, .f32⟩
  | 58 => ⟨S100000, .f32⟩
  | 59 => ⟨S500000x1, .i32⟩
  | 60 => ⟨S100000, .f32⟩
  | 61 => ⟨S_, .f32⟩
  | 62 => ⟨S100000, .f32⟩
  | 63 => ⟨S100000, .f32⟩
  | 64 => ⟨S100000x1, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S100000, .i32⟩
  | 71 => ⟨S1x500000, .i32⟩
  | 72 => ⟨S500000, .i32⟩
  | 73 => ⟨S600000, .i32⟩
  | 74 => ⟨S1x500000, .i32⟩
  | 75 => ⟨S500000, .i32⟩
  | 76 => ⟨S600000, .i32⟩
  | 77 => ⟨S_, .f32⟩
  | 78 => ⟨S600000, .f32⟩
  | 79 => ⟨S_, .f32⟩
  | 80 => ⟨S100000, .f32⟩
  | 81 => ⟨S600000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000, .f32⟩
  | 109 => ⟨S600000, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x1, .f32⟩
  | 120 => ⟨S600000x128, .f32⟩
  | 121 => ⟨S600000x128, .f32⟩
  | 122 => ⟨S_, .f32⟩
  | 123 => ⟨S100000x128, .f32⟩
  | 124 => ⟨S600000x1, .i32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S100000, .i32⟩
  | 4 => ⟨S1x500000, .i32⟩
  | 5 => ⟨S500000, .i32⟩
  | 6 => ⟨S600000, .i32⟩
  | 7 => ⟨S1x500000, .i32⟩
  | 8 => ⟨S500000, .i32⟩
  | 9 => ⟨S600000, .i32⟩
  | 10 => ⟨S_, .f32⟩
  | 11 => ⟨S600000, .f32⟩
  | 12 => ⟨S_, .f32⟩
  | 13 => ⟨S100000, .f32⟩
  | 14 => ⟨S600000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S600000, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S600000x1, .f32⟩
  | 53 => ⟨S600000x128, .f32⟩
  | 54 => ⟨S600000x128, .f32⟩
  | 55 => ⟨S_, .f32⟩
  | 56 => ⟨S100000x128, .f32⟩
  | 57 => ⟨S600000x1, .i32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S1x500000, .i32⟩
  | 69 => ⟨S500000, .i32⟩
  | 70 => ⟨S1x500000, .i32⟩
  | 71 => ⟨S500000, .i32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x128, .f32⟩
  | 81 => ⟨S_, .f32⟩
  | 82 => ⟨S100000x128, .f32⟩
  | 83 => ⟨S500000x1, .i32⟩
  | 84 => ⟨S100000x128, .f32⟩
  | 85 => ⟨S_, .f32⟩
  | 86 => ⟨S500000, .f32⟩
  | 87 => ⟨S_, .f32⟩
  | 88 => ⟨S100000, .f32⟩
  | 89 => ⟨S500000x1, .i32⟩
  | 90 => ⟨S100000, .f32⟩
  | 91 => ⟨S_, .f32⟩
  | 92 => ⟨S100000, .f32⟩
  | 93 => ⟨S100000, .f32⟩
  | 94 => ⟨S100000x1, .f32⟩
  | 95 => ⟨S100000x128, .f32⟩
  | 96 => ⟨S100000x128, .f32⟩
  | 97 => ⟨S1x64, .f32⟩
  | 98 => ⟨S100000x64, .f32⟩
  | 99 => ⟨S100000x64, .f32⟩
  | 100 => ⟨S100000, .i32⟩
  | 101 => ⟨S1x500000, .i32⟩
  | 102 => ⟨S500000, .i32⟩
  | 103 => ⟨S600000, .i32⟩
  | 104 => ⟨S1x500000, .i32⟩
  | 105 => ⟨S500000, .i32⟩
  | 106 => ⟨S600000, .i32⟩
  | 107 => ⟨S_, .f32⟩
  | 108 => ⟨S600000, .f32⟩
  | 109 => ⟨S_, .f32⟩
  | 110 => ⟨S100000, .f32⟩
  | 111 => ⟨S600000x1, .i32⟩
  | 112 => ⟨S100000, .f32⟩
  | 113 => ⟨S_, .f32⟩
  | 114 => ⟨S100000, .f32⟩
  | 115 => ⟨S100000, .i1⟩
  | 116 => ⟨S100000, .f32⟩
  | 117 => ⟨S_, .f32⟩
  | 118 => ⟨S_, .f32⟩
  | 119 => ⟨S100000, .f32⟩
  | 120 => ⟨S100000, .f32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S100000x128, .f32⟩

abbrev hbmTy0_2 (i : Nat) : BufTy := match i % 128 with
  | 0 => ⟨S600000x1, .i32⟩
  | 1 => ⟨S600000, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000, .f32⟩
  | 11 => ⟨S600000, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x64, .f32⟩
  | 21 => ⟨S600000x1, .f32⟩
  | 22 => ⟨S600000x64, .f32⟩
  | 23 => ⟨S600000x64, .f32⟩
  | 24 => ⟨S_, .f32⟩
  | 25 => ⟨S100000x64, .f32⟩
  | 26 => ⟨S600000x1, .i32⟩
  | 27 => ⟨S100000x64, .f32⟩
  | 28 => ⟨S1x64, .f32⟩
  | 29 => ⟨S100000x64, .f32⟩
  | 30 => ⟨S100000x64, .f32⟩
  | 31 => ⟨S100000x64, .f32⟩
  | 32 => ⟨S100000x64, .f32⟩
  | 33 => ⟨S100000, .i32⟩
  | 34 => ⟨S1x500000, .i32⟩
  | 35 => ⟨S500000, .i32⟩
  | 36 => ⟨S600000, .i32⟩
  | 37 => ⟨S1x500000, .i32⟩
  | 38 => ⟨S500000, .i32⟩
  | 39 => ⟨S600000, .i32⟩
  | 40 => ⟨S_, .f32⟩
  | 41 => ⟨S600000, .f32⟩
  | 42 => ⟨S_, .f32⟩
  | 43 => ⟨S100000, .f32⟩
  | 44 => ⟨S600000x1, .i32⟩
  | 45 => ⟨S100000, .f32⟩
  | 46 => ⟨S_, .f32⟩
  | 47 => ⟨S100000, .f32⟩
  | 48 => ⟨S100000, .i1⟩
  | 49 => ⟨S100000, .f32⟩
  | 50 => ⟨S_, .f32⟩
  | 51 => ⟨S_, .f32⟩
  | 52 => ⟨S100000, .f32⟩
  | 53 => ⟨S100000, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000, .f32⟩
  | 72 => ⟨S600000, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x64, .f32⟩
  | 82 => ⟨S600000x1, .f32⟩
  | 83 => ⟨S600000x64, .f32⟩
  | 84 => ⟨S600000x64, .f32⟩
  | 85 => ⟨S_, .f32⟩
  | 86 => ⟨S100000x64, .f32⟩
  | 87 => ⟨S600000x1, .i32⟩
  | 88 => ⟨S100000x64, .f32⟩
  | 89 => ⟨S1x64, .f32⟩
  | 90 => ⟨S100000x64, .f32⟩
  | 91 => ⟨S100000x64, .f32⟩
  | 92 => ⟨S1x500000, .i32⟩
  | 93 => ⟨S500000, .i32⟩
  | 94 => ⟨S1x500000, .i32⟩
  | 95 => ⟨S500000, .i32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x128, .f32⟩
  | 105 => ⟨S_, .f32⟩
  | 106 => ⟨S100000x128, .f32⟩
  | 107 => ⟨S500000x1, .i32⟩
  | 108 => ⟨S100000x128, .f32⟩
  | 109 => ⟨S_, .f32⟩
  | 110 => ⟨S500000, .f32⟩
  | 111 => ⟨S_, .f32⟩
  | 112 => ⟨S100000, .f32⟩
  | 113 => ⟨S500000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S100000, .i32⟩
  | 125 => ⟨S1x500000, .i32⟩
  | 126 => ⟨S500000, .i32⟩
  | 127 => ⟨S600000, .i32⟩
  | _ => ⟨S100000x128, .f32⟩

abbrev hbmTy0_3 (i : Nat) : BufTy := match i % 128 with
  | 0 => ⟨S1x500000, .i32⟩
  | 1 => ⟨S500000, .i32⟩
  | 2 => ⟨S600000, .i32⟩
  | 3 => ⟨S_, .f32⟩
  | 4 => ⟨S600000, .f32⟩
  | 5 => ⟨S_, .f32⟩
  | 6 => ⟨S100000, .f32⟩
  | 7 => ⟨S600000x1, .i32⟩
  | 8 => ⟨S100000, .f32⟩
  | 9 => ⟨S_, .f32⟩
  | 10 => ⟨S100000, .f32⟩
  | 11 => ⟨S100000, .i1⟩
  | 12 => ⟨S100000, .f32⟩
  | 13 => ⟨S_, .f32⟩
  | 14 => ⟨S_, .f32⟩
  | 15 => ⟨S100000, .f32⟩
  | 16 => ⟨S100000, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000, .f32⟩
  | 35 => ⟨S600000, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S600000x1, .f32⟩
  | 46 => ⟨S600000x128, .f32⟩
  | 47 => ⟨S600000x128, .f32⟩
  | 48 => ⟨S_, .f32⟩
  | 49 => ⟨S100000x128, .f32⟩
  | 50 => ⟨S600000x1, .i32⟩
  | 51 => ⟨S100000x128, .f32⟩
  | 52 => ⟨S1x128, .f32⟩
  | 53 => ⟨S100000x128, .f32⟩
  | 54 => ⟨S100000x128, .f32⟩
  | 55 => ⟨S100000x128, .f32⟩
  | 56 => ⟨S100000x128, .f32⟩
  | 57 => ⟨S100000, .i32⟩
  | 58 => ⟨S1x500000, .i32⟩
  | 59 => ⟨S500000, .i32⟩
  | 60 => ⟨S600000, .i32⟩
  | 61 => ⟨S1x500000, .i32⟩
  | 62 => ⟨S500000, .i32⟩
  | 63 => ⟨S600000, .i32⟩
  | 64 => ⟨S_, .f32⟩
  | 65 => ⟨S600000, .f32⟩
  | 66 => ⟨S_, .f32⟩
  | 67 => ⟨S100000, .f32⟩
  | 68 => ⟨S600000x1, .i32⟩
  | 69 => ⟨S100000, .f32⟩
  | 70 => ⟨S_, .f32⟩
  | 71 => ⟨S100000, .f32⟩
  | 72 => ⟨S100000, .i1⟩
  | 73 => ⟨S100000, .f32⟩
  | 74 => ⟨S_, .f32⟩
  | 75 => ⟨S_, .f32⟩
  | 76 => ⟨S100000, .f32⟩
  | 77 => ⟨S100000, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000, .f32⟩
  | 96 => ⟨S600000, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S600000x1, .f32⟩
  | 107 => ⟨S600000x128, .f32⟩
  | 108 => ⟨S600000x128, .f32⟩
  | 109 => ⟨S_, .f32⟩
  | 110 => ⟨S100000x128, .f32⟩
  | 111 => ⟨S600000x1, .i32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S1x500000, .i32⟩
  | 123 => ⟨S500000, .i32⟩
  | 124 => ⟨S1x500000, .i32⟩
  | 125 => ⟨S500000, .i32⟩
  | 126 => ⟨S_, .i32⟩
  | 127 => ⟨S500000, .i32⟩
  | _ => ⟨S100000x128, .f32⟩

abbrev hbmTy0_4 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x128, .f32⟩
  | 7 => ⟨S_, .f32⟩
  | 8 => ⟨S100000x128, .f32⟩
  | 9 => ⟨S500000x1, .i32⟩
  | 10 => ⟨S100000x128, .f32⟩
  | 11 => ⟨S_, .f32⟩
  | 12 => ⟨S500000, .f32⟩
  | 13 => ⟨S_, .f32⟩
  | 14 => ⟨S100000, .f32⟩
  | 15 => ⟨S500000x1, .i32⟩
  | 16 => ⟨S100000, .f32⟩
  | 17 => ⟨S_, .f32⟩
  | 18 => ⟨S100000, .f32⟩
  | 19 => ⟨S100000, .f32⟩
  | 20 => ⟨S100000x1, .f32⟩
  | 21 => ⟨S100000x128, .f32⟩
  | 22 => ⟨S100000x128, .f32⟩
  | 23 => ⟨S1x64, .f32⟩
  | 24 => ⟨S100000x64, .f32⟩
  | 25 => ⟨S100000x64, .f32⟩
  | 26 => ⟨S100000, .i32⟩
  | 27 => ⟨S1x500000, .i32⟩
  | 28 => ⟨S500000, .i32⟩
  | 29 => ⟨S600000, .i32⟩
  | 30 => ⟨S1x500000, .i32⟩
  | 31 => ⟨S500000, .i32⟩
  | 32 => ⟨S600000, .i32⟩
  | 33 => ⟨S_, .f32⟩
  | 34 => ⟨S600000, .f32⟩
  | 35 => ⟨S_, .f32⟩
  | 36 => ⟨S100000, .f32⟩
  | 37 => ⟨S600000x1, .i32⟩
  | 38 => ⟨S100000, .f32⟩
  | 39 => ⟨S_, .f32⟩
  | 40 => ⟨S100000, .f32⟩
  | 41 => ⟨S100000, .i1⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000, .f32⟩
  | 65 => ⟨S600000, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000x64, .f32⟩
  | 75 => ⟨S600000x1, .f32⟩
  | 76 => ⟨S600000x64, .f32⟩
  | 77 => ⟨S600000x64, .f32⟩
  | 78 => ⟨S_, .f32⟩
  | 79 => ⟨S100000x64, .f32⟩
  | 80 => ⟨S600000x1, .i32⟩
  | 81 => ⟨S100000x64, .f32⟩
  | 82 => ⟨S1x64, .f32⟩
  | 83 => ⟨S100000x64, .f32⟩
  | 84 => ⟨S100000x64, .f32⟩
  | 85 => ⟨S100000x64, .f32⟩
  | 86 => ⟨S100000x64, .f32⟩
  | 87 => ⟨S100000, .i32⟩
  | 88 => ⟨S1x500000, .i32⟩
  | 89 => ⟨S500000, .i32⟩
  | 90 => ⟨S600000, .i32⟩
  | 91 => ⟨S1x500000, .i32⟩
  | 92 => ⟨S500000, .i32⟩
  | 93 => ⟨S600000, .i32⟩
  | 94 => ⟨S_, .f32⟩
  | 95 => ⟨S600000, .f32⟩
  | 96 => ⟨S_, .f32⟩
  | 97 => ⟨S100000, .f32⟩
  | 98 => ⟨S600000x1, .i32⟩
  | 99 => ⟨S100000, .f32⟩
  | 100 => ⟨S_, .f32⟩
  | 101 => ⟨S100000, .f32⟩
  | 102 => ⟨S100000, .i1⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S600000, .i32⟩
  | 110 => ⟨S600000, .i1⟩
  | 111 => ⟨S_, .i32⟩
  | 112 => ⟨S600000, .i32⟩
  | 113 => ⟨S600000, .i32⟩
  | 114 => ⟨S600000, .i32⟩
  | 115 => ⟨S600000x1, .i32⟩
  | 116 => ⟨S600000, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000, .f32⟩
  | 126 => ⟨S600000, .f32⟩
  | 127 => ⟨S_, .i32⟩
  | _ => ⟨S100000x128, .f32⟩

abbrev hbmTy0_5 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x64, .f32⟩
  | 8 => ⟨S600000x1, .f32⟩
  | 9 => ⟨S600000x64, .f32⟩
  | 10 => ⟨S600000x64, .f32⟩
  | 11 => ⟨S_, .f32⟩
  | 12 => ⟨S100000x64, .f32⟩
  | 13 => ⟨S600000x1, .i32⟩
  | 14 => ⟨S100000x64, .f32⟩
  | 15 => ⟨S1x64, .f32⟩
  | 16 => ⟨S100000x64, .f32⟩
  | 17 => ⟨S100000x64, .f32⟩
  | 18 => ⟨S100000x128, .f32⟩
  | 19 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x64, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S5000x64, .f32⟩
  | .local _ .vmem, ⟨32, _⟩ => ⟨S5000x64, .f32⟩
  | .local _ .vmem, ⟨33, _⟩ => ⟨S5000x128, .f32⟩
  | .local _ .vmem, ⟨34, _⟩ => ⟨S5000x128, .f32⟩
  | .local _ .vmem, ⟨35, _⟩ => ⟨S128x64, .f32⟩
  | .local _ .vmem, ⟨36, _⟩ => ⟨S5000x64, .f32⟩
  | .local _ .vmem, ⟨37, _⟩ => ⟨S5000x64, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S1x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S128x64, .f32⟩
  | .local _ .vmem, ⟨60, _⟩ => ⟨S5000x128, .f32⟩
  | .local _ .vmem, ⟨61, _⟩ => ⟨S5000x128, .f32⟩
  | .local _ .vmem, ⟨62, _⟩ => ⟨S128x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S5000x128, .f32⟩
  | .local _ .vmem, ⟨67, _⟩ => ⟨S5000x128, .f32⟩
  | .local _ .vmem, ⟨68, _⟩ => ⟨S128x64, .f32⟩
  | .local _ .vmem, ⟨69, _⟩ => ⟨S5000x64, .f32⟩
  | .local _ .vmem, ⟨70, _⟩ => ⟨S5000x64, .f32⟩
  | .local _ .vmem, ⟨71, _⟩ => ⟨S5000x128, .f32⟩
  | .local _ .vmem, ⟨72, _⟩ => ⟨S5000x128, .f32⟩
  | .local _ .vmem, ⟨73, _⟩ => ⟨S128x64, .f32⟩
  | .local _ .vmem, ⟨74, _⟩ => ⟨S5000x64, .f32⟩
  | .local _ .vmem, ⟨75, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_c : Ref sig .tc := ⟨.hbm, 42, rfl⟩
abbrev main_v4 : Ref sig .tc := ⟨.hbm, 43, rfl⟩
abbrev main_v5 : Ref sig .tc := ⟨.hbm, 44, rfl⟩
abbrev main_c_0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_cst_2 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_4 : Ref sig .tc := ⟨.hbm, 77, rfl⟩
abbrev main_v33 : Ref sig .tc := ⟨.hbm, 78, rfl⟩
abbrev main_cst_5 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_6 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_7 : Ref sig .tc := ⟨.hbm, 87, rfl⟩
abbrev main_call0_v0 : Ref sig .tc := ⟨.hbm, 88, rfl⟩
abbrev main_call0_v1 : Ref sig .tc := ⟨.hbm, 89, rfl⟩
abbrev main_v40 : Ref sig .tc := ⟨.hbm, 90, rfl⟩
abbrev main_c_8 : Ref sig .tc := ⟨.hbm, 91, rfl⟩
abbrev main_v41 : Ref sig .tc := ⟨.hbm, 92, rfl⟩
abbrev main_v42 : Ref sig .tc := ⟨.hbm, 93, rfl⟩
abbrev main_c_9 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_c_10 : Ref sig .tc := ⟨.hbm, 100, rfl⟩
abbrev main_v48 : Ref sig .tc := ⟨.hbm, 101, rfl⟩
abbrev main_v49 : Ref sig .tc := ⟨.hbm, 102, rfl⟩
abbrev main_c_11 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_c_12 : Ref sig .tc := ⟨.hbm, 110, rfl⟩
abbrev main_v56 : Ref sig .tc := ⟨.hbm, 111, rfl⟩
abbrev main_v57 : Ref sig .tc := ⟨.hbm, 112, rfl⟩
abbrev main_c_13 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_14 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_15 : Ref sig .tc := ⟨.hbm, 138, rfl⟩
abbrev main_v81 : Ref sig .tc := ⟨.hbm, 139, rfl⟩
abbrev main_cst_16 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_17 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_18 : Ref sig .tc := ⟨.hbm, 148, rfl⟩
abbrev main_call1_v0 : Ref sig .tc := ⟨.hbm, 149, rfl⟩
abbrev main_call1_v1 : Ref sig .tc := ⟨.hbm, 150, rfl⟩
abbrev main_v88 : Ref sig .tc := ⟨.hbm, 151, rfl⟩
abbrev main_c_19 : Ref sig .tc := ⟨.hbm, 152, rfl⟩
abbrev main_v89 : Ref sig .tc := ⟨.hbm, 153, rfl⟩
abbrev main_v90 : Ref sig .tc := ⟨.hbm, 154, rfl⟩
abbrev main_c_20 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_c_21 : Ref sig .tc := ⟨.hbm, 161, rfl⟩
abbrev main_v96 : Ref sig .tc := ⟨.hbm, 162, rfl⟩
abbrev main_v97 : Ref sig .tc := ⟨.hbm, 163, rfl⟩
abbrev main_c_22 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_c_23 : Ref sig .tc := ⟨.hbm, 171, rfl⟩
abbrev main_v104 : Ref sig .tc := ⟨.hbm, 172, rfl⟩
abbrev main_v105 : Ref sig .tc := ⟨.hbm, 173, rfl⟩
abbrev main_c_24 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_25 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_call2_cst : Ref sig .tc := ⟨.hbm, 190, rfl⟩
abbrev main_call2_v0 : Ref sig .tc := ⟨.hbm, 191, rfl⟩
abbrev main_v120 : Ref sig .tc := ⟨.hbm, 192, rfl⟩
abbrev main_call3_cst : Ref sig .tc := ⟨.hbm, 193, rfl⟩
abbrev main_call3_v0 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_c_26 : Ref sig .tc := ⟨.hbm, 200, rfl⟩
abbrev main_v126 : Ref sig .tc := ⟨.hbm, 201, rfl⟩
abbrev main_v127 : Ref sig .tc := ⟨.hbm, 202, rfl⟩
abbrev main_c_27 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_cst_28 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_cst_29 : Ref sig .tc := ⟨.hbm, 213, rfl⟩
abbrev main_v136 : Ref sig .tc := ⟨.hbm, 214, rfl⟩
abbrev main_cst_30 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_cst_31 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_cst_32 : Ref sig .tc := ⟨.hbm, 235, rfl⟩
abbrev main_v155 : Ref sig .tc := ⟨.hbm, 236, rfl⟩
abbrev main_cst_33 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_cst_34 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_cst_35 : Ref sig .tc := ⟨.hbm, 245, rfl⟩
abbrev main_call4_v0 : Ref sig .tc := ⟨.hbm, 246, rfl⟩
abbrev main_call4_v1 : Ref sig .tc := ⟨.hbm, 247, rfl⟩
abbrev main_v162 : Ref sig .tc := ⟨.hbm, 248, rfl⟩
abbrev main_c_36 : Ref sig .tc := ⟨.hbm, 249, rfl⟩
abbrev main_v163 : Ref sig .tc := ⟨.hbm, 250, rfl⟩
abbrev main_v164 : Ref sig .tc := ⟨.hbm, 251, rfl⟩
abbrev main_c_37 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_c_38 : Ref sig .tc := ⟨.hbm, 258, rfl⟩
abbrev main_v170 : Ref sig .tc := ⟨.hbm, 259, rfl⟩
abbrev main_v171 : Ref sig .tc := ⟨.hbm, 260, rfl⟩
abbrev main_c_39 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_c_40 : Ref sig .tc := ⟨.hbm, 268, rfl⟩
abbrev main_v178 : Ref sig .tc := ⟨.hbm, 269, rfl⟩
abbrev main_v179 : Ref sig .tc := ⟨.hbm, 270, rfl⟩
abbrev main_c_41 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_cst_42 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_cst_43 : Ref sig .tc := ⟨.hbm, 296, rfl⟩
abbrev main_v203 : Ref sig .tc := ⟨.hbm, 297, rfl⟩
abbrev main_cst_44 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_cst_45 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_cst_46 : Ref sig .tc := ⟨.hbm, 306, rfl⟩
abbrev main_call5_v0 : Ref sig .tc := ⟨.hbm, 307, rfl⟩
abbrev main_call5_v1 : Ref sig .tc := ⟨.hbm, 308, rfl⟩
abbrev main_v210 : Ref sig .tc := ⟨.hbm, 309, rfl⟩
abbrev main_c_47 : Ref sig .tc := ⟨.hbm, 310, rfl⟩
abbrev main_v211 : Ref sig .tc := ⟨.hbm, 311, rfl⟩
abbrev main_v212 : Ref sig .tc := ⟨.hbm, 312, rfl⟩
abbrev main_c_48 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_c_49 : Ref sig .tc := ⟨.hbm, 319, rfl⟩
abbrev main_v218 : Ref sig .tc := ⟨.hbm, 320, rfl⟩
abbrev main_v219 : Ref sig .tc := ⟨.hbm, 321, rfl⟩
abbrev main_c_50 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_c_51 : Ref sig .tc := ⟨.hbm, 329, rfl⟩
abbrev main_v226 : Ref sig .tc := ⟨.hbm, 330, rfl⟩
abbrev main_v227 : Ref sig .tc := ⟨.hbm, 331, rfl⟩
abbrev main_c_52 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_cst_53 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_c_54 : Ref sig .tc := ⟨.hbm, 352, rfl⟩
abbrev main_v246 : Ref sig .tc := ⟨.hbm, 353, rfl⟩
abbrev main_v247 : Ref sig .tc := ⟨.hbm, 354, rfl⟩
abbrev main_c_55 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_cst_56 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_cst_57 : Ref sig .tc := ⟨.hbm, 365, rfl⟩
abbrev main_v256 : Ref sig .tc := ⟨.hbm, 366, rfl⟩
abbrev main_cst_58 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_cst_59 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_v267 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_cst_60 : Ref sig .tc := ⟨.hbm, 387, rfl⟩
abbrev main_v275 : Ref sig .tc := ⟨.hbm, 388, rfl⟩
abbrev main_cst_61 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_cst_62 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_cst_63 : Ref sig .tc := ⟨.hbm, 397, rfl⟩
abbrev main_call6_v0 : Ref sig .tc := ⟨.hbm, 398, rfl⟩
abbrev main_call6_v1 : Ref sig .tc := ⟨.hbm, 399, rfl⟩
abbrev main_v282 : Ref sig .tc := ⟨.hbm, 400, rfl⟩
abbrev main_c_64 : Ref sig .tc := ⟨.hbm, 401, rfl⟩
abbrev main_v283 : Ref sig .tc := ⟨.hbm, 402, rfl⟩
abbrev main_v284 : Ref sig .tc := ⟨.hbm, 403, rfl⟩
abbrev main_c_65 : Ref sig .tc := ⟨.hbm, 404, rfl⟩
abbrev main_v285 : Ref sig .tc := ⟨.hbm, 405, rfl⟩
abbrev main_v286 : Ref sig .tc := ⟨.hbm, 406, rfl⟩
abbrev main_v287 : Ref sig .tc := ⟨.hbm, 407, rfl⟩
abbrev main_v288 : Ref sig .tc := ⟨.hbm, 408, rfl⟩
abbrev main_v289 : Ref sig .tc := ⟨.hbm, 409, rfl⟩
abbrev main_c_66 : Ref sig .tc := ⟨.hbm, 410, rfl⟩
abbrev main_v290 : Ref sig .tc := ⟨.hbm, 411, rfl⟩
abbrev main_v291 : Ref sig .tc := ⟨.hbm, 412, rfl⟩
abbrev main_c_67 : Ref sig .tc := ⟨.hbm, 413, rfl⟩
abbrev main_v292 : Ref sig .tc := ⟨.hbm, 414, rfl⟩
abbrev main_v293 : Ref sig .tc := ⟨.hbm, 415, rfl⟩
abbrev main_v294 : Ref sig .tc := ⟨.hbm, 416, rfl⟩
abbrev main_v295 : Ref sig .tc := ⟨.hbm, 417, rfl⟩
abbrev main_v296 : Ref sig .tc := ⟨.hbm, 418, rfl⟩
abbrev main_v297 : Ref sig .tc := ⟨.hbm, 419, rfl⟩
abbrev main_c_68 : Ref sig .tc := ⟨.hbm, 420, rfl⟩
abbrev main_v298 : Ref sig .tc := ⟨.hbm, 421, rfl⟩
abbrev main_v299 : Ref sig .tc := ⟨.hbm, 422, rfl⟩
abbrev main_c_69 : Ref sig .tc := ⟨.hbm, 423, rfl⟩
abbrev main_v300 : Ref sig .tc := ⟨.hbm, 424, rfl⟩
abbrev main_v301 : Ref sig .tc := ⟨.hbm, 425, rfl⟩
abbrev main_v302 : Ref sig .tc := ⟨.hbm, 426, rfl⟩
abbrev main_v303 : Ref sig .tc := ⟨.hbm, 427, rfl⟩
abbrev main_v304 : Ref sig .tc := ⟨.hbm, 428, rfl⟩
abbrev main_v305 : Ref sig .tc := ⟨.hbm, 429, rfl⟩
abbrev main_v306 : Ref sig .tc := ⟨.hbm, 430, rfl⟩
abbrev main_v307 : Ref sig .tc := ⟨.hbm, 431, rfl⟩
abbrev main_cst_70 : Ref sig .tc := ⟨.hbm, 432, rfl⟩
abbrev main_v308 : Ref sig .tc := ⟨.hbm, 433, rfl⟩
abbrev main_v309 : Ref sig .tc := ⟨.hbm, 434, rfl⟩
abbrev main_v310 : Ref sig .tc := ⟨.hbm, 435, rfl⟩
abbrev main_v311 : Ref sig .tc := ⟨.hbm, 436, rfl⟩
abbrev main_v312 : Ref sig .tc := ⟨.hbm, 437, rfl⟩
abbrev main_v313 : Ref sig .tc := ⟨.hbm, 438, rfl⟩
abbrev main_v314 : Ref sig .tc := ⟨.hbm, 439, rfl⟩
abbrev main_v315 : Ref sig .tc := ⟨.hbm, 440, rfl⟩
abbrev main_v316 : Ref sig .tc := ⟨.hbm, 441, rfl⟩
abbrev main_v317 : Ref sig .tc := ⟨.hbm, 442, rfl⟩
abbrev main_v318 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_cst_71 : Ref sig .tc := ⟨.hbm, 448, rfl⟩
abbrev main_v323 : Ref sig .tc := ⟨.hbm, 449, rfl⟩
abbrev main_cst_72 : Ref sig .tc := ⟨.hbm, 450, rfl⟩
abbrev main_v324 : Ref sig .tc := ⟨.hbm, 451, rfl⟩
abbrev main_v325 : Ref sig .tc := ⟨.hbm, 452, rfl⟩
abbrev main_v326 : Ref sig .tc := ⟨.hbm, 453, rfl⟩
abbrev main_cst_73 : Ref sig .tc := ⟨.hbm, 454, rfl⟩
abbrev main_v327 : Ref sig .tc := ⟨.hbm, 455, rfl⟩
abbrev main_v328 : Ref sig .tc := ⟨.hbm, 456, rfl⟩
abbrev main_v329 : Ref sig .tc := ⟨.hbm, 457, rfl⟩
abbrev main_cst_74 : Ref sig .tc := ⟨.hbm, 458, rfl⟩
abbrev main_call7_v0 : Ref sig .tc := ⟨.hbm, 459, rfl⟩
abbrev main_call7_v1 : Ref sig .tc := ⟨.hbm, 460, rfl⟩
abbrev main_v330 : Ref sig .tc := ⟨.hbm, 461, rfl⟩
abbrev main_c_75 : Ref sig .tc := ⟨.hbm, 462, rfl⟩
abbrev main_v331 : Ref sig .tc := ⟨.hbm, 463, rfl⟩
abbrev main_v332 : Ref sig .tc := ⟨.hbm, 464, rfl⟩
abbrev main_c_76 : Ref sig .tc := ⟨.hbm, 465, rfl⟩
abbrev main_v333 : Ref sig .tc := ⟨.hbm, 466, rfl⟩
abbrev main_v334 : Ref sig .tc := ⟨.hbm, 467, rfl⟩
abbrev main_v335 : Ref sig .tc := ⟨.hbm, 468, rfl⟩
abbrev main_v336 : Ref sig .tc := ⟨.hbm, 469, rfl⟩
abbrev main_v337 : Ref sig .tc := ⟨.hbm, 470, rfl⟩
abbrev main_c_77 : Ref sig .tc := ⟨.hbm, 471, rfl⟩
abbrev main_v338 : Ref sig .tc := ⟨.hbm, 472, rfl⟩
abbrev main_v339 : Ref sig .tc := ⟨.hbm, 473, rfl⟩
abbrev main_c_78 : Ref sig .tc := ⟨.hbm, 474, rfl⟩
abbrev main_v340 : Ref sig .tc := ⟨.hbm, 475, rfl⟩
abbrev main_v341 : Ref sig .tc := ⟨.hbm, 476, rfl⟩
abbrev main_v342 : Ref sig .tc := ⟨.hbm, 477, rfl⟩
abbrev main_v343 : Ref sig .tc := ⟨.hbm, 478, rfl⟩
abbrev main_v344 : Ref sig .tc := ⟨.hbm, 479, rfl⟩
abbrev main_v345 : Ref sig .tc := ⟨.hbm, 480, rfl⟩
abbrev main_c_79 : Ref sig .tc := ⟨.hbm, 481, rfl⟩
abbrev main_v346 : Ref sig .tc := ⟨.hbm, 482, rfl⟩
abbrev main_v347 : Ref sig .tc := ⟨.hbm, 483, rfl⟩
abbrev main_c_80 : Ref sig .tc := ⟨.hbm, 484, rfl⟩
abbrev main_v348 : Ref sig .tc := ⟨.hbm, 485, rfl⟩
abbrev main_v349 : Ref sig .tc := ⟨.hbm, 486, rfl⟩
abbrev main_v350 : Ref sig .tc := ⟨.hbm, 487, rfl⟩
abbrev main_v351 : Ref sig .tc := ⟨.hbm, 488, rfl⟩
abbrev main_v352 : Ref sig .tc := ⟨.hbm, 489, rfl⟩
abbrev main_v353 : Ref sig .tc := ⟨.hbm, 490, rfl⟩
abbrev main_v354 : Ref sig .tc := ⟨.hbm, 491, rfl⟩
abbrev main_v355 : Ref sig .tc := ⟨.hbm, 492, rfl⟩
abbrev main_cst_81 : Ref sig .tc := ⟨.hbm, 493, rfl⟩
abbrev main_v356 : Ref sig .tc := ⟨.hbm, 494, rfl⟩
abbrev main_v357 : Ref sig .tc := ⟨.hbm, 495, rfl⟩
abbrev main_v358 : Ref sig .tc := ⟨.hbm, 496, rfl⟩
abbrev main_v359 : Ref sig .tc := ⟨.hbm, 497, rfl⟩
abbrev main_v360 : Ref sig .tc := ⟨.hbm, 498, rfl⟩
abbrev main_v361 : Ref sig .tc := ⟨.hbm, 499, rfl⟩
abbrev main_call8_cst : Ref sig .tc := ⟨.hbm, 500, rfl⟩
abbrev main_call8_v0 : Ref sig .tc := ⟨.hbm, 501, rfl⟩
abbrev main_v362 : Ref sig .tc := ⟨.hbm, 502, rfl⟩
abbrev main_call9_cst : Ref sig .tc := ⟨.hbm, 503, rfl⟩
abbrev main_call9_v0 : Ref sig .tc := ⟨.hbm, 504, rfl⟩
abbrev main_v363 : Ref sig .tc := ⟨.hbm, 505, rfl⟩
abbrev main_v364 : Ref sig .tc := ⟨.hbm, 506, rfl⟩
abbrev main_v365 : Ref sig .tc := ⟨.hbm, 507, rfl⟩
abbrev main_v366 : Ref sig .tc := ⟨.hbm, 508, rfl⟩
abbrev main_v367 : Ref sig .tc := ⟨.hbm, 509, rfl⟩
abbrev main_c_82 : Ref sig .tc := ⟨.hbm, 510, rfl⟩
abbrev main_v368 : Ref sig .tc := ⟨.hbm, 511, rfl⟩
abbrev main_v369 : Ref sig .tc := ⟨.hbm, 512, rfl⟩
abbrev main_c_83 : Ref sig .tc := ⟨.hbm, 513, rfl⟩
abbrev main_v370 : Ref sig .tc := ⟨.hbm, 514, rfl⟩
abbrev main_v371 : Ref sig .tc := ⟨.hbm, 515, rfl⟩
abbrev main_v372 : Ref sig .tc := ⟨.hbm, 516, rfl⟩
abbrev main_v373 : Ref sig .tc := ⟨.hbm, 517, rfl⟩
abbrev main_v374 : Ref sig .tc := ⟨.hbm, 518, rfl⟩
abbrev main_cst_84 : Ref sig .tc := ⟨.hbm, 519, rfl⟩
abbrev main_v375 : Ref sig .tc := ⟨.hbm, 520, rfl⟩
abbrev main_v376 : Ref sig .tc := ⟨.hbm, 521, rfl⟩
abbrev main_v377 : Ref sig .tc := ⟨.hbm, 522, rfl⟩
abbrev main_cst_85 : Ref sig .tc := ⟨.hbm, 523, rfl⟩
abbrev main_v378 : Ref sig .tc := ⟨.hbm, 524, rfl⟩
abbrev main_cst_86 : Ref sig .tc := ⟨.hbm, 525, rfl⟩
abbrev main_v379 : Ref sig .tc := ⟨.hbm, 526, rfl⟩
abbrev main_v380 : Ref sig .tc := ⟨.hbm, 527, rfl⟩
abbrev main_v381 : Ref sig .tc := ⟨.hbm, 528, rfl⟩
abbrev main_cst_87 : Ref sig .tc := ⟨.hbm, 529, rfl⟩
abbrev main_v382 : Ref sig .tc := ⟨.hbm, 530, rfl⟩
abbrev main_v383 : Ref sig .tc := ⟨.hbm, 531, rfl⟩
abbrev main_v384 : Ref sig .tc := ⟨.hbm, 532, rfl⟩
abbrev main_v385 : Ref sig .tc := ⟨.hbm, 533, rfl⟩
abbrev main_v386 : Ref sig .tc := ⟨.hbm, 534, rfl⟩
abbrev main_v387 : Ref sig .tc := ⟨.hbm, 535, rfl⟩
abbrev main_v388 : Ref sig .tc := ⟨.hbm, 536, rfl⟩
abbrev main_v389 : Ref sig .tc := ⟨.hbm, 537, rfl⟩
abbrev main_v390 : Ref sig .tc := ⟨.hbm, 538, rfl⟩
abbrev main_v391 : Ref sig .tc := ⟨.hbm, 539, rfl⟩
abbrev main_v392 : Ref sig .tc := ⟨.hbm, 540, rfl⟩
abbrev main_v393 : Ref sig .tc := ⟨.hbm, 541, rfl⟩
abbrev main_v394 : Ref sig .tc := ⟨.hbm, 542, rfl⟩
abbrev main_v395 : Ref sig .tc := ⟨.hbm, 543, rfl⟩
abbrev main_v396 : Ref sig .tc := ⟨.hbm, 544, rfl⟩
abbrev main_cst_88 : Ref sig .tc := ⟨.hbm, 545, rfl⟩
abbrev main_v397 : Ref sig .tc := ⟨.hbm, 546, rfl⟩
abbrev main_cst_89 : Ref sig .tc := ⟨.hbm, 547, rfl⟩
abbrev main_v398 : Ref sig .tc := ⟨.hbm, 548, rfl⟩
abbrev main_v399 : Ref sig .tc := ⟨.hbm, 549, rfl⟩
abbrev main_v400 : Ref sig .tc := ⟨.hbm, 550, rfl⟩
abbrev main_cst_90 : Ref sig .tc := ⟨.hbm, 551, rfl⟩
abbrev main_v401 : Ref sig .tc := ⟨.hbm, 552, rfl⟩
abbrev main_v402 : Ref sig .tc := ⟨.hbm, 553, rfl⟩
abbrev main_v403 : Ref sig .tc := ⟨.hbm, 554, rfl⟩
abbrev main_cst_91 : Ref sig .tc := ⟨.hbm, 555, rfl⟩
abbrev main_call10_v0 : Ref sig .tc := ⟨.hbm, 556, rfl⟩
abbrev main_call10_v1 : Ref sig .tc := ⟨.hbm, 557, rfl⟩
abbrev main_v404 : Ref sig .tc := ⟨.hbm, 558, rfl⟩
abbrev main_c_92 : Ref sig .tc := ⟨.hbm, 559, rfl⟩
abbrev main_v405 : Ref sig .tc := ⟨.hbm, 560, rfl⟩
abbrev main_v406 : Ref sig .tc := ⟨.hbm, 561, rfl⟩
abbrev main_c_93 : Ref sig .tc := ⟨.hbm, 562, rfl⟩
abbrev main_v407 : Ref sig .tc := ⟨.hbm, 563, rfl⟩
abbrev main_v408 : Ref sig .tc := ⟨.hbm, 564, rfl⟩
abbrev main_v409 : Ref sig .tc := ⟨.hbm, 565, rfl⟩
abbrev main_v410 : Ref sig .tc := ⟨.hbm, 566, rfl⟩
abbrev main_v411 : Ref sig .tc := ⟨.hbm, 567, rfl⟩
abbrev main_c_94 : Ref sig .tc := ⟨.hbm, 568, rfl⟩
abbrev main_v412 : Ref sig .tc := ⟨.hbm, 569, rfl⟩
abbrev main_v413 : Ref sig .tc := ⟨.hbm, 570, rfl⟩
abbrev main_c_95 : Ref sig .tc := ⟨.hbm, 571, rfl⟩
abbrev main_v414 : Ref sig .tc := ⟨.hbm, 572, rfl⟩
abbrev main_v415 : Ref sig .tc := ⟨.hbm, 573, rfl⟩
abbrev main_v416 : Ref sig .tc := ⟨.hbm, 574, rfl⟩
abbrev main_v417 : Ref sig .tc := ⟨.hbm, 575, rfl⟩
abbrev main_v418 : Ref sig .tc := ⟨.hbm, 576, rfl⟩
abbrev main_v419 : Ref sig .tc := ⟨.hbm, 577, rfl⟩
abbrev main_c_96 : Ref sig .tc := ⟨.hbm, 578, rfl⟩
abbrev main_v420 : Ref sig .tc := ⟨.hbm, 579, rfl⟩
abbrev main_v421 : Ref sig .tc := ⟨.hbm, 580, rfl⟩
abbrev main_c_97 : Ref sig .tc := ⟨.hbm, 581, rfl⟩
abbrev main_v422 : Ref sig .tc := ⟨.hbm, 582, rfl⟩
abbrev main_v423 : Ref sig .tc := ⟨.hbm, 583, rfl⟩
abbrev main_v424 : Ref sig .tc := ⟨.hbm, 584, rfl⟩
abbrev main_v425 : Ref sig .tc := ⟨.hbm, 585, rfl⟩
abbrev main_v426 : Ref sig .tc := ⟨.hbm, 586, rfl⟩
abbrev main_v427 : Ref sig .tc := ⟨.hbm, 587, rfl⟩
abbrev main_v428 : Ref sig .tc := ⟨.hbm, 588, rfl⟩
abbrev main_v429 : Ref sig .tc := ⟨.hbm, 589, rfl⟩
abbrev main_cst_98 : Ref sig .tc := ⟨.hbm, 590, rfl⟩
abbrev main_v430 : Ref sig .tc := ⟨.hbm, 591, rfl⟩
abbrev main_v431 : Ref sig .tc := ⟨.hbm, 592, rfl⟩
abbrev main_v432 : Ref sig .tc := ⟨.hbm, 593, rfl⟩
abbrev main_v433 : Ref sig .tc := ⟨.hbm, 594, rfl⟩
abbrev main_v434 : Ref sig .tc := ⟨.hbm, 595, rfl⟩
abbrev main_v435 : Ref sig .tc := ⟨.hbm, 596, rfl⟩
abbrev main_v436 : Ref sig .tc := ⟨.hbm, 597, rfl⟩
abbrev main_v437 : Ref sig .tc := ⟨.hbm, 598, rfl⟩
abbrev main_v438 : Ref sig .tc := ⟨.hbm, 599, rfl⟩
abbrev main_v439 : Ref sig .tc := ⟨.hbm, 600, rfl⟩
abbrev main_v440 : Ref sig .tc := ⟨.hbm, 601, rfl⟩
abbrev main_v441 : Ref sig .tc := ⟨.hbm, 602, rfl⟩
abbrev main_v442 : Ref sig .tc := ⟨.hbm, 603, rfl⟩
abbrev main_v443 : Ref sig .tc := ⟨.hbm, 604, rfl⟩
abbrev main_v444 : Ref sig .tc := ⟨.hbm, 605, rfl⟩
abbrev main_cst_99 : Ref sig .tc := ⟨.hbm, 606, rfl⟩
abbrev main_v445 : Ref sig .tc := ⟨.hbm, 607, rfl⟩
abbrev main_cst_100 : Ref sig .tc := ⟨.hbm, 608, rfl⟩
abbrev main_v446 : Ref sig .tc := ⟨.hbm, 609, rfl⟩
abbrev main_v447 : Ref sig .tc := ⟨.hbm, 610, rfl⟩
abbrev main_v448 : Ref sig .tc := ⟨.hbm, 611, rfl⟩
abbrev main_cst_101 : Ref sig .tc := ⟨.hbm, 612, rfl⟩
abbrev main_v449 : Ref sig .tc := ⟨.hbm, 613, rfl⟩
abbrev main_v450 : Ref sig .tc := ⟨.hbm, 614, rfl⟩
abbrev main_v451 : Ref sig .tc := ⟨.hbm, 615, rfl⟩
abbrev main_cst_102 : Ref sig .tc := ⟨.hbm, 616, rfl⟩
abbrev main_call11_v0 : Ref sig .tc := ⟨.hbm, 617, rfl⟩
abbrev main_call11_v1 : Ref sig .tc := ⟨.hbm, 618, rfl⟩
abbrev main_v452 : Ref sig .tc := ⟨.hbm, 619, rfl⟩
abbrev main_c_103 : Ref sig .tc := ⟨.hbm, 620, rfl⟩
abbrev main_v453 : Ref sig .tc := ⟨.hbm, 621, rfl⟩
abbrev main_v454 : Ref sig .tc := ⟨.hbm, 622, rfl⟩
abbrev main_c_104 : Ref sig .tc := ⟨.hbm, 623, rfl⟩
abbrev main_v455 : Ref sig .tc := ⟨.hbm, 624, rfl⟩
abbrev main_v456 : Ref sig .tc := ⟨.hbm, 625, rfl⟩
abbrev main_v457 : Ref sig .tc := ⟨.hbm, 626, rfl⟩
abbrev main_v458 : Ref sig .tc := ⟨.hbm, 627, rfl⟩
abbrev main_v459 : Ref sig .tc := ⟨.hbm, 628, rfl⟩
abbrev main_c_105 : Ref sig .tc := ⟨.hbm, 629, rfl⟩
abbrev main_v460 : Ref sig .tc := ⟨.hbm, 630, rfl⟩
abbrev main_v461 : Ref sig .tc := ⟨.hbm, 631, rfl⟩
abbrev main_c_106 : Ref sig .tc := ⟨.hbm, 632, rfl⟩
abbrev main_v462 : Ref sig .tc := ⟨.hbm, 633, rfl⟩
abbrev main_v463 : Ref sig .tc := ⟨.hbm, 634, rfl⟩
abbrev main_v464 : Ref sig .tc := ⟨.hbm, 635, rfl⟩
abbrev main_v465 : Ref sig .tc := ⟨.hbm, 636, rfl⟩
abbrev main_v466 : Ref sig .tc := ⟨.hbm, 637, rfl⟩
abbrev main_v467 : Ref sig .tc := ⟨.hbm, 638, rfl⟩
abbrev main_c_107 : Ref sig .tc := ⟨.hbm, 639, rfl⟩
abbrev main_v468 : Ref sig .tc := ⟨.hbm, 640, rfl⟩
abbrev main_v469 : Ref sig .tc := ⟨.hbm, 641, rfl⟩
abbrev main_c_108 : Ref sig .tc := ⟨.hbm, 642, rfl⟩
abbrev main_v470 : Ref sig .tc := ⟨.hbm, 643, rfl⟩
abbrev main_v471 : Ref sig .tc := ⟨.hbm, 644, rfl⟩
abbrev main_v472 : Ref sig .tc := ⟨.hbm, 645, rfl⟩
abbrev main_v473 : Ref sig .tc := ⟨.hbm, 646, rfl⟩
abbrev main_v474 : Ref sig .tc := ⟨.hbm, 647, rfl⟩
abbrev main_v475 : Ref sig .tc := ⟨.hbm, 648, rfl⟩
abbrev main_v476 : Ref sig .tc := ⟨.hbm, 649, rfl⟩
abbrev main_v477 : Ref sig .tc := ⟨.hbm, 650, rfl⟩
abbrev main_cst_109 : Ref sig .tc := ⟨.hbm, 651, rfl⟩
abbrev main_v478 : Ref sig .tc := ⟨.hbm, 652, rfl⟩
abbrev main_v479 : Ref sig .tc := ⟨.hbm, 653, rfl⟩
abbrev main_v480 : Ref sig .tc := ⟨.hbm, 654, rfl⟩
abbrev main_v481 : Ref sig .tc := ⟨.hbm, 655, rfl⟩
abbrev main_v482 : Ref sig .tc := ⟨.hbm, 656, rfl⟩
abbrev main_v483 : Ref sig .tc := ⟨.hbm, 657, rfl⟩
abbrev main_v484 : Ref sig .tc := ⟨.hbm, 658, rfl⟩
abbrev main_v485 : Ref sig .tc := ⟨.hbm, 659, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg5_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg2_1 : Ref sig .tc := ⟨.vmem, 61, rfl⟩
abbrev cc9_stg3_0 : Ref sig .tc := ⟨.vmem, 62, rfl⟩
abbrev cc9_stg4_0 : Ref sig .tc := ⟨.vmem, 63, rfl⟩
abbrev cc9_stg5_0 : Ref sig .tc := ⟨.vmem, 64, rfl⟩
abbrev cc9_stg5_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg2_1 : Ref sig .tc := ⟨.vmem, 70, rfl⟩
abbrev cc11_stg0_0 : Ref sig .tc := ⟨.vmem, 71, rfl⟩
abbrev cc11_stg0_1 : Ref sig .tc := ⟨.vmem, 72, rfl⟩
abbrev cc11_stg1_0 : Ref sig .tc := ⟨.vmem, 73, rfl⟩
abbrev cc11_stg2_0 : Ref sig .tc := ⟨.vmem, 74, rfl⟩
abbrev cc11_stg2_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc6_sem3_0 : DmaSem sig := 43
abbrev cc6_sem4_0 : DmaSem sig := 44
abbrev cc6_sem5_0 : DmaSem sig := 45
abbrev cc6_sem5_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56
abbrev cc9_sem0_0 : DmaSem sig := 57
abbrev cc9_sem0_1 : DmaSem sig := 58
abbrev cc9_sem1_0 : DmaSem sig := 59
abbrev cc9_sem2_0 : DmaSem sig := 60
abbrev cc9_sem2_1 : DmaSem sig := 61
abbrev cc9_sem3_0 : DmaSem sig := 62
abbrev cc9_sem4_0 : DmaSem sig := 63
abbrev cc9_sem5_0 : DmaSem sig := 64
abbrev cc9_sem5_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem2_1 : DmaSem sig := 70
abbrev cc11_sem0_0 : DmaSem sig := 71
abbrev cc11_sem0_1 : DmaSem sig := 72
abbrev cc11_sem1_0 : DmaSem sig := 73
abbrev cc11_sem2_0 : DmaSem sig := 74
abbrev cc11_sem2_1 : DmaSem sig := 75

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S500000_S100000_S600000_d0 : Shape.Concatenates [S500000, S100000] S600000 0
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S5000x128_S128x128_S5000x128_1_0_0_1_n_n_wf : DotDims.WF S5000x128 S128x128 S5000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x64_S5000x64_1_0_0_1_n_n_wf : DotDims.WF S5000x128 S128x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x64.size a ≤ S128x64.size a
  hwx9_3 : ∀ i : grid9.Coords, EltTy.bits .f32 = 32 ∨ (Rect.block (s := S128x64) S128x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S100000x64.size a
  hwx9_5 : ∀ i : grid9.Coords, EltTy.bits .f32 = 32 ∨ (Rect.block (s := S100000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x64.size a ≤ S128x64.size a
  hwx10_1 : ∀ i : grid10.Coords, EltTy.bits .f32 = 32 ∨ (Rect.block (s := S128x64) S128x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S100000x64.size a
  hwx10_2 : ∀ i : grid10.Coords, EltTy.bits .f32 = 32 ∨ (Rect.block (s := S100000x64) S5000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x64.size a ≤ S128x64.size a
  hwx11_1 : ∀ i : grid11.Coords, EltTy.bits .f32 = 32 ∨ (Rect.block (s := S128x64) S128x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S100000x64.size a
  hwx11_2 : ∀ i : grid11.Coords, EltTy.bits .f32 = 32 ∨ (Rect.block (s := S100000x64) S5000x64.size (cc11_transform_2 i) (hinb11_2 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg15) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v144) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg17) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v121) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg19) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v145) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v146) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v121) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg22) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v147) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v120) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg20) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v195) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v264) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg24) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg3) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg26) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v265) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v266) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_arg3) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg29) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v267) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_arg2) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg27) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v315) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v386) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg31) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v363) S5000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg33) S128x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v387) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v388) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v363) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg36) S128x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v389) S5000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v362) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg34) S128x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v437) S5000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S600000 : Shape := ⟨1, ![600000]⟩
abbrev S600000x1 : Shape := ⟨2, ![600000, 1]⟩
abbrev S600000x128 : Shape := ⟨2, ![600000, 128]⟩
abbrev S100000x64 : Shape := ⟨2, ![100000, 64]⟩
abbrev S1x64 : Shape := ⟨2, ![1, 64]⟩
abbrev S600000x64 : Shape := ⟨2, ![600000, 64]⟩

abbrev nBuf : Space → Nat
  | .hbm => 676
  | .vmem => 0
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S2x500000, .i32⟩
  | 5 => ⟨S2x500000, .i32⟩
  | 6 => ⟨S2x500000, .i32⟩
  | 7 => ⟨S2x500000, .i32⟩
  | 8 => ⟨S2x500000, .i32⟩
  | 9 => ⟨S2x500000, .i32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128, .f32⟩
  | 17 => ⟨S128x64, .f32⟩
  | 18 => ⟨S64, .f32⟩
  | 19 => ⟨S128x64, .f32⟩
  | 20 => ⟨S128x64, .f32⟩
  | 21 => ⟨S64, .f32⟩
  | 22 => ⟨S128x64, .f32⟩
  | 23 => ⟨S64, .f32⟩
  | 24 => ⟨S128x128, .f32⟩
  | 25 => ⟨S128, .f32⟩
  | 26 => ⟨S128x128, .f32⟩
  | 27 => ⟨S128x128, .f32⟩
  | 28 => ⟨S128, .f32⟩
  | 29 => ⟨S128x128, .f32⟩
  | 30 => ⟨S128, .f32⟩
  | 31 => ⟨S128x64, .f32⟩
  | 32 => ⟨S64, .f32⟩
  | 33 => ⟨S128x64, .f32⟩
  | 34 => ⟨S128x64, .f32⟩
  | 35 => ⟨S64, .f32⟩
  | 36 => ⟨S128x64, .f32⟩
  | 37 => ⟨S64, .f32⟩
  | 38 => ⟨S1x500000, .i32⟩
  | 39 => ⟨S500000, .i32⟩
  | 40 => ⟨S1x500000, .i32⟩
  | 41 => ⟨S500000, .i32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x128, .f32⟩
  | 51 => ⟨S_, .f32⟩
  | 52 => ⟨S100000x128, .f32⟩
  | 53 => ⟨S500000x1, .i32⟩
  | 54 => ⟨S100000x128, .f32⟩
  | 55 => ⟨S_, .f32⟩
  | 56 => ⟨S500000, .f32⟩
  | 57 => ⟨S_, .f32⟩
  | 58 => ⟨S100000, .f32⟩
  | 59 => ⟨S500000x1, .i32⟩
  | 60 => ⟨S100000, .f32⟩
  | 61 => ⟨S_, .f32⟩
  | 62 => ⟨S100000, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S100000x128, .f32⟩
  | 72 => ⟨S100000x128, .f32⟩
  | 73 => ⟨S100000, .i32⟩
  | 74 => ⟨S1x500000, .i32⟩
  | 75 => ⟨S500000, .i32⟩
  | 76 => ⟨S600000, .i32⟩
  | 77 => ⟨S1x500000, .i32⟩
  | 78 => ⟨S500000, .i32⟩
  | 79 => ⟨S600000, .i32⟩
  | 80 => ⟨S_, .f32⟩
  | 81 => ⟨S600000, .f32⟩
  | 82 => ⟨S_, .f32⟩
  | 83 => ⟨S100000, .f32⟩
  | 84 => ⟨S600000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000, .f32⟩
  | 112 => ⟨S600000, .f32⟩
  | 113 => ⟨S100000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S600000x1, .f32⟩
  | 124 => ⟨S600000x128, .f32⟩
  | 125 => ⟨S600000x128, .f32⟩
  | 126 => ⟨S_, .f32⟩
  | 127 => ⟨S100000x128, .f32⟩
  | _ => ⟨S100000x128, .f32⟩

abbrev hbmTy0_1 (i : Nat) : BufTy := match i % 128 with
  | 0 => ⟨S600000x1, .i32⟩
  | 1 => ⟨S100000x128, .f32⟩
  | 2 => ⟨S1x128, .f32⟩
  | 3 => ⟨S100000x128, .f32⟩
  | 4 => ⟨S100000x128, .f32⟩
  | 5 => ⟨S100000x128, .f32⟩
  | 6 => ⟨S100000, .i32⟩
  | 7 => ⟨S1x500000, .i32⟩
  | 8 => ⟨S500000, .i32⟩
  | 9 => ⟨S600000, .i32⟩
  | 10 => ⟨S1x500000, .i32⟩
  | 11 => ⟨S500000, .i32⟩
  | 12 => ⟨S600000, .i32⟩
  | 13 => ⟨S_, .f32⟩
  | 14 => ⟨S600000, .f32⟩
  | 15 => ⟨S_, .f32⟩
  | 16 => ⟨S100000, .f32⟩
  | 17 => ⟨S600000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000, .f32⟩
  | 45 => ⟨S600000, .f32⟩
  | 46 => ⟨S100000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S600000x128, .f32⟩
  | 59 => ⟨S_, .f32⟩
  | 60 => ⟨S100000x128, .f32⟩
  | 61 => ⟨S600000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S1x500000, .i32⟩
  | 73 => ⟨S500000, .i32⟩
  | 74 => ⟨S1x500000, .i32⟩
  | 75 => ⟨S500000, .i32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x128, .f32⟩
  | 85 => ⟨S_, .f32⟩
  | 86 => ⟨S100000x128, .f32⟩
  | 87 => ⟨S500000x1, .i32⟩
  | 88 => ⟨S100000x128, .f32⟩
  | 89 => ⟨S_, .f32⟩
  | 90 => ⟨S500000, .f32⟩
  | 91 => ⟨S_, .f32⟩
  | 92 => ⟨S100000, .f32⟩
  | 93 => ⟨S500000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S100000x64, .f32⟩
  | 102 => ⟨S1x64, .f32⟩
  | 103 => ⟨S100000x64, .f32⟩
  | 104 => ⟨S100000x64, .f32⟩
  | 105 => ⟨S100000x64, .f32⟩
  | 106 => ⟨S100000x64, .f32⟩
  | 107 => ⟨S100000, .i32⟩
  | 108 => ⟨S1x500000, .i32⟩
  | 109 => ⟨S500000, .i32⟩
  | 110 => ⟨S600000, .i32⟩
  | 111 => ⟨S1x500000, .i32⟩
  | 112 => ⟨S500000, .i32⟩
  | 113 => ⟨S600000, .i32⟩
  | 114 => ⟨S_, .f32⟩
  | 115 => ⟨S600000, .f32⟩
  | 116 => ⟨S_, .f32⟩
  | 117 => ⟨S100000, .f32⟩
  | 118 => ⟨S600000x1, .i32⟩
  | 119 => ⟨S100000, .f32⟩
  | 120 => ⟨S_, .f32⟩
  | 121 => ⟨S100000, .f32⟩
  | 122 => ⟨S100000, .i1⟩
  | 123 => ⟨S100000, .f32⟩
  | 124 => ⟨S_, .f32⟩
  | 125 => ⟨S_, .f32⟩
  | 126 => ⟨S100000, .f32⟩
  | 127 => ⟨S100000, .f32⟩
  | _ => ⟨S100000x128, .f32⟩

abbrev hbmTy0_2 (i : Nat) : BufTy := match i % 128 with
  | 0 => ⟨S_, .i32⟩
  | 1 => ⟨S600000, .i32⟩
  | 2 => ⟨S600000, .i1⟩
  | 3 => ⟨S_, .i32⟩
  | 4 => ⟨S600000, .i32⟩
  | 5 => ⟨S600000, .i32⟩
  | 6 => ⟨S600000, .i32⟩
  | 7 => ⟨S600000x1, .i32⟩
  | 8 => ⟨S600000, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000, .f32⟩
  | 18 => ⟨S600000, .f32⟩
  | 19 => ⟨S100000x64, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x64, .f32⟩
  | 29 => ⟨S600000x1, .f32⟩
  | 30 => ⟨S600000x64, .f32⟩
  | 31 => ⟨S600000x64, .f32⟩
  | 32 => ⟨S_, .f32⟩
  | 33 => ⟨S100000x64, .f32⟩
  | 34 => ⟨S600000x1, .i32⟩
  | 35 => ⟨S100000x64, .f32⟩
  | 36 => ⟨S1x64, .f32⟩
  | 37 => ⟨S100000x64, .f32⟩
  | 38 => ⟨S100000x64, .f32⟩
  | 39 => ⟨S100000x64, .f32⟩
  | 40 => ⟨S100000, .i32⟩
  | 41 => ⟨S1x500000, .i32⟩
  | 42 => ⟨S500000, .i32⟩
  | 43 => ⟨S600000, .i32⟩
  | 44 => ⟨S1x500000, .i32⟩
  | 45 => ⟨S500000, .i32⟩
  | 46 => ⟨S600000, .i32⟩
  | 47 => ⟨S_, .f32⟩
  | 48 => ⟨S600000, .f32⟩
  | 49 => ⟨S_, .f32⟩
  | 50 => ⟨S100000, .f32⟩
  | 51 => ⟨S600000x1, .i32⟩
  | 52 => ⟨S100000, .f32⟩
  | 53 => ⟨S_, .f32⟩
  | 54 => ⟨S100000, .f32⟩
  | 55 => ⟨S100000, .i1⟩
  | 56 => ⟨S100000, .f32⟩
  | 57 => ⟨S_, .f32⟩
  | 58 => ⟨S_, .f32⟩
  | 59 => ⟨S100000, .f32⟩
  | 60 => ⟨S100000, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000, .f32⟩
  | 79 => ⟨S600000, .f32⟩
  | 80 => ⟨S100000x64, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x64, .f32⟩
  | 90 => ⟨S600000x1, .f32⟩
  | 91 => ⟨S600000x64, .f32⟩
  | 92 => ⟨S600000x64, .f32⟩
  | 93 => ⟨S_, .f32⟩
  | 94 => ⟨S100000x64, .f32⟩
  | 95 => ⟨S600000x1, .i32⟩
  | 96 => ⟨S100000x64, .f32⟩
  | 97 => ⟨S1x64, .f32⟩
  | 98 => ⟨S100000x64, .f32⟩
  | 99 => ⟨S100000x64, .f32⟩
  | 100 => ⟨S1x500000, .i32⟩
  | 101 => ⟨S500000, .i32⟩
  | 102 => ⟨S1x500000, .i32⟩
  | 103 => ⟨S500000, .i32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x128, .f32⟩
  | 113 => ⟨S_, .f32⟩
  | 114 => ⟨S100000x128, .f32⟩
  | 115 => ⟨S500000x1, .i32⟩
  | 116 => ⟨S100000x128, .f32⟩
  | 117 => ⟨S_, .f32⟩
  | 118 => ⟨S500000, .f32⟩
  | 119 => ⟨S_, .f32⟩
  | 120 => ⟨S100000, .f32⟩
  | 121 => ⟨S500000x1, .i32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x128, .f32⟩
  | _ => ⟨S100000x128, .f32⟩

abbrev hbmTy0_3 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S100000x128, .f32⟩
  | 6 => ⟨S100000x128, .f32⟩
  | 7 => ⟨S100000, .i32⟩
  | 8 => ⟨S1x500000, .i32⟩
  | 9 => ⟨S500000, .i32⟩
  | 10 => ⟨S600000, .i32⟩
  | 11 => ⟨S1x500000, .i32⟩
  | 12 => ⟨S500000, .i32⟩
  | 13 => ⟨S600000, .i32⟩
  | 14 => ⟨S_, .f32⟩
  | 15 => ⟨S600000, .f32⟩
  | 16 => ⟨S_, .f32⟩
  | 17 => ⟨S100000, .f32⟩
  | 18 => ⟨S600000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S100000x128, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S600000x1, .f32⟩
  | 58 => ⟨S600000x128, .f32⟩
  | 59 => ⟨S600000x128, .f32⟩
  | 60 => ⟨S_, .f32⟩
  | 61 => ⟨S100000x128, .f32⟩
  | 62 => ⟨S600000x1, .i32⟩
  | 63 => ⟨S100000x128, .f32⟩
  | 64 => ⟨S1x128, .f32⟩
  | 65 => ⟨S100000x128, .f32⟩
  | 66 => ⟨S100000x128, .f32⟩
  | 67 => ⟨S100000x128, .f32⟩
  | 68 => ⟨S100000, .i32⟩
  | 69 => ⟨S1x500000, .i32⟩
  | 70 => ⟨S500000, .i32⟩
  | 71 => ⟨S600000, .i32⟩
  | 72 => ⟨S1x500000, .i32⟩
  | 73 => ⟨S500000, .i32⟩
  | 74 => ⟨S600000, .i32⟩
  | 75 => ⟨S_, .f32⟩
  | 76 => ⟨S600000, .f32⟩
  | 77 => ⟨S_, .f32⟩
  | 78 => ⟨S100000, .f32⟩
  | 79 => ⟨S600000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000, .f32⟩
  | 107 => ⟨S600000, .f32⟩
  | 108 => ⟨S100000x128, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S600000x1, .f32⟩
  | 119 => ⟨S600000x128, .f32⟩
  | 120 => ⟨S600000x128, .f32⟩
  | 121 => ⟨S_, .f32⟩
  | 122 => ⟨S100000x128, .f32⟩
  | 123 => ⟨S600000x1, .i32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_4 (i : Nat) : BufTy := match i % 128 with
  | 0 => ⟨S_, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S1x500000, .i32⟩
  | 7 => ⟨S500000, .i32⟩
  | 8 => ⟨S1x500000, .i32⟩
  | 9 => ⟨S500000, .i32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x128, .f32⟩
  | 19 => ⟨S_, .f32⟩
  | 20 => ⟨S100000x128, .f32⟩
  | 21 => ⟨S500000x1, .i32⟩
  | 22 => ⟨S100000x128, .f32⟩
  | 23 => ⟨S_, .f32⟩
  | 24 => ⟨S500000, .f32⟩
  | 25 => ⟨S_, .f32⟩
  | 26 => ⟨S100000, .f32⟩
  | 27 => ⟨S500000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S100000x64, .f32⟩
  | 36 => ⟨S1x64, .f32⟩
  | 37 => ⟨S100000x64, .f32⟩
  | 38 => ⟨S100000x64, .f32⟩
  | 39 => ⟨S100000x64, .f32⟩
  | 40 => ⟨S100000x64, .f32⟩
  | 41 => ⟨S100000, .i32⟩
  | 42 => ⟨S1x500000, .i32⟩
  | 43 => ⟨S500000, .i32⟩
  | 44 => ⟨S600000, .i32⟩
  | 45 => ⟨S1x500000, .i32⟩
  | 46 => ⟨S500000, .i32⟩
  | 47 => ⟨S600000, .i32⟩
  | 48 => ⟨S_, .f32⟩
  | 49 => ⟨S600000, .f32⟩
  | 50 => ⟨S_, .f32⟩
  | 51 => ⟨S100000, .f32⟩
  | 52 => ⟨S600000x1, .i32⟩
  | 53 => ⟨S100000, .f32⟩
  | 54 => ⟨S_, .f32⟩
  | 55 => ⟨S100000, .f32⟩
  | 56 => ⟨S100000, .i1⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000, .f32⟩
  | 80 => ⟨S600000, .f32⟩
  | 81 => ⟨S100000x64, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x64, .f32⟩
  | 91 => ⟨S600000x1, .f32⟩
  | 92 => ⟨S600000x64, .f32⟩
  | 93 => ⟨S600000x64, .f32⟩
  | 94 => ⟨S_, .f32⟩
  | 95 => ⟨S100000x64, .f32⟩
  | 96 => ⟨S600000x1, .i32⟩
  | 97 => ⟨S100000x64, .f32⟩
  | 98 => ⟨S1x64, .f32⟩
  | 99 => ⟨S100000x64, .f32⟩
  | 100 => ⟨S100000x64, .f32⟩
  | 101 => ⟨S100000x64, .f32⟩
  | 102 => ⟨S100000, .i32⟩
  | 103 => ⟨S1x500000, .i32⟩
  | 104 => ⟨S500000, .i32⟩
  | 105 => ⟨S600000, .i32⟩
  | 106 => ⟨S1x500000, .i32⟩
  | 107 => ⟨S500000, .i32⟩
  | 108 => ⟨S600000, .i32⟩
  | 109 => ⟨S_, .f32⟩
  | 110 => ⟨S600000, .f32⟩
  | 111 => ⟨S_, .f32⟩
  | 112 => ⟨S100000, .f32⟩
  | 113 => ⟨S600000x1, .i32⟩
  | 114 => ⟨S100000, .f32⟩
  | 115 => ⟨S_, .f32⟩
  | 116 => ⟨S100000, .f32⟩
  | 117 => ⟨S100000, .i1⟩
  | 118 => ⟨S100000, .f32⟩
  | 119 => ⟨S_, .f32⟩
  | 120 => ⟨S_, .f32⟩
  | 121 => ⟨S100000, .f32⟩
  | 122 => ⟨S100000, .f32⟩
  | 123 => ⟨S_, .i32⟩
  | 124 => ⟨S600000, .i32⟩
  | 125 => ⟨S600000, .i1⟩
  | 126 => ⟨S_, .i32⟩
  | 127 => ⟨S600000, .i32⟩
  | _ => ⟨S100000x128, .f32⟩

abbrev hbmTy0_5 (i : Nat) : BufTy := match i % 128 with
  | 0 => ⟨S600000, .i32⟩
  | 1 => ⟨S600000, .i32⟩
  | 2 => ⟨S600000x1, .i32⟩
  | 3 => ⟨S600000, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000, .f32⟩
  | 13 => ⟨S600000, .f32⟩
  | 14 => ⟨S100000x64, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x64, .f32⟩
  | 24 => ⟨S600000x1, .f32⟩
  | 25 => ⟨S600000x64, .f32⟩
  | 26 => ⟨S600000x64, .f32⟩
  | 27 => ⟨S_, .f32⟩
  | 28 => ⟨S100000x64, .f32⟩
  | 29 => ⟨S600000x1, .i32⟩
  | 30 => ⟨S100000x64, .f32⟩
  | 31 => ⟨S1x64, .f32⟩
  | 32 => ⟨S100000x64, .f32⟩
  | 33 => ⟨S100000x64, .f32⟩
  | 34 => ⟨S100000x128, .f32⟩
  | 35 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_c : Ref sig .tc := ⟨.hbm, 42, rfl⟩
abbrev main_v4 : Ref sig .tc := ⟨.hbm, 43, rfl⟩
abbrev main_v5 : Ref sig .tc := ⟨.hbm, 44, rfl⟩
abbrev main_c_0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_cst_2 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_4 : Ref sig .tc := ⟨.hbm, 80, rfl⟩
abbrev main_v36 : Ref sig .tc := ⟨.hbm, 81, rfl⟩
abbrev main_cst_5 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_6 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_7 : Ref sig .tc := ⟨.hbm, 90, rfl⟩
abbrev main_call0_v0 : Ref sig .tc := ⟨.hbm, 91, rfl⟩
abbrev main_call0_v1 : Ref sig .tc := ⟨.hbm, 92, rfl⟩
abbrev main_v43 : Ref sig .tc := ⟨.hbm, 93, rfl⟩
abbrev main_c_8 : Ref sig .tc := ⟨.hbm, 94, rfl⟩
abbrev main_v44 : Ref sig .tc := ⟨.hbm, 95, rfl⟩
abbrev main_v45 : Ref sig .tc := ⟨.hbm, 96, rfl⟩
abbrev main_c_9 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_c_10 : Ref sig .tc := ⟨.hbm, 103, rfl⟩
abbrev main_v51 : Ref sig .tc := ⟨.hbm, 104, rfl⟩
abbrev main_v52 : Ref sig .tc := ⟨.hbm, 105, rfl⟩
abbrev main_c_11 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_c_12 : Ref sig .tc := ⟨.hbm, 114, rfl⟩
abbrev main_v60 : Ref sig .tc := ⟨.hbm, 115, rfl⟩
abbrev main_v61 : Ref sig .tc := ⟨.hbm, 116, rfl⟩
abbrev main_c_13 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_14 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_15 : Ref sig .tc := ⟨.hbm, 141, rfl⟩
abbrev main_v84 : Ref sig .tc := ⟨.hbm, 142, rfl⟩
abbrev main_cst_16 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_17 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_cst_18 : Ref sig .tc := ⟨.hbm, 151, rfl⟩
abbrev main_call1_v0 : Ref sig .tc := ⟨.hbm, 152, rfl⟩
abbrev main_call1_v1 : Ref sig .tc := ⟨.hbm, 153, rfl⟩
abbrev main_v91 : Ref sig .tc := ⟨.hbm, 154, rfl⟩
abbrev main_c_19 : Ref sig .tc := ⟨.hbm, 155, rfl⟩
abbrev main_v92 : Ref sig .tc := ⟨.hbm, 156, rfl⟩
abbrev main_v93 : Ref sig .tc := ⟨.hbm, 157, rfl⟩
abbrev main_c_20 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_c_21 : Ref sig .tc := ⟨.hbm, 164, rfl⟩
abbrev main_v99 : Ref sig .tc := ⟨.hbm, 165, rfl⟩
abbrev main_v100 : Ref sig .tc := ⟨.hbm, 166, rfl⟩
abbrev main_c_22 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_c_23 : Ref sig .tc := ⟨.hbm, 175, rfl⟩
abbrev main_v108 : Ref sig .tc := ⟨.hbm, 176, rfl⟩
abbrev main_v109 : Ref sig .tc := ⟨.hbm, 177, rfl⟩
abbrev main_c_24 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_cst_25 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_call2_cst : Ref sig .tc := ⟨.hbm, 194, rfl⟩
abbrev main_call2_v0 : Ref sig .tc := ⟨.hbm, 195, rfl⟩
abbrev main_v124 : Ref sig .tc := ⟨.hbm, 196, rfl⟩
abbrev main_call3_cst : Ref sig .tc := ⟨.hbm, 197, rfl⟩
abbrev main_call3_v0 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_c_26 : Ref sig .tc := ⟨.hbm, 204, rfl⟩
abbrev main_v130 : Ref sig .tc := ⟨.hbm, 205, rfl⟩
abbrev main_v131 : Ref sig .tc := ⟨.hbm, 206, rfl⟩
abbrev main_c_27 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_cst_28 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_cst_29 : Ref sig .tc := ⟨.hbm, 217, rfl⟩
abbrev main_v140 : Ref sig .tc := ⟨.hbm, 218, rfl⟩
abbrev main_cst_30 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_cst_31 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_cst_32 : Ref sig .tc := ⟨.hbm, 242, rfl⟩
abbrev main_v162 : Ref sig .tc := ⟨.hbm, 243, rfl⟩
abbrev main_cst_33 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_cst_34 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_cst_35 : Ref sig .tc := ⟨.hbm, 252, rfl⟩
abbrev main_call4_v0 : Ref sig .tc := ⟨.hbm, 253, rfl⟩
abbrev main_call4_v1 : Ref sig .tc := ⟨.hbm, 254, rfl⟩
abbrev main_v169 : Ref sig .tc := ⟨.hbm, 255, rfl⟩
abbrev main_c_36 : Ref sig .tc := ⟨.hbm, 256, rfl⟩
abbrev main_v170 : Ref sig .tc := ⟨.hbm, 257, rfl⟩
abbrev main_v171 : Ref sig .tc := ⟨.hbm, 258, rfl⟩
abbrev main_c_37 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_c_38 : Ref sig .tc := ⟨.hbm, 265, rfl⟩
abbrev main_v177 : Ref sig .tc := ⟨.hbm, 266, rfl⟩
abbrev main_v178 : Ref sig .tc := ⟨.hbm, 267, rfl⟩
abbrev main_c_39 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_c_40 : Ref sig .tc := ⟨.hbm, 276, rfl⟩
abbrev main_v186 : Ref sig .tc := ⟨.hbm, 277, rfl⟩
abbrev main_v187 : Ref sig .tc := ⟨.hbm, 278, rfl⟩
abbrev main_c_41 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_cst_42 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_cst_43 : Ref sig .tc := ⟨.hbm, 303, rfl⟩
abbrev main_v210 : Ref sig .tc := ⟨.hbm, 304, rfl⟩
abbrev main_cst_44 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_cst_45 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_cst_46 : Ref sig .tc := ⟨.hbm, 313, rfl⟩
abbrev main_call5_v0 : Ref sig .tc := ⟨.hbm, 314, rfl⟩
abbrev main_call5_v1 : Ref sig .tc := ⟨.hbm, 315, rfl⟩
abbrev main_v217 : Ref sig .tc := ⟨.hbm, 316, rfl⟩
abbrev main_c_47 : Ref sig .tc := ⟨.hbm, 317, rfl⟩
abbrev main_v218 : Ref sig .tc := ⟨.hbm, 318, rfl⟩
abbrev main_v219 : Ref sig .tc := ⟨.hbm, 319, rfl⟩
abbrev main_c_48 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_c_49 : Ref sig .tc := ⟨.hbm, 326, rfl⟩
abbrev main_v225 : Ref sig .tc := ⟨.hbm, 327, rfl⟩
abbrev main_v226 : Ref sig .tc := ⟨.hbm, 328, rfl⟩
abbrev main_c_50 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_c_51 : Ref sig .tc := ⟨.hbm, 337, rfl⟩
abbrev main_v234 : Ref sig .tc := ⟨.hbm, 338, rfl⟩
abbrev main_v235 : Ref sig .tc := ⟨.hbm, 339, rfl⟩
abbrev main_c_52 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_cst_53 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_c_54 : Ref sig .tc := ⟨.hbm, 360, rfl⟩
abbrev main_v254 : Ref sig .tc := ⟨.hbm, 361, rfl⟩
abbrev main_v255 : Ref sig .tc := ⟨.hbm, 362, rfl⟩
abbrev main_c_55 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_v259 : Ref sig .tc := ⟨.hbm, 367, rfl⟩
abbrev main_v260 : Ref sig .tc := ⟨.hbm, 368, rfl⟩
abbrev main_cst_56 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_cst_57 : Ref sig .tc := ⟨.hbm, 373, rfl⟩
abbrev main_v264 : Ref sig .tc := ⟨.hbm, 374, rfl⟩
abbrev main_cst_58 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_cst_59 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_v285 : Ref sig .tc := ⟨.hbm, 397, rfl⟩
abbrev main_cst_60 : Ref sig .tc := ⟨.hbm, 398, rfl⟩
abbrev main_v286 : Ref sig .tc := ⟨.hbm, 399, rfl⟩
abbrev main_cst_61 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_cst_62 : Ref sig .tc := ⟨.hbm, 404, rfl⟩
abbrev main_v290 : Ref sig .tc := ⟨.hbm, 405, rfl⟩
abbrev main_v291 : Ref sig .tc := ⟨.hbm, 406, rfl⟩
abbrev main_v292 : Ref sig .tc := ⟨.hbm, 407, rfl⟩
abbrev main_cst_63 : Ref sig .tc := ⟨.hbm, 408, rfl⟩
abbrev main_call6_v0 : Ref sig .tc := ⟨.hbm, 409, rfl⟩
abbrev main_call6_v1 : Ref sig .tc := ⟨.hbm, 410, rfl⟩
abbrev main_v293 : Ref sig .tc := ⟨.hbm, 411, rfl⟩
abbrev main_c_64 : Ref sig .tc := ⟨.hbm, 412, rfl⟩
abbrev main_v294 : Ref sig .tc := ⟨.hbm, 413, rfl⟩
abbrev main_v295 : Ref sig .tc := ⟨.hbm, 414, rfl⟩
abbrev main_c_65 : Ref sig .tc := ⟨.hbm, 415, rfl⟩
abbrev main_v296 : Ref sig .tc := ⟨.hbm, 416, rfl⟩
abbrev main_v297 : Ref sig .tc := ⟨.hbm, 417, rfl⟩
abbrev main_v298 : Ref sig .tc := ⟨.hbm, 418, rfl⟩
abbrev main_v299 : Ref sig .tc := ⟨.hbm, 419, rfl⟩
abbrev main_v300 : Ref sig .tc := ⟨.hbm, 420, rfl⟩
abbrev main_c_66 : Ref sig .tc := ⟨.hbm, 421, rfl⟩
abbrev main_v301 : Ref sig .tc := ⟨.hbm, 422, rfl⟩
abbrev main_v302 : Ref sig .tc := ⟨.hbm, 423, rfl⟩
abbrev main_c_67 : Ref sig .tc := ⟨.hbm, 424, rfl⟩
abbrev main_v303 : Ref sig .tc := ⟨.hbm, 425, rfl⟩
abbrev main_v304 : Ref sig .tc := ⟨.hbm, 426, rfl⟩
abbrev main_v305 : Ref sig .tc := ⟨.hbm, 427, rfl⟩
abbrev main_v306 : Ref sig .tc := ⟨.hbm, 428, rfl⟩
abbrev main_v307 : Ref sig .tc := ⟨.hbm, 429, rfl⟩
abbrev main_v308 : Ref sig .tc := ⟨.hbm, 430, rfl⟩
abbrev main_v309 : Ref sig .tc := ⟨.hbm, 431, rfl⟩
abbrev main_c_68 : Ref sig .tc := ⟨.hbm, 432, rfl⟩
abbrev main_v310 : Ref sig .tc := ⟨.hbm, 433, rfl⟩
abbrev main_v311 : Ref sig .tc := ⟨.hbm, 434, rfl⟩
abbrev main_c_69 : Ref sig .tc := ⟨.hbm, 435, rfl⟩
abbrev main_v312 : Ref sig .tc := ⟨.hbm, 436, rfl⟩
abbrev main_v313 : Ref sig .tc := ⟨.hbm, 437, rfl⟩
abbrev main_v314 : Ref sig .tc := ⟨.hbm, 438, rfl⟩
abbrev main_v315 : Ref sig .tc := ⟨.hbm, 439, rfl⟩
abbrev main_v316 : Ref sig .tc := ⟨.hbm, 440, rfl⟩
abbrev main_v317 : Ref sig .tc := ⟨.hbm, 441, rfl⟩
abbrev main_v318 : Ref sig .tc := ⟨.hbm, 442, rfl⟩
abbrev main_v319 : Ref sig .tc := ⟨.hbm, 443, rfl⟩
abbrev main_cst_70 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_v323 : Ref sig .tc := ⟨.hbm, 448, rfl⟩
abbrev main_v324 : Ref sig .tc := ⟨.hbm, 449, rfl⟩
abbrev main_v325 : Ref sig .tc := ⟨.hbm, 450, rfl⟩
abbrev main_v326 : Ref sig .tc := ⟨.hbm, 451, rfl⟩
abbrev main_v327 : Ref sig .tc := ⟨.hbm, 452, rfl⟩
abbrev main_v328 : Ref sig .tc := ⟨.hbm, 453, rfl⟩
abbrev main_v329 : Ref sig .tc := ⟨.hbm, 454, rfl⟩
abbrev main_v330 : Ref sig .tc := ⟨.hbm, 455, rfl⟩
abbrev main_v331 : Ref sig .tc := ⟨.hbm, 456, rfl⟩
abbrev main_v332 : Ref sig .tc := ⟨.hbm, 457, rfl⟩
abbrev main_v333 : Ref sig .tc := ⟨.hbm, 458, rfl⟩
abbrev main_cst_71 : Ref sig .tc := ⟨.hbm, 459, rfl⟩
abbrev main_v334 : Ref sig .tc := ⟨.hbm, 460, rfl⟩
abbrev main_cst_72 : Ref sig .tc := ⟨.hbm, 461, rfl⟩
abbrev main_v335 : Ref sig .tc := ⟨.hbm, 462, rfl⟩
abbrev main_v336 : Ref sig .tc := ⟨.hbm, 463, rfl⟩
abbrev main_v337 : Ref sig .tc := ⟨.hbm, 464, rfl⟩
abbrev main_cst_73 : Ref sig .tc := ⟨.hbm, 465, rfl⟩
abbrev main_v338 : Ref sig .tc := ⟨.hbm, 466, rfl⟩
abbrev main_v339 : Ref sig .tc := ⟨.hbm, 467, rfl⟩
abbrev main_v340 : Ref sig .tc := ⟨.hbm, 468, rfl⟩
abbrev main_cst_74 : Ref sig .tc := ⟨.hbm, 469, rfl⟩
abbrev main_call7_v0 : Ref sig .tc := ⟨.hbm, 470, rfl⟩
abbrev main_call7_v1 : Ref sig .tc := ⟨.hbm, 471, rfl⟩
abbrev main_v341 : Ref sig .tc := ⟨.hbm, 472, rfl⟩
abbrev main_c_75 : Ref sig .tc := ⟨.hbm, 473, rfl⟩
abbrev main_v342 : Ref sig .tc := ⟨.hbm, 474, rfl⟩
abbrev main_v343 : Ref sig .tc := ⟨.hbm, 475, rfl⟩
abbrev main_c_76 : Ref sig .tc := ⟨.hbm, 476, rfl⟩
abbrev main_v344 : Ref sig .tc := ⟨.hbm, 477, rfl⟩
abbrev main_v345 : Ref sig .tc := ⟨.hbm, 478, rfl⟩
abbrev main_v346 : Ref sig .tc := ⟨.hbm, 479, rfl⟩
abbrev main_v347 : Ref sig .tc := ⟨.hbm, 480, rfl⟩
abbrev main_v348 : Ref sig .tc := ⟨.hbm, 481, rfl⟩
abbrev main_c_77 : Ref sig .tc := ⟨.hbm, 482, rfl⟩
abbrev main_v349 : Ref sig .tc := ⟨.hbm, 483, rfl⟩
abbrev main_v350 : Ref sig .tc := ⟨.hbm, 484, rfl⟩
abbrev main_c_78 : Ref sig .tc := ⟨.hbm, 485, rfl⟩
abbrev main_v351 : Ref sig .tc := ⟨.hbm, 486, rfl⟩
abbrev main_v352 : Ref sig .tc := ⟨.hbm, 487, rfl⟩
abbrev main_v353 : Ref sig .tc := ⟨.hbm, 488, rfl⟩
abbrev main_v354 : Ref sig .tc := ⟨.hbm, 489, rfl⟩
abbrev main_v355 : Ref sig .tc := ⟨.hbm, 490, rfl⟩
abbrev main_v356 : Ref sig .tc := ⟨.hbm, 491, rfl⟩
abbrev main_v357 : Ref sig .tc := ⟨.hbm, 492, rfl⟩
abbrev main_c_79 : Ref sig .tc := ⟨.hbm, 493, rfl⟩
abbrev main_v358 : Ref sig .tc := ⟨.hbm, 494, rfl⟩
abbrev main_v359 : Ref sig .tc := ⟨.hbm, 495, rfl⟩
abbrev main_c_80 : Ref sig .tc := ⟨.hbm, 496, rfl⟩
abbrev main_v360 : Ref sig .tc := ⟨.hbm, 497, rfl⟩
abbrev main_v361 : Ref sig .tc := ⟨.hbm, 498, rfl⟩
abbrev main_v362 : Ref sig .tc := ⟨.hbm, 499, rfl⟩
abbrev main_v363 : Ref sig .tc := ⟨.hbm, 500, rfl⟩
abbrev main_v364 : Ref sig .tc := ⟨.hbm, 501, rfl⟩
abbrev main_v365 : Ref sig .tc := ⟨.hbm, 502, rfl⟩
abbrev main_v366 : Ref sig .tc := ⟨.hbm, 503, rfl⟩
abbrev main_v367 : Ref sig .tc := ⟨.hbm, 504, rfl⟩
abbrev main_cst_81 : Ref sig .tc := ⟨.hbm, 505, rfl⟩
abbrev main_v368 : Ref sig .tc := ⟨.hbm, 506, rfl⟩
abbrev main_v369 : Ref sig .tc := ⟨.hbm, 507, rfl⟩
abbrev main_v370 : Ref sig .tc := ⟨.hbm, 508, rfl⟩
abbrev main_v371 : Ref sig .tc := ⟨.hbm, 509, rfl⟩
abbrev main_v372 : Ref sig .tc := ⟨.hbm, 510, rfl⟩
abbrev main_v373 : Ref sig .tc := ⟨.hbm, 511, rfl⟩
abbrev main_call8_cst : Ref sig .tc := ⟨.hbm, 512, rfl⟩
abbrev main_call8_v0 : Ref sig .tc := ⟨.hbm, 513, rfl⟩
abbrev main_v374 : Ref sig .tc := ⟨.hbm, 514, rfl⟩
abbrev main_call9_cst : Ref sig .tc := ⟨.hbm, 515, rfl⟩
abbrev main_call9_v0 : Ref sig .tc := ⟨.hbm, 516, rfl⟩
abbrev main_v375 : Ref sig .tc := ⟨.hbm, 517, rfl⟩
abbrev main_v376 : Ref sig .tc := ⟨.hbm, 518, rfl⟩
abbrev main_v377 : Ref sig .tc := ⟨.hbm, 519, rfl⟩
abbrev main_v378 : Ref sig .tc := ⟨.hbm, 520, rfl⟩
abbrev main_v379 : Ref sig .tc := ⟨.hbm, 521, rfl⟩
abbrev main_c_82 : Ref sig .tc := ⟨.hbm, 522, rfl⟩
abbrev main_v380 : Ref sig .tc := ⟨.hbm, 523, rfl⟩
abbrev main_v381 : Ref sig .tc := ⟨.hbm, 524, rfl⟩
abbrev main_c_83 : Ref sig .tc := ⟨.hbm, 525, rfl⟩
abbrev main_v382 : Ref sig .tc := ⟨.hbm, 526, rfl⟩
abbrev main_v383 : Ref sig .tc := ⟨.hbm, 527, rfl⟩
abbrev main_v384 : Ref sig .tc := ⟨.hbm, 528, rfl⟩
abbrev main_v385 : Ref sig .tc := ⟨.hbm, 529, rfl⟩
abbrev main_v386 : Ref sig .tc := ⟨.hbm, 530, rfl⟩
abbrev main_cst_84 : Ref sig .tc := ⟨.hbm, 531, rfl⟩
abbrev main_v387 : Ref sig .tc := ⟨.hbm, 532, rfl⟩
abbrev main_v388 : Ref sig .tc := ⟨.hbm, 533, rfl⟩
abbrev main_v389 : Ref sig .tc := ⟨.hbm, 534, rfl⟩
abbrev main_cst_85 : Ref sig .tc := ⟨.hbm, 535, rfl⟩
abbrev main_v390 : Ref sig .tc := ⟨.hbm, 536, rfl⟩
abbrev main_cst_86 : Ref sig .tc := ⟨.hbm, 537, rfl⟩
abbrev main_v391 : Ref sig .tc := ⟨.hbm, 538, rfl⟩
abbrev main_v392 : Ref sig .tc := ⟨.hbm, 539, rfl⟩
abbrev main_v393 : Ref sig .tc := ⟨.hbm, 540, rfl⟩
abbrev main_cst_87 : Ref sig .tc := ⟨.hbm, 541, rfl⟩
abbrev main_v394 : Ref sig .tc := ⟨.hbm, 542, rfl⟩
abbrev main_v395 : Ref sig .tc := ⟨.hbm, 543, rfl⟩
abbrev main_v396 : Ref sig .tc := ⟨.hbm, 544, rfl⟩
abbrev main_v397 : Ref sig .tc := ⟨.hbm, 545, rfl⟩
abbrev main_v398 : Ref sig .tc := ⟨.hbm, 546, rfl⟩
abbrev main_v399 : Ref sig .tc := ⟨.hbm, 547, rfl⟩
abbrev main_v400 : Ref sig .tc := ⟨.hbm, 548, rfl⟩
abbrev main_v401 : Ref sig .tc := ⟨.hbm, 549, rfl⟩
abbrev main_v402 : Ref sig .tc := ⟨.hbm, 550, rfl⟩
abbrev main_v403 : Ref sig .tc := ⟨.hbm, 551, rfl⟩
abbrev main_v404 : Ref sig .tc := ⟨.hbm, 552, rfl⟩
abbrev main_v405 : Ref sig .tc := ⟨.hbm, 553, rfl⟩
abbrev main_v406 : Ref sig .tc := ⟨.hbm, 554, rfl⟩
abbrev main_v407 : Ref sig .tc := ⟨.hbm, 555, rfl⟩
abbrev main_v408 : Ref sig .tc := ⟨.hbm, 556, rfl⟩
abbrev main_v409 : Ref sig .tc := ⟨.hbm, 557, rfl⟩
abbrev main_v410 : Ref sig .tc := ⟨.hbm, 558, rfl⟩
abbrev main_v411 : Ref sig .tc := ⟨.hbm, 559, rfl⟩
abbrev main_cst_88 : Ref sig .tc := ⟨.hbm, 560, rfl⟩
abbrev main_v412 : Ref sig .tc := ⟨.hbm, 561, rfl⟩
abbrev main_cst_89 : Ref sig .tc := ⟨.hbm, 562, rfl⟩
abbrev main_v413 : Ref sig .tc := ⟨.hbm, 563, rfl⟩
abbrev main_v414 : Ref sig .tc := ⟨.hbm, 564, rfl⟩
abbrev main_v415 : Ref sig .tc := ⟨.hbm, 565, rfl⟩
abbrev main_cst_90 : Ref sig .tc := ⟨.hbm, 566, rfl⟩
abbrev main_v416 : Ref sig .tc := ⟨.hbm, 567, rfl⟩
abbrev main_v417 : Ref sig .tc := ⟨.hbm, 568, rfl⟩
abbrev main_v418 : Ref sig .tc := ⟨.hbm, 569, rfl⟩
abbrev main_cst_91 : Ref sig .tc := ⟨.hbm, 570, rfl⟩
abbrev main_call10_v0 : Ref sig .tc := ⟨.hbm, 571, rfl⟩
abbrev main_call10_v1 : Ref sig .tc := ⟨.hbm, 572, rfl⟩
abbrev main_v419 : Ref sig .tc := ⟨.hbm, 573, rfl⟩
abbrev main_c_92 : Ref sig .tc := ⟨.hbm, 574, rfl⟩
abbrev main_v420 : Ref sig .tc := ⟨.hbm, 575, rfl⟩
abbrev main_v421 : Ref sig .tc := ⟨.hbm, 576, rfl⟩
abbrev main_c_93 : Ref sig .tc := ⟨.hbm, 577, rfl⟩
abbrev main_v422 : Ref sig .tc := ⟨.hbm, 578, rfl⟩
abbrev main_v423 : Ref sig .tc := ⟨.hbm, 579, rfl⟩
abbrev main_v424 : Ref sig .tc := ⟨.hbm, 580, rfl⟩
abbrev main_v425 : Ref sig .tc := ⟨.hbm, 581, rfl⟩
abbrev main_v426 : Ref sig .tc := ⟨.hbm, 582, rfl⟩
abbrev main_c_94 : Ref sig .tc := ⟨.hbm, 583, rfl⟩
abbrev main_v427 : Ref sig .tc := ⟨.hbm, 584, rfl⟩
abbrev main_v428 : Ref sig .tc := ⟨.hbm, 585, rfl⟩
abbrev main_c_95 : Ref sig .tc := ⟨.hbm, 586, rfl⟩
abbrev main_v429 : Ref sig .tc := ⟨.hbm, 587, rfl⟩
abbrev main_v430 : Ref sig .tc := ⟨.hbm, 588, rfl⟩
abbrev main_v431 : Ref sig .tc := ⟨.hbm, 589, rfl⟩
abbrev main_v432 : Ref sig .tc := ⟨.hbm, 590, rfl⟩
abbrev main_v433 : Ref sig .tc := ⟨.hbm, 591, rfl⟩
abbrev main_v434 : Ref sig .tc := ⟨.hbm, 592, rfl⟩
abbrev main_v435 : Ref sig .tc := ⟨.hbm, 593, rfl⟩
abbrev main_c_96 : Ref sig .tc := ⟨.hbm, 594, rfl⟩
abbrev main_v436 : Ref sig .tc := ⟨.hbm, 595, rfl⟩
abbrev main_v437 : Ref sig .tc := ⟨.hbm, 596, rfl⟩
abbrev main_c_97 : Ref sig .tc := ⟨.hbm, 597, rfl⟩
abbrev main_v438 : Ref sig .tc := ⟨.hbm, 598, rfl⟩
abbrev main_v439 : Ref sig .tc := ⟨.hbm, 599, rfl⟩
abbrev main_v440 : Ref sig .tc := ⟨.hbm, 600, rfl⟩
abbrev main_v441 : Ref sig .tc := ⟨.hbm, 601, rfl⟩
abbrev main_v442 : Ref sig .tc := ⟨.hbm, 602, rfl⟩
abbrev main_v443 : Ref sig .tc := ⟨.hbm, 603, rfl⟩
abbrev main_v444 : Ref sig .tc := ⟨.hbm, 604, rfl⟩
abbrev main_v445 : Ref sig .tc := ⟨.hbm, 605, rfl⟩
abbrev main_cst_98 : Ref sig .tc := ⟨.hbm, 606, rfl⟩
abbrev main_v446 : Ref sig .tc := ⟨.hbm, 607, rfl⟩
abbrev main_v447 : Ref sig .tc := ⟨.hbm, 608, rfl⟩
abbrev main_v448 : Ref sig .tc := ⟨.hbm, 609, rfl⟩
abbrev main_v449 : Ref sig .tc := ⟨.hbm, 610, rfl⟩
abbrev main_v450 : Ref sig .tc := ⟨.hbm, 611, rfl⟩
abbrev main_v451 : Ref sig .tc := ⟨.hbm, 612, rfl⟩
abbrev main_v452 : Ref sig .tc := ⟨.hbm, 613, rfl⟩
abbrev main_v453 : Ref sig .tc := ⟨.hbm, 614, rfl⟩
abbrev main_v454 : Ref sig .tc := ⟨.hbm, 615, rfl⟩
abbrev main_v455 : Ref sig .tc := ⟨.hbm, 616, rfl⟩
abbrev main_v456 : Ref sig .tc := ⟨.hbm, 617, rfl⟩
abbrev main_v457 : Ref sig .tc := ⟨.hbm, 618, rfl⟩
abbrev main_v458 : Ref sig .tc := ⟨.hbm, 619, rfl⟩
abbrev main_v459 : Ref sig .tc := ⟨.hbm, 620, rfl⟩
abbrev main_cst_99 : Ref sig .tc := ⟨.hbm, 621, rfl⟩
abbrev main_v460 : Ref sig .tc := ⟨.hbm, 622, rfl⟩
abbrev main_cst_100 : Ref sig .tc := ⟨.hbm, 623, rfl⟩
abbrev main_v461 : Ref sig .tc := ⟨.hbm, 624, rfl⟩
abbrev main_v462 : Ref sig .tc := ⟨.hbm, 625, rfl⟩
abbrev main_v463 : Ref sig .tc := ⟨.hbm, 626, rfl⟩
abbrev main_cst_101 : Ref sig .tc := ⟨.hbm, 627, rfl⟩
abbrev main_v464 : Ref sig .tc := ⟨.hbm, 628, rfl⟩
abbrev main_v465 : Ref sig .tc := ⟨.hbm, 629, rfl⟩
abbrev main_v466 : Ref sig .tc := ⟨.hbm, 630, rfl⟩
abbrev main_cst_102 : Ref sig .tc := ⟨.hbm, 631, rfl⟩
abbrev main_call11_v0 : Ref sig .tc := ⟨.hbm, 632, rfl⟩
abbrev main_call11_v1 : Ref sig .tc := ⟨.hbm, 633, rfl⟩
abbrev main_v467 : Ref sig .tc := ⟨.hbm, 634, rfl⟩
abbrev main_c_103 : Ref sig .tc := ⟨.hbm, 635, rfl⟩
abbrev main_v468 : Ref sig .tc := ⟨.hbm, 636, rfl⟩
abbrev main_v469 : Ref sig .tc := ⟨.hbm, 637, rfl⟩
abbrev main_c_104 : Ref sig .tc := ⟨.hbm, 638, rfl⟩
abbrev main_v470 : Ref sig .tc := ⟨.hbm, 639, rfl⟩
abbrev main_v471 : Ref sig .tc := ⟨.hbm, 640, rfl⟩
abbrev main_v472 : Ref sig .tc := ⟨.hbm, 641, rfl⟩
abbrev main_v473 : Ref sig .tc := ⟨.hbm, 642, rfl⟩
abbrev main_v474 : Ref sig .tc := ⟨.hbm, 643, rfl⟩
abbrev main_c_105 : Ref sig .tc := ⟨.hbm, 644, rfl⟩
abbrev main_v475 : Ref sig .tc := ⟨.hbm, 645, rfl⟩
abbrev main_v476 : Ref sig .tc := ⟨.hbm, 646, rfl⟩
abbrev main_c_106 : Ref sig .tc := ⟨.hbm, 647, rfl⟩
abbrev main_v477 : Ref sig .tc := ⟨.hbm, 648, rfl⟩
abbrev main_v478 : Ref sig .tc := ⟨.hbm, 649, rfl⟩
abbrev main_v479 : Ref sig .tc := ⟨.hbm, 650, rfl⟩
abbrev main_v480 : Ref sig .tc := ⟨.hbm, 651, rfl⟩
abbrev main_v481 : Ref sig .tc := ⟨.hbm, 652, rfl⟩
abbrev main_v482 : Ref sig .tc := ⟨.hbm, 653, rfl⟩
abbrev main_v483 : Ref sig .tc := ⟨.hbm, 654, rfl⟩
abbrev main_c_107 : Ref sig .tc := ⟨.hbm, 655, rfl⟩
abbrev main_v484 : Ref sig .tc := ⟨.hbm, 656, rfl⟩
abbrev main_v485 : Ref sig .tc := ⟨.hbm, 657, rfl⟩
abbrev main_c_108 : Ref sig .tc := ⟨.hbm, 658, rfl⟩
abbrev main_v486 : Ref sig .tc := ⟨.hbm, 659, rfl⟩
abbrev main_v487 : Ref sig .tc := ⟨.hbm, 660, rfl⟩
abbrev main_v488 : Ref sig .tc := ⟨.hbm, 661, rfl⟩
abbrev main_v489 : Ref sig .tc := ⟨.hbm, 662, rfl⟩
abbrev main_v490 : Ref sig .tc := ⟨.hbm, 663, rfl⟩
abbrev main_v491 : Ref sig .tc := ⟨.hbm, 664, rfl⟩
abbrev main_v492 : Ref sig .tc := ⟨.hbm, 665, rfl⟩
abbrev main_v493 : Ref sig .tc := ⟨.hbm, 666, rfl⟩
abbrev main_cst_109 : Ref sig .tc := ⟨.hbm, 667, rfl⟩
abbrev main_v494 : Ref sig .tc := ⟨.hbm, 668, rfl⟩
abbrev main_v495 : Ref sig .tc := ⟨.hbm, 669, rfl⟩
abbrev main_v496 : Ref sig .tc := ⟨.hbm, 670, rfl⟩
abbrev main_v497 : Ref sig .tc := ⟨.hbm, 671, rfl⟩
abbrev main_v498 : Ref sig .tc := ⟨.hbm, 672, rfl⟩
abbrev main_v499 : Ref sig .tc := ⟨.hbm, 673, rfl⟩
abbrev main_v500 : Ref sig .tc := ⟨.hbm, 674, rfl⟩
abbrev main_v501 : Ref sig .tc := ⟨.hbm, 675, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S500000_S100000_S600000_d0 : Shape.Concatenates [S500000, S100000] S600000 0
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  concatenates_S100000x64_S100000x64_S100000x128_d1 : Shape.Concatenates [S100000x64, S100000x64] S100000x128 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

class Facts : Prop extends Facts₀ where

variable [Facts]
-- ==== Proof.Spec.lean ====
/-
  The two-layer heterogeneous graph network that both programs compute, as ONE function of the argument arrays.

  Per graph ("branch"), with node features `x_l`, `x_p` (100000 × 128 each) and three edge lists (2 × 500000 node
  indices each: row 0 the sources, row 1 the targets):
    * `sageMean x ei`        — for every target node the sum of `x` over its incoming edges' sources, divided by
                               max(number of incoming edges, 1);
    * `gcnAgg h ei b`        — self loops added, `deg` the number of edges into a node, `dinv = deg^(-1/2)` where
                               `deg > 0` and 0 elsewhere; row `t` is the sum over edges `s → t` of
                               `h[s] · dinv[s] · dinv[t]`, plus the bias `b`;
    * a linear layer `lin x w = x · w`, and the mean-aggregating update
      `sage a wl b wr bias = (a · wl + bias) + b · wr`.
  Layer 1: `h_p = relu (sage (sageMean x_l ei_lp) … x_p … + gcnAgg (lin x_p pp1_w) ei_pp pp1_b)`,
           `h_l = relu (gcnAgg (lin x_l ll1_w) ei_ll ll1_b)`; layer 2 the same from `h_l`, `h_p` at width 64, without relu.
  The result is, per node type, the two graphs' outputs side by side (100000 × (64 + 64)).

  Every function is stated for any float family `F`: nothing here uses a law of arithmetic. An index that is negative is
  wrapped once by the number of nodes before it is used, as the programs do.
-/
import proofs.«157546_j87986700026404_1_alg».proof.Proof.Gen.KernelIdeal
import proofs.«157546_j87986700026404_1_alg».proof.Proof.Gen.ReferenceIdeal

noncomputable section

namespace Cert.KernelIdeal.Spec

open Idealize.ShloMosaic Cert.KernelIdeal Cert.KernelIdeal.Gen

variable {F : FTy → Type} [FloatOps F]

/-- The contents of an f32 buffer of shape `S`: its entries by index. -/
abbrev TF (F : FTy → Type) (S : Shape) : Type := (⟨S, .f32⟩ : BufTy).Contents (Elt F)
/-- The contents of an i32 buffer of shape `S`. -/
abbrev TI (F : FTy → Type) (S : Shape) : Type := (⟨S, .i32⟩ : BufTy).Contents (Elt F)

/-! ## Edge lists -/

/-- The sources of an edge list. -/
def srcOf (ei : TI F S2x500000) : TI F S500000 :=
  shapeCast S500000 (extractStridedSlice S1x500000 ![0, 0] ei slices_S2x500000_S1x500000_0_0) shapeCasts_S1x500000_S500000

/-- The targets of an edge list. -/
def dstOf (ei : TI F S2x500000) : TI F S500000 :=
  shapeCast S500000 (extractStridedSlice S1x500000 ![1, 0] ei slices_S2x500000_S1x500000_1_0) shapeCasts_S1x500000_S500000

/-- 500000 node indices as a gather's index column: a negative index is wrapped once by the 100000 nodes. -/
def wrapCol5 (r : TI F S500000) : TI F S500000x1 :=
  broadcastInDim S500000x1 ![0] bcast_S500000_S500000x1_0
    (select (cmpi .slt r (broadcastInDim S500000 ![] bcast_S_S500000 (constantI S_ 32 0#32)))
      (addi r (broadcastInDim S500000 ![] bcast_S_S500000 (constantI S_ 32 100000#32))) r)

/-- The same for the 600000 indices of an edge list with its self loops. -/
def wrapCol6 (r : TI F S600000) : TI F S600000x1 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 100000#32))) r)

/-- An edge list's end points followed by every node once (the self loops). -/
def withLoops (r : TI F S500000) : TI F S600000 :=
  concatenate S600000 0 [⟨S500000, r⟩, ⟨S100000, (iotaInDim S100000 32 0)⟩] concatenates_S500000_S100000_S600000_d0

/-! ## The mean over incoming edges -/

/-- Row `t`: the sum of `x[s]` over the edges `s → t`, divided by max(the number of such edges, 1). -/
def sageMean (x : TF F S100000x128) (ei : TI F S2x500000) : TF F S100000x128 :=
  Host.divf
    (Host.scatterAdd scatter_S100000x128_S500000x1_S500000x128_1_0_0_1
      (broadcastInDim S100000x128 ![] bcast_S_S100000x128 (constant S_ .f32 0x00000000#32))
      (broadcastInDim S500000x1 ![0] bcast_S500000_S500000x1_0 (dstOf ei))
      (Host.gather gather_S100000x128_S500000x1_S500000x128_1_0_n_n_0_1_1128 x (wrapCol5 (srcOf ei))))
    (broadcastInDim S100000x128 ![0, 1] bcast_S100000x1_S100000x128_0_1
      (broadcastInDim S100000x1 ![0] bcast_S100000_S100000x1_0
        (maximumf
          (Host.scatterAdd scatter_S100000_S500000x1_S500000_n_0_0_1
            (broadcastInDim S100000 ![] bcast_S_S100000 (constant S_ .f32 0x00000000#32))
            (broadcastInDim S500000x1 ![0] bcast_S500000_S500000x1_0 (dstOf ei))
            (broadcastInDim S500000 ![] bcast_S_S500000 (constant S_ .f32 0x3F800000#32)))
          (broadcastInDim S100000 ![] bcast_S_S100000 (constant S_ .f32 0x3F800000#32)))))

/-! ## The symmetric-normalised aggregation with self loops -/

/-- The number of edges into each node, self loop included. -/
def degOf (ei : TI F S2x500000) : TF F S100000 :=
  Host.scatterAdd scatter_S100000_S600000x1_S600000_n_0_0_1
    (broadcastInDim S100000 ![] bcast_S_S100000 (constant S_ .f32 0x00000000#32))
    (broadcastInDim S600000x1 ![0] bcast_S600000_S600000x1_0 (withLoops (dstOf ei)))
    (broadcastInDim S600000 ![] bcast_S_S600000 (constant S_ .f32 0x3F800000#32))

/-- `deg^(-1/2)` where `deg > 0`, zero elsewhere. -/
def dinvOf (ei : TI F S2x500000) : TF F S100000 :=
  select (cmpf .ogt (degOf ei) (broadcastInDim S100000 ![] bcast_S_S100000 (constant S_ .f32 0x00000000#32)))
    (Host.rsqrt (degOf ei))
    (broadcastInDim S100000 ![] bcast_S_S100000 (id (constant S_ .f32 0x00000000#32)))

/-- Per edge (self loops included) the weight `dinv[source] · dinv[target]`. -/
def normOf (ei : TI F S2x500000) : TF F S600000 :=
  mulf (Host.gather gather_S100000_S600000x1_S600000_n_0_n_n_0_1_1 (dinvOf ei) (wrapCol6 (withLoops (srcOf ei))))
    (Host.gather gather_S100000_S600000x1_S600000_n_0_n_n_0_1_1 (dinvOf ei) (wrapCol6 (withLoops (dstOf ei))))

/-- Width 128: row `t` is the sum over edges `s → t` of `h[s] · norm`, plus the bias. -/
def gcnAgg128 (h : TF F S100000x128) (ei : TI F S2x500000) (b : TF F S128) : TF F S100000x128 :=
  addf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 (withLoops (dstOf ei)))
      (mulf (Host.gather gather_S100000x128_S600000x1_S600000x128_1_0_n_n_0_1_1128 h (wrapCol6 (withLoops (srcOf ei))))
        (broadcastInDim S600000x128 ![0, 1] bcast_S600000x1_S600000x128_0_1
          (broadcastInDim S600000x1 ![0] bcast_S600000_S600000x1_0 (normOf ei)))))
    (broadcastInDim S100000x128 ![0, 1] bcast_S1x128_S100000x128_0_1 (broadcastInDim S1x128 ![1] bcast_S128_S1x128_1 b))

/-- Width 64: the same. -/
def gcnAgg64 (h : TF F S100000x64) (ei : TI F S2x500000) (b : TF F S64) : TF F S100000x64 :=
  addf
    (Host.scatterAdd scatter_S100000x64_S600000x1_S600000x64_1_0_0_1
      (broadcastInDim S100000x64 ![] bcast_S_S100000x64 (constant S_ .f32 0x00000000#32))
      (broadcastInDim S600000x1 ![0] bcast_S600000_S600000x1_0 (withLoops (dstOf ei)))
      (mulf (Host.gather gather_S100000x64_S600000x1_S600000x64_1_0_n_n_0_1_164 h (wrapCol6 (withLoops (srcOf ei))))
        (broadcastInDim S600000x64 ![0, 1] bcast_S600000x1_S600000x64_0_1
          (broadcastInDim S600000x1 ![0] bcast_S600000_S600000x1_0 (normOf ei)))))
    (broadcastInDim S100000x64 ![0, 1] bcast_S1x64_S100000x64_0_1 (broadcastInDim S1x64 ![1] bcast_S64_S1x64_1 b))

/-! ## Pointwise pieces -/

/-- max(x, 0), entry by entry. -/
def relu (x : TF F S100000x128) : TF F S100000x128 :=
  maximumf x (broadcastInDim S100000x128 ![] bcast_S_S100000x128 (constant S_ .f32 0x00000000#32))

/-- A bias vector as a 1 × 128 row (the form the fused update's kernel takes it in). -/
def biasRow128 (b : TF F S128) : TF F S1x128 := shapeCast S1x128 b shapeCasts_S128_S1x128

/-- A bias vector as a 1 × 64 row. -/
def biasRow64 (b : TF F S64) : TF F S1x64 := shapeCast S1x64 b shapeCasts_S64_S1x64

/-- Two 100000 × 64 blocks side by side. -/
def sideBySide (a b : TF F S100000x64) : TF F S100000x128 :=
  concatenate S100000x128 1 [⟨S100000x64, a⟩, ⟨S100000x64, b⟩] concatenates_S100000x64_S100000x64_S100000x128_d1

/-! ## The linear layers -/

/-- `x · w`, 128 → 128. -/
def lin128 (x : TF F S100000x128) (w : TF F S128x128) : TF F S100000x128 :=
  Host.dotGeneral Cert.ReferenceIdeal.dot_S100000x128_S128x128_S100000x128_1_0_0_1_n_n none x w

/-- `x · w`, 128 → 64. -/
def lin64 (x : TF F S100000x128) (w : TF F S128x64) : TF F S100000x64 :=
  Host.dotGeneral Cert.ReferenceIdeal.dot_S100000x128_S128x64_S100000x64_1_0_0_1_n_n none x w

/-- The mean-aggregating update, width 128: `(a · wl + bias) + b · wr`. -/
def sage128 (a : TF F S100000x128) (wl : TF F S128x128) (b : TF F S100000x128) (wr : TF F S128x128) (bias : TF F S128) :
    TF F S100000x128 :=
  addf (addf (lin128 a wl)
      (broadcastInDim S100000x128 ![0, 1] bcast_S1x128_S100000x128_0_1 (broadcastInDim S1x128 ![1] bcast_S128_S1x128_1 bias)))
    (lin128 b wr)

/-- The mean-aggregating update, width 64. -/
def sage64 (a : TF F S100000x128) (wl : TF F S128x64) (b : TF F S100000x128) (wr : TF F S128x64) (bias : TF F S64) :
    TF F S100000x64 :=
  addf (addf (lin64 a wl)
      (broadcastInDim S100000x64 ![0, 1] bcast_S1x64_S100000x64_0_1 (broadcastInDim S1x64 ![1] bcast_S64_S1x64_1 bias)))
    (lin64 b wr)

/-! ## One graph, two layers -/

/-- Layer 1's output at the `p` nodes, before relu. -/
def hP (x_l x_p : TF F S100000x128) (ei_lp ei_pp : TI F S2x500000) (s1_wl : TF F S128x128) (s1_bl : TF F S128)
    (s1_wr pp1_w : TF F S128x128) (pp1_b : TF F S128) : TF F S100000x128 :=
  addf (sage128 (sageMean x_l ei_lp) s1_wl x_p s1_wr s1_bl) (gcnAgg128 (lin128 x_p pp1_w) ei_pp pp1_b)

/-- Layer 1's output at the `l` nodes, before relu. -/
def hL (x_l : TF F S100000x128) (ei_ll : TI F S2x500000) (ll1_w : TF F S128x128) (ll1_b : TF F S128) : TF F S100000x128 :=
  gcnAgg128 (lin128 x_l ll1_w) ei_ll ll1_b

/-- Layer 2's output at the `p` nodes, from layer 1's activations. -/
def oP (h_l h_p : TF F S100000x128) (ei_lp ei_pp : TI F S2x500000) (s2_wl : TF F S128x64) (s2_bl : TF F S64)
    (s2_wr pp2_w : TF F S128x64) (pp2_b : TF F S64) : TF F S100000x64 :=
  addf (sage64 (sageMean h_l ei_lp) s2_wl h_p s2_wr s2_bl) (gcnAgg64 (lin64 h_p pp2_w) ei_pp pp2_b)

/-- Layer 2's output at the `l` nodes. -/
def oL (h_l : TF F S100000x128) (ei_ll : TI F S2x500000) (ll2_w : TF F S128x64) (ll2_b : TF F S64) : TF F S100000x64 :=
  gcnAgg64 (lin64 h_l ll2_w) ei_ll ll2_b

/-- The fused update in the order its kernel adds: `(a · wl + b · wr) + bias`, the bias given as a 1 × 128 row. -/
def sageK128 (a : TF F S100000x128) (wl : TF F S128x128) (b : TF F S100000x128) (wr : TF F S128x128) (biasRow : TF F S1x128) :
    TF F S100000x128 :=
  addf (addf (lin128 a wl) (lin128 b wr)) (broadcastInDim S100000x128 ![0, 1] bcast_S1x128_S100000x128_0_1 biasRow)

/-- The same at width 64. -/
def sageK64 (a : TF F S100000x128) (wl : TF F S128x64) (b : TF F S100000x128) (wr : TF F S128x64) (biasRow : TF F S1x64) :
    TF F S100000x64 :=
  addf (addf (lin64 a wl) (lin64 b wr)) (broadcastInDim S100000x64 ![0, 1] bcast_S1x64_S100000x64_0_1 biasRow)

/-- One graph's output at the `l` nodes: both layers of the `l → l` aggregation. -/
def outL (x_l : TF F S100000x128) (ei_ll : TI F S2x500000) (ll1_w : TF F S128x128) (ll1_b : TF F S128)
    (ll2_w : TF F S128x64) (ll2_b : TF F S64) : TF F S100000x64 :=
  oL (relu (hL x_l ei_ll ll1_w ll1_b)) ei_ll ll2_w ll2_b

/-- One graph's output at the `p` nodes: both layers, the `l → p` mean update plus the `p → p` aggregation. -/
def outP (x_l x_p : TF F S100000x128) (ei_lp ei_ll ei_pp : TI F S2x500000)
    (s1_wl : TF F S128x128) (s1_bl : TF F S128) (s1_wr ll1_w : TF F S128x128) (ll1_b : TF F S128) (pp1_w : TF F S128x128) (pp1_b : TF F S128)
    (s2_wl : TF F S128x64) (s2_bl : TF F S64) (s2_wr pp2_w : TF F S128x64) (pp2_b : TF F S64) : TF F S100000x64 :=
  oP (relu (hL x_l ei_ll ll1_w ll1_b)) (relu (hP x_l x_p ei_lp ei_pp s1_wl s1_bl s1_wr pp1_w pp1_b)) ei_lp ei_pp s2_wl s2_bl s2_wr pp2_w pp2_b

end Cert.KernelIdeal.Spec

end
-- ==== Proof.Alg.lean ====
/-
  The one law of arithmetic this certificate uses. The fused update's kernel adds `(a · wl + b · wr) + bias`, the reference
  `(a · wl + bias) + b · wr`: on the extended reals addition is commutative and associative at every value, the infinities
  included (`add_right_comm`), so the two agree entry by entry with no finiteness assumption. The kernel takes the bias as a
  1 × width row made by a shape cast; the reference makes the same row by a broadcast along a new leading axis: both
  read `bias j` at `(0, j)`.
-/
import proofs.«157546_j87986700026404_1_alg».proof.Proof.Spec
import Idealize.ShloMosaic.Lib.ValueIdx
import Idealize.ShloMosaic.Lib.Pipeline.Value

noncomputable section

namespace Cert.KernelIdeal.Alg

open Idealize.ShloMosaic Idealize.ShloMosaic.ValueIdx Cert.KernelIdeal Cert.KernelIdeal.Gen
open Cert.KernelIdeal.Spec (TF)

variable {F : FTy → Type} [FloatOps F]

/-- A bias vector cast to a 1 × 128 row is the vector broadcast along a new leading axis. -/
theorem biasRow128_eq (bias : TF F S128) :
    Spec.biasRow128 bias = broadcastInDim S1x128 ![1] bcast_S128_S1x128_1 bias := by
  funext j
  unfold Spec.biasRow128
  have h0 : (j 0).val = 0 := by have := (j 0).isLt; have e : (j 0).val < 1 := this; omega
  rw [shapeCast_apply bias shapeCasts_S128_S1x128 j (ix1 (j 1)) (by
        rw [Shape.rowMajor_val_one, Shape.rowMajor_val_two]
        show (j 1).val = (j 0).val * 128 + (j 1).val
        omega),
    broadcastInDim_apply ![1] bcast_S128_S1x128_1 bias j (ix1 (j 1)) (by
        intro a
        match a with
        | ⟨0, _⟩ => rfl)]

/-- The same at width 64. -/
theorem biasRow64_eq (bias : TF F S64) :
    Spec.biasRow64 bias = broadcastInDim S1x64 ![1] bcast_S64_S1x64_1 bias := by
  funext j
  unfold Spec.biasRow64
  have h0 : (j 0).val = 0 := by have := (j 0).isLt; have e : (j 0).val < 1 := this; omega
  rw [shapeCast_apply bias shapeCasts_S64_S1x64 j (ix1 (j 1)) (by
        rw [Shape.rowMajor_val_one, Shape.rowMajor_val_two]
        show (j 1).val = (j 0).val * 64 + (j 1).val
        omega),
    broadcastInDim_apply ![1] bcast_S64_S1x64_1 bias j (ix1 (j 1)) (by
        intro a
        match a with
        | ⟨0, _⟩ => rfl)]

/-- At `Ideal` the kernel's order of the fused update's two additions gives the reference's value, width 128. -/
theorem sageK128_row (a : TF Ideal S100000x128) (wl : TF Ideal S128x128) (b : TF Ideal S100000x128) (wr : TF Ideal S128x128)
    (bias : TF Ideal S128) :
    Spec.sageK128 a wl b wr (Spec.biasRow128 bias) = Spec.sage128 a wl b wr bias := by
  unfold Spec.sageK128 Spec.sage128
  rw [biasRow128_eq]
  funext i
  simp only [addf_apply]
  exact add_right_comm _ _ _

/-- At `Ideal` the kernel's order of the fused update's two additions gives the reference's value, width 64. -/
theorem sageK64_row (a : TF Ideal S100000x128) (wl : TF Ideal S128x64) (b : TF Ideal S100000x128) (wr : TF Ideal S128x64)
    (bias : TF Ideal S64) :
    Spec.sageK64 a wl b wr (Spec.biasRow64 bias) = Spec.sage64 a wl b wr bias := by
  unfold Spec.sageK64 Spec.sage64
  rw [biasRow64_eq]
  funext i
  simp only [addf_apply]
  exact add_right_comm _ _ _

end Cert.KernelIdeal.Alg

end
-- ==== Proof.Keep1.lean ====
import proofs.«157546_j87986700026404_1_alg».proof.Proof.FrameKIa
import Idealize.ShloMosaic.Lib.StableHlo.Run

/-! # Which buffers each segment of the run leaves alone

For every boundary `k` of the run's fold of buffer contents (`GenP.W0 … GenP.W22`): the contents at boundary `k` equal
the contents at boundary `k - 1` at every buffer the segment between them does not write. A host stretch writes the
result references of its operations (the list `wrK`); a region rewrites only its output array. All statements hold for
any float family. -/

set_option maxRecDepth 16384

namespace Cert.KernelIdeal.Keep

open Cert.KernelIdeal Cert.KernelIdeal.Gen Cert.KernelIdeal.GenP Idealize.ShloMosaic

variable {F : FTy → Type} [FloatOps F]
variable (m : (ℓ : Loc nD τ sig) → Buf (Elt F) ℓ) (ρ : Dev nD → PrngReg)

/-- The singleton of a listed reference's device buffer lies in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Every buffer `hostOps0` writes: the result reference of each of its 30 operations, in order. -/
abbrev wr1 : List (Ref sig .tc) :=
  [main_v0, main_v1, main_v2, main_v3, main_c, main_v4, main_v5, main_c_0, main_v6, main_v7, main_v8,
   main_v9, main_v10, main_cst, main_v11, main_v12, main_v13, main_cst_1, main_v14, main_cst_2, main_v15,
   main_v16, main_v17, main_cst_3, main_v18, main_v19, main_v20, main_v21, main_v22, main_v23]

/-- A buffer `hostOps0` does not write holds after it what it held before it. -/
theorem keep1 (c : Dev nD) (b : Ref sig .tc) (hb : b ∉ wr1) :
    W1 m ρ c (Proc.devRef .tc b) = W0 m ρ c (Proc.devRef .tc b) :=
  StableHlo.after_of_writes_sub (W := wr1) hostOps0 (W0 m ρ c) (by
    simp only [hostOps0, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Region 0 rewrites only its output array `main_v24`: each of its input arrays
    (`main_v22`, `main_arg10`, `main_arg1`, `main_arg12`, `main_v23`) keeps the contents it entered with,
    and a buffer that is none of the region's arrays is not touched. -/
theorem keep2 (c : Dev nD) (b : Ref sig .tc) (hb : b ≠ main_v24) :
    W2 m ρ c (Proc.devRef .tc b) = W1 m ρ c (Proc.devRef .tc b) := by
  by_cases h0 : b = main_v22
  · subst h0
    exact (W2_arr m ρ c 0).trans (((dat0 (V1 m ρ) c).arrAt_in 0 rfl _).trans (A_eq0 (V1 m ρ) c 0))
  by_cases h1 : b = main_arg10
  · subst h1
    exact (W2_arr m ρ c 1).trans (((dat0 (V1 m ρ) c).arrAt_in 1 rfl _).trans (A_eq0 (V1 m ρ) c 1))
  by_cases h2 : b = main_arg1
  · subst h2
    exact (W2_arr m ρ c 2).trans (((dat0 (V1 m ρ) c).arrAt_in 2 rfl _).trans (A_eq0 (V1 m ρ) c 2))
  by_cases h3 : b = main_arg12
  · subst h3
    exact (W2_arr m ρ c 3).trans (((dat0 (V1 m ρ) c).arrAt_in 3 rfl _).trans (A_eq0 (V1 m ρ) c 3))
  by_cases h4 : b = main_v23
  · subst h4
    exact (W2_arr m ρ c 4).trans (((dat0 (V1 m ρ) c).arrAt_in 4 rfl _).trans (A_eq0 (V1 m ρ) c 4))
  have hw : ∀ w, Pipeline.arrRef spec0 w ∈ [main_v22, main_arg10, main_arg1, main_arg12, main_v23, main_v24] := by decide
  refine W2_of_ne m ρ c b fun w e => ?_
  have h := hw w
  rw [e] at h
  rcases List.mem_cons.mp h with h | h
  · exact h0 h
  rcases List.mem_cons.mp h with h | h
  · exact h1 h
  rcases List.mem_cons.mp h with h | h
  · exact h2 h
  rcases List.mem_cons.mp h with h | h
  · exact h3 h
  rcases List.mem_cons.mp h with h | h
  · exact h4 h
  rcases List.mem_cons.mp h with h | h
  · exact hb h
  · cases h

/-- Region 1 rewrites only its output array `main_v25`: each of its input arrays
    (`main_arg1`, `main_arg15`) keeps the contents it entered with,
    and a buffer that is none of the region's arrays is not touched. -/
theorem keep3 (c : Dev nD) (b : Ref sig .tc) (hb : b ≠ main_v25) :
    W3 m ρ c (Proc.devRef .tc b) = W2 m ρ c (Proc.devRef .tc b) := by
  by_cases h0 : b = main_arg1
  · subst h0
    exact (W3_arr m ρ c 0).trans (((dat1 (V2 m ρ) c).arrAt_in 0 rfl _).trans (A_eq1 (V2 m ρ) c 0))
  by_cases h1 : b = main_arg15
  · subst h1
    exact (W3_arr m ρ c 1).trans (((dat1 (V2 m ρ) c).arrAt_in 1 rfl _).trans (A_eq1 (V2 m ρ) c 1))
  have hw : ∀ w, Pipeline.arrRef spec1 w ∈ [main_arg1, main_arg15, main_v25] := by decide
  refine W3_of_ne m ρ c b fun w e => ?_
  have h := hw w
  rw [e] at h
  rcases List.mem_cons.mp h with h | h
  · exact h0 h
  rcases List.mem_cons.mp h with h | h
  · exact h1 h
  rcases List.mem_cons.mp h with h | h
  · exact hb h
  · cases h

/-- Every buffer `hostOps2` writes: the result reference of each of its 18 operations, in order. -/
abbrev wr4 : List (Ref sig .tc) :=
  [main_v26, main_v27, main_v28, main_v29, main_v30, main_v31, main_v32, main_cst_4, main_v33, main_cst_5,
   main_v34, main_v35, main_v36, main_cst_6, main_v37, main_v38, main_v39, main_cst_7]

/-- A buffer `hostOps2` does not write holds after it what it held before it. -/
theorem keep4 (c : Dev nD) (b : Ref sig .tc) (hb : b ∉ wr4) :
    W4 m ρ c (Proc.devRef .tc b) = W3 m ρ c (Proc.devRef .tc b) :=
  StableHlo.after_of_writes_sub (W := wr4) hostOps2 (W3 m ρ c) (by
    simp only [hostOps2, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps2_1` writes: the result reference of each of its 3 operations, in order. -/
abbrev wr5 : List (Ref sig .tc) :=
  [main_call0_v0, main_call0_v1, main_v40]

/-- A buffer `hostOps2_1` does not write holds after it what it held before it. -/
theorem keep5 (c : Dev nD) (b : Ref sig .tc) (hb : b ∉ wr5) :
    W5 m ρ c (Proc.devRef .tc b) = W4 m ρ c (Proc.devRef .tc b) :=
  StableHlo.after_of_writes_sub (W := wr5) hostOps2_1 (W4 m ρ c) (by
    simp only [hostOps2_1, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps2_2` writes: the result reference of each of its 39 operations, in order. -/
abbrev wr6 : List (Ref sig .tc) :=
  [main_c_8, main_v41, main_v42, main_c_9, main_v43, main_v44, main_v45, main_v46, main_v47, main_c_10,
   main_v48, main_v49, main_c_11, main_v50, main_v51, main_v52, main_v53, main_v54, main_v55, main_c_12,
   main_v56, main_v57, main_c_13, main_v58, main_v59, main_v60, main_v61, main_v62, main_v63, main_v64,
   main_v65, main_cst_14, main_v66, main_v67, main_v68, main_v69, main_v70, main_v71, main_v72]

/-- A buffer `hostOps2_2` does not write holds after it what it held before it. -/
theorem keep6 (c : Dev nD) (b : Ref sig .tc) (hb : b ∉ wr6) :
    W6 m ρ c (Proc.devRef .tc b) = W5 m ρ c (Proc.devRef .tc b) :=
  StableHlo.after_of_writes_sub (W := wr6) hostOps2_2 (W5 m ρ c) (by
    simp only [hostOps2_2, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Region 2 rewrites only its output array `main_v73`: each of its input arrays
    (`main_arg0`, `main_arg13`) keeps the contents it entered with,
    and a buffer that is none of the region's arrays is not touched. -/
theorem keep7 (c : Dev nD) (b : Ref sig .tc) (hb : b ≠ main_v73) :
    W7 m ρ c (Proc.devRef .tc b) = W6 m ρ c (Proc.devRef .tc b) := by
  by_cases h0 : b = main_arg0
  · subst h0
    exact (W7_arr m ρ c 0).trans (((dat2 (V6 m ρ) c).arrAt_in 0 rfl _).trans (A_eq2 (V6 m ρ) c 0))
  by_cases h1 : b = main_arg13
  · subst h1
    exact (W7_arr m ρ c 1).trans (((dat2 (V6 m ρ) c).arrAt_in 1 rfl _).trans (A_eq2 (V6 m ρ) c 1))
  have hw : ∀ w, Pipeline.arrRef spec2 w ∈ [main_arg0, main_arg13, main_v73] := by decide
  refine W7_of_ne m ρ c b fun w e => ?_
  have h := hw w
  rw [e] at h
  rcases List.mem_cons.mp h with h | h
  · exact h0 h
  rcases List.mem_cons.mp h with h | h
  · exact h1 h
  rcases List.mem_cons.mp h with h | h
  · exact hb h
  · cases h

/-- Every buffer `hostOps3` writes: the result reference of each of its 18 operations, in order. -/
abbrev wr8 : List (Ref sig .tc) :=
  [main_v74, main_v75, main_v76, main_v77, main_v78, main_v79, main_v80, main_cst_15, main_v81, main_cst_16,
   main_v82, main_v83, main_v84, main_cst_17, main_v85, main_v86, main_v87, main_cst_18]

/-- A buffer `hostOps3` does not write holds after it what it held before it. -/
theorem keep8 (c : Dev nD) (b : Ref sig .tc) (hb : b ∉ wr8) :
    W8 m ρ c (Proc.devRef .tc b) = W7 m ρ c (Proc.devRef .tc b) :=
  StableHlo.after_of_writes_sub (W := wr8) hostOps3 (W7 m ρ c) (by
    simp only [hostOps3, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps3_1` writes: the result reference of each of its 3 operations, in order. -/
abbrev wr9 : List (Ref sig .tc) :=
  [main_call1_v0, main_call1_v1, main_v88]

/-- A buffer `hostOps3_1` does not write holds after it what it held before it. -/
theorem keep9 (c : Dev nD) (b : Ref sig .tc) (hb : b ∉ wr9) :
    W9 m ρ c (Proc.devRef .tc b) = W8 m ρ c (Proc.devRef .tc b) :=
  StableHlo.after_of_writes_sub (W := wr9) hostOps3_1 (W8 m ρ c) (by
    simp only [hostOps3_1, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps3_2` writes: the result reference of each of its 38 operations, in order. -/
abbrev wr10 : List (Ref sig .tc) :=
  [main_c_19, main_v89, main_v90, main_c_20, main_v91, main_v92, main_v93, main_v94, main_v95, main_c_21,
   main_v96, main_v97, main_c_22, main_v98, main_v99, main_v100, main_v101, main_v102, main_v103, main_c_23,
   main_v104, main_v105, main_c_24, main_v106, main_v107, main_v108, main_v109, main_v110, main_v111,
   main_v112, main_v113, main_cst_25, main_v114, main_v115, main_v116, main_v117, main_v118, main_v119]

/-- A buffer `hostOps3_2` does not write holds after it what it held before it. -/
theorem keep10 (c : Dev nD) (b : Ref sig .tc) (hb : b ∉ wr10) :
    W10 m ρ c (Proc.devRef .tc b) = W9 m ρ c (Proc.devRef .tc b) :=
  StableHlo.after_of_writes_sub (W := wr10) hostOps3_2 (W9 m ρ c) (by
    simp only [hostOps3_2, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps3_3` writes: the result reference of each of its 3 operations, in order. -/
abbrev wr11 : List (Ref sig .tc) :=
  [main_call2_cst, main_call2_v0, main_v120]

/-- A buffer `hostOps3_3` does not write holds after it what it held before it. -/
theorem keep11 (c : Dev nD) (b : Ref sig .tc) (hb : b ∉ wr11) :
    W11 m ρ c (Proc.devRef .tc b) = W10 m ρ c (Proc.devRef .tc b) :=
  StableHlo.after_of_writes_sub (W := wr11) hostOps3_3 (W10 m ρ c) (by
    simp only [hostOps3_3, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps3_4` writes: the result reference of each of its 3 operations, in order. -/
abbrev wr12 : List (Ref sig .tc) :=
  [main_call3_cst, main_call3_v0, main_v121]

/-- A buffer `hostOps3_4` does not write holds after it what it held before it. -/
theorem keep12 (c : Dev nD) (b : Ref sig .tc) (hb : b ∉ wr12) :
    W12 m ρ c (Proc.devRef .tc b) = W11 m ρ c (Proc.devRef .tc b) :=
  StableHlo.after_of_writes_sub (W := wr12) hostOps3_4 (W11 m ρ c) (by
    simp only [hostOps3_4, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps3_5` writes: the result reference of each of its 30 operations, in order. -/
abbrev wr13 : List (Ref sig .tc) :=
  [main_v122, main_v123, main_v124, main_v125, main_c_26, main_v126, main_v127, main_c_27, main_v128,
   main_v129, main_v130, main_v131, main_v132, main_cst_28, main_v133, main_v134, main_v135, main_cst_29,
   main_v136, main_cst_30, main_v137, main_v138, main_v139, main_cst_31, main_v140, main_v141, main_v142,
   main_v143, main_v144, main_v145]

/-- A buffer `hostOps3_5` does not write holds after it what it held before it. -/
theorem keep13 (c : Dev nD) (b : Ref sig .tc) (hb : b ∉ wr13) :
    W13 m ρ c (Proc.devRef .tc b) = W12 m ρ c (Proc.devRef .tc b) :=
  StableHlo.after_of_writes_sub (W := wr13) hostOps3_5 (W12 m ρ c) (by
    simp only [hostOps3_5, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Region 3 rewrites only its output array `main_v146`: each of its input arrays
    (`main_v144`, `main_arg17`, `main_v121`, `main_arg19`, `main_v145`) keeps the contents it entered with,
    and a buffer that is none of the region's arrays is not touched. -/
theorem keep14 (c : Dev nD) (b : Ref sig .tc) (hb : b ≠ main_v146) :
    W14 m ρ c (Proc.devRef .tc b) = W13 m ρ c (Proc.devRef .tc b) := by
  by_cases h0 : b = main_v144
  · subst h0
    exact (W14_arr m ρ c 0).trans (((dat3 (V13 m ρ) c).arrAt_in 0 rfl _).trans (A_eq3 (V13 m ρ) c 0))
  by_cases h1 : b = main_arg17
  · subst h1
    exact (W14_arr m ρ c 1).trans (((dat3 (V13 m ρ) c).arrAt_in 1 rfl _).trans (A_eq3 (V13 m ρ) c 1))
  by_cases h2 : b = main_v121
  · subst h2
    exact (W14_arr m ρ c 2).trans (((dat3 (V13 m ρ) c).arrAt_in 2 rfl _).trans (A_eq3 (V13 m ρ) c 2))
  by_cases h3 : b = main_arg19
  · subst h3
    exact (W14_arr m ρ c 3).trans (((dat3 (V13 m ρ) c).arrAt_in 3 rfl _).trans (A_eq3 (V13 m ρ) c 3))
  by_cases h4 : b = main_v145
  · subst h4
    exact (W14_arr m ρ c 4).trans (((dat3 (V13 m ρ) c).arrAt_in 4 rfl _).trans (A_eq3 (V13 m ρ) c 4))
  have hw : ∀ w, Pipeline.arrRef spec3 w ∈ [main_v144, main_arg17, main_v121, main_arg19, main_v145, main_v146] := by decide
  refine W14_of_ne m ρ c b fun w e => ?_
  have h := hw w
  rw [e] at h
  rcases List.mem_cons.mp h with h | h
  · exact h0 h
  rcases List.mem_cons.mp h with h | h
  · exact h1 h
  rcases List.mem_cons.mp h with h | h
  · exact h2 h
  rcases List.mem_cons.mp h with h | h
  · exact h3 h
  rcases List.mem_cons.mp h with h | h
  · exact h4 h
  rcases List.mem_cons.mp h with h | h
  · exact hb h
  · cases h

/-- Region 4 rewrites only its output array `main_v147`: each of its input arrays
    (`main_v121`, `main_arg22`) keeps the contents it entered with,
    and a buffer that is none of the region's arrays is not touched. -/
theorem keep15 (c : Dev nD) (b : Ref sig .tc) (hb : b ≠ main_v147) :
    W15 m ρ c (Proc.devRef .tc b) = W14 m ρ c (Proc.devRef .tc b) := by
  by_cases h0 : b = main_v121
  · subst h0
    exact (W15_arr m ρ c 0).trans (((dat4 (V14 m ρ) c).arrAt_in 0 rfl _).trans (A_eq4 (V14 m ρ) c 0))
  by_cases h1 : b = main_arg22
  · subst h1
    exact (W15_arr m ρ c 1).trans (((dat4 (V14 m ρ) c).arrAt_in 1 rfl _).trans (A_eq4 (V14 m ρ) c 1))
  have hw : ∀ w, Pipeline.arrRef spec4 w ∈ [main_v121, main_arg22, main_v147] := by decide
  refine W15_of_ne m ρ c b fun w e => ?_
  have h := hw w
  rw [e] at h
  rcases List.mem_cons.mp h with h | h
  · exact h0 h
  rcases List.mem_cons.mp h with h | h
  · exact h1 h
  rcases List.mem_cons.mp h with h | h
  · exact hb h
  · cases h

/-- Every buffer `hostOps5` writes: the result reference of each of its 18 operations, in order. -/
abbrev wr16 : List (Ref sig .tc) :=
  [main_v148, main_v149, main_v150, main_v151, main_v152, main_v153, main_v154, main_cst_32, main_v155,
   main_cst_33, main_v156, main_v157, main_v158, main_cst_34, main_v159, main_v160, main_v161, main_cst_35]

/-- A buffer `hostOps5` does not write holds after it what it held before it. -/
theorem keep16 (c : Dev nD) (b : Ref sig .tc) (hb : b ∉ wr16) :
    W16 m ρ c (Proc.devRef .tc b) = W15 m ρ c (Proc.devRef .tc b) :=
  StableHlo.after_of_writes_sub (W := wr16) hostOps5 (W15 m ρ c) (by
    simp only [hostOps5, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps5_1` writes: the result reference of each of its 3 operations, in order. -/
abbrev wr17 : List (Ref sig .tc) :=
  [main_call4_v0, main_call4_v1, main_v162]

/-- A buffer `hostOps5_1` does not write holds after it what it held before it. -/
theorem keep17 (c : Dev nD) (b : Ref sig .tc) (hb : b ∉ wr17) :
    W17 m ρ c (Proc.devRef .tc b) = W16 m ρ c (Proc.devRef .tc b) :=
  StableHlo.after_of_writes_sub (W := wr17) hostOps5_1 (W16 m ρ c) (by
    simp only [hostOps5_1, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps5_2` writes: the result reference of each of its 39 operations, in order. -/
abbrev wr18 : List (Ref sig .tc) :=
  [main_c_36, main_v163, main_v164, main_c_37, main_v165, main_v166, main_v167, main_v168, main_v169,
   main_c_38, main_v170, main_v171, main_c_39, main_v172, main_v173, main_v174, main_v175, main_v176,
   main_v177, main_c_40, main_v178, main_v179, main_c_41, main_v180, main_v181, main_v182, main_v183,
   main_v184, main_v185, main_v186, main_v187, main_cst_42, main_v188, main_v189, main_v190, main_v191,
   main_v192, main_v193, main_v194]

/-- A buffer `hostOps5_2` does not write holds after it what it held before it. -/
theorem keep18 (c : Dev nD) (b : Ref sig .tc) (hb : b ∉ wr18) :
    W18 m ρ c (Proc.devRef .tc b) = W17 m ρ c (Proc.devRef .tc b) :=
  StableHlo.after_of_writes_sub (W := wr18) hostOps5_2 (W17 m ρ c) (by
    simp only [hostOps5_2, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Region 5 rewrites only its output array `main_v195`: each of its input arrays
    (`main_v120`, `main_arg20`) keeps the contents it entered with,
    and a buffer that is none of the region's arrays is not touched. -/
theorem keep19 (c : Dev nD) (b : Ref sig .tc) (hb : b ≠ main_v195) :
    W19 m ρ c (Proc.devRef .tc b) = W18 m ρ c (Proc.devRef .tc b) := by
  by_cases h0 : b = main_v120
  · subst h0
    exact (W19_arr m ρ c 0).trans (((dat5 (V18 m ρ) c).arrAt_in 0 rfl _).trans (A_eq5 (V18 m ρ) c 0))
  by_cases h1 : b = main_arg20
  · subst h1
    exact (W19_arr m ρ c 1).trans (((dat5 (V18 m ρ) c).arrAt_in 1 rfl _).trans (A_eq5 (V18 m ρ) c 1))
  have hw : ∀ w, Pipeline.arrRef spec5 w ∈ [main_v120, main_arg20, main_v195] := by decide
  refine W19_of_ne m ρ c b fun w e => ?_
  have h := hw w
  rw [e] at h
  rcases List.mem_cons.mp h with h | h
  · exact h0 h
  rcases List.mem_cons.mp h with h | h
  · exact h1 h
  rcases List.mem_cons.mp h with h | h
  · exact hb h
  · cases h

/-- Every buffer `hostOps6` writes: the result reference of each of its 18 operations, in order. -/
abbrev wr20 : List (Ref sig .tc) :=
  [main_v196, main_v197, main_v198, main_v199, main_v200, main_v201, main_v202, main_cst_43, main_v203,
   main_cst_44, main_v204, main_v205, main_v206, main_cst_45, main_v207, main_v208, main_v209, main_cst_46]

/-- A buffer `hostOps6` does not write holds after it what it held before it. -/
theorem keep20 (c : Dev nD) (b : Ref sig .tc) (hb : b ∉ wr20) :
    W20 m ρ c (Proc.devRef .tc b) = W19 m ρ c (Proc.devRef .tc b) :=
  StableHlo.after_of_writes_sub (W := wr20) hostOps6 (W19 m ρ c) (by
    simp only [hostOps6, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps6_1` writes: the result reference of each of its 3 operations, in order. -/
abbrev wr21 : List (Ref sig .tc) :=
  [main_call5_v0, main_call5_v1, main_v210]

/-- A buffer `hostOps6_1` does not write holds after it what it held before it. -/
theorem keep21 (c : Dev nD) (b : Ref sig .tc) (hb : b ∉ wr21) :
    W21 m ρ c (Proc.devRef .tc b) = W20 m ρ c (Proc.devRef .tc b) :=
  StableHlo.after_of_writes_sub (W := wr21) hostOps6_1 (W20 m ρ c) (by
    simp only [hostOps6_1, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-- Every buffer `hostOps6_2` writes: the result reference of each of its 68 operations, in order. -/
abbrev wr22 : List (Ref sig .tc) :=
  [main_c_47, main_v211, main_v212, main_c_48, main_v213, main_v214, main_v215, main_v216, main_v217,
   main_c_49, main_v218, main_v219, main_c_50, main_v220, main_v221, main_v222, main_v223, main_v224,
   main_v225, main_c_51, main_v226, main_v227, main_c_52, main_v228, main_v229, main_v230, main_v231,
   main_v232, main_v233, main_v234, main_v235, main_cst_53, main_v236, main_v237, main_v238, main_v239,
   main_v240, main_v241, main_v242, main_v243, main_v244, main_v245, main_c_54, main_v246, main_v247,
   main_c_55, main_v248, main_v249, main_v250, main_v251, main_v252, main_cst_56, main_v253, main_v254,
   main_v255, main_cst_57, main_v256, main_cst_58, main_v257, main_v258, main_v259, main_cst_59, main_v260,
   main_v261, main_v262, main_v263, main_v264, main_v265]

/-- A buffer `hostOps6_2` does not write holds after it what it held before it. -/
theorem keep22 (c : Dev nD) (b : Ref sig .tc) (hb : b ∉ wr22) :
    W22 m ρ c (Proc.devRef .tc b) = W21 m ρ c (Proc.devRef .tc b) :=
  StableHlo.after_of_writes_sub (W := wr22) hostOps6_2 (W21 m ρ c) (by
    simp only [hostOps6_2, List.Forall, StableHlo.nullary_writes, StableHlo.unary_writes, StableHlo.binary_writes,
      StableHlo.ternary_writes, StableHlo.quaternary_writes, StableHlo.reshape_writes, StableHlo.binaryIndexed_writes]
    repeat' apply And.intro
    all_goals exact single_sub_of_mem (by decide)) hb

/-! ## The lemmas as a caller cites them: the side condition closes by `decide` at a literal buffer -/

/-- A host stretch's lemma at an argument it only reads. -/
example (c : Dev nD) : W4 m ρ c (Proc.devRef .tc main_arg6) = W3 m ρ c (Proc.devRef .tc main_arg6) :=
  keep4 m ρ c main_arg6 (by decide)
/-- A host stretch's lemma at an earlier stretch's result. -/
example (c : Dev nD) : W6 m ρ c (Proc.devRef .tc main_v40) = W5 m ρ c (Proc.devRef .tc main_v40) :=
  keep6 m ρ c main_v40 (by decide)
/-- A region's lemma at one of its input arrays. -/
example (c : Dev nD) : W2 m ρ c (Proc.devRef .tc main_v22) = W1 m ρ c (Proc.devRef .tc main_v22) :=
  keep2 m ρ c main_v22 (by decide)
/-- A region's lemma at a buffer that is none of its arrays. -/
example (c : Dev nD) : W7 m ρ c (Proc.devRef .tc main_v72) = W6 m ρ c (Proc.devRef .tc main_v72) :=
  keep7 m ρ c main_v72 (by decide)

end Cert.KernelIdeal.Keep
-- ==== Proof.Keep2.lean ====
/-
  What each segment of the run from region 6 to the return leaves untouched, for any float family: a stretch of host
  operations rewrites only its operations' result buffers, and a region rewrites only its output array. Stated at a
  variable buffer, so that one lemma per segment carries every buffer the segment does not write across it.
-/
import proofs.«157546_j87986700026404_1_alg».proof.Proof.FrameKIa
import Idealize.ShloMosaic.Lib.StableHlo.Run

noncomputable section

namespace Cert.KernelIdeal.Keep

open Idealize.ShloMosaic Cert.KernelIdeal Cert.KernelIdeal.Gen Cert.KernelIdeal.GenP

variable {F : FTy → Type} [FloatOps F]
variable (m : (ℓ : Loc nD τ sig) → Buf (Elt F) ℓ) (ρ : Dev nD → PrngReg)

/-- A buffer named in a list is, as a device buffer, in the set of the list's device buffers: the shape in which a
    single operation's write set is compared with a stretch's list of written buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Region 6 rewrites only its output array `main_v266`: its input arrays
    (`main_v264`, `main_arg24`, `main_arg3`, `main_arg26`, `main_v265`)
    are left as entered, and so is every buffer that is none of its arrays. -/
theorem keep23 (c : Dev nD) (b : Ref sig .tc) (hb : b ≠ main_v266) :
    W23 m ρ c (Proc.devRef .tc b) = W22 m ρ c (Proc.devRef .tc b) := by
  by_cases h0 : b = main_v264
  · subst h0
    exact (W23_arr m ρ c 0).trans (((dat6 (V22 m ρ) c).arrAt_in 0 rfl _).trans (A_eq6 (V22 m ρ) c 0))
  by_cases h1 : b = main_arg24
  · subst h1
    exact (W23_arr m ρ c 1).trans (((dat6 (V22 m ρ) c).arrAt_in 1 rfl _).trans (A_eq6 (V22 m ρ) c 1))
  by_cases h2 : b = main_arg3
  · subst h2
    exact (W23_arr m ρ c 2).trans (((dat6 (V22 m ρ) c).arrAt_in 2 rfl _).trans (A_eq6 (V22 m ρ) c 2))
  by_cases h3 : b = main_arg26
  · subst h3
    exact (W23_arr m ρ c 3).trans (((dat6 (V22 m ρ) c).arrAt_in 3 rfl _).trans (A_eq6 (V22 m ρ) c 3))
  by_cases h4 : b = main_v265
  · subst h4
    exact (W23_arr m ρ c 4).trans (((dat6 (V22 m ρ) c).arrAt_in 4 rfl _).trans (A_eq6 (V22 m ρ) c 4))
  exact W23_of_ne m ρ c b fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm

/-- Region 7 rewrites only its output array `main_v267`: its input arrays
    (`main_arg3`, `main_arg29`)
    are left as entered, and so is every buffer that is none of its arrays. -/
theorem keep24 (c : Dev nD) (b : Ref sig .tc) (hb : b ≠ main_v267) :
    W24 m ρ c (Proc.devRef .tc b) = W23 m ρ c (Proc.devRef .tc b) := by
  by_cases h0 : b = main_arg3
  · subst h0
    exact (W24_arr m ρ c 0).trans (((dat7 (V23 m ρ) c).arrAt_in 0 rfl _).trans (A_eq7 (V23 m ρ) c 0))
  by_cases h1 : b = main_arg29
  · subst h1
    exact (W24_arr m ρ c 1).trans (((dat7 (V23 m ρ) c).arrAt_in 1 rfl _).trans (A_eq7 (V23 m ρ) c 1))
  exact W24_of_ne m ρ c b fun w => match w with
    | ⟨0, _⟩ => fun e => h0 e.symm
    | ⟨1, _⟩ => fun e => h1 e.symm
    | ⟨2, _⟩ => fun e => hb e.symm

/-- The buffers `hostOps8` (18 host operations of @main) writes: each operation's result, in order. -/
abbrev wr25 : List (Ref sig .tc) :=
  [main_v268, main_v269, main_v270, main_v271, main_v272, main_v273, main_v274, main_cst_60, main_v275,
    main_cst_61, main_v276, main_v277, main_v278, main_cst_62, main_v279, main_v280, main_v281, main_cst_63]

/-- `hostOps8` rewrites only its operations' results: any other buffer holds after it what it held before. -/
theorem keep25 (c : Dev nD) (b : Ref sig .tc) (hb : b ∉ wr25) :
    W25 m ρ c (Proc.devRef .tc b) = W24 m ρ c (Proc.devRef .tc b) :=
  StableHlo.after_of_writes_sub (W := wr25) hostOps8 (W24 m ρ c) (by
    simp only [hostOps8, List.Forall,
      StableHlo.nullary_writes, StableHlo.unary_writes, StableHlo.binary_writes, StableHlo.ternary_writes, StableHlo.reshape_writes]
    repeat' apply And.intro
    all_goals exact sub_of_mem (by decide)) hb

/-- The buffers `hostOps8_1` (3 host operations of @_where (main_call6)) writes: each operation's result, in order. -/
abbrev wr26 : List (Ref sig .tc) :=
  [main_call6_v0, main_call6_v1, main_v282]

/-- `hostOps8_1` rewrites only its operations' results: any other buffer holds after it what it held before. -/
theorem keep26 (c : Dev nD) (b : Ref sig .tc) (hb : b ∉ wr26) :
    W26 m ρ c (Proc.devRef .tc b) = W25 m ρ c (Proc.devRef .tc b) :=
  StableHlo.after_of_writes_sub (W := wr26) hostOps8_1 (W25 m ρ c) (by
    simp only [hostOps8_1, List.Forall,
      StableHlo.nullary_writes, StableHlo.unary_writes, StableHlo.binary_writes, StableHlo.ternary_writes, StableHlo.reshape_writes]
    repeat' apply And.intro
    all_goals exact sub_of_mem (by decide)) hb

/-- The buffers `hostOps8_2` (39 host operations of @main) writes: each operation's result, in order. -/
abbrev wr27 : List (Ref sig .tc) :=
  [main_c_64, main_v283, main_v284, main_c_65, main_v285, main_v286, main_v287, main_v288, main_v289, main_c_66,
    main_v290, main_v291, main_c_67, main_v292, main_v293, main_v294, main_v295, main_v296, main_v297, main_c_68,
    main_v298, main_v299, main_c_69, main_v300, main_v301, main_v302, main_v303, main_v304, main_v305, main_v306,
    main_v307, main_cst_70, main_v308, main_v309, main_v310, main_v311, main_v312, main_v313, main_v314]

/-- `hostOps8_2` rewrites only its operations' results: any other buffer holds after it what it held before. -/
theorem keep27 (c : Dev nD) (b : Ref sig .tc) (hb : b ∉ wr27) :
    W27 m ρ c (Proc.devRef .tc b) = W26 m ρ c (Proc.devRef .tc b) :=
  StableHlo.after_of_writes_sub (W := wr27) hostOps8_2 (W26 m ρ c) (by
    simp only [hostOps8_2, List.Forall,
      StableHlo.nullary_writes, StableHlo.unary_writes, StableHlo.binary_writes, StableHlo.ternary_writes, StableHlo.reshape_writes]
    repeat' apply And.intro
    all_goals exact sub_of_mem (by decide)) hb

/-- Region 8 rewrites only its output array `main_v315`: its input arrays
    (`main_arg2`, `main_arg27`)
    are left as entered, and so is every buffer that is none of its arrays. -/
theorem keep28 (c : Dev nD) (b : Ref sig .tc) (hb : b ≠ main_v315) :
    W28 m ρ c (Proc.devRef .tc b) = W27 m ρ c (Proc.devRef .tc b) := by
  by_cases h0 : b = main_arg2
  · subst h0
    exact (W28_arr m ρ c 0).trans (((dat8 (V27 m ρ) c).arrAt_in 0 rfl _).trans (A_eq8 (V27 m ρ) c 0))
  by_cases h1 : b = main_arg27
  · subst h1
    exact (W28_arr m ρ c 1).trans (((dat8 (V27 m ρ) c).arrAt_in 1 rfl _).trans (A_eq8 (V27 m ρ) c 1))
  exact W28_of_ne m ρ c b fun w => match w with
    | ⟨0, _⟩ => fun e => h0 e.symm
    | ⟨1, _⟩ => fun e => h1 e.symm
    | ⟨2, _⟩ => fun e => hb e.symm

/-- The buffers `hostOps9` (18 host operations of @main) writes: each operation's result, in order. -/
abbrev wr29 : List (Ref sig .tc) :=
  [main_v316, main_v317, main_v318, main_v319, main_v320, main_v321, main_v322, main_cst_71, main_v323,
    main_cst_72, main_v324, main_v325, main_v326, main_cst_73, main_v327, main_v328, main_v329, main_cst_74]

/-- `hostOps9` rewrites only its operations' results: any other buffer holds after it what it held before. -/
theorem keep29 (c : Dev nD) (b : Ref sig .tc) (hb : b ∉ wr29) :
    W29 m ρ c (Proc.devRef .tc b) = W28 m ρ c (Proc.devRef .tc b) :=
  StableHlo.after_of_writes_sub (W := wr29) hostOps9 (W28 m ρ c) (by
    simp only [hostOps9, List.Forall,
      StableHlo.nullary_writes, StableHlo.unary_writes, StableHlo.binary_writes, StableHlo.ternary_writes, StableHlo.reshape_writes]
    repeat' apply And.intro
    all_goals exact sub_of_mem (by decide)) hb

/-- The buffers `hostOps9_1` (3 host operations of @_where (main_call7)) writes: each operation's result, in order. -/
abbrev wr30 : List (Ref sig .tc) :=
  [main_call7_v0, main_call7_v1, main_v330]

/-- `hostOps9_1` rewrites only its operations' results: any other buffer holds after it what it held before. -/
theorem keep30 (c : Dev nD) (b : Ref sig .tc) (hb : b ∉ wr30) :
    W30 m ρ c (Proc.devRef .tc b) = W29 m ρ c (Proc.devRef .tc b) :=
  StableHlo.after_of_writes_sub (W := wr30) hostOps9_1 (W29 m ρ c) (by
    simp only [hostOps9_1, List.Forall,
      StableHlo.nullary_writes, StableHlo.unary_writes, StableHlo.binary_writes, StableHlo.ternary_writes, StableHlo.reshape_writes]
    repeat' apply And.intro
    all_goals exact sub_of_mem (by decide)) hb

/-- The buffers `hostOps9_2` (38 host operations of @main) writes: each operation's result, in order. -/
abbrev wr31 : List (Ref sig .tc) :=
  [main_c_75, main_v331, main_v332, main_c_76, main_v333, main_v334, main_v335, main_v336, main_v337, main_c_77,
    main_v338, main_v339, main_c_78, main_v340, main_v341, main_v342, main_v343, main_v344, main_v345, main_c_79,
    main_v346, main_v347, main_c_80, main_v348, main_v349, main_v350, main_v351, main_v352, main_v353, main_v354,
    main_v355, main_cst_81, main_v356, main_v357, main_v358, main_v359, main_v360, main_v361]

/-- `hostOps9_2` rewrites only its operations' results: any other buffer holds after it what it held before. -/
theorem keep31 (c : Dev nD) (b : Ref sig .tc) (hb : b ∉ wr31) :
    W31 m ρ c (Proc.devRef .tc b) = W30 m ρ c (Proc.devRef .tc b) :=
  StableHlo.after_of_writes_sub (W := wr31) hostOps9_2 (W30 m ρ c) (by
    simp only [hostOps9_2, List.Forall,
      StableHlo.nullary_writes, StableHlo.unary_writes, StableHlo.binary_writes, StableHlo.ternary_writes, StableHlo.reshape_writes]
    repeat' apply And.intro
    all_goals exact sub_of_mem (by decide)) hb

/-- The buffers `hostOps9_3` (3 host operations of @relu (main_call8)) writes: each operation's result, in order. -/
abbrev wr32 : List (Ref sig .tc) :=
  [main_call8_cst, main_call8_v0, main_v362]

/-- `hostOps9_3` rewrites only its operations' results: any other buffer holds after it what it held before. -/
theorem keep32 (c : Dev nD) (b : Ref sig .tc) (hb : b ∉ wr32) :
    W32 m ρ c (Proc.devRef .tc b) = W31 m ρ c (Proc.devRef .tc b) :=
  StableHlo.after_of_writes_sub (W := wr32) hostOps9_3 (W31 m ρ c) (by
    simp only [hostOps9_3, List.Forall,
      StableHlo.nullary_writes, StableHlo.unary_writes, StableHlo.binary_writes, StableHlo.ternary_writes, StableHlo.reshape_writes]
    repeat' apply And.intro
    all_goals exact sub_of_mem (by decide)) hb

/-- The buffers `hostOps9_4` (3 host operations of @relu (main_call9)) writes: each operation's result, in order. -/
abbrev wr33 : List (Ref sig .tc) :=
  [main_call9_cst, main_call9_v0, main_v363]

/-- `hostOps9_4` rewrites only its operations' results: any other buffer holds after it what it held before. -/
theorem keep33 (c : Dev nD) (b : Ref sig .tc) (hb : b ∉ wr33) :
    W33 m ρ c (Proc.devRef .tc b) = W32 m ρ c (Proc.devRef .tc b) :=
  StableHlo.after_of_writes_sub (W := wr33) hostOps9_4 (W32 m ρ c) (by
    simp only [hostOps9_4, List.Forall,
      StableHlo.nullary_writes, StableHlo.unary_writes, StableHlo.binary_writes, StableHlo.ternary_writes, StableHlo.reshape_writes]
    repeat' apply And.intro
    all_goals exact sub_of_mem (by decide)) hb

/-- The buffers `hostOps9_5` (30 host operations of @main) writes: each operation's result, in order. -/
abbrev wr34 : List (Ref sig .tc) :=
  [main_v364, main_v365, main_v366, main_v367, main_c_82, main_v368, main_v369, main_c_83, main_v370, main_v371,
    main_v372, main_v373, main_v374, main_cst_84, main_v375, main_v376, main_v377, main_cst_85, main_v378,
    main_cst_86, main_v379, main_v380, main_v381, main_cst_87, main_v382, main_v383, main_v384, main_v385,
    main_v386, main_v387]

/-- `hostOps9_5` rewrites only its operations' results: any other buffer holds after it what it held before. -/
theorem keep34 (c : Dev nD) (b : Ref sig .tc) (hb : b ∉ wr34) :
    W34 m ρ c (Proc.devRef .tc b) = W33 m ρ c (Proc.devRef .tc b) :=
  StableHlo.after_of_writes_sub (W := wr34) hostOps9_5 (W33 m ρ c) (by
    simp only [hostOps9_5, List.Forall,
      StableHlo.nullary_writes, StableHlo.unary_writes, StableHlo.binary_writes, StableHlo.ternary_writes, StableHlo.reshape_writes]
    repeat' apply And.intro
    all_goals exact sub_of_mem (by decide)) hb

/-- Region 9 rewrites only its output array `main_v388`: its input arrays
    (`main_v386`, `main_arg31`, `main_v363`, `main_arg33`, `main_v387`)
    are left as entered, and so is every buffer that is none of its arrays. -/
theorem keep35 (c : Dev nD) (b : Ref sig .tc) (hb : b ≠ main_v388) :
    W35 m ρ c (Proc.devRef .tc b) = W34 m ρ c (Proc.devRef .tc b) := by
  by_cases h0 : b = main_v386
  · subst h0
    exact (W35_arr m ρ c 0).trans (((dat9 (V34 m ρ) c).arrAt_in 0 rfl _).trans (A_eq9 (V34 m ρ) c 0))
  by_cases h1 : b = main_arg31
  · subst h1
    exact (W35_arr m ρ c 1).trans (((dat9 (V34 m ρ) c).arrAt_in 1 rfl _).trans (A_eq9 (V34 m ρ) c 1))
  by_cases h2 : b = main_v363
  · subst h2
    exact (W35_arr m ρ c 2).trans (((dat9 (V34 m ρ) c).arrAt_in 2 rfl _).trans (A_eq9 (V34 m ρ) c 2))
  by_cases h3 : b = main_arg33
  · subst h3
    exact (W35_arr m ρ c 3).trans (((dat9 (V34 m ρ) c).arrAt_in 3 rfl _).trans (A_eq9 (V34 m ρ) c 3))
  by_cases h4 : b = main_v387
  · subst h4
    exact (W35_arr m ρ c 4).trans (((dat9 (V34 m ρ) c).arrAt_in 4 rfl _).trans (A_eq9 (V34 m ρ) c 4))
  exact W35_of_ne m ρ c b fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm

/-- Region 10 rewrites only its output array `main_v389`: its input arrays
    (`main_v363`, `main_arg36`)
    are left as entered, and so is every buffer that is none of its arrays. -/
theorem keep36 (c : Dev nD) (b : Ref sig .tc) (hb : b ≠ main_v389) :
    W36 m ρ c (Proc.devRef .tc b) = W35 m ρ c (Proc.devRef .tc b) := by
  by_cases h0 : b = main_v363
  · subst h0
    exact (W36_arr m ρ c 0).trans (((dat10 (V35 m ρ) c).arrAt_in 0 rfl _).trans (A_eq10 (V35 m ρ) c 0))
  by_cases h1 : b = main_arg36
  · subst h1
    exact (W36_arr m ρ c 1).trans (((dat10 (V35 m ρ) c).arrAt_in 1 rfl _).trans (A_eq10 (V35 m ρ) c 1))
  exact W36_of_ne m ρ c b fun w => match w with
    | ⟨0, _⟩ => fun e => h0 e.symm
    | ⟨1, _⟩ => fun e => h1 e.symm
    | ⟨2, _⟩ => fun e => hb e.symm

/-- The buffers `hostOps11` (18 host operations of @main) writes: each operation's result, in order. -/
abbrev wr37 : List (Ref sig .tc) :=
  [main_v390, main_v391, main_v392, main_v393, main_v394, main_v395, main_v396, main_cst_88, main_v397,
    main_cst_89, main_v398, main_v399, main_v400, main_cst_90, main_v401, main_v402, main_v403, main_cst_91]

/-- `hostOps11` rewrites only its operations' results: any other buffer holds after it what it held before. -/
theorem keep37 (c : Dev nD) (b : Ref sig .tc) (hb : b ∉ wr37) :
    W37 m ρ c (Proc.devRef .tc b) = W36 m ρ c (Proc.devRef .tc b) :=
  StableHlo.after_of_writes_sub (W := wr37) hostOps11 (W36 m ρ c) (by
    simp only [hostOps11, List.Forall,
      StableHlo.nullary_writes, StableHlo.unary_writes, StableHlo.binary_writes, StableHlo.ternary_writes, StableHlo.reshape_writes]
    repeat' apply And.intro
    all_goals exact sub_of_mem (by decide)) hb

/-- The buffers `hostOps11_1` (3 host operations of @_where (main_call10)) writes: each operation's result, in order. -/
abbrev wr38 : List (Ref sig .tc) :=
  [main_call10_v0, main_call10_v1, main_v404]

/-- `hostOps11_1` rewrites only its operations' results: any other buffer holds after it what it held before. -/
theorem keep38 (c : Dev nD) (b : Ref sig .tc) (hb : b ∉ wr38) :
    W38 m ρ c (Proc.devRef .tc b) = W37 m ρ c (Proc.devRef .tc b) :=
  StableHlo.after_of_writes_sub (W := wr38) hostOps11_1 (W37 m ρ c) (by
    simp only [hostOps11_1, List.Forall,
      StableHlo.nullary_writes, StableHlo.unary_writes, StableHlo.binary_writes, StableHlo.ternary_writes, StableHlo.reshape_writes]
    repeat' apply And.intro
    all_goals exact sub_of_mem (by decide)) hb

/-- The buffers `hostOps11_2` (39 host operations of @main) writes: each operation's result, in order. -/
abbrev wr39 : List (Ref sig .tc) :=
  [main_c_92, main_v405, main_v406, main_c_93, main_v407, main_v408, main_v409, main_v410, main_v411, main_c_94,
    main_v412, main_v413, main_c_95, main_v414, main_v415, main_v416, main_v417, main_v418, main_v419, main_c_96,
    main_v420, main_v421, main_c_97, main_v422, main_v423, main_v424, main_v425, main_v426, main_v427, main_v428,
    main_v429, main_cst_98, main_v430, main_v431, main_v432, main_v433, main_v434, main_v435, main_v436]

/-- `hostOps11_2` rewrites only its operations' results: any other buffer holds after it what it held before. -/
theorem keep39 (c : Dev nD) (b : Ref sig .tc) (hb : b ∉ wr39) :
    W39 m ρ c (Proc.devRef .tc b) = W38 m ρ c (Proc.devRef .tc b) :=
  StableHlo.after_of_writes_sub (W := wr39) hostOps11_2 (W38 m ρ c) (by
    simp only [hostOps11_2, List.Forall,
      StableHlo.nullary_writes, StableHlo.unary_writes, StableHlo.binary_writes, StableHlo.ternary_writes, StableHlo.reshape_writes]
    repeat' apply And.intro
    all_goals exact sub_of_mem (by decide)) hb

/-- Region 11 rewrites only its output array `main_v437`: its input arrays
    (`main_v362`, `main_arg34`)
    are left as entered, and so is every buffer that is none of its arrays. -/
theorem keep40 (c : Dev nD) (b : Ref sig .tc) (hb : b ≠ main_v437) :
    W40 m ρ c (Proc.devRef .tc b) = W39 m ρ c (Proc.devRef .tc b) := by
  by_cases h0 : b = main_v362
  · subst h0
    exact (W40_arr m ρ c 0).trans (((dat11 (V39 m ρ) c).arrAt_in 0 rfl _).trans (A_eq11 (V39 m ρ) c 0))
  by_cases h1 : b = main_arg34
  · subst h1
    exact (W40_arr m ρ c 1).trans (((dat11 (V39 m ρ) c).arrAt_in 1 rfl _).trans (A_eq11 (V39 m ρ) c 1))
  exact W40_of_ne m ρ c b fun w => match w with
    | ⟨0, _⟩ => fun e => h0 e.symm
    | ⟨1, _⟩ => fun e => h1 e.symm
    | ⟨2, _⟩ => fun e => hb e.symm

/-- The buffers `hostOps12` (18 host operations of @main) writes: each operation's result, in order. -/
abbrev wr41 : List (Ref sig .tc) :=
  [main_v438, main_v439, main_v440, main_v441, main_v442, main_v443, main_v444, main_cst_99, main_v445,
    main_cst_100, main_v446, main_v447, main_v448, main_cst_101, main_v449, main_v450, main_v451, main_cst_102]

/-- `hostOps12` rewrites only its operations' results: any other buffer holds after it what it held before. -/
theorem keep41 (c : Dev nD) (b : Ref sig .tc) (hb : b ∉ wr41) :
    W41 m ρ c (Proc.devRef .tc b) = W40 m ρ c (Proc.devRef .tc b) :=
  StableHlo.after_of_writes_sub (W := wr41) hostOps12 (W40 m ρ c) (by
    simp only [hostOps12, List.Forall,
      StableHlo.nullary_writes, StableHlo.unary_writes, StableHlo.binary_writes, StableHlo.ternary_writes, StableHlo.reshape_writes]
    repeat' apply And.intro
    all_goals exact sub_of_mem (by decide)) hb

/-- The buffers `hostOps12_1` (3 host operations of @_where (main_call11)) writes: each operation's result, in order. -/
abbrev wr42 : List (Ref sig .tc) :=
  [main_call11_v0, main_call11_v1, main_v452]

/-- `hostOps12_1` rewrites only its operations' results: any other buffer holds after it what it held before. -/
theorem keep42 (c : Dev nD) (b : Ref sig .tc) (hb : b ∉ wr42) :
    W42 m ρ c (Proc.devRef .tc b) = W41 m ρ c (Proc.devRef .tc b) :=
  StableHlo.after_of_writes_sub (W := wr42) hostOps12_1 (W41 m ρ c) (by
    simp only [hostOps12_1, List.Forall,
      StableHlo.nullary_writes, StableHlo.unary_writes, StableHlo.binary_writes, StableHlo.ternary_writes, StableHlo.reshape_writes]
    repeat' apply And.intro
    all_goals exact sub_of_mem (by decide)) hb

/-- The buffers `hostOps12_2` (40 host operations of @main) writes: each operation's result, in order. -/
abbrev wr43 : List (Ref sig .tc) :=
  [main_c_103, main_v453, main_v454, main_c_104, main_v455, main_v456, main_v457, main_v458, main_v459, main_c_105,
    main_v460, main_v461, main_c_106, main_v462, main_v463, main_v464, main_v465, main_v466, main_v467, main_c_107,
    main_v468, main_v469, main_c_108, main_v470, main_v471, main_v472, main_v473, main_v474, main_v475, main_v476,
    main_v477, main_cst_109, main_v478, main_v479, main_v480, main_v481, main_v482, main_v483, main_v484, main_v485]

/-- `hostOps12_2` rewrites only its operations' results: any other buffer holds after it what it held before. -/
theorem keep43 (c : Dev nD) (b : Ref sig .tc) (hb : b ∉ wr43) :
    W43 m ρ c (Proc.devRef .tc b) = W42 m ρ c (Proc.devRef .tc b) :=
  StableHlo.after_of_writes_sub (W := wr43) hostOps12_2 (W42 m ρ c) (by
    simp only [hostOps12_2, List.Forall,
      StableHlo.nullary_writes, StableHlo.unary_writes, StableHlo.binary_writes, StableHlo.ternary_writes, StableHlo.reshape_writes]
    repeat' apply And.intro
    all_goals exact sub_of_mem (by decide)) hb

/-! ### The lemmas as a caller cites them: at a literal buffer, the side condition by evaluation -/

-- a host stretch, at an earlier region's output
example (c : Dev nD) : W27 m ρ c (Proc.devRef .tc main_v267) = W26 m ρ c (Proc.devRef .tc main_v267) :=
  keep27 m ρ c main_v267 (by decide)
-- a called function's operations, at a launch argument
example (c : Dev nD) : W30 m ρ c (Proc.devRef .tc main_arg6) = W29 m ρ c (Proc.devRef .tc main_arg6) :=
  keep30 m ρ c main_arg6 (by decide)
-- a region, at a buffer that is none of its arrays
example (c : Dev nD) : W24 m ρ c (Proc.devRef .tc main_v266) = W23 m ρ c (Proc.devRef .tc main_v266) :=
  keep24 m ρ c main_v266 (by decide)
-- a region, at one of its input arrays
example (c : Dev nD) : W36 m ρ c (Proc.devRef .tc main_v363) = W35 m ρ c (Proc.devRef .tc main_v363) :=
  keep36 m ρ c main_v363 (by decide)

end Cert.KernelIdeal.Keep

end
-- ==== Proof.Carry.lean ====
/-
  Carrying a buffer's contents along the kernel program's run: between two boundaries of the run a buffer that no segment in
  between writes holds the same contents (Keep1.lean, Keep2.lean: one lemma per segment). `upToK b` says that none of the
  first K segments writes `b` (a conjunction of one decidable condition per segment); then at boundary K the buffer holds its
  launch contents (`argAtK`): this is how every argument array is read at every boundary. The tactic `carry` chains the
  per-segment lemmas backwards from a boundary until the two sides meet, closing each side condition by `decide`.
-/
import proofs.«157546_j87986700026404_1_alg».proof.Proof.Keep1
import proofs.«157546_j87986700026404_1_alg».proof.Proof.Keep2
import Idealize.ShloMosaic.PureOps.Ideal

noncomputable section

namespace Cert.KernelIdeal.Walk

open Cert.KernelIdeal Cert.KernelIdeal.Gen Cert.KernelIdeal.GenP Idealize.ShloMosaic Idealize.ShloMosaic.TcCoe Idealize.SL.Sem

/-- One step back through the run: a buffer the segment before a boundary does not write holds what it held at the
    boundary before. -/
macro "carry_step" : tactic => `(tactic| first
  | ((with_reducible refine (Cert.KernelIdeal.Keep.keep43 _ _ _ _ ?_).trans ?_); decide)
  | ((with_reducible refine (Cert.KernelIdeal.Keep.keep42 _ _ _ _ ?_).trans ?_); decide)
  | ((with_reducible refine (Cert.KernelIdeal.Keep.keep41 _ _ _ _ ?_).trans ?_); decide)
  | ((with_reducible refine (Cert.KernelIdeal.Keep.keep40 _ _ _ _ ?_).trans ?_); decide)
  | ((with_reducible refine (Cert.KernelIdeal.Keep.keep39 _ _ _ _ ?_).trans ?_); decide)
  | ((with_reducible refine (Cert.KernelIdeal.Keep.keep38 _ _ _ _ ?_).trans ?_); decide)
  | ((with_reducible refine (Cert.KernelIdeal.Keep.keep37 _ _ _ _ ?_).trans ?_); decide)
  | ((with_reducible refine (Cert.KernelIdeal.Keep.keep36 _ _ _ _ ?_).trans ?_); decide)
  | ((with_reducible refine (Cert.KernelIdeal.Keep.keep35 _ _ _ _ ?_).trans ?_); decide)
  | ((with_reducible refine (Cert.KernelIdeal.Keep.keep34 _ _ _ _ ?_).trans ?_); decide)
  | ((with_reducible refine (Cert.KernelIdeal.Keep.keep33 _ _ _ _ ?_).trans ?_); decide)
  | ((with_reducible refine (Cert.KernelIdeal.Keep.keep32 _ _ _ _ ?_).trans ?_); decide)
  | ((with_reducible refine (Cert.KernelIdeal.Keep.keep31 _ _ _ _ ?_).trans ?_); decide)
  | ((with_reducible refine (Cert.KernelIdeal.Keep.keep30 _ _ _ _ ?_).trans ?_); decide)
  | ((with_reducible refine (Cert.KernelIdeal.Keep.keep29 _ _ _ _ ?_).trans ?_); decide)
  | ((with_reducible refine (Cert.KernelIdeal.Keep.keep28 _ _ _ _ ?_).trans ?_); decide)
  | ((with_reducible refine (Cert.KernelIdeal.Keep.keep27 _ _ _ _ ?_).trans ?_); decide)
  | ((with_reducible refine (Cert.KernelIdeal.Keep.keep26 _ _ _ _ ?_).trans ?_); decide)
  | ((with_reducible refine (Cert.KernelIdeal.Keep.keep25 _ _ _ _ ?_).trans ?_); decide)
  | ((with_reducible refine (Cert.KernelIdeal.Keep.keep24 _ _ _ _ ?_).trans ?_); decide)
  | ((with_reducible refine (Cert.KernelIdeal.Keep.keep23 _ _ _ _ ?_).trans ?_); decide)
  | ((with_reducible refine (Cert.KernelIdeal.Keep.keep22 _ _ _ _ ?_).trans ?_); decide)
  | ((with_reducible refine (Cert.KernelIdeal.Keep.keep21 _ _ _ _ ?_).trans ?_); decide)
  | ((with_reducible refine (Cert.KernelIdeal.Keep.keep20 _ _ _ _ ?_).trans ?_); decide)
  | ((with_reducible refine (Cert.KernelIdeal.Keep.keep19 _ _ _ _ ?_).trans ?_); decide)
  | ((with_reducible refine (Cert.KernelIdeal.Keep.keep18 _ _ _ _ ?_).trans ?_); decide)
  | ((with_reducible refine (Cert.KernelIdeal.Keep.keep17 _ _ _ _ ?_).trans ?_); decide)
  | ((with_reducible refine (Cert.KernelIdeal.Keep.keep16 _ _ _ _ ?_).trans ?_); decide)
  | ((with_reducible refine (Cert.KernelIdeal.Keep.keep15 _ _ _ _ ?_).trans ?_); decide)
  | ((with_reducible refine (Cert.KernelIdeal.Keep.keep14 _ _ _ _ ?_).trans ?_); decide)
  | ((with_reducible refine (Cert.KernelIdeal.Keep.keep13 _ _ _ _ ?_).trans ?_); decide)
  | ((with_reducible refine (Cert.KernelIdeal.Keep.keep12 _ _ _ _ ?_).trans ?_); decide)
  | ((with_reducible refine (Cert.KernelIdeal.Keep.keep11 _ _ _ _ ?_).trans ?_); decide)
  | ((with_reducible refine (Cert.KernelIdeal.Keep.keep10 _ _ _ _ ?_).trans ?_); decide)
  | ((with_reducible refine (Cert.KernelIdeal.Keep.keep9 _ _ _ _ ?_).trans ?_); decide)
  | ((with_reducible refine (Cert.KernelIdeal.Keep.keep8 _ _ _ _ ?_).trans ?_); decide)
  | ((with_reducible refine (Cert.KernelIdeal.Keep.keep7 _ _ _ _ ?_).trans ?_); decide)
  | ((with_reducible refine (Cert.KernelIdeal.Keep.keep6 _ _ _ _ ?_).trans ?_); decide)
  | ((with_reducible refine (Cert.KernelIdeal.Keep.keep5 _ _ _ _ ?_).trans ?_); decide)
  | ((with_reducible refine (Cert.KernelIdeal.Keep.keep4 _ _ _ _ ?_).trans ?_); decide)
  | ((with_reducible refine (Cert.KernelIdeal.Keep.keep3 _ _ _ _ ?_).trans ?_); decide)
  | ((with_reducible refine (Cert.KernelIdeal.Keep.keep2 _ _ _ _ ?_).trans ?_); decide)
  | ((with_reducible refine (Cert.KernelIdeal.Keep.keep1 _ _ _ _ ?_).trans ?_); decide))

/-- A buffer's contents at a boundary are its contents at an earlier boundary (or at the launch), when no segment in
    between writes it. -/
macro "carry" : tactic => `(tactic| (repeat (first | with_reducible rfl | carry_step); try rfl))

/-! None of the first K segments writes `b`. -/
def upTo0 (b : Ref sig .tc) : Prop := True
instance (b : Ref sig .tc) : Decidable (upTo0 b) := by unfold upTo0; infer_instance
def upTo1 (b : Ref sig .tc) : Prop := upTo0 b ∧ b ∉ Keep.wr1
instance (b : Ref sig .tc) : Decidable (upTo1 b) := by unfold upTo1; infer_instance
def upTo2 (b : Ref sig .tc) : Prop := upTo1 b ∧ b ≠ main_v24
instance (b : Ref sig .tc) : Decidable (upTo2 b) := by unfold upTo2; infer_instance
def upTo3 (b : Ref sig .tc) : Prop := upTo2 b ∧ b ≠ main_v25
instance (b : Ref sig .tc) : Decidable (upTo3 b) := by unfold upTo3; infer_instance
def upTo4 (b : Ref sig .tc) : Prop := upTo3 b ∧ b ∉ Keep.wr4
instance (b : Ref sig .tc) : Decidable (upTo4 b) := by unfold upTo4; infer_instance
def upTo5 (b : Ref sig .tc) : Prop := upTo4 b ∧ b ∉ Keep.wr5
instance (b : Ref sig .tc) : Decidable (upTo5 b) := by unfold upTo5; infer_instance
def upTo6 (b : Ref sig .tc) : Prop := upTo5 b ∧ b ∉ Keep.wr6
instance (b : Ref sig .tc) : Decidable (upTo6 b) := by unfold upTo6; infer_instance
def upTo7 (b : Ref sig .tc) : Prop := upTo6 b ∧ b ≠ main_v73
instance (b : Ref sig .tc) : Decidable (upTo7 b) := by unfold upTo7; infer_instance
def upTo8 (b : Ref sig .tc) : Prop := upTo7 b ∧ b ∉ Keep.wr8
instance (b : Ref sig .tc) : Decidable (upTo8 b) := by unfold upTo8; infer_instance
def upTo9 (b : Ref sig .tc) : Prop := upTo8 b ∧ b ∉ Keep.wr9
instance (b : Ref sig .tc) : Decidable (upTo9 b) := by unfold upTo9; infer_instance
def upTo10 (b : Ref sig .tc) : Prop := upTo9 b ∧ b ∉ Keep.wr10
instance (b : Ref sig .tc) : Decidable (upTo10 b) := by unfold upTo10; infer_instance
def upTo11 (b : Ref sig .tc) : Prop := upTo10 b ∧ b ∉ Keep.wr11
instance (b : Ref sig .tc) : Decidable (upTo11 b) := by unfold upTo11; infer_instance
def upTo12 (b : Ref sig .tc) : Prop := upTo11 b ∧ b ∉ Keep.wr12
instance (b : Ref sig .tc) : Decidable (upTo12 b) := by unfold upTo12; infer_instance
def upTo13 (b : Ref sig .tc) : Prop := upTo12 b ∧ b ∉ Keep.wr13
instance (b : Ref sig .tc) : Decidable (upTo13 b) := by unfold upTo13; infer_instance
def upTo14 (b : Ref sig .tc) : Prop := upTo13 b ∧ b ≠ main_v146
instance (b : Ref sig .tc) : Decidable (upTo14 b) := by unfold upTo14; infer_instance
def upTo15 (b : Ref sig .tc) : Prop := upTo14 b ∧ b ≠ main_v147
instance (b : Ref sig .tc) : Decidable (upTo15 b) := by unfold upTo15; infer_instance
def upTo16 (b : Ref sig .tc) : Prop := upTo15 b ∧ b ∉ Keep.wr16
instance (b : Ref sig .tc) : Decidable (upTo16 b) := by unfold upTo16; infer_instance
def upTo17 (b : Ref sig .tc) : Prop := upTo16 b ∧ b ∉ Keep.wr17
instance (b : Ref sig .tc) : Decidable (upTo17 b) := by unfold upTo17; infer_instance
def upTo18 (b : Ref sig .tc) : Prop := upTo17 b ∧ b ∉ Keep.wr18
instance (b : Ref sig .tc) : Decidable (upTo18 b) := by unfold upTo18; infer_instance
def upTo19 (b : Ref sig .tc) : Prop := upTo18 b ∧ b ≠ main_v195
instance (b : Ref sig .tc) : Decidable (upTo19 b) := by unfold upTo19; infer_instance
def upTo20 (b : Ref sig .tc) : Prop := upTo19 b ∧ b ∉ Keep.wr20
instance (b : Ref sig .tc) : Decidable (upTo20 b) := by unfold upTo20; infer_instance
def upTo21 (b : Ref sig .tc) : Prop := upTo20 b ∧ b ∉ Keep.wr21
instance (b : Ref sig .tc) : Decidable (upTo21 b) := by unfold upTo21; infer_instance
def upTo22 (b : Ref sig .tc) : Prop := upTo21 b ∧ b ∉ Keep.wr22
instance (b : Ref sig .tc) : Decidable (upTo22 b) := by unfold upTo22; infer_instance
def upTo23 (b : Ref sig .tc) : Prop := upTo22 b ∧ b ≠ main_v266
instance (b : Ref sig .tc) : Decidable (upTo23 b) := by unfold upTo23; infer_instance
def upTo24 (b : Ref sig .tc) : Prop := upTo23 b ∧ b ≠ main_v267
instance (b : Ref sig .tc) : Decidable (upTo24 b) := by unfold upTo24; infer_instance
def upTo25 (b : Ref sig .tc) : Prop := upTo24 b ∧ b ∉ Keep.wr25
instance (b : Ref sig .tc) : Decidable (upTo25 b) := by unfold upTo25; infer_instance
def upTo26 (b : Ref sig .tc) : Prop := upTo25 b ∧ b ∉ Keep.wr26
instance (b : Ref sig .tc) : Decidable (upTo26 b) := by unfold upTo26; infer_instance
def upTo27 (b : Ref sig .tc) : Prop := upTo26 b ∧ b ∉ Keep.wr27
instance (b : Ref sig .tc) : Decidable (upTo27 b) := by unfold upTo27; infer_instance
def upTo28 (b : Ref sig .tc) : Prop := upTo27 b ∧ b ≠ main_v315
instance (b : Ref sig .tc) : Decidable (upTo28 b) := by unfold upTo28; infer_instance
def upTo29 (b : Ref sig .tc) : Prop := upTo28 b ∧ b ∉ Keep.wr29
instance (b : Ref sig .tc) : Decidable (upTo29 b) := by unfold upTo29; infer_instance
def upTo30 (b : Ref sig .tc) : Prop := upTo29 b ∧ b ∉ Keep.wr30
instance (b : Ref sig .tc) : Decidable (upTo30 b) := by unfold upTo30; infer_instance
def upTo31 (b : Ref sig .tc) : Prop := upTo30 b ∧ b ∉ Keep.wr31
instance (b : Ref sig .tc) : Decidable (upTo31 b) := by unfold upTo31; infer_instance
def upTo32 (b : Ref sig .tc) : Prop := upTo31 b ∧ b ∉ Keep.wr32
instance (b : Ref sig .tc) : Decidable (upTo32 b) := by unfold upTo32; infer_instance
def upTo33 (b : Ref sig .tc) : Prop := upTo32 b ∧ b ∉ Keep.wr33
instance (b : Ref sig .tc) : Decidable (upTo33 b) := by unfold upTo33; infer_instance
def upTo34 (b : Ref sig .tc) : Prop := upTo33 b ∧ b ∉ Keep.wr34
instance (b : Ref sig .tc) : Decidable (upTo34 b) := by unfold upTo34; infer_instance
def upTo35 (b : Ref sig .tc) : Prop := upTo34 b ∧ b ≠ main_v388
instance (b : Ref sig .tc) : Decidable (upTo35 b) := by unfold upTo35; infer_instance
def upTo36 (b : Ref sig .tc) : Prop := upTo35 b ∧ b ≠ main_v389
instance (b : Ref sig .tc) : Decidable (upTo36 b) := by unfold upTo36; infer_instance
def upTo37 (b : Ref sig .tc) : Prop := upTo36 b ∧ b ∉ Keep.wr37
instance (b : Ref sig .tc) : Decidable (upTo37 b) := by unfold upTo37; infer_instance
def upTo38 (b : Ref sig .tc) : Prop := upTo37 b ∧ b ∉ Keep.wr38
instance (b : Ref sig .tc) : Decidable (upTo38 b) := by unfold upTo38; infer_instance
def upTo39 (b : Ref sig .tc) : Prop := upTo38 b ∧ b ∉ Keep.wr39
instance (b : Ref sig .tc) : Decidable (upTo39 b) := by unfold upTo39; infer_instance
def upTo40 (b : Ref sig .tc) : Prop := upTo39 b ∧ b ≠ main_v437
instance (b : Ref sig .tc) : Decidable (upTo40 b) := by unfold upTo40; infer_instance
def upTo41 (b : Ref sig .tc) : Prop := upTo40 b ∧ b ∉ Keep.wr41
instance (b : Ref sig .tc) : Decidable (upTo41 b) := by unfold upTo41; infer_instance
def upTo42 (b : Ref sig .tc) : Prop := upTo41 b ∧ b ∉ Keep.wr42
instance (b : Ref sig .tc) : Decidable (upTo42 b) := by unfold upTo42; infer_instance
def upTo43 (b : Ref sig .tc) : Prop := upTo42 b ∧ b ∉ Keep.wr43
instance (b : Ref sig .tc) : Decidable (upTo43 b) := by unfold upTo43; infer_instance

variable (m : (ℓ : Loc nD τ sig) → Buf (Elt Ideal) ℓ) (ρ : Dev nD → PrngReg)

/-- An argument array's contents at the launch. -/
abbrev arg (c : Dev nD) (b : Ref sig .tc) : Buf (Elt Ideal) ((c : Thread nD τ).loc b) := m ((c : Thread nD τ).loc b)

/-! A buffer none of the first K segments writes holds its launch contents at boundary K. -/
theorem argAt0 (c : Dev nD) (b : Ref sig .tc) (hb : upTo0 b) : W0 m ρ c (Proc.devRef .tc b) = arg m c b := rfl
theorem argAt1 (c : Dev nD) (b : Ref sig .tc) (hb : upTo1 b) : W1 m ρ c (Proc.devRef .tc b) = arg m c b :=
  (Keep.keep1 m ρ c b hb.2).trans (argAt0 m ρ c b hb.1)
theorem argAt2 (c : Dev nD) (b : Ref sig .tc) (hb : upTo2 b) : W2 m ρ c (Proc.devRef .tc b) = arg m c b :=
  (Keep.keep2 m ρ c b hb.2).trans (argAt1 m ρ c b hb.1)
theorem argAt3 (c : Dev nD) (b : Ref sig .tc) (hb : upTo3 b) : W3 m ρ c (Proc.devRef .tc b) = arg m c b :=
  (Keep.keep3 m ρ c b hb.2).trans (argAt2 m ρ c b hb.1)
theorem argAt4 (c : Dev nD) (b : Ref sig .tc) (hb : upTo4 b) : W4 m ρ c (Proc.devRef .tc b) = arg m c b :=
  (Keep.keep4 m ρ c b hb.2).trans (argAt3 m ρ c b hb.1)
theorem argAt5 (c : Dev nD) (b : Ref sig .tc) (hb : upTo5 b) : W5 m ρ c (Proc.devRef .tc b) = arg m c b :=
  (Keep.keep5 m ρ c b hb.2).trans (argAt4 m ρ c b hb.1)
theorem argAt6 (c : Dev nD) (b : Ref sig .tc) (hb : upTo6 b) : W6 m ρ c (Proc.devRef .tc b) = arg m c b :=
  (Keep.keep6 m ρ c b hb.2).trans (argAt5 m ρ c b hb.1)
theorem argAt7 (c : Dev nD) (b : Ref sig .tc) (hb : upTo7 b) : W7 m ρ c (Proc.devRef .tc b) = arg m c b :=
  (Keep.keep7 m ρ c b hb.2).trans (argAt6 m ρ c b hb.1)
theorem argAt8 (c : Dev nD) (b : Ref sig .tc) (hb : upTo8 b) : W8 m ρ c (Proc.devRef .tc b) = arg m c b :=
  (Keep.keep8 m ρ c b hb.2).trans (argAt7 m ρ c b hb.1)
theorem argAt9 (c : Dev nD) (b : Ref sig .tc) (hb : upTo9 b) : W9 m ρ c (Proc.devRef .tc b) = arg m c b :=
  (Keep.keep9 m ρ c b hb.2).trans (argAt8 m ρ c b hb.1)
theorem argAt10 (c : Dev nD) (b : Ref sig .tc) (hb : upTo10 b) : W10 m ρ c (Proc.devRef .tc b) = arg m c b :=
  (Keep.keep10 m ρ c b hb.2).trans (argAt9 m ρ c b hb.1)
theorem argAt11 (c : Dev nD) (b : Ref sig .tc) (hb : upTo11 b) : W11 m ρ c (Proc.devRef .tc b) = arg m c b :=
  (Keep.keep11 m ρ c b hb.2).trans (argAt10 m ρ c b hb.1)
theorem argAt12 (c : Dev nD) (b : Ref sig .tc) (hb : upTo12 b) : W12 m ρ c (Proc.devRef .tc b) = arg m c b :=
  (Keep.keep12 m ρ c b hb.2).trans (argAt11 m ρ c b hb.1)
theorem argAt13 (c : Dev nD) (b : Ref sig .tc) (hb : upTo13 b) : W13 m ρ c (Proc.devRef .tc b) = arg m c b :=
  (Keep.keep13 m ρ c b hb.2).trans (argAt12 m ρ c b hb.1)
theorem argAt14 (c : Dev nD) (b : Ref sig .tc) (hb : upTo14 b) : W14 m ρ c (Proc.devRef .tc b) = arg m c b :=
  (Keep.keep14 m ρ c b hb.2).trans (argAt13 m ρ c b hb.1)
theorem argAt15 (c : Dev nD) (b : Ref sig .tc) (hb : upTo15 b) : W15 m ρ c (Proc.devRef .tc b) = arg m c b :=
  (Keep.keep15 m ρ c b hb.2).trans (argAt14 m ρ c b hb.1)
theorem argAt16 (c : Dev nD) (b : Ref sig .tc) (hb : upTo16 b) : W16 m ρ c (Proc.devRef .tc b) = arg m c b :=
  (Keep.keep16 m ρ c b hb.2).trans (argAt15 m ρ c b hb.1)
theorem argAt17 (c : Dev nD) (b : Ref sig .tc) (hb : upTo17 b) : W17 m ρ c (Proc.devRef .tc b) = arg m c b :=
  (Keep.keep17 m ρ c b hb.2).trans (argAt16 m ρ c b hb.1)
theorem argAt18 (c : Dev nD) (b : Ref sig .tc) (hb : upTo18 b) : W18 m ρ c (Proc.devRef .tc b) = arg m c b :=
  (Keep.keep18 m ρ c b hb.2).trans (argAt17 m ρ c b hb.1)
theorem argAt19 (c : Dev nD) (b : Ref sig .tc) (hb : upTo19 b) : W19 m ρ c (Proc.devRef .tc b) = arg m c b :=
  (Keep.keep19 m ρ c b hb.2).trans (argAt18 m ρ c b hb.1)
theorem argAt20 (c : Dev nD) (b : Ref sig .tc) (hb : upTo20 b) : W20 m ρ c (Proc.devRef .tc b) = arg m c b :=
  (Keep.keep20 m ρ c b hb.2).trans (argAt19 m ρ c b hb.1)
theorem argAt21 (c : Dev nD) (b : Ref sig .tc) (hb : upTo21 b) : W21 m ρ c (Proc.devRef .tc b) = arg m c b :=
  (Keep.keep21 m ρ c b hb.2).trans (argAt20 m ρ c b hb.1)
theorem argAt22 (c : Dev nD) (b : Ref sig .tc) (hb : upTo22 b) : W22 m ρ c (Proc.devRef .tc b) = arg m c b :=
  (Keep.keep22 m ρ c b hb.2).trans (argAt21 m ρ c b hb.1)
theorem argAt23 (c : Dev nD) (b : Ref sig .tc) (hb : upTo23 b) : W23 m ρ c (Proc.devRef .tc b) = arg m c b :=
  (Keep.keep23 m ρ c b hb.2).trans (argAt22 m ρ c b hb.1)
theorem argAt24 (c : Dev nD) (b : Ref sig .tc) (hb : upTo24 b) : W24 m ρ c (Proc.devRef .tc b) = arg m c b :=
  (Keep.keep24 m ρ c b hb.2).trans (argAt23 m ρ c b hb.1)
theorem argAt25 (c : Dev nD) (b : Ref sig .tc) (hb : upTo25 b) : W25 m ρ c (Proc.devRef .tc b) = arg m c b :=
  (Keep.keep25 m ρ c b hb.2).trans (argAt24 m ρ c b hb.1)
theorem argAt26 (c : Dev nD) (b : Ref sig .tc) (hb : upTo26 b) : W26 m ρ c (Proc.devRef .tc b) = arg m c b :=
  (Keep.keep26 m ρ c b hb.2).trans (argAt25 m ρ c b hb.1)
theorem argAt27 (c : Dev nD) (b : Ref sig .tc) (hb : upTo27 b) : W27 m ρ c (Proc.devRef .tc b) = arg m c b :=
  (Keep.keep27 m ρ c b hb.2).trans (argAt26 m ρ c b hb.1)
theorem argAt28 (c : Dev nD) (b : Ref sig .tc) (hb : upTo28 b) : W28 m ρ c (Proc.devRef .tc b) = arg m c b :=
  (Keep.keep28 m ρ c b hb.2).trans (argAt27 m ρ c b hb.1)
theorem argAt29 (c : Dev nD) (b : Ref sig .tc) (hb : upTo29 b) : W29 m ρ c (Proc.devRef .tc b) = arg m c b :=
  (Keep.keep29 m ρ c b hb.2).trans (argAt28 m ρ c b hb.1)
theorem argAt30 (c : Dev nD) (b : Ref sig .tc) (hb : upTo30 b) : W30 m ρ c (Proc.devRef .tc b) = arg m c b :=
  (Keep.keep30 m ρ c b hb.2).trans (argAt29 m ρ c b hb.1)
theorem argAt31 (c : Dev nD) (b : Ref sig .tc) (hb : upTo31 b) : W31 m ρ c (Proc.devRef .tc b) = arg m c b :=
  (Keep.keep31 m ρ c b hb.2).trans (argAt30 m ρ c b hb.1)
theorem argAt32 (c : Dev nD) (b : Ref sig .tc) (hb : upTo32 b) : W32 m ρ c (Proc.devRef .tc b) = arg m c b :=
  (Keep.keep32 m ρ c b hb.2).trans (argAt31 m ρ c b hb.1)
theorem argAt33 (c : Dev nD) (b : Ref sig .tc) (hb : upTo33 b) : W33 m ρ c (Proc.devRef .tc b) = arg m c b :=
  (Keep.keep33 m ρ c b hb.2).trans (argAt32 m ρ c b hb.1)
theorem argAt34 (c : Dev nD) (b : Ref sig .tc) (hb : upTo34 b) : W34 m ρ c (Proc.devRef .tc b) = arg m c b :=
  (Keep.keep34 m ρ c b hb.2).trans (argAt33 m ρ c b hb.1)
theorem argAt35 (c : Dev nD) (b : Ref sig .tc) (hb : upTo35 b) : W35 m ρ c (Proc.devRef .tc b) = arg m c b :=
  (Keep.keep35 m ρ c b hb.2).trans (argAt34 m ρ c b hb.1)
theorem argAt36 (c : Dev nD) (b : Ref sig .tc) (hb : upTo36 b) : W36 m ρ c (Proc.devRef .tc b) = arg m c b :=
  (Keep.keep36 m ρ c b hb.2).trans (argAt35 m ρ c b hb.1)
theorem argAt37 (c : Dev nD) (b : Ref sig .tc) (hb : upTo37 b) : W37 m ρ c (Proc.devRef .tc b) = arg m c b :=
  (Keep.keep37 m ρ c b hb.2).trans (argAt36 m ρ c b hb.1)
theorem argAt38 (c : Dev nD) (b : Ref sig .tc) (hb : upTo38 b) : W38 m ρ c (Proc.devRef .tc b) = arg m c b :=
  (Keep.keep38 m ρ c b hb.2).trans (argAt37 m ρ c b hb.1)
theorem argAt39 (c : Dev nD) (b : Ref sig .tc) (hb : upTo39 b) : W39 m ρ c (Proc.devRef .tc b) = arg m c b :=
  (Keep.keep39 m ρ c b hb.2).trans (argAt38 m ρ c b hb.1)
theorem argAt40 (c : Dev nD) (b : Ref sig .tc) (hb : upTo40 b) : W40 m ρ c (Proc.devRef .tc b) = arg m c b :=
  (Keep.keep40 m ρ c b hb.2).trans (argAt39 m ρ c b hb.1)
theorem argAt41 (c : Dev nD) (b : Ref sig .tc) (hb : upTo41 b) : W41 m ρ c (Proc.devRef .tc b) = arg m c b :=
  (Keep.keep41 m ρ c b hb.2).trans (argAt40 m ρ c b hb.1)
theorem argAt42 (c : Dev nD) (b : Ref sig .tc) (hb : upTo42 b) : W42 m ρ c (Proc.devRef .tc b) = arg m c b :=
  (Keep.keep42 m ρ c b hb.2).trans (argAt41 m ρ c b hb.1)
theorem argAt43 (c : Dev nD) (b : Ref sig .tc) (hb : upTo43 b) : W43 m ρ c (Proc.devRef .tc b) = arg m c b :=
  (Keep.keep43 m ρ c b hb.2).trans (argAt42 m ρ c b hb.1)

example (c : Dev nD) : W40 m ρ c (Proc.devRef .tc main_arg35) = arg m c main_arg35 := argAt40 m ρ c main_arg35 (by decide)

end Cert.KernelIdeal.Walk

end
-- ==== Proof.RegMM128.lean ====
/-
  The four linear layers of width 128 → 128 that the kernel program computes on the accelerator (its regions 1, 2, 7, 8).

  Each is `x · w` for a 100000 × 128 array `x` and a 128 × 128 weight `w`, computed 5000 rows at a time: the grid has
  20 points, point `t` is handed rows [5000·t, 5000·t + 5000) of `x` (all 128 columns) and the whole of `w`, forms the
  5000 × 128 product of the two, and that product becomes rows [5000·t, 5000·t + 5000) of the result.

  Entry (r, q) of a block's product is Σ_k x_block(p, k) · w(k, q) with p = r − 5000·t, and x_block(p, k) = x(r, k): the
  same sum as entry (r, q) of the whole product. Every row r lies in the block of point r / 5000, so the result array is
  the whole product. At the extended reals the narrowing of the operands to the 16-bit format is the identity and the
  accumulator starts at 0, so nothing but the sum is left.
-/
import proofs.«157546_j87986700026404_1_alg».proof.Proof.FrameKIa
import proofs.«157546_j87986700026404_1_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

namespace MM128

/-! ## A product's entry as a sum over the 128 shared coordinates -/

/-- In a block's product, the left operand's row is the entry's row. -/
theorem blockDot128_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the summed coordinate. -/
theorem blockDot128_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right operand's row is the summed coordinate. -/
theorem blockDot128_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- Its column is the entry's column. -/
theorem blockDot128_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a block's product: the sum over k of x(p, k) · w(k, q). The operands' narrowing is the identity at
    the extended reals and the accumulator starts at zero. -/
theorem blockProduct128_apply (x : Vec Ideal S5000x128 .f32) (w : Vec Ideal S128x128 .f32) (p : Fin 5000) (q : Fin 128) :
    k1_pay1 (F := Ideal) x w (ix2 p q) = ∑ k : Fin 128, x (ix2 p k) * w (ix2 k q) := by
  unfold k1_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockDot128_lhs_0 _ _
    | ⟨1, _⟩ => exact (blockDot128_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockDot128_rhs_0 _ _).trans hk
    | ⟨1, _⟩ => exact blockDot128_rhs_1 _ _)
  show x (dot_S5000x128_S128x128_S5000x128_1_0_0_1_n_n.lhsIdx (ix2 p q) ((contrEquiv1 dot_S5000x128_S128x128_S5000x128_1_0_0_1_n_n 128 rfl rfl).symm k)) * w (dot_S5000x128_S128x128_S5000x128_1_0_0_1_n_n.rhsIdx (ix2 p q) ((contrEquiv1 dot_S5000x128_S128x128_S5000x128_1_0_0_1_n_n 128 rfl rfl).symm k)) = _
  rw [el, er]

/-- In the whole product, the left operand's row is the entry's row. -/
theorem wholeDot128_lhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
/-- Its column is the summed coordinate. -/
theorem wholeDot128_lhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's row is the summed coordinate. -/
theorem wholeDot128_rhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- Its column is the entry's column. -/
theorem wholeDot128_rhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- Entry (r, q) of the whole product `x · w`: the sum over k of x(r, k) · w(k, q). -/
theorem lin128_apply (x : Spec.TF Ideal S100000x128) (w : Spec.TF Ideal S128x128) (r : Fin 100000) (q : Fin 128) :
    Spec.lin128 (F := Ideal) x w (ix2 r q) = ∑ k : Fin 128, x (ix2 r k) * w (ix2 k q) := by
  unfold Spec.lin128
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact wholeDot128_lhs_0 _ _
    | ⟨1, _⟩ => exact (wholeDot128_lhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (wholeDot128_rhs_0 _ _).trans hk
    | ⟨1, _⟩ => exact wholeDot128_rhs_1 _ _)
  rw [el, er]

/-! ## One entry of a block's product is an entry of the whole product -/

/-- A block `x0` holding rows [5000·n, 5000·n + 5000) of `A` (read through `e0`) and a block `x1` holding all of
    `Wt` (read through `e1`): entry `y` of their product is entry `i` of `A · Wt`, for `i` the same column and
    5000·n rows further down. Both are the sum over k of A(row, k) · Wt(k, column). -/
theorem blockEntry128 (A : Spec.TF Ideal S100000x128) (Wt : Spec.TF Ideal S128x128)
    (x0 : Vec Ideal S5000x128 .f32) (x1 : Vec Ideal S128x128 .f32)
    (e0 : S5000x128.Idx → S100000x128.Idx) (e1 : S128x128.Idx → S128x128.Idx) (n : Nat)
    (hx : ∀ z, x0 z = A (e0 z)) (hw : ∀ z, x1 z = Wt (e1 z))
    (he00 : ∀ z, (e0 z 0).val = n * 5000 + (z 0).val) (he01 : ∀ z, (e0 z 1).val = (z 1).val)
    (he10 : ∀ z, (e1 z 0).val = (z 0).val) (he11 : ∀ z, (e1 z 1).val = (z 1).val)
    (y : S5000x128.Idx) (i : S100000x128.Idx)
    (hi0 : (i 0).val = n * 5000 + (y 0).val) (hi1 : (i 1).val = (y 1).val) :
    k1_pay1 (F := Ideal) x0 x1 y = Spec.lin128 (F := Ideal) A Wt i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hr : r.val = n * 5000 + p.val := hi0
  obtain rfl : q' = q := Fin.ext hi1
  rw [blockProduct128_apply, lin128_apply]
  refine Finset.sum_congr rfl fun k _ => ?_
  have ea : e0 (ix2 p k) = ix2 r k := funext fun a => Fin.ext (by
    match a with
    | ⟨0, _⟩ => exact (he00 _).trans hr.symm
    | ⟨1, _⟩ => exact he01 _)
  have eb : e1 (ix2 k q') = ix2 k q' := funext fun a => Fin.ext (by
    match a with
    | ⟨0, _⟩ => exact he10 _
    | ⟨1, _⟩ => exact he11 _)
  rw [hx, hw, ea, eb]

/-! ## From the blocks to the array -/

/-- The offsets of a load or store of a whole staging buffer are zero. -/
theorem zeroOffsets : (![0, 0] : Fin 2 → Nat) = fun _ => 0 := funext fun a => by fin_cases a <;> rfl

-- the accelerator's buffer contents when a region is entered: every statement below holds for any such contents
variable (V : (c : Dev nD) → (b : Ref sig .tc) → Buf (Elt Ideal) ((c : Thread nD τ).loc b))

/-! ## Region 1: the array main_arg1 times the weight main_arg15 -/

/-- Where the three windows' blocks sit at point `t`: the row-blocked operand and the result at block row `t`, the
    weight at its one block; all at block column 0. -/
theorem blockIndex1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body loads its two whole blocks and stores their product over its whole output block: that block then holds
    the product. -/
theorem bodyResult1 (x0 : Vec Ideal S5000x128 .f32) (x1 : Vec Ideal S128x128 .f32) :
    out1_2 (F := Ideal) x0 x1 = k1_pay1 (F := Ideal) x0 x1 := by
  unfold out1_2
  rw [View.canon_unit_zero zeroOffsets]
  simp only [View.ld_unit_zero (S := S5000x128) zeroOffsets, View.ld_unit_zero (S := S128x128) zeroOffsets]

/-- Entry `j` of the product of point `t`'s blocks is the whole product's entry at `j`'s place in the result array:
    the row-blocked operand's block starts at row 5000·t of its array, the weight's block is the weight, and the
    result's block starts at row 5000·t of the result. -/
theorem blockEntry1 (c : Dev nD) (t : Fin cfg1.N) (j : ((cfg1.win 2).xblock (grid1.coords t)).Idx) :
    k1_pay1 (F := Ideal) (iblk1 V c 0 t) (iblk1 V c 1 t) ((cfg1.win 2).xinj (grid1.coords t) j)
      = Spec.lin128 (F := Ideal) (V c main_arg1) (V c main_arg15) (((cfg1.win 2).blk t).view.emb j) := by
  obtain ⟨a0, a1, b0, b1, o0, o1⟩ := blockIndex1 t
  refine blockEntry128 (V c main_arg1) (V c main_arg15) (iblk1 V c 0 t) (iblk1 V c 1 t)
    ((cfg1.win 0).blk t).view.emb ((cfg1.win 1).blk t).view.emb t.val (fun z => rfl) (fun z => rfl) ?_ ?_ ?_ ?_ _ _ ?_ ?_
  · intro z
    show win1_0.index t (0 : Fin 2) * 5000 + 1 * (z 0).val = t.val * 5000 + (z 0).val
    omega
  · intro z
    show win1_0.index t (1 : Fin 2) * 128 + 1 * (z 1).val = (z 1).val
    omega
  · intro z
    show win1_1.index t (0 : Fin 2) * 128 + 1 * (z 0).val = (z 0).val
    omega
  · intro z
    show win1_1.index t (1 : Fin 2) * 128 + 1 * (z 1).val = (z 1).val
    omega
  · show win1_2.index t (0 : Fin 2) * 5000 + 1 * (j 0).val = t.val * 5000 + (j 0).val
    omega
  · show win1_2.index t (1 : Fin 2) * 128 + 1 * (j 1).val = (j 1).val
    omega

/-- What point `t` writes back is rows [5000·t, 5000·t + 5000) of the whole product. -/
theorem written1_eq (c : Dev nD) (t : Fin cfg1.N) :
    (dat1 (F := Ideal) V c).flushed 2 t
      = ((cfg1.win 2).blk t).view.read (Elt Ideal) (Spec.lin128 (F := Ideal) (V c main_arg1) (V c main_arg15)) := by
  show (cfg1.win 2).cut (grid1.coords t) ((dat1 (F := Ideal) V c).after 2 t) = _
  rw [after1_2]
  funext j
  show out1_2 (F := Ideal) (iblk1 V c 0 t) (iblk1 V c 1 t) ((cfg1.win 2).xinj (grid1.coords t) j)
    = Spec.lin128 (F := Ideal) (V c main_arg1) (V c main_arg15) (((cfg1.win 2).blk t).view.emb j)
  exact (congrFun (bodyResult1 (iblk1 V c 0 t) (iblk1 V c 1 t)) _).trans (blockEntry1 V c t j)

/-- An index of the result array is in point `t`'s block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v25).slice (win1_2.rect t)).set ↔ _
  rw [View.set_slice_whole, Rect.mem_set_unit]
  exact Iff.rfl

/-- Every row r of the result is written by the point r / 5000. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < cfg1.N := by show (i 0).val / 5000 < 20; omega
  obtain ⟨a0, a1, b0, b1, o0, o1⟩ := blockIndex1 ⟨(i 0).val / 5000, ht⟩
  have o0' : win1_2.index ⟨(i 0).val / 5000, ht⟩ (0 : Fin 2) = (i 0).val / 5000 := o0
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    omega

/-! ## Region 2: the array main_arg0 times the weight main_arg13 -/

/-- Where the three windows' blocks sit at point `t`: the row-blocked operand and the result at block row `t`, the
    weight at its one block; all at block column 0. -/
theorem blockIndex2 : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Region 2's body forms the same product of its two blocks as region 1's. -/
theorem sameProduct2 (x0 : Vec Ideal S5000x128 .f32) (x1 : Vec Ideal S128x128 .f32) :
    k2_pay1 (F := Ideal) x0 x1 = k1_pay1 (F := Ideal) x0 x1 := rfl

/-- The body loads its two whole blocks and stores their product over its whole output block: that block then holds
    the product. -/
theorem bodyResult2 (x0 : Vec Ideal S5000x128 .f32) (x1 : Vec Ideal S128x128 .f32) :
    out2_2 (F := Ideal) x0 x1 = k1_pay1 (F := Ideal) x0 x1 := by
  refine Eq.trans ?_ (sameProduct2 x0 x1)
  unfold out2_2
  rw [View.canon_unit_zero zeroOffsets]
  simp only [View.ld_unit_zero (S := S5000x128) zeroOffsets, View.ld_unit_zero (S := S128x128) zeroOffsets]

/-- Entry `j` of the product of point `t`'s blocks is the whole product's entry at `j`'s place in the result array:
    the row-blocked operand's block starts at row 5000·t of its array, the weight's block is the weight, and the
    result's block starts at row 5000·t of the result. -/
theorem blockEntry2 (c : Dev nD) (t : Fin cfg2.N) (j : ((cfg2.win 2).xblock (grid2.coords t)).Idx) :
    k1_pay1 (F := Ideal) (iblk2 V c 0 t) (iblk2 V c 1 t) ((cfg2.win 2).xinj (grid2.coords t) j)
      = Spec.lin128 (F := Ideal) (V c main_arg0) (V c main_arg13) (((cfg2.win 2).blk t).view.emb j) := by
  obtain ⟨a0, a1, b0, b1, o0, o1⟩ := blockIndex2 t
  refine blockEntry128 (V c main_arg0) (V c main_arg13) (iblk2 V c 0 t) (iblk2 V c 1 t)
    ((cfg2.win 0).blk t).view.emb ((cfg2.win 1).blk t).view.emb t.val (fun z => rfl) (fun z => rfl) ?_ ?_ ?_ ?_ _ _ ?_ ?_
  · intro z
    show win2_0.index t (0 : Fin 2) * 5000 + 1 * (z 0).val = t.val * 5000 + (z 0).val
    omega
  · intro z
    show win2_0.index t (1 : Fin 2) * 128 + 1 * (z 1).val = (z 1).val
    omega
  · intro z
    show win2_1.index t (0 : Fin 2) * 128 + 1 * (z 0).val = (z 0).val
    omega
  · intro z
    show win2_1.index t (1 : Fin 2) * 128 + 1 * (z 1).val = (z 1).val
    omega
  · show win2_2.index t (0 : Fin 2) * 5000 + 1 * (j 0).val = t.val * 5000 + (j 0).val
    omega
  · show win2_2.index t (1 : Fin 2) * 128 + 1 * (j 1).val = (j 1).val
    omega

/-- What point `t` writes back is rows [5000·t, 5000·t + 5000) of the whole product. -/
theorem written2_eq (c : Dev nD) (t : Fin cfg2.N) :
    (dat2 (F := Ideal) V c).flushed 2 t
      = ((cfg2.win 2).blk t).view.read (Elt Ideal) (Spec.lin128 (F := Ideal) (V c main_arg0) (V c main_arg13)) := by
  show (cfg2.win 2).cut (grid2.coords t) ((dat2 (F := Ideal) V c).after 2 t) = _
  rw [after2_2]
  funext j
  show out2_2 (F := Ideal) (iblk2 V c 0 t) (iblk2 V c 1 t) ((cfg2.win 2).xinj (grid2.coords t) j)
    = Spec.lin128 (F := Ideal) (V c main_arg0) (V c main_arg13) (((cfg2.win 2).blk t).view.emb j)
  exact (congrFun (bodyResult2 (iblk2 V c 0 t) (iblk2 V c 1 t)) _).trans (blockEntry2 V c t j)

/-- An index of the result array is in point `t`'s block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v73).slice (win2_2.rect t)).set ↔ _
  rw [View.set_slice_whole, Rect.mem_set_unit]
  exact Iff.rfl

/-- Every row r of the result is written by the point r / 5000. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 5000 < cfg2.N := by show (i 0).val / 5000 < 20; omega
  obtain ⟨a0, a1, b0, b1, o0, o1⟩ := blockIndex2 ⟨(i 0).val / 5000, ht⟩
  have o0' : win2_2.index ⟨(i 0).val / 5000, ht⟩ (0 : Fin 2) = (i 0).val / 5000 := o0
  refine ⟨⟨(i 0).val / 5000, ht⟩, flush2_2 _, ?_⟩
  rw [mem_block2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    omega

/-! ## Region 7: the array main_arg3 times the weight main_arg29 -/

/-- Where the three windows' blocks sit at point `t`: the row-blocked operand and the result at block row `t`, the
    weight at its one block; all at block column 0. -/
theorem blockIndex7 : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Region 7's body forms the same product of its two blocks as region 1's. -/
theorem sameProduct7 (x0 : Vec Ideal S5000x128 .f32) (x1 : Vec Ideal S128x128 .f32) :
    k7_pay1 (F := Ideal) x0 x1 = k1_pay1 (F := Ideal) x0 x1 := rfl

/-- The body loads its two whole blocks and stores their product over its whole output block: that block then holds
    the product. -/
theorem bodyResult7 (x0 : Vec Ideal S5000x128 .f32) (x1 : Vec Ideal S128x128 .f32) :
    out7_2 (F := Ideal) x0 x1 = k1_pay1 (F := Ideal) x0 x1 := by
  refine Eq.trans ?_ (sameProduct7 x0 x1)
  unfold out7_2
  rw [View.canon_unit_zero zeroOffsets]
  simp only [View.ld_unit_zero (S := S5000x128) zeroOffsets, View.ld_unit_zero (S := S128x128) zeroOffsets]

/-- Entry `j` of the product of point `t`'s blocks is the whole product's entry at `j`'s place in the result array:
    the row-blocked operand's block starts at row 5000·t of its array, the weight's block is the weight, and the
    result's block starts at row 5000·t of the result. -/
theorem blockEntry7 (c : Dev nD) (t : Fin cfg7.N) (j : ((cfg7.win 2).xblock (grid7.coords t)).Idx) :
    k1_pay1 (F := Ideal) (iblk7 V c 0 t) (iblk7 V c 1 t) ((cfg7.win 2).xinj (grid7.coords t) j)
      = Spec.lin128 (F := Ideal) (V c main_arg3) (V c main_arg29) (((cfg7.win 2).blk t).view.emb j) := by
  obtain ⟨a0, a1, b0, b1, o0, o1⟩ := blockIndex7 t
  refine blockEntry128 (V c main_arg3) (V c main_arg29) (iblk7 V c 0 t) (iblk7 V c 1 t)
    ((cfg7.win 0).blk t).view.emb ((cfg7.win 1).blk t).view.emb t.val (fun z => rfl) (fun z => rfl) ?_ ?_ ?_ ?_ _ _ ?_ ?_
  · intro z
    show win7_0.index t (0 : Fin 2) * 5000 + 1 * (z 0).val = t.val * 5000 + (z 0).val
    omega
  · intro z
    show win7_0.index t (1 : Fin 2) * 128 + 1 * (z 1).val = (z 1).val
    omega
  · intro z
    show win7_1.index t (0 : Fin 2) * 128 + 1 * (z 0).val = (z 0).val
    omega
  · intro z
    show win7_1.index t (1 : Fin 2) * 128 + 1 * (z 1).val = (z 1).val
    omega
  · show win7_2.index t (0 : Fin 2) * 5000 + 1 * (j 0).val = t.val * 5000 + (j 0).val
    omega
  · show win7_2.index t (1 : Fin 2) * 128 + 1 * (j 1).val = (j 1).val
    omega

/-- What point `t` writes back is rows [5000·t, 5000·t + 5000) of the whole product. -/
theorem written7_eq (c : Dev nD) (t : Fin cfg7.N) :
    (dat7 (F := Ideal) V c).flushed 2 t
      = ((cfg7.win 2).blk t).view.read (Elt Ideal) (Spec.lin128 (F := Ideal) (V c main_arg3) (V c main_arg29)) := by
  show (cfg7.win 2).cut (grid7.coords t) ((dat7 (F := Ideal) V c).after 2 t) = _
  rw [after7_2]
  funext j
  show out7_2 (F := Ideal) (iblk7 V c 0 t) (iblk7 V c 1 t) ((cfg7.win 2).xinj (grid7.coords t) j)
    = Spec.lin128 (F := Ideal) (V c main_arg3) (V c main_arg29) (((cfg7.win 2).blk t).view.emb j)
  exact (congrFun (bodyResult7 (iblk7 V c 0 t) (iblk7 V c 1 t)) _).trans (blockEntry7 V c t j)

/-- An index of the result array is in point `t`'s block iff each coordinate is in the block's range on its axis. -/
theorem mem_block7 (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v267).slice (win7_2.rect t)).set ↔ _
  rw [View.set_slice_whole, Rect.mem_set_unit]
  exact Iff.rfl

/-- Every row r of the result is written by the point r / 5000. -/
theorem covered7 (i : S100000x128.Idx) :
    ∃ t : Fin cfg7.N, (cfg7.win 2).flush t = true ∧ i ∈ ((cfg7.win 2).blk t).view.set := by
  have hi0 : (i 0).val < 100000 := (i 0).isLt
  have hi1 : (i 1).val < 128 := (i 1).isLt
  have ht : (i 0).val / 5000 < cfg7.N := by show (i 0).val / 5000 < 20; omega
  obtain ⟨a0, a1, b0, b1, o0, o1⟩ := blockIndex7 ⟨(i 0).val / 5000, ht⟩
  have o0' : win7_2.index ⟨(i 0).val / 5000, ht⟩ (0 : Fin 2) = (i 0).val / 5000 := o0
  refine ⟨⟨(i 0).val / 5000, ht⟩, flush7_2 _, ?_⟩
  rw [mem_block7]
  intro a
  match a with
  | ⟨0, _⟩ =>
    show win7_2.index ⟨(i 0).val / 5000, ht⟩ (0 : Fin 2) * 5000 ≤ (i 0).val ∧ (i 0).val < win7_2.index ⟨(i 0).val / 5000, ht⟩ (0 : Fin 2) * 5000 + 5000
    omega
  | ⟨1, _⟩ =>
    show win7_2.index ⟨(i 0).val / 5000, ht⟩ (1 : Fin 2) * 128 ≤ (i 1).val ∧ (i 1).val < win7_2.index ⟨(i 0).val / 5000, ht⟩ (1 : Fin 2) * 128 + 128
    omega

/-! ## Region 8: the array main_arg2 times the weight main_arg27 -/

/-- Where the three windows' blocks sit at point `t`: the row-blocked operand and the result at block row `t`, the
    weight at its one block; all at block column 0. -/
theorem blockIndex8 : ∀ t : Fin cfg8.N,
      win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Region 8's body forms the same product of its two blocks as region 1's. -/
theorem sameProduct8 (x0 : Vec Ideal S5000x128 .f32) (x1 : Vec Ideal S128x128 .f32) :
    k8_pay1 (F := Ideal) x0 x1 = k1_pay1 (F := Ideal) x0 x1 := rfl

/-- The body loads its two whole blocks and stores their product over its whole output block: that block then holds
    the product. -/
theorem bodyResult8 (x0 : Vec Ideal S5000x128 .f32) (x1 : Vec Ideal S128x128 .f32) :
    out8_2 (F := Ideal) x0 x1 = k1_pay1 (F := Ideal) x0 x1 := by
  refine Eq.trans ?_ (sameProduct8 x0 x1)
  unfold out8_2
  rw [View.canon_unit_zero zeroOffsets]
  simp only [View.ld_unit_zero (S := S5000x128) zeroOffsets, View.ld_unit_zero (S := S128x128) zeroOffsets]

/-- Entry `j` of the product of point `t`'s blocks is the whole product's entry at `j`'s place in the result array:
    the row-blocked operand's block starts at row 5000·t of its array, the weight's block is the weight, and the
    result's block starts at row 5000·t of the result. -/
theorem blockEntry8 (c : Dev nD) (t : Fin cfg8.N) (j : ((cfg8.win 2).xblock (grid8.coords t)).Idx) :
    k1_pay1 (F := Ideal) (iblk8 V c 0 t) (iblk8 V c 1 t) ((cfg8.win 2).xinj (grid8.coords t) j)
      = Spec.lin128 (F := Ideal) (V c main_arg2) (V c main_arg27) (((cfg8.win 2).blk t).view.emb j) := by
  obtain ⟨a0, a1, b0, b1, o0, o1⟩ := blockIndex8 t
  refine blockEntry128 (V c main_arg2) (V c main_arg27) (iblk8 V c 0 t) (iblk8 V c 1 t)
    ((cfg8.win 0).blk t).view.emb ((cfg8.win 1).blk t).view.emb t.val (fun z => rfl) (fun z => rfl) ?_ ?_ ?_ ?_ _ _ ?_ ?_
  · intro z
    show win8_0.index t (0 : Fin 2) * 5000 + 1 * (z 0).val = t.val * 5000 + (z 0).val
    omega
  · intro z
    show win8_0.index t (1 : Fin 2) * 128 + 1 * (z 1).val = (z 1).val
    omega
  · intro z
    show win8_1.index t (0 : Fin 2) * 128 + 1 * (z 0).val = (z 0).val
    omega
  · intro z
    show win8_1.index t (1 : Fin 2) * 128 + 1 * (z 1).val = (z 1).val
    omega
  · show win8_2.index t (0 : Fin 2) * 5000 + 1 * (j 0).val = t.val * 5000 + (j 0).val
    omega
  · show win8_2.index t (1 : Fin 2) * 128 + 1 * (j 1).val = (j 1).val
    omega

/-- What point `t` writes back is rows [5000·t, 5000·t + 5000) of the whole product. -/
theorem written8_eq (c : Dev nD) (t : Fin cfg8.N) :
    (dat8 (F := Ideal) V c).flushed 2 t
      = ((cfg8.win 2).blk t).view.read (Elt Ideal) (Spec.lin128 (F := Ideal) (V c main_arg2) (V c main_arg27)) := by
  show (cfg8.win 2).cut (grid8.coords t) ((dat8 (F := Ideal) V c).after 2 t) = _
  rw [after8_2]
  funext j
  show out8_2 (F := Ideal) (iblk8 V c 0 t) (iblk8 V c 1 t) ((cfg8.win 2).xinj (grid8.coords t) j)
    = Spec.lin128 (F := Ideal) (V c main_arg2) (V c main_arg27) (((cfg8.win 2).blk t).view.emb j)
  exact (congrFun (bodyResult8 (iblk8 V c 0 t) (iblk8 V c 1 t)) _).trans (blockEntry8 V c t j)

/-- An index of the result array is in point `t`'s block iff each coordinate is in the block's range on its axis. -/
theorem mem_block8 (t : Fin cfg8.N) (i : S100000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v315).slice (win8_2.rect t)).set ↔ _
  rw [View.set_slice_whole, Rect.mem_set_unit]
  exact Iff.rfl

/-- Every row r of the result is written by the point r / 5000. -/
theorem covered8 (i : S100000x128.Idx) :
    ∃ t : Fin cfg8.N, (cfg8.win 2).flush t = true ∧ i ∈ ((cfg8.win 2).blk t).view.set := by
  have hi0 : (i 0).val < 100000 := (i 0).isLt
  have hi1 : (i 1).val < 128 := (i 1).isLt
  have ht : (i 0).val / 5000 < cfg8.N := by show (i 0).val / 5000 < 20; omega
  obtain ⟨a0, a1, b0, b1, o0, o1⟩ := blockIndex8 ⟨(i 0).val / 5000, ht⟩
  have o0' : win8_2.index ⟨(i 0).val / 5000, ht⟩ (0 : Fin 2) = (i 0).val / 5000 := o0
  refine ⟨⟨(i 0).val / 5000, ht⟩, flush8_2 _, ?_⟩
  rw [mem_block8]
  intro a
  match a with
  | ⟨0, _⟩ =>
    show win8_2.index ⟨(i 0).val / 5000, ht⟩ (0 : Fin 2) * 5000 ≤ (i 0).val ∧ (i 0).val < win8_2.index ⟨(i 0).val / 5000, ht⟩ (0 : Fin 2) * 5000 + 5000
    omega
  | ⟨1, _⟩ =>
    show win8_2.index ⟨(i 0).val / 5000, ht⟩ (1 : Fin 2) * 128 ≤ (i 1).val ∧ (i 1).val < win8_2.index ⟨(i 0).val / 5000, ht⟩ (1 : Fin 2) * 128 + 128
    omega

end MM128

/-! ## The four result arrays -/

/-- THE RESULT ARRAY of region 1 is the whole product of the array main_arg1 and the weight main_arg15. -/
theorem arr1 (V : (c : Dev nD) → (b : Ref sig .tc) → Buf (Elt Ideal) ((c : Thread nD τ).loc b)) (c : Dev nD) :
    (GenP.dat1 (F := Ideal) V c).arrAt 2 cfg1.N = Spec.lin128 (F := Ideal) (V c main_arg1) (V c main_arg15) :=
  (dat1 (F := Ideal) V c).arrAt_eq_of_cover 2 (Spec.lin128 (F := Ideal) (V c main_arg1) (V c main_arg15))
    (fun t _ => MM128.written1_eq V c t) MM128.covered1

/-- THE RESULT ARRAY of region 2 is the whole product of the array main_arg0 and the weight main_arg13. -/
theorem arr2 (V : (c : Dev nD) → (b : Ref sig .tc) → Buf (Elt Ideal) ((c : Thread nD τ).loc b)) (c : Dev nD) :
    (GenP.dat2 (F := Ideal) V c).arrAt 2 cfg2.N = Spec.lin128 (F := Ideal) (V c main_arg0) (V c main_arg13) :=
  (dat2 (F := Ideal) V c).arrAt_eq_of_cover 2 (Spec.lin128 (F := Ideal) (V c main_arg0) (V c main_arg13))
    (fun t _ => MM128.written2_eq V c t) MM128.covered2

/-- THE RESULT ARRAY of region 7 is the whole product of the array main_arg3 and the weight main_arg29. -/
theorem arr7 (V : (c : Dev nD) → (b : Ref sig .tc) → Buf (Elt Ideal) ((c : Thread nD τ).loc b)) (c : Dev nD) :
    (GenP.dat7 (F := Ideal) V c).arrAt 2 cfg7.N = Spec.lin128 (F := Ideal) (V c main_arg3) (V c main_arg29) :=
  (dat7 (F := Ideal) V c).arrAt_eq_of_cover 2 (Spec.lin128 (F := Ideal) (V c main_arg3) (V c main_arg29))
    (fun t _ => MM128.written7_eq V c t) MM128.covered7

/-- THE RESULT ARRAY of region 8 is the whole product of the array main_arg2 and the weight main_arg27. -/
theorem arr8 (V : (c : Dev nD) → (b : Ref sig .tc) → Buf (Elt Ideal) ((c : Thread nD τ).loc b)) (c : Dev nD) :
    (GenP.dat8 (F := Ideal) V c).arrAt 2 cfg8.N = Spec.lin128 (F := Ideal) (V c main_arg2) (V c main_arg27) :=
  (dat8 (F := Ideal) V c).arrAt_eq_of_cover 2 (Spec.lin128 (F := Ideal) (V c main_arg2) (V c main_arg27))
    (fun t _ => MM128.written8_eq V c t) MM128.covered8

end Cert.KernelIdeal.RegionValue

end
-- ==== Proof.RegMM64.lean ====
/-
  The four linear layers of width 128 → 64 that the kernel program computes on the accelerator (its regions 4, 5, 10, 11).

  Each is `x · w` for a 100000 × 128 array `x` and a 128 × 64 weight `w`, computed 5000 rows at a time: the grid has
  20 points, point `t` is handed rows [5000·t, 5000·t + 5000) of `x` (all 128 columns) and the whole of `w`, forms the
  5000 × 64 product of the two, and that product becomes rows [5000·t, 5000·t + 5000) of the 100000 × 64 result.

  Entry (r, q) of a block's product is Σ_k x_block(p, k) · w(k, q) with p = r − 5000·t, and x_block(p, k) = x(r, k): the
  same sum as entry (r, q) of the whole product. Every row r lies in the block of point r / 5000, so the result array is
  the whole product. At the extended reals the narrowing of the operands to the 16-bit format is the identity, a reshape
  of a block to its own shape changes nothing, and the accumulator starts at 0, so nothing but the sum is left.
-/
import proofs.«157546_j87986700026404_1_alg».proof.Proof.FrameKIa
import proofs.«157546_j87986700026404_1_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

namespace MM64

/-! ## A product's entry as a sum over the 128 shared coordinates -/

/-- In a block's product, the left operand's row is the entry's row. -/
theorem blockDot64_lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Its column is the summed coordinate. -/
theorem blockDot64_lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- The right operand's row is the summed coordinate. -/
theorem blockDot64_rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- Its column is the entry's column. -/
theorem blockDot64_rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of a block's product: the sum over k of x(p, k) · w(k, q). The block's reshape to its own shape and the
    operands' narrowing change nothing at the extended reals, and the accumulator starts at zero. -/
theorem blockProduct64_apply (x : Vec Ideal S5000x128 .f32) (w : Vec Ideal S128x64 .f32) (p : Fin 5000) (q : Fin 64) :
    k4_pay1 (F := Ideal) x w (ix2 p q) = ∑ k : Fin 128, x (ix2 p k) * w (ix2 k q) := by
  unfold k4_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact blockDot64_lhs_0 _ _
    | ⟨1, _⟩ => exact (blockDot64_lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (blockDot64_rhs_0 _ _).trans hk
    | ⟨1, _⟩ => exact blockDot64_rhs_1 _ _)
  show (shapeCast S5000x128 x shapeCasts_S5000x128_S5000x128) (dot_S5000x128_S128x64_S5000x64_1_0_0_1_n_n.lhsIdx (ix2 p q) ((contrEquiv1 dot_S5000x128_S128x64_S5000x64_1_0_0_1_n_n 128 rfl rfl).symm k)) * w (dot_S5000x128_S128x64_S5000x64_1_0_0_1_n_n.rhsIdx (ix2 p q) ((contrEquiv1 dot_S5000x128_S128x64_S5000x64_1_0_0_1_n_n 128 rfl rfl).symm k)) = _
  rw [shapeCast_self, el, er]

/-- In the whole product, the left operand's row is the entry's row. -/
theorem wholeDot64_lhs_0 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
/-- Its column is the summed coordinate. -/
theorem wholeDot64_lhs_1 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
/-- The right operand's row is the summed coordinate. -/
theorem wholeDot64_rhs_0 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
/-- Its column is the entry's column. -/
theorem wholeDot64_rhs_1 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- Entry (r, q) of the whole product `x · w`: the sum over k of x(r, k) · w(k, q). -/
theorem lin64_apply (x : Spec.TF Ideal S100000x128) (w : Spec.TF Ideal S128x64) (r : Fin 100000) (q : Fin 64) :
    Spec.lin64 (F := Ideal) x w (ix2 r q) = ∑ k : Fin 128, x (ix2 r k) * w (ix2 k q) := by
  unfold Spec.lin64
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((contrEquiv1 Cert.ReferenceIdeal.dot_S100000x128_S128x64_S100000x64_1_0_0_1_n_n 128 rfl rfl).symm k) = ix2 r k := funext fun a => Fin.ext (by
    match a with
    | ⟨0, _⟩ => exact wholeDot64_lhs_0 _ _
    | ⟨1, _⟩ => exact (wholeDot64_lhs_1 _ _).trans hk)
  have er : Cert.ReferenceIdeal.dot_S100000x128_S128x64_S100000x64_1_0_0_1_n_n.rhsIdx (ix2 r q) ((contrEquiv1 Cert.ReferenceIdeal.dot_S100000x128_S128x64_S100000x64_1_0_0_1_n_n 128 rfl rfl).symm k) = ix2 k q := funext fun a => Fin.ext (by
    match a with
    | ⟨0, _⟩ => exact (wholeDot64_rhs_0 _ _).trans hk
    | ⟨1, _⟩ => exact wholeDot64_rhs_1 _ _)
  rw [el, er]

/-! ## One entry of a block's product is an entry of the whole product -/

/-- A block `x0` holding rows [5000·n, 5000·n + 5000) of `A` (read through `e0`) and a block `x1` holding all of
    `Wt` (read through `e1`): entry `y` of their product is entry `i` of `A · Wt`, for `i` the same column and
    5000·n rows further down. Both are the sum over k of A(row, k) · Wt(k, column). -/
theorem blockEntry64 (A : Spec.TF Ideal S100000x128) (Wt : Spec.TF Ideal S128x64)
    (x0 : Vec Ideal S5000x128 .f32) (x1 : Vec Ideal S128x64 .f32)
    (e0 : S5000x128.Idx → S100000x128.Idx) (e1 : S128x64.Idx → S128x64.Idx) (n : Nat)
    (hx : ∀ z, x0 z = A (e0 z)) (hw : ∀ z, x1 z = Wt (e1 z))
    (he00 : ∀ z, (e0 z 0).val = n * 5000 + (z 0).val) (he01 : ∀ z, (e0 z 1).val = (z 1).val)
    (he10 : ∀ z, (e1 z 0).val = (z 0).val) (he11 : ∀ z, (e1 z 1).val = (z 1).val)
    (y : S5000x64.Idx) (i : S100000x64.Idx)
    (hi0 : (i 0).val = n * 5000 + (y 0).val) (hi1 : (i 1).val = (y 1).val) :
    k4_pay1 (F := Ideal) x0 x1 y = Spec.lin64 (F := Ideal) A Wt i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = n * 5000 + p.val := hi0
  obtain rfl : q' = q := Fin.ext hi1
  rw [blockProduct64_apply, lin64_apply]
  refine Finset.sum_congr rfl fun k _ => ?_
  have ea : e0 (ix2 p k) = ix2 r k := funext fun a => Fin.ext (by
    match a with
    | ⟨0, _⟩ => exact (he00 _).trans hr.symm
    | ⟨1, _⟩ => exact he01 _)
  have eb : e1 (ix2 k q') = ix2 k q' := funext fun a => Fin.ext (by
    match a with
    | ⟨0, _⟩ => exact he10 _
    | ⟨1, _⟩ => exact he11 _)
  rw [hx, hw, ea, eb]

/-! ## From the blocks to the array -/

/-- The offsets of a load or store of a whole staging buffer are zero. -/
theorem zeroOffsets : (![0, 0] : Fin 2 → Nat) = fun _ => 0 := funext fun a => by fin_cases a <;> rfl

-- the accelerator's buffer contents when a region is entered: every statement below holds for any such contents
variable (V : (c : Dev nD) → (b : Ref sig .tc) → Buf (Elt Ideal) ((c : Thread nD τ).loc b))

/-! ## Region 4: the array main_v121 times the weight main_arg22 -/

/-- Where the three windows' blocks sit at point `t`: the row-blocked operand and the result at block row `t`, the
    weight at its one block; all at block column 0. -/
theorem blockIndex4 : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body loads its two whole blocks and stores their product over its whole output block: that block then holds
    the product. -/
theorem bodyResult4 (x0 : Vec Ideal S5000x128 .f32) (x1 : Vec Ideal S128x64 .f32) :
    out4_2 (F := Ideal) x0 x1 = k4_pay1 (F := Ideal) x0 x1 := by
  unfold out4_2
  rw [View.canon_unit_zero zeroOffsets]
  simp only [View.ld_unit_zero (S := S5000x128) zeroOffsets, View.ld_unit_zero (S := S128x64) zeroOffsets]

/-- Entry `j` of the product of point `t`'s blocks is the whole product's entry at `j`'s place in the result array:
    the row-blocked operand's block starts at row 5000·t of its array, the weight's block is the weight, and the
    result's block starts at row 5000·t of the result. -/
theorem blockEntry4 (c : Dev nD) (t : Fin cfg4.N) (j : ((cfg4.win 2).xblock (grid4.coords t)).Idx) :
    k4_pay1 (F := Ideal) (iblk4 V c 0 t) (iblk4 V c 1 t) ((cfg4.win 2).xinj (grid4.coords t) j)
      = Spec.lin64 (F := Ideal) (V c main_v121) (V c main_arg22) (((cfg4.win 2).blk t).view.emb j) := by
  obtain ⟨a0, a1, b0, b1, o0, o1⟩ := blockIndex4 t
  refine blockEntry64 (V c main_v121) (V c main_arg22) (iblk4 V c 0 t) (iblk4 V c 1 t)
    ((cfg4.win 0).blk t).view.emb ((cfg4.win 1).blk t).view.emb t.val (fun z => rfl) (fun z => rfl) ?_ ?_ ?_ ?_ _ _ ?_ ?_
  · intro z
    show win4_0.index t (0 : Fin 2) * 5000 + 1 * (z 0).val = t.val * 5000 + (z 0).val
    omega
  · intro z
    show win4_0.index t (1 : Fin 2) * 128 + 1 * (z 1).val = (z 1).val
    omega
  · intro z
    show win4_1.index t (0 : Fin 2) * 128 + 1 * (z 0).val = (z 0).val
    omega
  · intro z
    show win4_1.index t (1 : Fin 2) * 64 + 1 * (z 1).val = (z 1).val
    omega
  · show win4_2.index t (0 : Fin 2) * 5000 + 1 * (j 0).val = t.val * 5000 + (j 0).val
    omega
  · show win4_2.index t (1 : Fin 2) * 64 + 1 * (j 1).val = (j 1).val
    omega

/-- What point `t` writes back is rows [5000·t, 5000·t + 5000) of the whole product. -/
theorem written4_eq (c : Dev nD) (t : Fin cfg4.N) :
    (dat4 (F := Ideal) V c).flushed 2 t
      = ((cfg4.win 2).blk t).view.read (Elt Ideal) (Spec.lin64 (F := Ideal) (V c main_v121) (V c main_arg22)) := by
  show (cfg4.win 2).cut (grid4.coords t) ((dat4 (F := Ideal) V c).after 2 t) = _
  rw [after4_2]
  funext j
  show out4_2 (F := Ideal) (iblk4 V c 0 t) (iblk4 V c 1 t) ((cfg4.win 2).xinj (grid4.coords t) j)
    = Spec.lin64 (F := Ideal) (V c main_v121) (V c main_arg22) (((cfg4.win 2).blk t).view.emb j)
  exact (congrFun (bodyResult4 (iblk4 V c 0 t) (iblk4 V c 1 t)) _).trans (blockEntry4 V c t j)

/-- An index of the result array is in point `t`'s block iff each coordinate is in the block's range on its axis. -/
theorem mem_block4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v147).slice (win4_2.rect t)).set ↔ _
  rw [View.set_slice_whole, Rect.mem_set_unit]
  exact Iff.rfl

/-- Every row r of the result is written by the point r / 5000. -/
theorem covered4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have ht : (i 0).val / 5000 < cfg4.N := by show (i 0).val / 5000 < 20; omega
  obtain ⟨a0, a1, b0, b1, o0, o1⟩ := blockIndex4 ⟨(i 0).val / 5000, ht⟩
  have o0' : win4_2.index ⟨(i 0).val / 5000, ht⟩ (0 : Fin 2) = (i 0).val / 5000 := o0
  refine ⟨⟨(i 0).val / 5000, ht⟩, flush4_2 _, ?_⟩
  rw [mem_block4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    omega
  | ⟨1, _⟩ =>
    show win4_2.index ⟨(i 0).val / 5000, ht⟩ (1 : Fin 2) * 64 ≤ (i 1).val ∧ (i 1).val < win4_2.index ⟨(i 0).val / 5000, ht⟩ (1 : Fin 2) * 64 + 64
    omega

/-! ## Region 5: the array main_v120 times the weight main_arg20 -/

/-- Where the three windows' blocks sit at point `t`: the row-blocked operand and the result at block row `t`, the
    weight at its one block; all at block column 0. -/
theorem blockIndex5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Region 5's body forms the same product of its two blocks as region 4's. -/
theorem sameProduct5 (x0 : Vec Ideal S5000x128 .f32) (x1 : Vec Ideal S128x64 .f32) :
    k5_pay1 (F := Ideal) x0 x1 = k4_pay1 (F := Ideal) x0 x1 := rfl

/-- The body loads its two whole blocks and stores their product over its whole output block: that block then holds
    the product. -/
theorem bodyResult5 (x0 : Vec Ideal S5000x128 .f32) (x1 : Vec Ideal S128x64 .f32) :
    out5_2 (F := Ideal) x0 x1 = k4_pay1 (F := Ideal) x0 x1 := by
  refine Eq.trans ?_ (sameProduct5 x0 x1)
  unfold out5_2
  rw [View.canon_unit_zero zeroOffsets]
  simp only [View.ld_unit_zero (S := S5000x128) zeroOffsets, View.ld_unit_zero (S := S128x64) zeroOffsets]

/-- Entry `j` of the product of point `t`'s blocks is the whole product's entry at `j`'s place in the result array:
    the row-blocked operand's block starts at row 5000·t of its array, the weight's block is the weight, and the
    result's block starts at row 5000·t of the result. -/
theorem blockEntry5 (c : Dev nD) (t : Fin cfg5.N) (j : ((cfg5.win 2).xblock (grid5.coords t)).Idx) :
    k4_pay1 (F := Ideal) (iblk5 V c 0 t) (iblk5 V c 1 t) ((cfg5.win 2).xinj (grid5.coords t) j)
      = Spec.lin64 (F := Ideal) (V c main_v120) (V c main_arg20) (((cfg5.win 2).blk t).view.emb j) := by
  obtain ⟨a0, a1, b0, b1, o0, o1⟩ := blockIndex5 t
  refine blockEntry64 (V c main_v120) (V c main_arg20) (iblk5 V c 0 t) (iblk5 V c 1 t)
    ((cfg5.win 0).blk t).view.emb ((cfg5.win 1).blk t).view.emb t.val (fun z => rfl) (fun z => rfl) ?_ ?_ ?_ ?_ _ _ ?_ ?_
  · intro z
    show win5_0.index t (0 : Fin 2) * 5000 + 1 * (z 0).val = t.val * 5000 + (z 0).val
    omega
  · intro z
    show win5_0.index t (1 : Fin 2) * 128 + 1 * (z 1).val = (z 1).val
    omega
  · intro z
    show win5_1.index t (0 : Fin 2) * 128 + 1 * (z 0).val = (z 0).val
    omega
  · intro z
    show win5_1.index t (1 : Fin 2) * 64 + 1 * (z 1).val = (z 1).val
    omega
  · show win5_2.index t (0 : Fin 2) * 5000 + 1 * (j 0).val = t.val * 5000 + (j 0).val
    omega
  · show win5_2.index t (1 : Fin 2) * 64 + 1 * (j 1).val = (j 1).val
    omega

/-- What point `t` writes back is rows [5000·t, 5000·t + 5000) of the whole product. -/
theorem written5_eq (c : Dev nD) (t : Fin cfg5.N) :
    (dat5 (F := Ideal) V c).flushed 2 t
      = ((cfg5.win 2).blk t).view.read (Elt Ideal) (Spec.lin64 (F := Ideal) (V c main_v120) (V c main_arg20)) := by
  show (cfg5.win 2).cut (grid5.coords t) ((dat5 (F := Ideal) V c).after 2 t) = _
  rw [after5_2]
  funext j
  show out5_2 (F := Ideal) (iblk5 V c 0 t) (iblk5 V c 1 t) ((cfg5.win 2).xinj (grid5.coords t) j)
    = Spec.lin64 (F := Ideal) (V c main_v120) (V c main_arg20) (((cfg5.win 2).blk t).view.emb j)
  exact (congrFun (bodyResult5 (iblk5 V c 0 t) (iblk5 V c 1 t)) _).trans (blockEntry5 V c t j)

/-- An index of the result array is in point `t`'s block iff each coordinate is in the block's range on its axis. -/
theorem mem_block5 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v195).slice (win5_2.rect t)).set ↔ _
  rw [View.set_slice_whole, Rect.mem_set_unit]
  exact Iff.rfl

/-- Every row r of the result is written by the point r / 5000. -/
theorem covered5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have ht : (i 0).val / 5000 < cfg5.N := by show (i 0).val / 5000 < 20; omega
  obtain ⟨a0, a1, b0, b1, o0, o1⟩ := blockIndex5 ⟨(i 0).val / 5000, ht⟩
  have o0' : win5_2.index ⟨(i 0).val / 5000, ht⟩ (0 : Fin 2) = (i 0).val / 5000 := o0
  refine ⟨⟨(i 0).val / 5000, ht⟩, flush5_2 _, ?_⟩
  rw [mem_block5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    omega
  | ⟨1, _⟩ =>
    show win5_2.index ⟨(i 0).val / 5000, ht⟩ (1 : Fin 2) * 64 ≤ (i 1).val ∧ (i 1).val < win5_2.index ⟨(i 0).val / 5000, ht⟩ (1 : Fin 2) * 64 + 64
    omega

/-! ## Region 10: the array main_v363 times the weight main_arg36 -/

/-- Where the three windows' blocks sit at point `t`: the row-blocked operand and the result at block row `t`, the
    weight at its one block; all at block column 0. -/
theorem blockIndex10 : ∀ t : Fin cfg10.N,
      win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- Region 10's body forms the same product of its two blocks as region 4's. -/
theorem sameProduct10 (x0 : Vec Ideal S5000x128 .f32) (x1 : Vec Ideal S128x64 .f32) :
    k10_pay1 (F := Ideal) x0 x1 = k4_pay1 (F := Ideal) x0 x1 := rfl

/-- The body loads its two whole blocks and stores their product over its whole output block: that block then holds
    the product. -/
theorem bodyResult10 (x0 : Vec Ideal S5000x128 .f32) (x1 : Vec Ideal S128x64 .f32) :
    out10_2 (F := Ideal) x0 x1 = k4_pay1 (F := Ideal) x0 x1 := by
  refine Eq.trans ?_ (sameProduct10 x0 x1)
  unfold out10_2
  rw [View.canon_unit_zero zeroOffsets]
  simp only [View.ld_unit_zero (S := S5000x128) zeroOffsets, View.ld_unit_zero (S := S128x64) zeroOffsets]

/-- Entry `j` of the product of point `t`'s blocks is the whole product's entry at `j`'s place in the result array:
    the row-blocked operand's block starts at row 5000·t of its array, the weight's block is the weight, and the
    result's block starts at row 5000·t of the result. -/
theorem blockEntry10 (c : Dev nD) (t : Fin cfg10.N) (j : ((cfg10.win 2).xblock (grid10.coords t)).Idx) :
    k4_pay1 (F := Ideal) (iblk10 V c 0 t) (iblk10 V c 1 t) ((cfg10.win 2).xinj (grid10.coords t) j)
      = Spec.lin64 (F := Ideal) (V c main_v363) (V c main_arg36) (((cfg10.win 2).blk t).view.emb j) := by
  obtain ⟨a0, a1, b0, b1, o0, o1⟩ := blockIndex10 t
  refine blockEntry64 (V c main_v363) (V c main_arg36) (iblk10 V c 0 t) (iblk10 V c 1 t)
    ((cfg10.win 0).blk t).view.emb ((cfg10.win 1).blk t).view.emb t.val (fun z => rfl) (fun z => rfl) ?_ ?_ ?_ ?_ _ _ ?_ ?_
  · intro z
    show win10_0.index t (0 : Fin 2) * 5000 + 1 * (z 0).val = t.val * 5000 + (z 0).val
    omega
  · intro z
    show win10_0.index t (1 : Fin 2) * 128 + 1 * (z 1).val = (z 1).val
    omega
  · intro z
    show win10_1.index t (0 : Fin 2) * 128 + 1 * (z 0).val = (z 0).val
    omega
  · intro z
    show win10_1.index t (1 : Fin 2) * 64 + 1 * (z 1).val = (z 1).val
    omega
  · show win10_2.index t (0 : Fin 2) * 5000 + 1 * (j 0).val = t.val * 5000 + (j 0).val
    omega
  · show win10_2.index t (1 : Fin 2) * 64 + 1 * (j 1).val = (j 1).val
    omega

/-- What point `t` writes back is rows [5000·t, 5000·t + 5000) of the whole product. -/
theorem written10_eq (c : Dev nD) (t : Fin cfg10.N) :
    (dat10 (F := Ideal) V c).flushed 2 t
      = ((cfg10.win 2).blk t).view.read (Elt Ideal) (Spec.lin64 (F := Ideal) (V c main_v363) (V c main_arg36)) := by
  show (cfg10.win 2).cut (grid10.coords t) ((dat10 (F := Ideal) V c).after 2 t) = _
  rw [after10_2]
  funext j
  show out10_2 (F := Ideal) (iblk10 V c 0 t) (iblk10 V c 1 t) ((cfg10.win 2).xinj (grid10.coords t) j)
    = Spec.lin64 (F := Ideal) (V c main_v363) (V c main_arg36) (((cfg10.win 2).blk t).view.emb j)
  exact (congrFun (bodyResult10 (iblk10 V c 0 t) (iblk10 V c 1 t)) _).trans (blockEntry10 V c t j)

/-- An index of the result array is in point `t`'s block iff each coordinate is in the block's range on its axis. -/
theorem mem_block10 (t : Fin cfg10.N) (i : S100000x64.Idx) :
    i ∈ ((cfg10.win 2).blk t).view.set ↔ ∀ a : Fin 2, win10_2.index t a * S5000x64.size a ≤ (i a).val ∧ (i a).val < win10_2.index t a * S5000x64.size a + S5000x64.size a := by
  show i ∈ ((View.whole main_v389).slice (win10_2.rect t)).set ↔ _
  rw [View.set_slice_whole, Rect.mem_set_unit]
  exact Iff.rfl

/-- Every row r of the result is written by the point r / 5000. -/
theorem covered10 (i : S100000x64.Idx) :
    ∃ t : Fin cfg10.N, (cfg10.win 2).flush t = true ∧ i ∈ ((cfg10.win 2).blk t).view.set := by
  have hi0 : (i 0).val < 100000 := (i 0).isLt
  have hi1 : (i 1).val < 64 := (i 1).isLt
  have ht : (i 0).val / 5000 < cfg10.N := by show (i 0).val / 5000 < 20; omega
  obtain ⟨a0, a1, b0, b1, o0, o1⟩ := blockIndex10 ⟨(i 0).val / 5000, ht⟩
  have o0' : win10_2.index ⟨(i 0).val / 5000, ht⟩ (0 : Fin 2) = (i 0).val / 5000 := o0
  refine ⟨⟨(i 0).val / 5000, ht⟩, flush10_2 _, ?_⟩
  rw [mem_block10]
  intro a
  match a with
  | ⟨0, _⟩ =>
    show win10_2.index ⟨(i 0).val / 5000, ht⟩ (0 : Fin 2) * 5000 ≤ (i 0).val ∧ (i 0).val < win10_2.index ⟨(i 0).val / 5000, ht⟩ (0 : Fin 2) * 5000 + 5000
    omega
  | ⟨1, _⟩ =>
    show win10_2.index ⟨(i 0).val / 5000, ht⟩ (1 : Fin 2) * 64 ≤ (i 1).val ∧ (i 1).val < win10_2.index ⟨(i 0).val / 5000, ht⟩ (1 : Fin 2) * 64 + 64
    omega

/-! ## Region 11: the array main_v362 times the weight main_arg34 -/

/-- Where the three windows' blocks sit at point `t`: the row-blocked operand and the result at block row `t`, the
    weight at its one block; all at block column 0. -/
theorem blockIndex11 : ∀ t : Fin cfg11.N,
      win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- Region 11's body forms the same product of its two blocks as region 4's. -/
theorem sameProduct11 (x0 : Vec Ideal S5000x128 .f32) (x1 : Vec Ideal S128x64 .f32) :
    k11_pay1 (F := Ideal) x0 x1 = k4_pay1 (F := Ideal) x0 x1 := rfl

/-- The body loads its two whole blocks and stores their product over its whole output block: that block then holds
    the product. -/
theorem bodyResult11 (x0 : Vec Ideal S5000x128 .f32) (x1 : Vec Ideal S128x64 .f32) :
    out11_2 (F := Ideal) x0 x1 = k4_pay1 (F := Ideal) x0 x1 := by
  refine Eq.trans ?_ (sameProduct11 x0 x1)
  unfold out11_2
  rw [View.canon_unit_zero zeroOffsets]
  simp only [View.ld_unit_zero (S := S5000x128) zeroOffsets, View.ld_unit_zero (S := S128x64) zeroOffsets]

/-- Entry `j` of the product of point `t`'s blocks is the whole product's entry at `j`'s place in the result array:
    the row-blocked operand's block starts at row 5000·t of its array, the weight's block is the weight, and the
    result's block starts at row 5000·t of the result. -/
theorem blockEntry11 (c : Dev nD) (t : Fin cfg11.N) (j : ((cfg11.win 2).xblock (grid11.coords t)).Idx) :
    k4_pay1 (F := Ideal) (iblk11 V c 0 t) (iblk11 V c 1 t) ((cfg11.win 2).xinj (grid11.coords t) j)
      = Spec.lin64 (F := Ideal) (V c main_v362) (V c main_arg34) (((cfg11.win 2).blk t).view.emb j) := by
  obtain ⟨a0, a1, b0, b1, o0, o1⟩ := blockIndex11 t
  refine blockEntry64 (V c main_v362) (V c main_arg34) (iblk11 V c 0 t) (iblk11 V c 1 t)
    ((cfg11.win 0).blk t).view.emb ((cfg11.win 1).blk t).view.emb t.val (fun z => rfl) (fun z => rfl) ?_ ?_ ?_ ?_ _ _ ?_ ?_
  · intro z
    show win11_0.index t (0 : Fin 2) * 5000 + 1 * (z 0).val = t.val * 5000 + (z 0).val
    omega
  · intro z
    show win11_0.index t (1 : Fin 2) * 128 + 1 * (z 1).val = (z 1).val
    omega
  · intro z
    show win11_1.index t (0 : Fin 2) * 128 + 1 * (z 0).val = (z 0).val
    omega
  · intro z
    show win11_1.index t (1 : Fin 2) * 64 + 1 * (z 1).val = (z 1).val
    omega
  · show win11_2.index t (0 : Fin 2) * 5000 + 1 * (j 0).val = t.val * 5000 + (j 0).val
    omega
  · show win11_2.index t (1 : Fin 2) * 64 + 1 * (j 1).val = (j 1).val
    omega

/-- What point `t` writes back is rows [5000·t, 5000·t + 5000) of the whole product. -/
theorem written11_eq (c : Dev nD) (t : Fin cfg11.N) :
    (dat11 (F := Ideal) V c).flushed 2 t
      = ((cfg11.win 2).blk t).view.read (Elt Ideal) (Spec.lin64 (F := Ideal) (V c main_v362) (V c main_arg34)) := by
  show (cfg11.win 2).cut (grid11.coords t) ((dat11 (F := Ideal) V c).after 2 t) = _
  rw [after11_2]
  funext j
  show out11_2 (F := Ideal) (iblk11 V c 0 t) (iblk11 V c 1 t) ((cfg11.win 2).xinj (grid11.coords t) j)
    = Spec.lin64 (F := Ideal) (V c main_v362) (V c main_arg34) (((cfg11.win 2).blk t).view.emb j)
  exact (congrFun (bodyResult11 (iblk11 V c 0 t) (iblk11 V c 1 t)) _).trans (blockEntry11 V c t j)

/-- An index of the result array is in point `t`'s block iff each coordinate is in the block's range on its axis. -/
theorem mem_block11 (t : Fin cfg11.N) (i : S100000x64.Idx) :
    i ∈ ((cfg11.win 2).blk t).view.set ↔ ∀ a : Fin 2, win11_2.index t a * S5000x64.size a ≤ (i a).val ∧ (i a).val < win11_2.index t a * S5000x64.size a + S5000x64.size a := by
  show i ∈ ((View.whole main_v437).slice (win11_2.rect t)).set ↔ _
  rw [View.set_slice_whole, Rect.mem_set_unit]
  exact Iff.rfl

/-- Every row r of the result is written by the point r / 5000. -/
theorem covered11 (i : S100000x64.Idx) :
    ∃ t : Fin cfg11.N, (cfg11.win 2).flush t = true ∧ i ∈ ((cfg11.win 2).blk t).view.set := by
  have hi0 : (i 0).val < 100000 := (i 0).isLt
  have hi1 : (i 1).val < 64 := (i 1).isLt
  have ht : (i 0).val / 5000 < cfg11.N := by show (i 0).val / 5000 < 20; omega
  obtain ⟨a0, a1, b0, b1, o0, o1⟩ := blockIndex11 ⟨(i 0).val / 5000, ht⟩
  have o0' : win11_2.index ⟨(i 0).val / 5000, ht⟩ (0 : Fin 2) = (i 0).val / 5000 := o0
  refine ⟨⟨(i 0).val / 5000, ht⟩, flush11_2 _, ?_⟩
  rw [mem_block11]
  intro a
  match a with
  | ⟨0, _⟩ =>
    show win11_2.index ⟨(i 0).val / 5000, ht⟩ (0 : Fin 2) * 5000 ≤ (i 0).val ∧ (i 0).val < win11_2.index ⟨(i 0).val / 5000, ht⟩ (0 : Fin 2) * 5000 + 5000
    omega
  | ⟨1, _⟩ =>
    show win11_2.index ⟨(i 0).val / 5000, ht⟩ (1 : Fin 2) * 64 ≤ (i 1).val ∧ (i 1).val < win11_2.index ⟨(i 0).val / 5000, ht⟩ (1 : Fin 2) * 64 + 64
    omega

end MM64

/-! ## The four result arrays -/

/-- THE RESULT ARRAY of region 4 is the whole product of the array main_v121 and the weight main_arg22. -/
theorem arr4 (V : (c : Dev nD) → (b : Ref sig .tc) → Buf (Elt Ideal) ((c : Thread nD τ).loc b)) (c : Dev nD) :
    (GenP.dat4 (F := Ideal) V c).arrAt 2 cfg4.N = Spec.lin64 (F := Ideal) (V c main_v121) (V c main_arg22) :=
  (dat4 (F := Ideal) V c).arrAt_eq_of_cover 2 (Spec.lin64 (F := Ideal) (V c main_v121) (V c main_arg22))
    (fun t _ => MM64.written4_eq V c t) MM64.covered4

/-- THE RESULT ARRAY of region 5 is the whole product of the array main_v120 and the weight main_arg20. -/
theorem arr5 (V : (c : Dev nD) → (b : Ref sig .tc) → Buf (Elt Ideal) ((c : Thread nD τ).loc b)) (c : Dev nD) :
    (GenP.dat5 (F := Ideal) V c).arrAt 2 cfg5.N = Spec.lin64 (F := Ideal) (V c main_v120) (V c main_arg20) :=
  (dat5 (F := Ideal) V c).arrAt_eq_of_cover 2 (Spec.lin64 (F := Ideal) (V c main_v120) (V c main_arg20))
    (fun t _ => MM64.written5_eq V c t) MM64.covered5

/-- THE RESULT ARRAY of region 10 is the whole product of the array main_v363 and the weight main_arg36. -/
theorem arr10 (V : (c : Dev nD) → (b : Ref sig .tc) → Buf (Elt Ideal) ((c : Thread nD τ).loc b)) (c : Dev nD) :
    (GenP.dat10 (F := Ideal) V c).arrAt 2 cfg10.N = Spec.lin64 (F := Ideal) (V c main_v363) (V c main_arg36) :=
  (dat10 (F := Ideal) V c).arrAt_eq_of_cover 2 (Spec.lin64 (F := Ideal) (V c main_v363) (V c main_arg36))
    (fun t _ => MM64.written10_eq V c t) MM64.covered10

/-- THE RESULT ARRAY of region 11 is the whole product of the array main_v362 and the weight main_arg34. -/
theorem arr11 (V : (c : Dev nD) → (b : Ref sig .tc) → Buf (Elt Ideal) ((c : Thread nD τ).loc b)) (c : Dev nD) :
    (GenP.dat11 (F := Ideal) V c).arrAt 2 cfg11.N = Spec.lin64 (F := Ideal) (V c main_v362) (V c main_arg34) :=
  (dat11 (F := Ideal) V c).arrAt_eq_of_cover 2 (Spec.lin64 (F := Ideal) (V c main_v362) (V c main_arg34))
    (fun t _ => MM64.written11_eq V c t) MM64.covered11

end Cert.KernelIdeal.RegionValue

end
-- ==== Proof.RegSage128.lean ====
/-
  The fused-update regions at width 128 (regions 0 and 6), from blocks to the array, at the extended reals and for any
  contents `V` of the buffers when the region is entered.

  Each region's grid has 20 points. Point `t` stages rows `5000·t … 5000·t + 4999` (all 128 columns) of the two
  row-blocked operands `a`, `b`, the whole of the two 128 × 128 weights `wl`, `wr` and of the 1 × 128 bias row, computes
  `(a·wl + b·wr) + bias` on the block, and writes back rows `5000·t … 5000·t + 4999` of the result.

  At an index (row `r`, column `q`) both the body's block and the update of the whole arrays are
      (∑ k < 128, a[r, k] · wl[k, q]) + (∑ k < 128, b[r, k] · wr[k, q]) + bias[0, q],
  the block's with `r` counted inside the block: no law of arithmetic is used, only the reading of each operation at an
  index. The 20 blocks tile the 100000 rows (row `r` is in block `r / 5000`), so the result array ends holding the
  update of the arrays.
-/
import proofs.«157546_j87986700026404_1_alg».proof.Proof.FrameKIa
import proofs.«157546_j87986700026404_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

namespace Sage128

/-! ## A block's product with a weight, at an index

The kernel multiplies a 5000 × 128 block of rows by a whole 128 × 128 weight, contracting the block's columns with the
weight's rows. Its dimension numbers, axis by axis: -/

theorem blkLhs128_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blkLhs128_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem blkRhs128_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem blkRhs128_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at row `j 0` and column `j 1` of the block: the sum over the 128
    contracted positions of the block's entry in that row times the weight's entry in that column (the narrowing of
    the factors to the short format is the identity on the extended reals). -/
theorem blkMatmul128_apply (x : Vec Ideal S5000x128 .f32) (w : Vec Ideal S128x128 .f32) (j : S5000x128.Idx) :
    matmul (F := Ideal) dot_S5000x128_S128x128_S5000x128_1_0_0_1_n_n none (truncf .bf16 x bitsLt_bf16_f32) (truncf .bf16 w bitsLt_bf16_f32)
        (constant (F := Ideal) S5000x128 .f32 0x00000000#32) j
      = ∑ k : Fin 128, x (ix2 (j 0) k) * w (ix2 k (j 1)) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = ix2 (j 0) k := funext fun a => Fin.ext (by
    match a with
    | ⟨0, _⟩ => exact blkLhs128_0 _ _
    | ⟨1, _⟩ => exact (blkLhs128_1 _ _).trans hk)
  have er : dot_S5000x128_S128x128_S5000x128_1_0_0_1_n_n.rhsIdx j ((contrEquiv1 dot_S5000x128_S128x128_S5000x128_1_0_0_1_n_n 128 rfl rfl).symm k) = ix2 k (j 1) := funext fun a => Fin.ext (by
    match a with
    | ⟨0, _⟩ => exact (blkRhs128_0 _ _).trans hk
    | ⟨1, _⟩ => exact blkRhs128_1 _ _)
  rw [el, er]
  rfl

/-- The row of biases spread over the block's rows, at an index: the row's entry in that column. -/
theorem biasBlk128_apply (bias : Vec Ideal S1x128 .f32) (j : S5000x128.Idx) :
    broadcastTo S5000x128 (shapeCast S1x128 (shapeCast S1x128 bias shapeCasts_S1x128_S1x128) shapeCasts_S1x128_S1x128)
        broadcasts_S1x128_S5000x128 j = bias (ix2 0 (j 1)) := by
  rw [shapeCast_self, shapeCast_self]
  exact broadcastTo_apply bias broadcasts_S1x128_S5000x128 j (ix2 0 (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- Two additions of blocks, at an index. -/
theorem addBlk128_apply (m1 m2 y : FVec Ideal S5000x128 .f32) (j : S5000x128.Idx) :
    addf (addf m1 m2) y j = (m1 j + m2 j) + y j := rfl

/-- THE BODY'S RESULT AT AN INDEX of the block: the two products' sums added, then the bias of the column. -/
theorem sagePay0_apply (a : Vec Ideal S5000x128 .f32) (wl : Vec Ideal S128x128 .f32) (b : Vec Ideal S5000x128 .f32)
    (wr : Vec Ideal S128x128 .f32) (bias : Vec Ideal S1x128 .f32) (j : S5000x128.Idx) :
    k0_pay1 (F := Ideal) a wl b wr bias j
      = ((∑ k : Fin 128, a (ix2 (j 0) k) * wl (ix2 k (j 1))) + (∑ k : Fin 128, b (ix2 (j 0) k) * wr (ix2 k (j 1))))
        + bias (ix2 0 (j 1)) := by
  unfold k0_pay1
  refine (addBlk128_apply _ _ _ j).trans ?_
  refine congrArg₂ (· + ·) (congrArg₂ (· + ·) ?_ ?_) ?_
  · refine (blkMatmul128_apply _ wl j).trans ?_
    rw [shapeCast_self]
  · exact blkMatmul128_apply b wr j
  · exact biasBlk128_apply bias j

/-! ## The same update of the whole arrays, at an index -/

theorem arrLhs128_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem arrLhs128_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem arrRhs128_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem arrRhs128_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The linear layer of the whole array at row `i 0` and column `i 1`: the same sum over the 128 contracted positions. -/
theorem lin128_apply (x : Spec.TF Ideal S100000x128) (w : Spec.TF Ideal S128x128) (i : S100000x128.Idx) :
    Spec.lin128 (F := Ideal) x w i = ∑ k : Fin 128, x (ix2 (i 0) k) * w (ix2 k (i 1)) := by
  unfold Spec.lin128
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((contrEquiv1 Cert.ReferenceIdeal.dot_S100000x128_S128x128_S100000x128_1_0_0_1_n_n 128 rfl rfl).symm k) = ix2 (i 0) k := funext fun a => Fin.ext (by
    match a with
    | ⟨0, _⟩ => exact arrLhs128_0 _ _
    | ⟨1, _⟩ => exact (arrLhs128_1 _ _).trans hk)
  have er : Cert.ReferenceIdeal.dot_S100000x128_S128x128_S100000x128_1_0_0_1_n_n.rhsIdx i ((contrEquiv1 Cert.ReferenceIdeal.dot_S100000x128_S128x128_S100000x128_1_0_0_1_n_n 128 rfl rfl).symm k) = ix2 k (i 1) := funext fun a => Fin.ext (by
    match a with
    | ⟨0, _⟩ => exact (arrRhs128_0 _ _).trans hk
    | ⟨1, _⟩ => exact arrRhs128_1 _ _)
  rw [el, er]
  rfl

/-- The row of biases spread over the array's rows, at an index: the row's entry in that column. -/
theorem biasArr128_apply (biasRow : Spec.TF Ideal S1x128) (i : S100000x128.Idx) :
    broadcastInDim S100000x128 ![0, 1] bcast_S1x128_S100000x128_0_1 biasRow i = biasRow (ix2 0 (i 1)) :=
  broadcastInDim_apply _ bcast_S1x128_S100000x128_0_1 biasRow i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- Two additions of arrays, at an index. -/
theorem addArr128_apply (m1 m2 y : FVec Ideal S100000x128 .f32) (i : S100000x128.Idx) :
    addf (addf m1 m2) y i = (m1 i + m2 i) + y i := rfl

/-- THE UPDATE OF THE WHOLE ARRAYS AT AN INDEX: the same expression of the arrays' entries. -/
theorem sageK128_apply (a : Spec.TF Ideal S100000x128) (wl : Spec.TF Ideal S128x128) (b : Spec.TF Ideal S100000x128)
    (wr : Spec.TF Ideal S128x128) (biasRow : Spec.TF Ideal S1x128) (i : S100000x128.Idx) :
    Spec.sageK128 (F := Ideal) a wl b wr biasRow i
      = ((∑ k : Fin 128, a (ix2 (i 0) k) * wl (ix2 k (i 1))) + (∑ k : Fin 128, b (ix2 (i 0) k) * wr (ix2 k (i 1))))
        + biasRow (ix2 0 (i 1)) := by
  unfold Spec.sageK128
  refine (addArr128_apply _ _ _ i).trans ?_
  exact congrArg₂ (· + ·) (congrArg₂ (· + ·) (lin128_apply a wl i) (lin128_apply b wr i)) (biasArr128_apply biasRow i)

/-! ## Region 0: from the blocks to the array

The grid has 20 points; point `t` stages rows `5000·t … 5000·t + 4999` of the two row-blocked operands, the whole of
the two weights and of the bias row, and writes back rows `5000·t … 5000·t + 4999` of the result. -/

section Region0
variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps, decided over the 20 points: the row-blocked windows are at block row `t`, column block 0;
    the whole windows at block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t` is rows `5000·t …` of its array. -/
theorem rows0_0 (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_v22 : S100000x128.Idx → Elt Ideal .f32) i := by
  obtain ⟨e0, e1, -⟩ := blockIdx0 t
  unfold iblk0
  rw [View.read_apply]
  show V c main_v22 _ = V c main_v22 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Window 1's block at every point is the whole of the first weight. -/
theorem rows0_1 (c : Dev nD) (t : Fin cfg0.N) (y i : S128x128.Idx)
    (h0 : (i 0).val = (y 0).val) (h1 : (i 1).val = (y 1).val) :
    (iblk0 V c 1 t : Vec Ideal S128x128 .f32) y = (V c main_arg10 : S128x128.Idx → Elt Ideal .f32) i := by
  obtain ⟨-, -, e0, e1, -⟩ := blockIdx0 t
  unfold iblk0
  rw [View.read_apply]
  show V c main_arg10 _ = V c main_arg10 _
  congr 1
  funext a
  apply Fin.ext
  match a with
  | ⟨0, _⟩ => show win0_1.index t (0 : Fin 2) * 128 + 1 * (y 0).val = (i 0).val; rw [e0, h0]; omega
  | ⟨1, _⟩ => show win0_1.index t (1 : Fin 2) * 128 + 1 * (y 1).val = (i 1).val; rw [e1, h1]; omega

/-- Window 2's block at point `t` is rows `5000·t …` of its array. -/
theorem rows0_2 (c : Dev nD) (t : Fin cfg0.N) (y : S5000x128.Idx) (i : S100000x128.Idx)
    (h0 : (i 0).val = 5000 * t.val + (y 0).val) (h1 : (i 1).val = (y 1).val) :
    (iblk0 V c 2 t : Vec Ideal S5000x128 .f32) y = (V c main_arg1 : S100000x128.Idx → Elt Ideal .f32) i := by
  obtain ⟨-, -, -, -, e0, e1, -⟩ := blockIdx0 t
  unfold iblk0
  rw [View.read_apply]
  show V c main_arg1 _ = V c main_arg1 _
  congr 1
  funext a
  apply Fin.ext
  match a with
  | ⟨0, _⟩ => show win0_2.index t (0 : Fin 2) * 5000 + 1 * (y 0).val = (i 0).val; rw [e0, h0]; omega
  | ⟨1, _⟩ => show win0_2.index t (1 : Fin 2) * 128 + 1 * (y 1).val = (i 1).val; rw [e1, h1]; omega

/-- Window 3's block at every point is the whole of the second weight. -/
theorem rows0_3 (c : Dev nD) (t : Fin cfg0.N) (y i : S128x128.Idx)
    (h0 : (i 0).val = (y 0).val) (h1 : (i 1).val = (y 1).val) :
    (iblk0 V c 3 t : Vec Ideal S128x128 .f32) y = (V c main_arg12 : S128x128.Idx → Elt Ideal .f32) i := by
  obtain ⟨-, -, -, -, -, -, e0, e1, -⟩ := blockIdx0 t
  unfold iblk0
  rw [View.read_apply]
  show V c main_arg12 _ = V c main_arg12 _
  congr 1
  funext a
  apply Fin.ext
  match a with
  | ⟨0, _⟩ => show win0_3.index t (0 : Fin 2) * 128 + 1 * (y 0).val = (i 0).val; rw [e0, h0]; omega
  | ⟨1, _⟩ => show win0_3.index t (1 : Fin 2) * 128 + 1 * (y 1).val = (i 1).val; rw [e1, h1]; omega

/-- Window 4's block at every point is the whole bias row. -/
theorem rows0_4 (c : Dev nD) (t : Fin cfg0.N) (y i : S1x128.Idx)
    (h0 : (i 0).val = (y 0).val) (h1 : (i 1).val = (y 1).val) :
    (iblk0 V c 4 t : Vec Ideal S1x128 .f32) y = (V c main_v23 : S1x128.Idx → Elt Ideal .f32) i := by
  obtain ⟨-, -, -, -, -, -, -, -, e0, e1, -⟩ := blockIdx0 t
  unfold iblk0
  rw [View.read_apply]
  show V c main_v23 _ = V c main_v23 _
  congr 1
  funext a
  apply Fin.ext
  match a with
  | ⟨0, _⟩ => show win0_4.index t (0 : Fin 2) * 1 + 1 * (y 0).val = (i 0).val; rw [e0, h0]; omega
  | ⟨1, _⟩ => show win0_4.index t (1 : Fin 2) * 128 + 1 * (y 1).val = (i 1).val; rw [e1, h1]; omega

/-- WHAT POINT `t`'s BODY LEAVES at an index `y` of its block is the update of the arrays at the index `i` of the
    array that the block's place gives: row `5000·t + y 0`, column `y 1`. -/
theorem body0_apply (c : Dev nD) (t : Fin cfg0.N) (y : S5000x128.Idx) (i : S100000x128.Idx)
    (h0 : (i 0).val = 5000 * t.val + (y 0).val) (h1 : (i 1).val = (y 1).val) :
    out0_5 (F := Ideal) (iblk0 V c 0 t) (iblk0 V c 1 t) (iblk0 V c 2 t) (iblk0 V c 3 t) (iblk0 V c 4 t) y
      = Spec.sageK128 (F := Ideal) (V c main_v22) (V c main_arg10) (V c main_arg1) (V c main_arg12) (V c main_v23) i := by
  unfold out0_5
  rw [View.canon_unit_zero zeroOffsets]
  simp only [View.ld_unit_zero (S := S5000x128) zeroOffsets, View.ld_unit_zero (S := S128x128) zeroOffsets,
    View.ld_unit_zero (S := S1x128) zeroOffsets]
  refine (sagePay0_apply _ _ _ _ _ y).trans ?_
  refine Eq.trans ?_ (sageK128_apply _ _ _ _ _ i).symm
  refine congrArg₂ (· + ·) (congrArg₂ (· + ·) (Finset.sum_congr rfl fun k _ => ?_) (Finset.sum_congr rfl fun k _ => ?_)) ?_
  · exact congrArg₂ (· * ·) (rows0_0 V c t _ _ h0 rfl) (rows0_1 V c t _ _ rfl h1)
  · exact congrArg₂ (· * ·) (rows0_2 V c t _ _ h0 rfl) (rows0_3 V c t _ _ rfl h1)
  · exact rows0_4 V c t _ _ rfl h1

/-- So what point `t` writes back is block `t` of the update of the arrays (stated here of the body's result cut to
    the block the transfer moves, which is all of it). -/
theorem cut0_eq (c : Dev nD) (t : Fin cfg0.N) :
    (cfg0.win 5).cut (grid0.coords t) (out0_5 (F := Ideal) (iblk0 V c 0 t) (iblk0 V c 1 t) (iblk0 V c 2 t) (iblk0 V c 3 t) (iblk0 V c 4 t))
      = ((cfg0.win 5).blk t).view.read (Elt Ideal)
          (Spec.sageK128 (F := Ideal) (V c main_v22) (V c main_arg10) (V c main_arg1) (V c main_arg12) (V c main_v23)) := by
  obtain ⟨-, -, -, -, -, -, -, -, -, -, e0, e1⟩ := blockIdx0 t
  funext j
  show out0_5 (F := Ideal) (iblk0 V c 0 t) (iblk0 V c 1 t) (iblk0 V c 2 t) (iblk0 V c 3 t) (iblk0 V c 4 t) j
      = Spec.sageK128 (F := Ideal) (V c main_v22) (V c main_arg10) (V c main_arg1) (V c main_arg12) (V c main_v23)
          (((cfg0.win 5).blk t).view.emb j)
  refine body0_apply V c t j _ ?_ ?_
  · show win0_5.index t (0 : Fin 2) * 5000 + 1 * (j 0).val = 5000 * t.val + (j 0).val; rw [e0]; omega
  · show win0_5.index t (1 : Fin 2) * 128 + 1 * (j 1).val = (j 1).val; rw [e1]; omega

theorem points0 : cfg0.N = 20 := rfl

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- THE COVER: row `r` of the result is in the block of point `r / 5000`, which writes back. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by have := points0; omega⟩, rfl⟩
  obtain ⟨-, -, -, -, -, -, -, -, -, -, e0, e1⟩ := blockIdx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- WHAT POINT `t` WRITES BACK is block `t` of the update of the arrays as the region finds them. -/
theorem flushed0 (c : Dev nD) (t : Fin cfg0.N) :
    (dat0 (F := Ideal) V c).flushed 5 t = ((cfg0.win 5).blk t).view.read (Elt Ideal)
      (Spec.sageK128 (F := Ideal) (V c main_v22) (V c main_arg10) (V c main_arg1) (V c main_arg12) (V c main_v23)) := by
  show (cfg0.win 5).cut (grid0.coords t) ((dat0 V c).after 5 t) = _
  rw [after0_5]
  exact cut0_eq V c t

end Region0

/-! ## Region 6: the same update in the second graph

The same kernel on the second graph's buffers: the same grid of 20 points, the same blocks. -/

/-- THE BODY'S RESULT AT AN INDEX of the block, for region 6's body: the two products' sums added, then the bias of the column. -/
theorem sagePay6_apply (a : Vec Ideal S5000x128 .f32) (wl : Vec Ideal S128x128 .f32) (b : Vec Ideal S5000x128 .f32)
    (wr : Vec Ideal S128x128 .f32) (bias : Vec Ideal S1x128 .f32) (j : S5000x128.Idx) :
    k6_pay1 (F := Ideal) a wl b wr bias j
      = ((∑ k : Fin 128, a (ix2 (j 0) k) * wl (ix2 k (j 1))) + (∑ k : Fin 128, b (ix2 (j 0) k) * wr (ix2 k (j 1))))
        + bias (ix2 0 (j 1)) := by
  unfold k6_pay1
  refine (addBlk128_apply _ _ _ j).trans ?_
  refine congrArg₂ (· + ·) (congrArg₂ (· + ·) ?_ ?_) ?_
  · refine (blkMatmul128_apply _ wl j).trans ?_
    rw [shapeCast_self]
  · exact blkMatmul128_apply b wr j
  · exact biasBlk128_apply bias j

section Region6
variable (V : (c : Dev nD) → (b : Ref sig .tc) → Buf (Elt Ideal) ((c : Thread nD τ).loc b))

/-- The printed index maps of region 6, decided over the 20 points: the row-blocked windows are at block row `t`,
    column block 0; the whole windows at block (0, 0). -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Window 0's block at point `t` is rows `5000·t …` of its array. -/
theorem rows6_0 (c : Dev nD) (t : Fin cfg6.N) (y : S5000x128.Idx) (i : S100000x128.Idx)
    (h0 : (i 0).val = 5000 * t.val + (y 0).val) (h1 : (i 1).val = (y 1).val) :
    (iblk6 V c 0 t : Vec Ideal S5000x128 .f32) y = (V c main_v264 : S100000x128.Idx → Elt Ideal .f32) i := by
  obtain ⟨e0, e1, -⟩ := blockIdx6 t
  unfold iblk6
  rw [View.read_apply]
  show V c main_v264 _ = V c main_v264 _
  congr 1
  funext a
  apply Fin.ext
  match a with
  | ⟨0, _⟩ => show win6_0.index t (0 : Fin 2) * 5000 + 1 * (y 0).val = (i 0).val; rw [e0, h0]; omega
  | ⟨1, _⟩ => show win6_0.index t (1 : Fin 2) * 128 + 1 * (y 1).val = (i 1).val; rw [e1, h1]; omega

/-- Window 1's block at every point is the whole of the first weight. -/
theorem rows6_1 (c : Dev nD) (t : Fin cfg6.N) (y i : S128x128.Idx)
    (h0 : (i 0).val = (y 0).val) (h1 : (i 1).val = (y 1).val) :
    (iblk6 V c 1 t : Vec Ideal S128x128 .f32) y = (V c main_arg24 : S128x128.Idx → Elt Ideal .f32) i := by
  obtain ⟨-, -, e0, e1, -⟩ := blockIdx6 t
  unfold iblk6
  rw [View.read_apply]
  show V c main_arg24 _ = V c main_arg24 _
  congr 1
  funext a
  apply Fin.ext
  match a with
  | ⟨0, _⟩ => show win6_1.index t (0 : Fin 2) * 128 + 1 * (y 0).val = (i 0).val; rw [e0, h0]; omega
  | ⟨1, _⟩ => show win6_1.index t (1 : Fin 2) * 128 + 1 * (y 1).val = (i 1).val; rw [e1, h1]; omega

/-- Window 2's block at point `t` is rows `5000·t …` of its array. -/
theorem rows6_2 (c : Dev nD) (t : Fin cfg6.N) (y : S5000x128.Idx) (i : S100000x128.Idx)
    (h0 : (i 0).val = 5000 * t.val + (y 0).val) (h1 : (i 1).val = (y 1).val) :
    (iblk6 V c 2 t : Vec Ideal S5000x128 .f32) y = (V c main_arg3 : S100000x128.Idx → Elt Ideal .f32) i := by
  obtain ⟨-, -, -, -, e0, e1, -⟩ := blockIdx6 t
  unfold iblk6
  rw [View.read_apply]
  show V c main_arg3 _ = V c main_arg3 _
  congr 1
  funext a
  apply Fin.ext
  match a with
  | ⟨0, _⟩ => show win6_2.index t (0 : Fin 2) * 5000 + 1 * (y 0).val = (i 0).val; rw [e0, h0]; omega
  | ⟨1, _⟩ => show win6_2.index t (1 : Fin 2) * 128 + 1 * (y 1).val = (i 1).val; rw [e1, h1]; omega

/-- Window 3's block at every point is the whole of the second weight. -/
theorem rows6_3 (c : Dev nD) (t : Fin cfg6.N) (y i : S128x128.Idx)
    (h0 : (i 0).val = (y 0).val) (h1 : (i 1).val = (y 1).val) :
    (iblk6 V c 3 t : Vec Ideal S128x128 .f32) y = (V c main_arg26 : S128x128.Idx → Elt Ideal .f32) i := by
  obtain ⟨-, -, -, -, -, -, e0, e1, -⟩ := blockIdx6 t
  unfold iblk6
  rw [View.read_apply]
  show V c main_arg26 _ = V c main_arg26 _
  congr 1
  funext a
  apply Fin.ext
  match a with
  | ⟨0, _⟩ => show win6_3.index t (0 : Fin 2) * 128 + 1 * (y 0).val = (i 0).val; rw [e0, h0]; omega
  | ⟨1, _⟩ => show win6_3.index t (1 : Fin 2) * 128 + 1 * (y 1).val = (i 1).val; rw [e1, h1]; omega

/-- Window 4's block at every point is the whole bias row. -/
theorem rows6_4 (c : Dev nD) (t : Fin cfg6.N) (y i : S1x128.Idx)
    (h0 : (i 0).val = (y 0).val) (h1 : (i 1).val = (y 1).val) :
    (iblk6 V c 4 t : Vec Ideal S1x128 .f32) y = (V c main_v265 : S1x128.Idx → Elt Ideal .f32) i := by
  obtain ⟨-, -, -, -, -, -, -, -, e0, e1, -⟩ := blockIdx6 t
  unfold iblk6
  rw [View.read_apply]
  show V c main_v265 _ = V c main_v265 _
  congr 1
  funext a
  apply Fin.ext
  match a with
  | ⟨0, _⟩ => show win6_4.index t (0 : Fin 2) * 1 + 1 * (y 0).val = (i 0).val; rw [e0, h0]; omega
  | ⟨1, _⟩ => show win6_4.index t (1 : Fin 2) * 128 + 1 * (y 1).val = (i 1).val; rw [e1, h1]; omega

/-- WHAT POINT `t`'s BODY LEAVES at an index `y` of its block is the update of the arrays at the index `i` of the
    array that the block's place gives: row `5000·t + y 0`, column `y 1`. -/
theorem body6_apply (c : Dev nD) (t : Fin cfg6.N) (y : S5000x128.Idx) (i : S100000x128.Idx)
    (h0 : (i 0).val = 5000 * t.val + (y 0).val) (h1 : (i 1).val = (y 1).val) :
    out6_5 (F := Ideal) (iblk6 V c 0 t) (iblk6 V c 1 t) (iblk6 V c 2 t) (iblk6 V c 3 t) (iblk6 V c 4 t) y
      = Spec.sageK128 (F := Ideal) (V c main_v264) (V c main_arg24) (V c main_arg3) (V c main_arg26) (V c main_v265) i := by
  unfold out6_5
  rw [View.canon_unit_zero zeroOffsets]
  simp only [View.ld_unit_zero (S := S5000x128) zeroOffsets, View.ld_unit_zero (S := S128x128) zeroOffsets,
    View.ld_unit_zero (S := S1x128) zeroOffsets]
  refine (sagePay6_apply _ _ _ _ _ y).trans ?_
  refine Eq.trans ?_ (sageK128_apply _ _ _ _ _ i).symm
  refine congrArg₂ (· + ·) (congrArg₂ (· + ·) (Finset.sum_congr rfl fun k _ => ?_) (Finset.sum_congr rfl fun k _ => ?_)) ?_
  · exact congrArg₂ (· * ·) (rows6_0 V c t _ _ h0 rfl) (rows6_1 V c t _ _ rfl h1)
  · exact congrArg₂ (· * ·) (rows6_2 V c t _ _ h0 rfl) (rows6_3 V c t _ _ rfl h1)
  · exact rows6_4 V c t _ _ rfl h1

/-- So the body's result, cut to the block the transfer moves (all of it), is block `t` of the update of the arrays. -/
theorem cut6_eq (c : Dev nD) (t : Fin cfg6.N) :
    (cfg6.win 5).cut (grid6.coords t) (out6_5 (F := Ideal) (iblk6 V c 0 t) (iblk6 V c 1 t) (iblk6 V c 2 t) (iblk6 V c 3 t) (iblk6 V c 4 t))
      = ((cfg6.win 5).blk t).view.read (Elt Ideal)
          (Spec.sageK128 (F := Ideal) (V c main_v264) (V c main_arg24) (V c main_arg3) (V c main_arg26) (V c main_v265)) := by
  obtain ⟨-, -, -, -, -, -, -, -, -, -, e0, e1⟩ := blockIdx6 t
  funext j
  show out6_5 (F := Ideal) (iblk6 V c 0 t) (iblk6 V c 1 t) (iblk6 V c 2 t) (iblk6 V c 3 t) (iblk6 V c 4 t) j
      = Spec.sageK128 (F := Ideal) (V c main_v264) (V c main_arg24) (V c main_arg3) (V c main_arg26) (V c main_v265)
          (((cfg6.win 5).blk t).view.emb j)
  refine body6_apply V c t j _ ?_ ?_
  · show win6_5.index t (0 : Fin 2) * 5000 + 1 * (j 0).val = 5000 * t.val + (j 0).val; rw [e0]; omega
  · show win6_5.index t (1 : Fin 2) * 128 + 1 * (j 1).val = (j 1).val; rw [e1]; omega

theorem points6 : cfg6.N = 20 := rfl

/-- An index of the result array is in point `t`'s block iff each coordinate is in the block's range on its axis. -/
theorem mem_blk6 (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v266).slice (win6_5.rect t)).set ↔ _
  rw [View.set_slice_whole, Rect.mem_set_unit]
  exact Iff.rfl

/-- THE COVER: row `r` of the result is in the block of point `r / 5000`, which writes back. -/
theorem cover6 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  obtain ⟨t, ht⟩ : ∃ t : Fin cfg6.N, t.val = (i 0).val / 5000 :=
    ⟨⟨(i 0).val / 5000, by have := points6; omega⟩, rfl⟩
  obtain ⟨-, -, -, -, -, -, -, -, -, -, e0, e1⟩ := blockIdx6 t
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-- WHAT POINT `t` WRITES BACK is block `t` of the update of the arrays as the region finds them. -/
theorem flushed6 (c : Dev nD) (t : Fin cfg6.N) :
    (dat6 (F := Ideal) V c).flushed 5 t = ((cfg6.win 5).blk t).view.read (Elt Ideal)
      (Spec.sageK128 (F := Ideal) (V c main_v264) (V c main_arg24) (V c main_arg3) (V c main_arg26) (V c main_v265)) := by
  show (cfg6.win 5).cut (grid6.coords t) ((dat6 V c).after 5 t) = _
  rw [after6_5]
  exact cut6_eq V c t

end Region6

end Sage128

/-! ## The two result arrays -/

section Arrays
variable (V : (c : Dev nD) → (b : Ref sig .tc) → Buf (Elt Ideal) ((c : Thread nD τ).loc b))

/-- THE RESULT ARRAY of region 0 after its 20 points: the update of the arrays as the region finds them (every index
    is in some point's block, and each point writes back its block of the update). -/
theorem arr0 (c : Dev nD) :
    (GenP.dat0 (F := Ideal) V c).arrAt 5 cfg0.N
      = Spec.sageK128 (F := Ideal) (V c main_v22) (V c main_arg10) (V c main_arg1) (V c main_arg12) (V c main_v23) :=
  (dat0 (F := Ideal) V c).arrAt_eq_of_cover 5 _ (fun t _ => Sage128.flushed0 V c t) Sage128.cover0

/-- THE RESULT ARRAY of region 6 after its 20 points: the update of the arrays as the region finds them. -/
theorem arr6 (c : Dev nD) :
    (GenP.dat6 (F := Ideal) V c).arrAt 5 cfg6.N
      = Spec.sageK128 (F := Ideal) (V c main_v264) (V c main_arg24) (V c main_arg3) (V c main_arg26) (V c main_v265) :=
  (dat6 (F := Ideal) V c).arrAt_eq_of_cover 5 _ (fun t _ => Sage128.flushed6 V c t) Sage128.cover6

end Arrays

end Cert.KernelIdeal.RegionValue

end
-- ==== Proof.RegSage64.lean ====
/-
  The fused-update regions at width 64 (regions 3 and 9), from blocks to the array, at the extended reals and for any
  contents `V` of the buffers when the region is entered.

  Each region's grid has 20 points. Point `t` stages rows `5000·t … 5000·t + 4999` (all 128 columns) of the two
  row-blocked operands `a`, `b`, the whole of the two 128 × 64 weights `wl`, `wr` and of the 1 × 64 bias row, computes
  `(a·wl + b·wr) + bias` on the block, and writes back rows `5000·t … 5000·t + 4999` (all 64 columns) of the result.

  At an index (row `r`, column `q`) both the body's block and the update of the whole arrays are
      (∑ k < 128, a[r, k] · wl[k, q]) + (∑ k < 128, b[r, k] · wr[k, q]) + bias[0, q],
  the block's with `r` counted inside the block: no law of arithmetic is used, only the reading of each operation at an
  index. The 20 blocks tile the 100000 rows (row `r` is in block `r / 5000`), so the result array ends holding the
  update of the arrays.
-/
import proofs.«157546_j87986700026404_1_alg».proof.Proof.FrameKIa
import proofs.«157546_j87986700026404_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

namespace Sage64

/-! ## A block's product with a weight, at an index

The kernel multiplies a 5000 × 128 block of rows by a whole 128 × 64 weight, contracting the block's columns with the
weight's rows. Its dimension numbers, axis by axis: -/

theorem blkLhs64_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blkLhs64_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem blkRhs64_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem blkRhs64_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's product into the zero accumulator, at row `j 0` and column `j 1` of the block: the sum over the 128
    contracted positions of the block's entry in that row times the weight's entry in that column (the narrowing of
    the factors to the short format is the identity on the extended reals). -/
theorem blkMatmul64_apply (x : Vec Ideal S5000x128 .f32) (w : Vec Ideal S128x64 .f32) (j : S5000x64.Idx) :
    matmul (F := Ideal) dot_S5000x128_S128x64_S5000x64_1_0_0_1_n_n none (truncf .bf16 x bitsLt_bf16_f32) (truncf .bf16 w bitsLt_bf16_f32)
        (constant (F := Ideal) S5000x64 .f32 0x00000000#32) j
      = ∑ k : Fin 128, x (ix2 (j 0) k) * w (ix2 k (j 1)) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx j ((contrEquiv1 dot_S5000x128_S128x64_S5000x64_1_0_0_1_n_n 128 rfl rfl).symm k) = ix2 (j 0) k := funext fun a => Fin.ext (by
    match a with
    | ⟨0, _⟩ => exact blkLhs64_0 _ _
    | ⟨1, _⟩ => exact (blkLhs64_1 _ _).trans hk)
  have er : dot_S5000x128_S128x64_S5000x64_1_0_0_1_n_n.rhsIdx j ((contrEquiv1 dot_S5000x128_S128x64_S5000x64_1_0_0_1_n_n 128 rfl rfl).symm k) = ix2 k (j 1) := funext fun a => Fin.ext (by
    match a with
    | ⟨0, _⟩ => exact (blkRhs64_0 _ _).trans hk
    | ⟨1, _⟩ => exact blkRhs64_1 _ _)
  rw [el, er]
  rfl

/-- The row of biases spread over the block's rows, at an index: the row's entry in that column. -/
theorem biasBlk64_apply (bias : Vec Ideal S1x64 .f32) (j : S5000x64.Idx) :
    broadcastTo S5000x64 (shapeCast S1x64 (shapeCast S1x64 bias shapeCasts_S1x64_S1x64) shapeCasts_S1x64_S1x64)
        broadcasts_S1x64_S5000x64 j = bias (ix2 0 (j 1)) := by
  rw [shapeCast_self, shapeCast_self]
  exact broadcastTo_apply bias broadcasts_S1x64_S5000x64 j (ix2 0 (j 1)) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- Two additions of blocks, at an index. -/
theorem addBlk64_apply (m1 m2 y : FVec Ideal S5000x64 .f32) (j : S5000x64.Idx) :
    addf (addf m1 m2) y j = (m1 j + m2 j) + y j := rfl

/-- THE BODY'S RESULT AT AN INDEX of the block, for region 3's body: the two products' sums added, then the bias of
    the column. -/
theorem sagePay3_apply (a : Vec Ideal S5000x128 .f32) (wl : Vec Ideal S128x64 .f32) (b : Vec Ideal S5000x128 .f32)
    (wr : Vec Ideal S128x64 .f32) (bias : Vec Ideal S1x64 .f32) (j : S5000x64.Idx) :
    k3_pay1 (F := Ideal) a wl b wr bias j
      = ((∑ k : Fin 128, a (ix2 (j 0) k) * wl (ix2 k (j 1))) + (∑ k : Fin 128, b (ix2 (j 0) k) * wr (ix2 k (j 1))))
        + bias (ix2 0 (j 1)) := by
  unfold k3_pay1
  refine (addBlk64_apply _ _ _ j).trans ?_
  refine congrArg₂ (· + ·) (congrArg₂ (· + ·) ?_ ?_) ?_
  · refine (blkMatmul64_apply _ wl j).trans ?_
    rw [shapeCast_self]
  · refine (blkMatmul64_apply _ wr j).trans ?_
    rw [shapeCast_self]
  · exact biasBlk64_apply bias j

/-- The same for region 9's body. -/
theorem sagePay9_apply (a : Vec Ideal S5000x128 .f32) (wl : Vec Ideal S128x64 .f32) (b : Vec Ideal S5000x128 .f32)
    (wr : Vec Ideal S128x64 .f32) (bias : Vec Ideal S1x64 .f32) (j : S5000x64.Idx) :
    k9_pay1 (F := Ideal) a wl b wr bias j
      = ((∑ k : Fin 128, a (ix2 (j 0) k) * wl (ix2 k (j 1))) + (∑ k : Fin 128, b (ix2 (j 0) k) * wr (ix2 k (j 1))))
        + bias (ix2 0 (j 1)) := by
  unfold k9_pay1
  refine (addBlk64_apply _ _ _ j).trans ?_
  refine congrArg₂ (· + ·) (congrArg₂ (· + ·) ?_ ?_) ?_
  · refine (blkMatmul64_apply _ wl j).trans ?_
    rw [shapeCast_self]
  · refine (blkMatmul64_apply _ wr j).trans ?_
    rw [shapeCast_self]
  · exact biasBlk64_apply bias j

/-! ## The same update of the whole arrays, at an index -/

theorem arrLhs64_0 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem arrLhs64_1 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem arrRhs64_0 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem arrRhs64_1 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- The linear layer of the whole array at row `i 0` and column `i 1`: the same sum over the 128 contracted positions. -/
theorem lin64_apply (x : Spec.TF Ideal S100000x128) (w : Spec.TF Ideal S128x64) (i : S100000x64.Idx) :
    Spec.lin64 (F := Ideal) x w i = ∑ k : Fin 128, x (ix2 (i 0) k) * w (ix2 k (i 1)) := by
  unfold Spec.lin64
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((contrEquiv1 Cert.ReferenceIdeal.dot_S100000x128_S128x64_S100000x64_1_0_0_1_n_n 128 rfl rfl).symm k) = ix2 (i 0) k := funext fun a => Fin.ext (by
    match a with
    | ⟨0, _⟩ => exact arrLhs64_0 _ _
    | ⟨1, _⟩ => exact (arrLhs64_1 _ _).trans hk)
  have er : Cert.ReferenceIdeal.dot_S100000x128_S128x64_S100000x64_1_0_0_1_n_n.rhsIdx i ((contrEquiv1 Cert.ReferenceIdeal.dot_S100000x128_S128x64_S100000x64_1_0_0_1_n_n 128 rfl rfl).symm k) = ix2 k (i 1) := funext fun a => Fin.ext (by
    match a with
    | ⟨0, _⟩ => exact (arrRhs64_0 _ _).trans hk
    | ⟨1, _⟩ => exact arrRhs64_1 _ _)
  rw [el, er]
  rfl

/-- The row of biases spread over the array's rows, at an index: the row's entry in that column. -/
theorem biasArr64_apply (biasRow : Spec.TF Ideal S1x64) (i : S100000x64.Idx) :
    broadcastInDim S100000x64 ![0, 1] bcast_S1x64_S100000x64_0_1 biasRow i = biasRow (ix2 0 (i 1)) :=
  broadcastInDim_apply _ bcast_S1x64_S100000x64_0_1 biasRow i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- Two additions of arrays, at an index. -/
theorem addArr64_apply (m1 m2 y : FVec Ideal S100000x64 .f32) (i : S100000x64.Idx) :
    addf (addf m1 m2) y i = (m1 i + m2 i) + y i := rfl

/-- THE UPDATE OF THE WHOLE ARRAYS AT AN INDEX: the same expression of the arrays' entries. -/
theorem sageK64_apply (a : Spec.TF Ideal S100000x128) (wl : Spec.TF Ideal S128x64) (b : Spec.TF Ideal S100000x128)
    (wr : Spec.TF Ideal S128x64) (biasRow : Spec.TF Ideal S1x64) (i : S100000x64.Idx) :
    Spec.sageK64 (F := Ideal) a wl b wr biasRow i
      = ((∑ k : Fin 128, a (ix2 (i 0) k) * wl (ix2 k (i 1))) + (∑ k : Fin 128, b (ix2 (i 0) k) * wr (ix2 k (i 1))))
        + biasRow (ix2 0 (i 1)) := by
  unfold Spec.sageK64
  refine (addArr64_apply _ _ _ i).trans ?_
  exact congrArg₂ (· + ·) (congrArg₂ (· + ·) (lin64_apply a wl i) (lin64_apply b wr i)) (biasArr64_apply biasRow i)

theorem zeroOffsets : (![0, 0] : Fin 2 → Nat) = fun _ => 0 := funext fun a => by fin_cases a <;> rfl

/-! ## Region 3: from the blocks to the array

The grid has 20 points; point `t` stages rows `5000·t … 5000·t + 4999` of the two row-blocked operands, the whole of
the two weights and of the bias row, and writes back rows `5000·t … 5000·t + 4999` of the result. -/

section Region3
variable (V : (c : Dev nD) → (b : Ref sig .tc) → Buf (Elt Ideal) ((c : Thread nD τ).loc b))

/-- The printed index maps, decided over the 20 points: the row-blocked windows are at block row `t`, column block 0;
    the whole windows at block (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point `t` is rows `5000·t …` of its array. -/
theorem rows3_0 (c : Dev nD) (t : Fin cfg3.N) (y : S5000x128.Idx) (i : S100000x128.Idx)
    (h0 : (i 0).val = 5000 * t.val + (y 0).val) (h1 : (i 1).val = (y 1).val) :
    (iblk3 V c 0 t : Vec Ideal S5000x128 .f32) y = (V c main_v144 : S100000x128.Idx → Elt Ideal .f32) i := by
  obtain ⟨e0, e1, -⟩ := blockIdx3 t
  unfold iblk3
  rw [View.read_apply]
  show V c main_v144 _ = V c main_v144 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- Window 1's block at every point is the whole of the first weight. -/
theorem rows3_1 (c : Dev nD) (t : Fin cfg3.N) (y i : S128x64.Idx)
    (h0 : (i 0).val = (y 0).val) (h1 : (i 1).val = (y 1).val) :
    (iblk3 V c 1 t : Vec Ideal S128x64 .f32) y = (V c main_arg17 : S128x64.Idx → Elt Ideal .f32) i := by
  obtain ⟨-, -, e0, e1, -⟩ := blockIdx3 t
  unfold iblk3
  rw [View.read_apply]
  show V c main_arg17 _ = V c main_arg17 _
  congr 1
  funext a
  apply Fin.ext
  match a with
  | ⟨0, _⟩ => show win3_1.index t (0 : Fin 2) * 128 + 1 * (y 0).val = (i 0).val; rw [e0, h0]; omega
  | ⟨1, _⟩ => show win3_1.index t (1 : Fin 2) * 64 + 1 * (y 1).val = (i 1).val; rw [e1, h1]; omega

/-- Window 2's block at point `t` is rows `5000·t …` of its array. -/
theorem rows3_2 (c : Dev nD) (t : Fin cfg3.N) (y : S5000x128.Idx) (i : S100000x128.Idx)
    (h0 : (i 0).val = 5000 * t.val + (y 0).val) (h1 : (i 1).val = (y 1).val) :
    (iblk3 V c 2 t : Vec Ideal S5000x128 .f32) y = (V c main_v121 : S100000x128.Idx → Elt Ideal .f32) i := by
  obtain ⟨-, -, -, -, e0, e1, -⟩ := blockIdx3 t
  unfold iblk3
  rw [View.read_apply]
  show V c main_v121 _ = V c main_v121 _
  congr 1
  funext a
  apply Fin.ext
  match a with
  | ⟨0, _⟩ => show win3_2.index t (0 : Fin 2) * 5000 + 1 * (y 0).val = (i 0).val; rw [e0, h0]; omega
  | ⟨1, _⟩ => show win3_2.index t (1 : Fin 2) * 128 + 1 * (y 1).val = (i 1).val; rw [e1, h1]; omega

/-- Window 3's block at every point is the whole of the second weight. -/
theorem rows3_3 (c : Dev nD) (t : Fin cfg3.N) (y i : S128x64.Idx)
    (h0 : (i 0).val = (y 0).val) (h1 : (i 1).val = (y 1).val) :
    (iblk3 V c 3 t : Vec Ideal S128x64 .f32) y = (V c main_arg19 : S128x64.Idx → Elt Ideal .f32) i := by
  obtain ⟨-, -, -, -, -, -, e0, e1, -⟩ := blockIdx3 t
  unfold iblk3
  rw [View.read_apply]
  show V c main_arg19 _ = V c main_arg19 _
  congr 1
  funext a
  apply Fin.ext
  match a with
  | ⟨0, _⟩ => show win3_3.index t (0 : Fin 2) * 128 + 1 * (y 0).val = (i 0).val; rw [e0, h0]; omega
  | ⟨1, _⟩ => show win3_3.index t (1 : Fin 2) * 64 + 1 * (y 1).val = (i 1).val; rw [e1, h1]; omega

/-- Window 4's block at every point is the whole bias row. -/
theorem rows3_4 (c : Dev nD) (t : Fin cfg3.N) (y i : S1x64.Idx)
    (h0 : (i 0).val = (y 0).val) (h1 : (i 1).val = (y 1).val) :
    (iblk3 V c 4 t : Vec Ideal S1x64 .f32) y = (V c main_v145 : S1x64.Idx → Elt Ideal .f32) i := by
  obtain ⟨-, -, -, -, -, -, -, -, e0, e1, -⟩ := blockIdx3 t
  unfold iblk3
  rw [View.read_apply]
  show V c main_v145 _ = V c main_v145 _
  congr 1
  funext a
  apply Fin.ext
  match a with
  | ⟨0, _⟩ => show win3_4.index t (0 : Fin 2) * 1 + 1 * (y 0).val = (i 0).val; rw [e0, h0]; omega
  | ⟨1, _⟩ => show win3_4.index t (1 : Fin 2) * 64 + 1 * (y 1).val = (i 1).val; rw [e1, h1]; omega

/-- WHAT POINT `t`'s BODY LEAVES at an index `y` of its block is the update of the arrays at the index `i` of the
    array that the block's place gives: row `5000·t + y 0`, column `y 1`. -/
theorem body3_apply (c : Dev nD) (t : Fin cfg3.N) (y : S5000x64.Idx) (i : S100000x64.Idx)
    (h0 : (i 0).val = 5000 * t.val + (y 0).val) (h1 : (i 1).val = (y 1).val) :
    out3_5 (F := Ideal) (iblk3 V c 0 t) (iblk3 V c 1 t) (iblk3 V c 2 t) (iblk3 V c 3 t) (iblk3 V c 4 t) y
      = Spec.sageK64 (F := Ideal) (V c main_v144) (V c main_arg17) (V c main_v121) (V c main_arg19) (V c main_v145) i := by
  unfold out3_5
  rw [View.canon_unit_zero zeroOffsets]
  simp only [View.ld_unit_zero (S := S5000x128) zeroOffsets, View.ld_unit_zero (S := S128x64) zeroOffsets,
    View.ld_unit_zero (S := S1x64) zeroOffsets]
  refine (sagePay3_apply _ _ _ _ _ y).trans ?_
  refine Eq.trans ?_ (sageK64_apply _ _ _ _ _ i).symm
  refine congrArg₂ (· + ·) (congrArg₂ (· + ·) (Finset.sum_congr rfl fun k _ => ?_) (Finset.sum_congr rfl fun k _ => ?_)) ?_
  · exact congrArg₂ (· * ·) (rows3_0 V c t _ _ h0 rfl) (rows3_1 V c t _ _ rfl h1)
  · exact congrArg₂ (· * ·) (rows3_2 V c t _ _ h0 rfl) (rows3_3 V c t _ _ rfl h1)
  · exact rows3_4 V c t _ _ rfl h1

/-- So the body's result, cut to the block the transfer moves (all of it), is block `t` of the update of the arrays. -/
theorem cut3_eq (c : Dev nD) (t : Fin cfg3.N) :
    (cfg3.win 5).cut (grid3.coords t) (out3_5 (F := Ideal) (iblk3 V c 0 t) (iblk3 V c 1 t) (iblk3 V c 2 t) (iblk3 V c 3 t) (iblk3 V c 4 t))
      = ((cfg3.win 5).blk t).view.read (Elt Ideal)
          (Spec.sageK64 (F := Ideal) (V c main_v144) (V c main_arg17) (V c main_v121) (V c main_arg19) (V c main_v145)) := by
  obtain ⟨-, -, -, -, -, -, -, -, -, -, e0, e1⟩ := blockIdx3 t
  funext j
  show out3_5 (F := Ideal) (iblk3 V c 0 t) (iblk3 V c 1 t) (iblk3 V c 2 t) (iblk3 V c 3 t) (iblk3 V c 4 t) j
      = Spec.sageK64 (F := Ideal) (V c main_v144) (V c main_arg17) (V c main_v121) (V c main_arg19) (V c main_v145)
          (((cfg3.win 5).blk t).view.emb j)
  refine body3_apply V c t j _ ?_ ?_
  · show win3_5.index t (0 : Fin 2) * 5000 + 1 * (j 0).val = 5000 * t.val + (j 0).val; rw [e0]; omega
  · show win3_5.index t (1 : Fin 2) * 64 + 1 * (j 1).val = (j 1).val; rw [e1]; omega

theorem points3 : cfg3.N = 20 := rfl

/-- An index of the result array is in point `t`'s block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v146).slice (win3_5.rect t)).set ↔ _
  rw [View.set_slice_whole, Rect.mem_set_unit]
  exact Iff.rfl

/-- THE COVER: row `r` of the result is in the block of point `r / 5000`, which writes back. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by have := points3; omega⟩, rfl⟩
  obtain ⟨-, -, -, -, -, -, -, -, -, -, e0, e1⟩ := blockIdx3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- WHAT POINT `t` WRITES BACK is block `t` of the update of the arrays as the region finds them. -/
theorem flushed3 (c : Dev nD) (t : Fin cfg3.N) :
    (dat3 (F := Ideal) V c).flushed 5 t = ((cfg3.win 5).blk t).view.read (Elt Ideal)
      (Spec.sageK64 (F := Ideal) (V c main_v144) (V c main_arg17) (V c main_v121) (V c main_arg19) (V c main_v145)) := by
  show (cfg3.win 5).cut (grid3.coords t) ((dat3 V c).after 5 t) = _
  rw [after3_5]
  exact cut3_eq V c t

end Region3

/-! ## Region 9: the same update in the second graph

The same kernel on the second graph's buffers: the same grid of 20 points, the same blocks. -/

section Region9
variable (V : (c : Dev nD) → (b : Ref sig .tc) → Buf (Elt Ideal) ((c : Thread nD τ).loc b))

/-- The printed index maps of region 9, decided over the 20 points: the row-blocked windows are at block row `t`,
    column block 0; the whole windows at block (0, 0). -/
theorem blockIdx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Window 0's block at point `t` is rows `5000·t …` of its array. -/
theorem rows9_0 (c : Dev nD) (t : Fin cfg9.N) (y : S5000x128.Idx) (i : S100000x128.Idx)
    (h0 : (i 0).val = 5000 * t.val + (y 0).val) (h1 : (i 1).val = (y 1).val) :
    (iblk9 V c 0 t : Vec Ideal S5000x128 .f32) y = (V c main_v386 : S100000x128.Idx → Elt Ideal .f32) i := by
  obtain ⟨e0, e1, -⟩ := blockIdx9 t
  unfold iblk9
  rw [View.read_apply]
  show V c main_v386 _ = V c main_v386 _
  congr 1
  funext a
  apply Fin.ext
  match a with
  | ⟨0, _⟩ => show win9_0.index t (0 : Fin 2) * 5000 + 1 * (y 0).val = (i 0).val; rw [e0, h0]; omega
  | ⟨1, _⟩ => show win9_0.index t (1 : Fin 2) * 128 + 1 * (y 1).val = (i 1).val; rw [e1, h1]; omega

/-- Window 1's block at every point is the whole of the first weight. -/
theorem rows9_1 (c : Dev nD) (t : Fin cfg9.N) (y i : S128x64.Idx)
    (h0 : (i 0).val = (y 0).val) (h1 : (i 1).val = (y 1).val) :
    (iblk9 V c 1 t : Vec Ideal S128x64 .f32) y = (V c main_arg31 : S128x64.Idx → Elt Ideal .f32) i := by
  obtain ⟨-, -, e0, e1, -⟩ := blockIdx9 t
  unfold iblk9
  rw [View.read_apply]
  show V c main_arg31 _ = V c main_arg31 _
  congr 1
  funext a
  apply Fin.ext
  match a with
  | ⟨0, _⟩ => show win9_1.index t (0 : Fin 2) * 128 + 1 * (y 0).val = (i 0).val; rw [e0, h0]; omega
  | ⟨1, _⟩ => show win9_1.index t (1 : Fin 2) * 64 + 1 * (y 1).val = (i 1).val; rw [e1, h1]; omega

/-- Window 2's block at point `t` is rows `5000·t …` of its array. -/
theorem rows9_2 (c : Dev nD) (t : Fin cfg9.N) (y : S5000x128.Idx) (i : S100000x128.Idx)
    (h0 : (i 0).val = 5000 * t.val + (y 0).val) (h1 : (i 1).val = (y 1).val) :
    (iblk9 V c 2 t : Vec Ideal S5000x128 .f32) y = (V c main_v363 : S100000x128.Idx → Elt Ideal .f32) i := by
  obtain ⟨-, -, -, -, e0, e1, -⟩ := blockIdx9 t
  unfold iblk9
  rw [View.read_apply]
  show V c main_v363 _ = V c main_v363 _
  congr 1
  funext a
  apply Fin.ext
  match a with
  | ⟨0, _⟩ => show win9_2.index t (0 : Fin 2) * 5000 + 1 * (y 0).val = (i 0).val; rw [e0, h0]; omega
  | ⟨1, _⟩ => show win9_2.index t (1 : Fin 2) * 128 + 1 * (y 1).val = (i 1).val; rw [e1, h1]; omega

/-- Window 3's block at every point is the whole of the second weight. -/
theorem rows9_3 (c : Dev nD) (t : Fin cfg9.N) (y i : S128x64.Idx)
    (h0 : (i 0).val = (y 0).val) (h1 : (i 1).val = (y 1).val) :
    (iblk9 V c 3 t : Vec Ideal S128x64 .f32) y = (V c main_arg33 : S128x64.Idx → Elt Ideal .f32) i := by
  obtain ⟨-, -, -, -, -, -, e0, e1, -⟩ := blockIdx9 t
  unfold iblk9
  rw [View.read_apply]
  show V c main_arg33 _ = V c main_arg33 _
  congr 1
  funext a
  apply Fin.ext
  match a with
  | ⟨0, _⟩ => show win9_3.index t (0 : Fin 2) * 128 + 1 * (y 0).val = (i 0).val; rw [e0, h0]; omega
  | ⟨1, _⟩ => show win9_3.index t (1 : Fin 2) * 64 + 1 * (y 1).val = (i 1).val; rw [e1, h1]; omega

/-- Window 4's block at every point is the whole bias row. -/
theorem rows9_4 (c : Dev nD) (t : Fin cfg9.N) (y i : S1x64.Idx)
    (h0 : (i 0).val = (y 0).val) (h1 : (i 1).val = (y 1).val) :
    (iblk9 V c 4 t : Vec Ideal S1x64 .f32) y = (V c main_v387 : S1x64.Idx → Elt Ideal .f32) i := by
  obtain ⟨-, -, -, -, -, -, -, -, e0, e1, -⟩ := blockIdx9 t
  unfold iblk9
  rw [View.read_apply]
  show V c main_v387 _ = V c main_v387 _
  congr 1
  funext a
  apply Fin.ext
  match a with
  | ⟨0, _⟩ => show win9_4.index t (0 : Fin 2) * 1 + 1 * (y 0).val = (i 0).val; rw [e0, h0]; omega
  | ⟨1, _⟩ => show win9_4.index t (1 : Fin 2) * 64 + 1 * (y 1).val = (i 1).val; rw [e1, h1]; omega

/-- WHAT POINT `t`'s BODY LEAVES at an index `y` of its block is the update of the arrays at the index `i` of the
    array that the block's place gives: row `5000·t + y 0`, column `y 1`. -/
theorem body9_apply (c : Dev nD) (t : Fin cfg9.N) (y : S5000x64.Idx) (i : S100000x64.Idx)
    (h0 : (i 0).val = 5000 * t.val + (y 0).val) (h1 : (i 1).val = (y 1).val) :
    out9_5 (F := Ideal) (iblk9 V c 0 t) (iblk9 V c 1 t) (iblk9 V c 2 t) (iblk9 V c 3 t) (iblk9 V c 4 t) y
      = Spec.sageK64 (F := Ideal) (V c main_v386) (V c main_arg31) (V c main_v363) (V c main_arg33) (V c main_v387) i := by
  unfold out9_5
  rw [View.canon_unit_zero zeroOffsets]
  simp only [View.ld_unit_zero (S := S5000x128) zeroOffsets, View.ld_unit_zero (S := S128x64) zeroOffsets,
    View.ld_unit_zero (S := S1x64) zeroOffsets]
  refine (sagePay9_apply _ _ _ _ _ y).trans ?_
  refine Eq.trans ?_ (sageK64_apply _ _ _ _ _ i).symm
  refine congrArg₂ (· + ·) (congrArg₂ (· + ·) (Finset.sum_congr rfl fun k _ => ?_) (Finset.sum_congr rfl fun k _ => ?_)) ?_
  · exact congrArg₂ (· * ·) (rows9_0 V c t _ _ h0 rfl) (rows9_1 V c t _ _ rfl h1)
  · exact congrArg₂ (· * ·) (rows9_2 V c t _ _ h0 rfl) (rows9_3 V c t _ _ rfl h1)
  · exact rows9_4 V c t _ _ rfl h1

/-- So the body's result, cut to the block the transfer moves (all of it), is block `t` of the update of the arrays. -/
theorem cut9_eq (c : Dev nD) (t : Fin cfg9.N) :
    (cfg9.win 5).cut (grid9.coords t) (out9_5 (F := Ideal) (iblk9 V c 0 t) (iblk9 V c 1 t) (iblk9 V c 2 t) (iblk9 V c 3 t) (iblk9 V c 4 t))
      = ((cfg9.win 5).blk t).view.read (Elt Ideal)
          (Spec.sageK64 (F := Ideal) (V c main_v386) (V c main_arg31) (V c main_v363) (V c main_arg33) (V c main_v387)) := by
  obtain ⟨-, -, -, -, -, -, -, -, -, -, e0, e1⟩ := blockIdx9 t
  funext j
  show out9_5 (F := Ideal) (iblk9 V c 0 t) (iblk9 V c 1 t) (iblk9 V c 2 t) (iblk9 V c 3 t) (iblk9 V c 4 t) j
      = Spec.sageK64 (F := Ideal) (V c main_v386) (V c main_arg31) (V c main_v363) (V c main_arg33) (V c main_v387)
          (((cfg9.win 5).blk t).view.emb j)
  refine body9_apply V c t j _ ?_ ?_
  · show win9_5.index t (0 : Fin 2) * 5000 + 1 * (j 0).val = 5000 * t.val + (j 0).val; rw [e0]; omega
  · show win9_5.index t (1 : Fin 2) * 64 + 1 * (j 1).val = (j 1).val; rw [e1]; omega

theorem points9 : cfg9.N = 20 := rfl

/-- An index of the result array is in point `t`'s block iff each coordinate is in the block's range on its axis. -/
theorem mem_blk9 (t : Fin cfg9.N) (i : S100000x64.Idx) :
    i ∈ ((cfg9.win 5).blk t).view.set ↔ ∀ a : Fin 2, win9_5.index t a * S5000x64.size a ≤ (i a).val ∧ (i a).val < win9_5.index t a * S5000x64.size a + S5000x64.size a := by
  show i ∈ ((View.whole main_v388).slice (win9_5.rect t)).set ↔ _
  rw [View.set_slice_whole, Rect.mem_set_unit]
  exact Iff.rfl

/-- THE COVER: row `r` of the result is in the block of point `r / 5000`, which writes back. -/
theorem cover9 (i : S100000x64.Idx) :
    ∃ t : Fin cfg9.N, (cfg9.win 5).flush t = true ∧ i ∈ ((cfg9.win 5).blk t).view.set := by
  have hi0 : (i 0).val < 100000 := (i 0).isLt
  have hi1 : (i 1).val < 64 := (i 1).isLt
  obtain ⟨t, ht⟩ : ∃ t : Fin cfg9.N, t.val = (i 0).val / 5000 :=
    ⟨⟨(i 0).val / 5000, by have := points9; omega⟩, rfl⟩
  obtain ⟨-, -, -, -, -, -, -, -, -, -, e0, e1⟩ := blockIdx9 t
  refine ⟨t, flush9_5 t, ?_⟩
  rw [mem_blk9]
  intro a
  match a with
  | ⟨0, _⟩ => show win9_5.index t (0 : Fin 2) * 5000 ≤ (i 0).val ∧ (i 0).val < win9_5.index t (0 : Fin 2) * 5000 + 5000; omega
  | ⟨1, _⟩ => show win9_5.index t (1 : Fin 2) * 64 ≤ (i 1).val ∧ (i 1).val < win9_5.index t (1 : Fin 2) * 64 + 64; omega

/-- WHAT POINT `t` WRITES BACK is block `t` of the update of the arrays as the region finds them. -/
theorem flushed9 (c : Dev nD) (t : Fin cfg9.N) :
    (dat9 (F := Ideal) V c).flushed 5 t = ((cfg9.win 5).blk t).view.read (Elt Ideal)
      (Spec.sageK64 (F := Ideal) (V c main_v386) (V c main_arg31) (V c main_v363) (V c main_arg33) (V c main_v387)) := by
  show (cfg9.win 5).cut (grid9.coords t) ((dat9 V c).after 5 t) = _
  rw [after9_5]
  exact cut9_eq V c t

end Region9

end Sage64

/-! ## The two result arrays -/

section Arrays
variable (V : (c : Dev nD) → (b : Ref sig .tc) → Buf (Elt Ideal) ((c : Thread nD τ).loc b))

/-- THE RESULT ARRAY of region 3 after its 20 points: the update of the arrays as the region finds them (every index
    is in some point's block, and each point writes back its block of the update). -/
theorem arr3 (c : Dev nD) :
    (GenP.dat3 (F := Ideal) V c).arrAt 5 cfg3.N
      = Spec.sageK64 (F := Ideal) (V c main_v144) (V c main_arg17) (V c main_v121) (V c main_arg19) (V c main_v145) :=
  (dat3 (F := Ideal) V c).arrAt_eq_of_cover 5 _ (fun t _ => Sage64.flushed3 V c t) Sage64.cover3

/-- THE RESULT ARRAY of region 9 after its 20 points: the update of the arrays as the region finds them. -/
theorem arr9 (c : Dev nD) :
    (GenP.dat9 (F := Ideal) V c).arrAt 5 cfg9.N
      = Spec.sageK64 (F := Ideal) (V c main_v386) (V c main_arg31) (V c main_v363) (V c main_arg33) (V c main_v387) :=
  (dat9 (F := Ideal) V c).arrAt_eq_of_cover 5 _ (fun t _ => Sage64.flushed9 V c t) Sage64.cover9

end Arrays

end Cert.KernelIdeal.RegionValue

end
-- ==== Proof.Stretch0.lean ====
/-
  Host stretch 0 (graph "j"), read as values from any buffer contents `V`: the mean of `x_l` over incoming `l → p` edges,
  and the first update's bias as a row; and host stretch 2: layer 1's pre-activation at the `p` nodes, the fused update's
  output plus the `p → p` aggregation of the matmul region's output.
-/
import proofs.«157546_j87986700026404_1_alg».proof.Proof.Gen.KernelIdeal.Launch
import proofs.«157546_j87986700026404_1_alg».proof.Proof.Spec
import Idealize.ShloMosaic.Lib.StableHlo.Run

noncomputable section

namespace Cert.KernelIdeal.Stretch

open Idealize.ShloMosaic Idealize.ShloMosaic.StableHlo Cert.KernelIdeal Cert.KernelIdeal.Gen

variable {F : FTy → Type} [FloatOps F]

/-- `main_v22`: the mean over incoming edges of `main_arg0` along the edge list `main_arg4`. -/
theorem s0_v22 (V : Valuation τ sig (Elt F)) :
    after hostOps0 V (Proc.devRef .tc main_v22)
      = Spec.sageMean (V (Proc.devRef .tc main_arg0)) (V (Proc.devRef .tc main_arg4)) := by
  after_results_simp <;> rfl

/-- `main_v23`: the bias `main_arg11` as a 1 × 128 row. -/
theorem s0_v23 (V : Valuation τ sig (Elt F)) :
    after hostOps0 V (Proc.devRef .tc main_v23)
      = Spec.biasRow128 (V (Proc.devRef .tc main_arg11)) := by
  after_results_simp <;> rfl

set_option maxHeartbeats 2000000 in
/-- `main_v72`: `main_v24` plus the normalised aggregation of `main_v25` along `main_arg6`, bias `main_arg16`. -/
theorem s2_v72 (V : Valuation τ sig (Elt F)) :
    after hostOps2_2 (after hostOps2_1 (after hostOps2 (V))) (Proc.devRef .tc main_v72)
      = addf (V (Proc.devRef .tc main_v24)) (Spec.gcnAgg128 (V (Proc.devRef .tc main_v25)) (V (Proc.devRef .tc main_arg6)) (V (Proc.devRef .tc main_arg16))) := by
  after_results_simp <;> rfl

end Cert.KernelIdeal.Stretch

end
-- ==== Proof.Stretch3.lean ====
/-
  Host stretch 3 (graph "j"), read as values from any buffer contents `V`: layer 1's two activations (relu of the `l → l`
  aggregation of `main_v73`, relu of `main_v72`), the mean of the first over incoming `l → p` edges, and layer 2's bias row.
-/
import proofs.«157546_j87986700026404_1_alg».proof.Proof.Gen.KernelIdeal.Launch
import proofs.«157546_j87986700026404_1_alg».proof.Proof.Spec
import Idealize.ShloMosaic.Lib.StableHlo.Run

noncomputable section

namespace Cert.KernelIdeal.Stretch

open Idealize.ShloMosaic Idealize.ShloMosaic.StableHlo Cert.KernelIdeal Cert.KernelIdeal.Gen

variable {F : FTy → Type} [FloatOps F]

set_option maxHeartbeats 2000000 in
/-- `main_v120`: relu of the aggregation of `main_v73` along `main_arg5`, bias `main_arg14`. -/
theorem s3_v120 (V : Valuation τ sig (Elt F)) :
    after hostOps3_5 (after hostOps3_4 (after hostOps3_3 (after hostOps3_2 (after hostOps3_1 (after hostOps3 (V)))))) (Proc.devRef .tc main_v120)
      = Spec.relu (Spec.gcnAgg128 (V (Proc.devRef .tc main_v73)) (V (Proc.devRef .tc main_arg5)) (V (Proc.devRef .tc main_arg14))) := by
  after_results_simp <;> rfl

set_option maxHeartbeats 2000000 in
/-- `main_v121`: relu of `main_v72`. -/
theorem s3_v121 (V : Valuation τ sig (Elt F)) :
    after hostOps3_5 (after hostOps3_4 (after hostOps3_3 (after hostOps3_2 (after hostOps3_1 (after hostOps3 (V)))))) (Proc.devRef .tc main_v121)
      = Spec.relu (V (Proc.devRef .tc main_v72)) := by
  after_results_simp <;> rfl

set_option maxHeartbeats 2000000 in
/-- `main_v144`: the mean of `main_v120`'s value over incoming edges along `main_arg4`. -/
theorem s3_v144 (V : Valuation τ sig (Elt F)) :
    after hostOps3_5 (after hostOps3_4 (after hostOps3_3 (after hostOps3_2 (after hostOps3_1 (after hostOps3 (V)))))) (Proc.devRef .tc main_v144)
      = Spec.sageMean (Spec.relu (Spec.gcnAgg128 (V (Proc.devRef .tc main_v73)) (V (Proc.devRef .tc main_arg5)) (V (Proc.devRef .tc main_arg14)))) (V (Proc.devRef .tc main_arg4)) := by
  after_results_simp <;> rfl

set_option maxHeartbeats 2000000 in
/-- `main_v145`: the bias `main_arg18` as a 1 × 64 row. -/
theorem s3_v145 (V : Valuation τ sig (Elt F)) :
    after hostOps3_5 (after hostOps3_4 (after hostOps3_3 (after hostOps3_2 (after hostOps3_1 (after hostOps3 (V)))))) (Proc.devRef .tc main_v145)
      = Spec.biasRow64 (V (Proc.devRef .tc main_arg18)) := by
  after_results_simp <;> rfl

end Cert.KernelIdeal.Stretch

end
-- ==== Proof.Stretch5.lean ====
/-
  Host stretches 5 and 6, read as values from any buffer contents `V`: graph "j"'s two outputs (width 64), and graph "b"'s
  first mean and bias row.
-/
import proofs.«157546_j87986700026404_1_alg».proof.Proof.Gen.KernelIdeal.Launch
import proofs.«157546_j87986700026404_1_alg».proof.Proof.Spec
import Idealize.ShloMosaic.Lib.StableHlo.Run

noncomputable section

namespace Cert.KernelIdeal.Stretch

open Idealize.ShloMosaic Idealize.ShloMosaic.StableHlo Cert.KernelIdeal Cert.KernelIdeal.Gen

variable {F : FTy → Type} [FloatOps F]

set_option maxHeartbeats 2000000 in
/-- `main_v194`: `main_v146` plus the aggregation of `main_v147` along `main_arg6`, bias `main_arg23`. -/
theorem s5_v194 (V : Valuation τ sig (Elt F)) :
    after hostOps5_2 (after hostOps5_1 (after hostOps5 (V))) (Proc.devRef .tc main_v194)
      = addf (V (Proc.devRef .tc main_v146)) (Spec.gcnAgg64 (V (Proc.devRef .tc main_v147)) (V (Proc.devRef .tc main_arg6)) (V (Proc.devRef .tc main_arg23))) := by
  after_results_simp <;> rfl

set_option maxHeartbeats 2000000 in
/-- `main_v241`: the aggregation of `main_v195` along `main_arg5`, bias `main_arg21`. -/
theorem s6_v241 (V : Valuation τ sig (Elt F)) :
    after hostOps6_2 (after hostOps6_1 (after hostOps6 (V))) (Proc.devRef .tc main_v241)
      = Spec.gcnAgg64 (V (Proc.devRef .tc main_v195)) (V (Proc.devRef .tc main_arg5)) (V (Proc.devRef .tc main_arg21)) := by
  after_results_simp <;> rfl

set_option maxHeartbeats 2000000 in
/-- `main_v264`: the mean over incoming edges of `main_arg2` along `main_arg7`. -/
theorem s6_v264 (V : Valuation τ sig (Elt F)) :
    after hostOps6_2 (after hostOps6_1 (after hostOps6 (V))) (Proc.devRef .tc main_v264)
      = Spec.sageMean (V (Proc.devRef .tc main_arg2)) (V (Proc.devRef .tc main_arg7)) := by
  after_results_simp <;> rfl

set_option maxHeartbeats 2000000 in
/-- `main_v265`: the bias `main_arg25` as a 1 × 128 row. -/
theorem s6_v265 (V : Valuation τ sig (Elt F)) :
    after hostOps6_2 (after hostOps6_1 (after hostOps6 (V))) (Proc.devRef .tc main_v265)
      = Spec.biasRow128 (V (Proc.devRef .tc main_arg25)) := by
  after_results_simp <;> rfl

end Cert.KernelIdeal.Stretch

end
-- ==== Proof.WalkJ.lean ====
/-
  The kernel program's buffers along its run, graph "j" (boundaries 1 to 22 of the 43), at `Ideal`: each value the next
  region or stretch reads, as the network's named function (Spec) of the argument arrays. A region's output array is its
  closed form (the matmul regions: `x · w`; the fused-update regions: the update in the kernel's order of addition, which is
  the reference's by commutativity); a host stretch's result is the stretch's function of what it reads; a buffer nothing in
  between writes is carried.
-/
import proofs.«157546_j87986700026404_1_alg».proof.Proof.FrameKIa
import proofs.«157546_j87986700026404_1_alg».proof.Proof.Spec
import proofs.«157546_j87986700026404_1_alg».proof.Proof.Alg
import proofs.«157546_j87986700026404_1_alg».proof.Proof.Carry
import proofs.«157546_j87986700026404_1_alg».proof.Proof.RegMM128
import proofs.«157546_j87986700026404_1_alg».proof.Proof.RegMM64
import proofs.«157546_j87986700026404_1_alg».proof.Proof.RegSage128
import proofs.«157546_j87986700026404_1_alg».proof.Proof.RegSage64
import proofs.«157546_j87986700026404_1_alg».proof.Proof.Stretch0
import proofs.«157546_j87986700026404_1_alg».proof.Proof.Stretch3
import proofs.«157546_j87986700026404_1_alg».proof.Proof.Stretch5

noncomputable section

namespace Cert.KernelIdeal.Walk

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (ρ : Dev nD → PrngReg)

/-! ## Graph "j" -/

/-- After the first stretch: the mean of `x_l` over incoming `l → p` edges. -/
theorem w1_v22 (c : Dev nD) : W1 m ρ c (Proc.devRef .tc main_v22) = Spec.sageMean (arg m c main_arg0) (arg m c main_arg4) := by
  refine (Stretch.s0_v22 (W0 m ρ c)).trans ?_
  rw [show W0 m ρ c (Proc.devRef .tc main_arg0) = arg m c main_arg0 from argAt0 m ρ c main_arg0 (by decide), show W0 m ρ c (Proc.devRef .tc main_arg4) = arg m c main_arg4 from argAt0 m ρ c main_arg4 (by decide)]

/-- After the first stretch: the first update's bias as a row. -/
theorem w1_v23 (c : Dev nD) : W1 m ρ c (Proc.devRef .tc main_v23) = Spec.biasRow128 (arg m c main_arg11) := by
  refine (Stretch.s0_v23 (W0 m ρ c)).trans ?_
  rw [show W0 m ρ c (Proc.devRef .tc main_arg11) = arg m c main_arg11 from argAt0 m ρ c main_arg11 (by decide)]

/-- The first fused-update region leaves layer 1's mean update at the `p` nodes. -/
theorem w2_v24 (c : Dev nD) : W2 m ρ c (Proc.devRef .tc main_v24) = Spec.sage128 (Spec.sageMean (arg m c main_arg0) (arg m c main_arg4)) (arg m c main_arg10) (arg m c main_arg1) (arg m c main_arg12) (arg m c main_arg11) := by
  refine (W2_arr m ρ c 5).trans ((RegionValue.arr0 (V1 m ρ) c).trans ?_)
  rw [show V1 m ρ c main_v22 = _ from w1_v22 m ρ c, show V1 m ρ c main_v23 = _ from w1_v23 m ρ c,
    show V1 m ρ c main_arg10 = arg m c main_arg10 from argAt1 m ρ c main_arg10 (by decide), show V1 m ρ c main_arg1 = arg m c main_arg1 from argAt1 m ρ c main_arg1 (by decide), show V1 m ρ c main_arg12 = arg m c main_arg12 from argAt1 m ρ c main_arg12 (by decide)]
  exact Alg.sageK128_row _ _ _ _ _

/-- The matmul region after it leaves `x_p · pp1_w`. -/
theorem w3_v25 (c : Dev nD) : W3 m ρ c (Proc.devRef .tc main_v25) = Spec.lin128 (arg m c main_arg1) (arg m c main_arg15) := by
  refine (W3_arr m ρ c 2).trans ((RegionValue.arr1 (V2 m ρ) c).trans ?_)
  rw [show V2 m ρ c main_arg1 = arg m c main_arg1 from argAt2 m ρ c main_arg1 (by decide), show V2 m ρ c main_arg15 = arg m c main_arg15 from argAt2 m ρ c main_arg15 (by decide)]

/-- Layer 1 at the `p` nodes, before relu. -/
theorem w6_v72 (c : Dev nD) : W6 m ρ c (Proc.devRef .tc main_v72) = Spec.hP (arg m c main_arg0) (arg m c main_arg1) (arg m c main_arg4) (arg m c main_arg6) (arg m c main_arg10) (arg m c main_arg11) (arg m c main_arg12) (arg m c main_arg15) (arg m c main_arg16) := by
  refine (Stretch.s2_v72 (W3 m ρ c)).trans ?_
  rw [show W3 m ρ c (Proc.devRef .tc main_v24) = _ from ((Keep.keep3 m ρ c main_v24 (by decide))).trans (w2_v24 m ρ c), w3_v25 m ρ c,
    show W3 m ρ c (Proc.devRef .tc main_arg6) = arg m c main_arg6 from argAt3 m ρ c main_arg6 (by decide), show W3 m ρ c (Proc.devRef .tc main_arg16) = arg m c main_arg16 from argAt3 m ρ c main_arg16 (by decide)]
  rfl

/-- The next matmul region leaves `x_l · ll1_w`. -/
theorem w7_v73 (c : Dev nD) : W7 m ρ c (Proc.devRef .tc main_v73) = Spec.lin128 (arg m c main_arg0) (arg m c main_arg13) := by
  refine (W7_arr m ρ c 2).trans ((RegionValue.arr2 (V6 m ρ) c).trans ?_)
  rw [show V6 m ρ c main_arg0 = arg m c main_arg0 from argAt6 m ρ c main_arg0 (by decide), show V6 m ρ c main_arg13 = arg m c main_arg13 from argAt6 m ρ c main_arg13 (by decide)]

/-- Layer 1's activation at the `l` nodes. -/
theorem w13_v120 (c : Dev nD) : W13 m ρ c (Proc.devRef .tc main_v120) = Spec.relu (Spec.hL (arg m c main_arg0) (arg m c main_arg5) (arg m c main_arg13) (arg m c main_arg14)) := by
  refine (Stretch.s3_v120 (W7 m ρ c)).trans ?_
  rw [w7_v73 m ρ c, show W7 m ρ c (Proc.devRef .tc main_arg5) = arg m c main_arg5 from argAt7 m ρ c main_arg5 (by decide), show W7 m ρ c (Proc.devRef .tc main_arg14) = arg m c main_arg14 from argAt7 m ρ c main_arg14 (by decide)]
  rfl

/-- Layer 1's activation at the `p` nodes. -/
theorem w13_v121 (c : Dev nD) : W13 m ρ c (Proc.devRef .tc main_v121) = Spec.relu (Spec.hP (arg m c main_arg0) (arg m c main_arg1) (arg m c main_arg4) (arg m c main_arg6) (arg m c main_arg10) (arg m c main_arg11) (arg m c main_arg12) (arg m c main_arg15) (arg m c main_arg16)) := by
  refine (Stretch.s3_v121 (W7 m ρ c)).trans ?_
  rw [show W7 m ρ c (Proc.devRef .tc main_v72) = _ from ((Keep.keep7 m ρ c main_v72 (by decide))).trans (w6_v72 m ρ c)]

/-- The mean of the `l` activation over incoming `l → p` edges. -/
theorem w13_v144 (c : Dev nD) : W13 m ρ c (Proc.devRef .tc main_v144) = Spec.sageMean (Spec.relu (Spec.hL (arg m c main_arg0) (arg m c main_arg5) (arg m c main_arg13) (arg m c main_arg14))) (arg m c main_arg4) := by
  refine (Stretch.s3_v144 (W7 m ρ c)).trans ?_
  rw [w7_v73 m ρ c, show W7 m ρ c (Proc.devRef .tc main_arg5) = arg m c main_arg5 from argAt7 m ρ c main_arg5 (by decide), show W7 m ρ c (Proc.devRef .tc main_arg14) = arg m c main_arg14 from argAt7 m ρ c main_arg14 (by decide), show W7 m ρ c (Proc.devRef .tc main_arg4) = arg m c main_arg4 from argAt7 m ρ c main_arg4 (by decide)]
  rfl

/-- Layer 2's update bias as a row. -/
theorem w13_v145 (c : Dev nD) : W13 m ρ c (Proc.devRef .tc main_v145) = Spec.biasRow64 (arg m c main_arg18) := by
  refine (Stretch.s3_v145 (W7 m ρ c)).trans ?_
  rw [show W7 m ρ c (Proc.devRef .tc main_arg18) = arg m c main_arg18 from argAt7 m ρ c main_arg18 (by decide)]

/-- The width-64 fused-update region leaves layer 2's mean update at the `p` nodes. -/
theorem w14_v146 (c : Dev nD) : W14 m ρ c (Proc.devRef .tc main_v146) = Spec.sage64 (Spec.sageMean (Spec.relu (Spec.hL (arg m c main_arg0) (arg m c main_arg5) (arg m c main_arg13) (arg m c main_arg14))) (arg m c main_arg4)) (arg m c main_arg17) (Spec.relu (Spec.hP (arg m c main_arg0) (arg m c main_arg1) (arg m c main_arg4) (arg m c main_arg6) (arg m c main_arg10) (arg m c main_arg11) (arg m c main_arg12) (arg m c main_arg15) (arg m c main_arg16))) (arg m c main_arg19) (arg m c main_arg18) := by
  refine (W14_arr m ρ c 5).trans ((RegionValue.arr3 (V13 m ρ) c).trans ?_)
  rw [show V13 m ρ c main_v144 = _ from w13_v144 m ρ c, show V13 m ρ c main_v121 = _ from w13_v121 m ρ c,
    show V13 m ρ c main_v145 = _ from w13_v145 m ρ c, show V13 m ρ c main_arg17 = arg m c main_arg17 from argAt13 m ρ c main_arg17 (by decide), show V13 m ρ c main_arg19 = arg m c main_arg19 from argAt13 m ρ c main_arg19 (by decide)]
  exact Alg.sageK64_row _ _ _ _ _

/-- The matmul region after it leaves `h_p · pp2_w`. -/
theorem w15_v147 (c : Dev nD) : W15 m ρ c (Proc.devRef .tc main_v147) = Spec.lin64 (Spec.relu (Spec.hP (arg m c main_arg0) (arg m c main_arg1) (arg m c main_arg4) (arg m c main_arg6) (arg m c main_arg10) (arg m c main_arg11) (arg m c main_arg12) (arg m c main_arg15) (arg m c main_arg16))) (arg m c main_arg22) := by
  refine (W15_arr m ρ c 2).trans ((RegionValue.arr4 (V14 m ρ) c).trans ?_)
  rw [show V14 m ρ c main_v121 = _ from ((Keep.keep14 m ρ c main_v121 (by decide))).trans (w13_v121 m ρ c), show V14 m ρ c main_arg22 = arg m c main_arg22 from argAt14 m ρ c main_arg22 (by decide)]

/-- Graph "j"'s output at the `p` nodes. -/
theorem w18_v194 (c : Dev nD) : W18 m ρ c (Proc.devRef .tc main_v194) = Spec.outP (arg m c main_arg0) (arg m c main_arg1) (arg m c main_arg4) (arg m c main_arg5) (arg m c main_arg6) (arg m c main_arg10) (arg m c main_arg11) (arg m c main_arg12) (arg m c main_arg13) (arg m c main_arg14) (arg m c main_arg15) (arg m c main_arg16) (arg m c main_arg17) (arg m c main_arg18) (arg m c main_arg19) (arg m c main_arg22) (arg m c main_arg23) := by
  refine (Stretch.s5_v194 (W15 m ρ c)).trans ?_
  rw [show W15 m ρ c (Proc.devRef .tc main_v146) = _ from ((Keep.keep15 m ρ c main_v146 (by decide))).trans (w14_v146 m ρ c), w15_v147 m ρ c,
    show W15 m ρ c (Proc.devRef .tc main_arg6) = arg m c main_arg6 from argAt15 m ρ c main_arg6 (by decide), show W15 m ρ c (Proc.devRef .tc main_arg23) = arg m c main_arg23 from argAt15 m ρ c main_arg23 (by decide)]
  rfl

/-- The last matmul region of the graph leaves `h_l · ll2_w`. -/
theorem w19_v195 (c : Dev nD) : W19 m ρ c (Proc.devRef .tc main_v195) = Spec.lin64 (Spec.relu (Spec.hL (arg m c main_arg0) (arg m c main_arg5) (arg m c main_arg13) (arg m c main_arg14))) (arg m c main_arg20) := by
  refine (W19_arr m ρ c 2).trans ((RegionValue.arr5 (V18 m ρ) c).trans ?_)
  rw [show V18 m ρ c main_v120 = _ from ((Keep.keep18 m ρ c main_v120 (by decide)).trans ((Keep.keep17 m ρ c main_v120 (by decide)).trans ((Keep.keep16 m ρ c main_v120 (by decide)).trans ((Keep.keep15 m ρ c main_v120 (by decide)).trans ((Keep.keep14 m ρ c main_v120 (by decide))))))).trans (w13_v120 m ρ c), show V18 m ρ c main_arg20 = arg m c main_arg20 from argAt18 m ρ c main_arg20 (by decide)]

/-- Graph "j"'s output at the `l` nodes. -/
theorem w22_v241 (c : Dev nD) : W22 m ρ c (Proc.devRef .tc main_v241) = Spec.outL (arg m c main_arg0) (arg m c main_arg5) (arg m c main_arg13) (arg m c main_arg14) (arg m c main_arg20) (arg m c main_arg21) := by
  refine (Stretch.s6_v241 (W19 m ρ c)).trans ?_
  rw [w19_v195 m ρ c, show W19 m ρ c (Proc.devRef .tc main_arg5) = arg m c main_arg5 from argAt19 m ρ c main_arg5 (by decide), show W19 m ρ c (Proc.devRef .tc main_arg21) = arg m c main_arg21 from argAt19 m ρ c main_arg21 (by decide)]
  rfl

end Cert.KernelIdeal.Walk

end
-- ==== Proof.Stretch8.lean ====
/-
  Host stretches 8 and 9 (graph "b"), read as values from any buffer contents `V`: layer 1's pre-activation at the `p` nodes,
  its two activations, the mean of the `l` activation over incoming `l → p` edges, and layer 2's bias row.
-/
import proofs.«157546_j87986700026404_1_alg».proof.Proof.Gen.KernelIdeal.Launch
import proofs.«157546_j87986700026404_1_alg».proof.Proof.Spec
import Idealize.ShloMosaic.Lib.StableHlo.Run

noncomputable section

namespace Cert.KernelIdeal.Stretch

open Idealize.ShloMosaic Idealize.ShloMosaic.StableHlo Cert.KernelIdeal Cert.KernelIdeal.Gen

variable {F : FTy → Type} [FloatOps F]

set_option maxHeartbeats 2000000 in
/-- `main_v314`: `main_v266` plus the aggregation of `main_v267` along `main_arg9`, bias `main_arg30`. -/
theorem s8_v314 (V : Valuation τ sig (Elt F)) :
    after hostOps8_2 (after hostOps8_1 (after hostOps8 (V))) (Proc.devRef .tc main_v314)
      = addf (V (Proc.devRef .tc main_v266)) (Spec.gcnAgg128 (V (Proc.devRef .tc main_v267)) (V (Proc.devRef .tc main_arg9)) (V (Proc.devRef .tc main_arg30))) := by
  after_results_simp <;> rfl

set_option maxHeartbeats 2000000 in
/-- `main_v362`: relu of the aggregation of `main_v315` along `main_arg8`, bias `main_arg28`. -/
theorem s9_v362 (V : Valuation τ sig (Elt F)) :
    after hostOps9_5 (after hostOps9_4 (after hostOps9_3 (after hostOps9_2 (after hostOps9_1 (after hostOps9 (V)))))) (Proc.devRef .tc main_v362)
      = Spec.relu (Spec.gcnAgg128 (V (Proc.devRef .tc main_v315)) (V (Proc.devRef .tc main_arg8)) (V (Proc.devRef .tc main_arg28))) := by
  after_results_simp <;> rfl

set_option maxHeartbeats 2000000 in
/-- `main_v363`: relu of `main_v314`. -/
theorem s9_v363 (V : Valuation τ sig (Elt F)) :
    after hostOps9_5 (after hostOps9_4 (after hostOps9_3 (after hostOps9_2 (after hostOps9_1 (after hostOps9 (V)))))) (Proc.devRef .tc main_v363)
      = Spec.relu (V (Proc.devRef .tc main_v314)) := by
  after_results_simp <;> rfl

set_option maxHeartbeats 2000000 in
/-- `main_v386`: the mean of `main_v362`'s value over incoming edges along `main_arg7`. -/
theorem s9_v386 (V : Valuation τ sig (Elt F)) :
    after hostOps9_5 (after hostOps9_4 (after hostOps9_3 (after hostOps9_2 (after hostOps9_1 (after hostOps9 (V)))))) (Proc.devRef .tc main_v386)
      = Spec.sageMean (Spec.relu (Spec.gcnAgg128 (V (Proc.devRef .tc main_v315)) (V (Proc.devRef .tc main_arg8)) (V (Proc.devRef .tc main_arg28)))) (V (Proc.devRef .tc main_arg7)) := by
  after_results_simp <;> rfl

set_option maxHeartbeats 2000000 in
/-- `main_v387`: the bias `main_arg32` as a 1 × 64 row. -/
theorem s9_v387 (V : Valuation τ sig (Elt F)) :
    after hostOps9_5 (after hostOps9_4 (after hostOps9_3 (after hostOps9_2 (after hostOps9_1 (after hostOps9 (V)))))) (Proc.devRef .tc main_v387)
      = Spec.biasRow64 (V (Proc.devRef .tc main_arg32)) := by
  after_results_simp <;> rfl

end Cert.KernelIdeal.Stretch

end
-- ==== Proof.Stretch11.lean ====
/-
  Host stretches 11 and 12, read as values from any buffer contents `V`: graph "b"'s output at the `p` nodes, and the two
  results: per node type the two graphs' outputs side by side.
-/
import proofs.«157546_j87986700026404_1_alg».proof.Proof.Gen.KernelIdeal.Launch
import proofs.«157546_j87986700026404_1_alg».proof.Proof.Spec
import Idealize.ShloMosaic.Lib.StableHlo.Run

noncomputable section

namespace Cert.KernelIdeal.Stretch

open Idealize.ShloMosaic Idealize.ShloMosaic.StableHlo Cert.KernelIdeal Cert.KernelIdeal.Gen

variable {F : FTy → Type} [FloatOps F]

set_option maxHeartbeats 2000000 in
/-- `main_v436`: `main_v388` plus the aggregation of `main_v389` along `main_arg9`, bias `main_arg37`. -/
theorem s11_v436 (V : Valuation τ sig (Elt F)) :
    after hostOps11_2 (after hostOps11_1 (after hostOps11 (V))) (Proc.devRef .tc main_v436)
      = addf (V (Proc.devRef .tc main_v388)) (Spec.gcnAgg64 (V (Proc.devRef .tc main_v389)) (V (Proc.devRef .tc main_arg9)) (V (Proc.devRef .tc main_arg37))) := by
  after_results_simp <;> rfl

set_option maxHeartbeats 2000000 in
/-- `main_v484`: `main_v241` beside the aggregation of `main_v437` along `main_arg8`, bias `main_arg35`. -/
theorem s12_v484 (V : Valuation τ sig (Elt F)) :
    after hostOps12_2 (after hostOps12_1 (after hostOps12 (V))) (Proc.devRef .tc main_v484)
      = Spec.sideBySide (V (Proc.devRef .tc main_v241)) (Spec.gcnAgg64 (V (Proc.devRef .tc main_v437)) (V (Proc.devRef .tc main_arg8)) (V (Proc.devRef .tc main_arg35))) := by
  after_results_simp <;> rfl

set_option maxHeartbeats 2000000 in
/-- `main_v485`: `main_v194` beside `main_v436`. -/
theorem s12_v485 (V : Valuation τ sig (Elt F)) :
    after hostOps12_2 (after hostOps12_1 (after hostOps12 (V))) (Proc.devRef .tc main_v485)
      = Spec.sideBySide (V (Proc.devRef .tc main_v194)) (V (Proc.devRef .tc main_v436)) := by
  after_results_simp <;> rfl

end Cert.KernelIdeal.Stretch

end
-- ==== Proof.WalkB.lean ====
/-
  The kernel program's buffers along its run, graph "b" (boundaries 22 to 40), at `Ideal`: as for graph "j", each value the next
  region or stretch reads is the network's named function (Spec) of the argument arrays.
-/
import proofs.«157546_j87986700026404_1_alg».proof.Proof.FrameKIa
import proofs.«157546_j87986700026404_1_alg».proof.Proof.Spec
import proofs.«157546_j87986700026404_1_alg».proof.Proof.Alg
import proofs.«157546_j87986700026404_1_alg».proof.Proof.Carry
import proofs.«157546_j87986700026404_1_alg».proof.Proof.RegMM128
import proofs.«157546_j87986700026404_1_alg».proof.Proof.RegMM64
import proofs.«157546_j87986700026404_1_alg».proof.Proof.RegSage128
import proofs.«157546_j87986700026404_1_alg».proof.Proof.RegSage64
import proofs.«157546_j87986700026404_1_alg».proof.Proof.Stretch5
import proofs.«157546_j87986700026404_1_alg».proof.Proof.Stretch8
import proofs.«157546_j87986700026404_1_alg».proof.Proof.Stretch11

noncomputable section

namespace Cert.KernelIdeal.Walk

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (ρ : Dev nD → PrngReg)

/-! ## Graph "b" -/

/-- After the first stretch: the mean of `x_l` over incoming `l → p` edges. -/
theorem w22_v264 (c : Dev nD) : W22 m ρ c (Proc.devRef .tc main_v264) = Spec.sageMean (arg m c main_arg2) (arg m c main_arg7) := by
  refine (Stretch.s6_v264 (W19 m ρ c)).trans ?_
  rw [show W19 m ρ c (Proc.devRef .tc main_arg2) = arg m c main_arg2 from argAt19 m ρ c main_arg2 (by decide), show W19 m ρ c (Proc.devRef .tc main_arg7) = arg m c main_arg7 from argAt19 m ρ c main_arg7 (by decide)]

/-- After the first stretch: the first update's bias as a row. -/
theorem w22_v265 (c : Dev nD) : W22 m ρ c (Proc.devRef .tc main_v265) = Spec.biasRow128 (arg m c main_arg25) := by
  refine (Stretch.s6_v265 (W19 m ρ c)).trans ?_
  rw [show W19 m ρ c (Proc.devRef .tc main_arg25) = arg m c main_arg25 from argAt19 m ρ c main_arg25 (by decide)]

/-- The first fused-update region leaves layer 1's mean update at the `p` nodes. -/
theorem w23_v266 (c : Dev nD) : W23 m ρ c (Proc.devRef .tc main_v266) = Spec.sage128 (Spec.sageMean (arg m c main_arg2) (arg m c main_arg7)) (arg m c main_arg24) (arg m c main_arg3) (arg m c main_arg26) (arg m c main_arg25) := by
  refine (W23_arr m ρ c 5).trans ((RegionValue.arr6 (V22 m ρ) c).trans ?_)
  rw [show V22 m ρ c main_v264 = _ from w22_v264 m ρ c, show V22 m ρ c main_v265 = _ from w22_v265 m ρ c,
    show V22 m ρ c main_arg24 = arg m c main_arg24 from argAt22 m ρ c main_arg24 (by decide), show V22 m ρ c main_arg3 = arg m c main_arg3 from argAt22 m ρ c main_arg3 (by decide), show V22 m ρ c main_arg26 = arg m c main_arg26 from argAt22 m ρ c main_arg26 (by decide)]
  exact Alg.sageK128_row _ _ _ _ _

/-- The matmul region after it leaves `x_p · pp1_w`. -/
theorem w24_v267 (c : Dev nD) : W24 m ρ c (Proc.devRef .tc main_v267) = Spec.lin128 (arg m c main_arg3) (arg m c main_arg29) := by
  refine (W24_arr m ρ c 2).trans ((RegionValue.arr7 (V23 m ρ) c).trans ?_)
  rw [show V23 m ρ c main_arg3 = arg m c main_arg3 from argAt23 m ρ c main_arg3 (by decide), show V23 m ρ c main_arg29 = arg m c main_arg29 from argAt23 m ρ c main_arg29 (by decide)]

/-- Layer 1 at the `p` nodes, before relu. -/
theorem w27_v314 (c : Dev nD) : W27 m ρ c (Proc.devRef .tc main_v314) = Spec.hP (arg m c main_arg2) (arg m c main_arg3) (arg m c main_arg7) (arg m c main_arg9) (arg m c main_arg24) (arg m c main_arg25) (arg m c main_arg26) (arg m c main_arg29) (arg m c main_arg30) := by
  refine (Stretch.s8_v314 (W24 m ρ c)).trans ?_
  rw [show W24 m ρ c (Proc.devRef .tc main_v266) = _ from ((Keep.keep24 m ρ c main_v266 (by decide))).trans (w23_v266 m ρ c), w24_v267 m ρ c,
    show W24 m ρ c (Proc.devRef .tc main_arg9) = arg m c main_arg9 from argAt24 m ρ c main_arg9 (by decide), show W24 m ρ c (Proc.devRef .tc main_arg30) = arg m c main_arg30 from argAt24 m ρ c main_arg30 (by decide)]
  rfl

/-- The next matmul region leaves `x_l · ll1_w`. -/
theorem w28_v315 (c : Dev nD) : W28 m ρ c (Proc.devRef .tc main_v315) = Spec.lin128 (arg m c main_arg2) (arg m c main_arg27) := by
  refine (W28_arr m ρ c 2).trans ((RegionValue.arr8 (V27 m ρ) c).trans ?_)
  rw [show V27 m ρ c main_arg2 = arg m c main_arg2 from argAt27 m ρ c main_arg2 (by decide), show V27 m ρ c main_arg27 = arg m c main_arg27 from argAt27 m ρ c main_arg27 (by decide)]

/-- Layer 1's activation at the `l` nodes. -/
theorem w34_v362 (c : Dev nD) : W34 m ρ c (Proc.devRef .tc main_v362) = Spec.relu (Spec.hL (arg m c main_arg2) (arg m c main_arg8) (arg m c main_arg27) (arg m c main_arg28)) := by
  refine (Stretch.s9_v362 (W28 m ρ c)).trans ?_
  rw [w28_v315 m ρ c, show W28 m ρ c (Proc.devRef .tc main_arg8) = arg m c main_arg8 from argAt28 m ρ c main_arg8 (by decide), show W28 m ρ c (Proc.devRef .tc main_arg28) = arg m c main_arg28 from argAt28 m ρ c main_arg28 (by decide)]
  rfl

/-- Layer 1's activation at the `p` nodes. -/
theorem w34_v363 (c : Dev nD) : W34 m ρ c (Proc.devRef .tc main_v363) = Spec.relu (Spec.hP (arg m c main_arg2) (arg m c main_arg3) (arg m c main_arg7) (arg m c main_arg9) (arg m c main_arg24) (arg m c main_arg25) (arg m c main_arg26) (arg m c main_arg29) (arg m c main_arg30)) := by
  refine (Stretch.s9_v363 (W28 m ρ c)).trans ?_
  rw [show W28 m ρ c (Proc.devRef .tc main_v314) = _ from ((Keep.keep28 m ρ c main_v314 (by decide))).trans (w27_v314 m ρ c)]

/-- The mean of the `l` activation over incoming `l → p` edges. -/
theorem w34_v386 (c : Dev nD) : W34 m ρ c (Proc.devRef .tc main_v386) = Spec.sageMean (Spec.relu (Spec.hL (arg m c main_arg2) (arg m c main_arg8) (arg m c main_arg27) (arg m c main_arg28))) (arg m c main_arg7) := by
  refine (Stretch.s9_v386 (W28 m ρ c)).trans ?_
  rw [w28_v315 m ρ c, show W28 m ρ c (Proc.devRef .tc main_arg8) = arg m c main_arg8 from argAt28 m ρ c main_arg8 (by decide), show W28 m ρ c (Proc.devRef .tc main_arg28) = arg m c main_arg28 from argAt28 m ρ c main_arg28 (by decide), show W28 m ρ c (Proc.devRef .tc main_arg7) = arg m c main_arg7 from argAt28 m ρ c main_arg7 (by decide)]
  rfl

/-- Layer 2's update bias as a row. -/
theorem w34_v387 (c : Dev nD) : W34 m ρ c (Proc.devRef .tc main_v387) = Spec.biasRow64 (arg m c main_arg32) := by
  refine (Stretch.s9_v387 (W28 m ρ c)).trans ?_
  rw [show W28 m ρ c (Proc.devRef .tc main_arg32) = arg m c main_arg32 from argAt28 m ρ c main_arg32 (by decide)]

/-- The width-64 fused-update region leaves layer 2's mean update at the `p` nodes. -/
theorem w35_v388 (c : Dev nD) : W35 m ρ c (Proc.devRef .tc main_v388) = Spec.sage64 (Spec.sageMean (Spec.relu (Spec.hL (arg m c main_arg2) (arg m c main_arg8) (arg m c main_arg27) (arg m c main_arg28))) (arg m c main_arg7)) (arg m c main_arg31) (Spec.relu (Spec.hP (arg m c main_arg2) (arg m c main_arg3) (arg m c main_arg7) (arg m c main_arg9) (arg m c main_arg24) (arg m c main_arg25) (arg m c main_arg26) (arg m c main_arg29) (arg m c main_arg30))) (arg m c main_arg33) (arg m c main_arg32) := by
  refine (W35_arr m ρ c 5).trans ((RegionValue.arr9 (V34 m ρ) c).trans ?_)
  rw [show V34 m ρ c main_v386 = _ from w34_v386 m ρ c, show V34 m ρ c main_v363 = _ from w34_v363 m ρ c,
    show V34 m ρ c main_v387 = _ from w34_v387 m ρ c, show V34 m ρ c main_arg31 = arg m c main_arg31 from argAt34 m ρ c main_arg31 (by decide), show V34 m ρ c main_arg33 = arg m c main_arg33 from argAt34 m ρ c main_arg33 (by decide)]
  exact Alg.sageK64_row _ _ _ _ _

/-- The matmul region after it leaves `h_p · pp2_w`. -/
theorem w36_v389 (c : Dev nD) : W36 m ρ c (Proc.devRef .tc main_v389) = Spec.lin64 (Spec.relu (Spec.hP (arg m c main_arg2) (arg m c main_arg3) (arg m c main_arg7) (arg m c main_arg9) (arg m c main_arg24) (arg m c main_arg25) (arg m c main_arg26) (arg m c main_arg29) (arg m c main_arg30))) (arg m c main_arg36) := by
  refine (W36_arr m ρ c 2).trans ((RegionValue.arr10 (V35 m ρ) c).trans ?_)
  rw [show V35 m ρ c main_v363 = _ from ((Keep.keep35 m ρ c main_v363 (by decide))).trans (w34_v363 m ρ c), show V35 m ρ c main_arg36 = arg m c main_arg36 from argAt35 m ρ c main_arg36 (by decide)]

/-- Graph "b"'s output at the `p` nodes. -/
theorem w39_v436 (c : Dev nD) : W39 m ρ c (Proc.devRef .tc main_v436) = Spec.outP (arg m c main_arg2) (arg m c main_arg3) (arg m c main_arg7) (arg m c main_arg8) (arg m c main_arg9) (arg m c main_arg24) (arg m c main_arg25) (arg m c main_arg26) (arg m c main_arg27) (arg m c main_arg28) (arg m c main_arg29) (arg m c main_arg30) (arg m c main_arg31) (arg m c main_arg32) (arg m c main_arg33) (arg m c main_arg36) (arg m c main_arg37) := by
  refine (Stretch.s11_v436 (W36 m ρ c)).trans ?_
  rw [show W36 m ρ c (Proc.devRef .tc main_v388) = _ from ((Keep.keep36 m ρ c main_v388 (by decide))).trans (w35_v388 m ρ c), w36_v389 m ρ c,
    show W36 m ρ c (Proc.devRef .tc main_arg9) = arg m c main_arg9 from argAt36 m ρ c main_arg9 (by decide), show W36 m ρ c (Proc.devRef .tc main_arg37) = arg m c main_arg37 from argAt36 m ρ c main_arg37 (by decide)]
  rfl

/-- The last matmul region of the graph leaves `h_l · ll2_w`. -/
theorem w40_v437 (c : Dev nD) : W40 m ρ c (Proc.devRef .tc main_v437) = Spec.lin64 (Spec.relu (Spec.hL (arg m c main_arg2) (arg m c main_arg8) (arg m c main_arg27) (arg m c main_arg28))) (arg m c main_arg34) := by
  refine (W40_arr m ρ c 2).trans ((RegionValue.arr11 (V39 m ρ) c).trans ?_)
  rw [show V39 m ρ c main_v362 = _ from ((Keep.keep39 m ρ c main_v362 (by decide)).trans ((Keep.keep38 m ρ c main_v362 (by decide)).trans ((Keep.keep37 m ρ c main_v362 (by decide)).trans ((Keep.keep36 m ρ c main_v362 (by decide)).trans ((Keep.keep35 m ρ c main_v362 (by decide))))))).trans (w34_v362 m ρ c), show V39 m ρ c main_arg34 = arg m c main_arg34 from argAt39 m ρ c main_arg34 (by decide)]

end Cert.KernelIdeal.Walk

end
-- ==== Proof.WalkOut.lean ====
/-
  The kernel program's two results at the last boundary of its run, at `Ideal`: per node type the two graphs' outputs side by
  side, each graph's output carried from the boundary where its last stretch left it.
-/
import proofs.«157546_j87986700026404_1_alg».proof.Proof.WalkJ
import proofs.«157546_j87986700026404_1_alg».proof.Proof.WalkB
import proofs.«157546_j87986700026404_1_alg».proof.Proof.Stretch11

noncomputable section

namespace Cert.KernelIdeal.Walk

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (ρ : Dev nD → PrngReg)

/-- The first result: the two graphs' outputs at the `l` nodes side by side. -/
theorem w43_v484 (c : Dev nD) : W43 m ρ c (Proc.devRef .tc main_v484) = Spec.sideBySide (Spec.outL (arg m c main_arg0) (arg m c main_arg5) (arg m c main_arg13) (arg m c main_arg14) (arg m c main_arg20) (arg m c main_arg21)) (Spec.outL (arg m c main_arg2) (arg m c main_arg8) (arg m c main_arg27) (arg m c main_arg28) (arg m c main_arg34) (arg m c main_arg35)) := by
  refine (Stretch.s12_v484 (W40 m ρ c)).trans ?_
  rw [show W40 m ρ c (Proc.devRef .tc main_v241) = _ from ((Keep.keep40 m ρ c main_v241 (by decide)).trans ((Keep.keep39 m ρ c main_v241 (by decide)).trans ((Keep.keep38 m ρ c main_v241 (by decide)).trans ((Keep.keep37 m ρ c main_v241 (by decide)).trans ((Keep.keep36 m ρ c main_v241 (by decide)).trans ((Keep.keep35 m ρ c main_v241 (by decide)).trans ((Keep.keep34 m ρ c main_v241 (by decide)).trans ((Keep.keep33 m ρ c main_v241 (by decide)).trans ((Keep.keep32 m ρ c main_v241 (by decide)).trans ((Keep.keep31 m ρ c main_v241 (by decide)).trans ((Keep.keep30 m ρ c main_v241 (by decide)).trans ((Keep.keep29 m ρ c main_v241 (by decide)).trans ((Keep.keep28 m ρ c main_v241 (by decide)).trans ((Keep.keep27 m ρ c main_v241 (by decide)).trans ((Keep.keep26 m ρ c main_v241 (by decide)).trans ((Keep.keep25 m ρ c main_v241 (by decide)).trans ((Keep.keep24 m ρ c main_v241 (by decide)).trans ((Keep.keep23 m ρ c main_v241 (by decide)))))))))))))))))))).trans (w22_v241 m ρ c), w40_v437 m ρ c, show W40 m ρ c (Proc.devRef .tc main_arg8) = arg m c main_arg8 from argAt40 m ρ c main_arg8 (by decide), show W40 m ρ c (Proc.devRef .tc main_arg35) = arg m c main_arg35 from argAt40 m ρ c main_arg35 (by decide)]
  rfl

/-- The second result: the two graphs' outputs at the `p` nodes side by side. -/
theorem w43_v485 (c : Dev nD) : W43 m ρ c (Proc.devRef .tc main_v485) = Spec.sideBySide (Spec.outP (arg m c main_arg0) (arg m c main_arg1) (arg m c main_arg4) (arg m c main_arg5) (arg m c main_arg6) (arg m c main_arg10) (arg m c main_arg11) (arg m c main_arg12) (arg m c main_arg13) (arg m c main_arg14) (arg m c main_arg15) (arg m c main_arg16) (arg m c main_arg17) (arg m c main_arg18) (arg m c main_arg19) (arg m c main_arg22) (arg m c main_arg23)) (Spec.outP (arg m c main_arg2) (arg m c main_arg3) (arg m c main_arg7) (arg m c main_arg8) (arg m c main_arg9) (arg m c main_arg24) (arg m c main_arg25) (arg m c main_arg26) (arg m c main_arg27) (arg m c main_arg28) (arg m c main_arg29) (arg m c main_arg30) (arg m c main_arg31) (arg m c main_arg32) (arg m c main_arg33) (arg m c main_arg36) (arg m c main_arg37)) := by
  refine (Stretch.s12_v485 (W40 m ρ c)).trans ?_
  rw [show W40 m ρ c (Proc.devRef .tc main_v194) = _ from ((Keep.keep40 m ρ c main_v194 (by decide)).trans ((Keep.keep39 m ρ c main_v194 (by decide)).trans ((Keep.keep38 m ρ c main_v194 (by decide)).trans ((Keep.keep37 m ρ c main_v194 (by decide)).trans ((Keep.keep36 m ρ c main_v194 (by decide)).trans ((Keep.keep35 m ρ c main_v194 (by decide)).trans ((Keep.keep34 m ρ c main_v194 (by decide)).trans ((Keep.keep33 m ρ c main_v194 (by decide)).trans ((Keep.keep32 m ρ c main_v194 (by decide)).trans ((Keep.keep31 m ρ c main_v194 (by decide)).trans ((Keep.keep30 m ρ c main_v194 (by decide)).trans ((Keep.keep29 m ρ c main_v194 (by decide)).trans ((Keep.keep28 m ρ c main_v194 (by decide)).trans ((Keep.keep27 m ρ c main_v194 (by decide)).trans ((Keep.keep26 m ρ c main_v194 (by decide)).trans ((Keep.keep25 m ρ c main_v194 (by decide)).trans ((Keep.keep24 m ρ c main_v194 (by decide)).trans ((Keep.keep23 m ρ c main_v194 (by decide)).trans ((Keep.keep22 m ρ c main_v194 (by decide)).trans ((Keep.keep21 m ρ c main_v194 (by decide)).trans ((Keep.keep20 m ρ c main_v194 (by decide)).trans ((Keep.keep19 m ρ c main_v194 (by decide)))))))))))))))))))))))).trans (w18_v194 m ρ c), show W40 m ρ c (Proc.devRef .tc main_v436) = _ from ((Keep.keep40 m ρ c main_v436 (by decide))).trans (w39_v436 m ρ c)]

end Cert.KernelIdeal.Walk

end
-- ==== Proof.RefA.lean ====
/-
  The reference's operations 1 to 156 (graph "j", layer 1) in three stretches, each read as values from any buffer contents
  `V`: the fused update at the `p` nodes; that plus the `p → p` aggregation; the `l → l` aggregation.
-/
import proofs.«157546_j87986700026404_1_alg».proof.Proof.Gen.ReferenceIdeal
import proofs.«157546_j87986700026404_1_alg».proof.Proof.Spec
import Idealize.ShloMosaic.Lib.StableHlo.Run

noncomputable section

namespace Cert.ReferenceIdeal.RefStretch

open Cert.ReferenceIdeal Cert.ReferenceIdeal.Gen Idealize.ShloMosaic Idealize.ShloMosaic.StableHlo

variable {F : FTy → Type} [FloatOps F]

/-- Operations 1–35: the mean over incoming `l → p` edges and the fused update. -/
abbrev r0 : List (HloOp τ sig (Elt F)) :=
  [ unary main_arg4 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg4 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    nullary main_c (constantI S_ 32 0#32),
    unary main_c main_v4 (broadcastInDim S500000 ![] bcast_S_S500000 : (⟨S_, .i32⟩ : BufTy).Contents (Elt F) → (⟨S500000, .i32⟩ : BufTy).Contents (Elt F)),
    binary main_v1 main_v4 main_v5 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v6 (broadcastInDim S500000 ![] bcast_S_S500000 : (⟨S_, .i32⟩ : BufTy).Contents (Elt F) → (⟨S500000, .i32⟩ : BufTy).Contents (Elt F)),
    binary main_v1 main_v6 main_v7 (addi : (⟨S500000, .i32⟩ : BufTy).Contents (Elt F) → (⟨S500000, .i32⟩ : BufTy).Contents (Elt F) → (⟨S500000, .i32⟩ : BufTy).Contents (Elt F)),
    ternary main_v5 main_v7 main_v1 main_v8 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v8 main_v9 (broadcastInDim S500000x1 ![0] bcast_S500000_S500000x1_0 : (⟨S500000, .i32⟩ : BufTy).Contents (Elt F) → (⟨S500000x1, .i32⟩ : BufTy).Contents (Elt F)),
    binary main_arg0 main_v9 main_v10 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S500000x1 ![0] bcast_S500000_S500000x1_0 : (⟨S500000, .i32⟩ : BufTy).Contents (Elt F) → (⟨S500000x1, .i32⟩ : BufTy).Contents (Elt F)),
    ternary main_v11 main_v12 main_v10 main_v13 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_1 (constant S_ .f32 0x3F800000#32),
    unary main_cst_1 main_v14 (broadcastInDim S500000 ![] bcast_S_S500000 : (⟨S_, .f32⟩ : BufTy).Contents (Elt F) → (⟨S500000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S500000x1 ![0] bcast_S500000_S500000x1_0 : (⟨S500000, .i32⟩ : BufTy).Contents (Elt F) → (⟨S500000x1, .i32⟩ : BufTy).Contents (Elt F)),
    ternary main_v15 main_v16 main_v14 main_v17 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    binary main_v22 main_arg10 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg1 main_arg12 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)) ]
set_option maxHeartbeats 2000000 in
/-- `main_v28`: the update of the mean of `main_arg0` along `main_arg4` with `main_arg1`. -/
theorem r0_v28 (V : Valuation τ sig (Elt F)) :
    after r0 V (Proc.devRef .tc main_v28)
      = Cert.KernelIdeal.Spec.sage128 (Cert.KernelIdeal.Spec.sageMean (V (Proc.devRef .tc main_arg0)) (V (Proc.devRef .tc main_arg4))) (V (Proc.devRef .tc main_arg10)) (V (Proc.devRef .tc main_arg1)) (V (Proc.devRef .tc main_arg12)) (V (Proc.devRef .tc main_arg11)) := by
  after_results_simp <;> rfl

/-- Operations 36–96: the `p → p` aggregation of `main_arg1 · main_arg15`, added to `main_v28`. -/
abbrev r1 : List (HloOp τ sig (Elt F)) :=
  [ nullary main_v29 (iotaInDim S100000 32 0),
    unary main_arg6 main_v30 ((extractStridedSlice S1x500000 ![0, 0] · slices_S2x500000_S1x500000_0_0) : (⟨S2x500000, .i32⟩ : BufTy).Contents (Elt F) → (⟨S1x500000, .i32⟩ : BufTy).Contents (Elt F)),
    reshape main_v30 main_v31 rfl shapeCasts_S1x500000_S500000,
    binary main_v31 main_v29 main_v32 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    unary main_arg6 main_v33 ((extractStridedSlice S1x500000 ![1, 0] · slices_S2x500000_S1x500000_1_0) : (⟨S2x500000, .i32⟩ : BufTy).Contents (Elt F) → (⟨S1x500000, .i32⟩ : BufTy).Contents (Elt F)),
    reshape main_v33 main_v34 rfl shapeCasts_S1x500000_S500000,
    binary main_v34 main_v29 main_v35 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst_4 (constant S_ .f32 0x3F800000#32),
    unary main_cst_4 main_v36 (broadcastInDim S600000 ![] bcast_S_S600000 : (⟨S_, .f32⟩ : BufTy).Contents (Elt F) → (⟨S600000, .f32⟩ : BufTy).Contents (Elt F)),
    nullary main_cst_5 (constant S_ .f32 0x00000000#32),
    unary main_cst_5 main_v37 (broadcastInDim S100000 ![] bcast_S_S100000 : (⟨S_, .f32⟩ : BufTy).Contents (Elt F) → (⟨S100000, .f32⟩ : BufTy).Contents (Elt F)),
    unary main_v35 main_v38 (broadcastInDim S600000x1 ![0] bcast_S600000_S600000x1_0 : (⟨S600000, .i32⟩ : BufTy).Contents (Elt F) → (⟨S600000x1, .i32⟩ : BufTy).Contents (Elt F)),
    ternary main_v37 main_v38 main_v36 main_v39 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_6 (constant S_ .f32 0x00000000#32),
    unary main_cst_6 main_v40 (broadcastInDim S100000 ![] bcast_S_S100000 : (⟨S_, .f32⟩ : BufTy).Contents (Elt F) → (⟨S100000, .f32⟩ : BufTy).Contents (Elt F)),
    binary main_v39 main_v40 main_v41 (cmpf .ogt : (⟨S100000, .f32⟩ : BufTy).Contents (Elt F) → (⟨S100000, .f32⟩ : BufTy).Contents (Elt F) → (⟨S100000, .i1⟩ : BufTy).Contents (Elt F)),
    unary main_v39 main_v42 (Host.rsqrt : (⟨S100000, .f32⟩ : BufTy).Contents (Elt F) → (⟨S100000, .f32⟩ : BufTy).Contents (Elt F)),
    nullary main_cst_7 (constant S_ .f32 0x00000000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v41) (TRef.of (T := ⟨S100000, .f32⟩) main_v42) (TRef.of (T := ⟨S100000, .f32⟩) main_call0_v1) (TRef.of (T := ⟨S100000, .f32⟩) main_v43) select,
    nullary main_c_8 (constantI S_ 32 0#32),
    unary main_c_8 main_v44 (broadcastInDim S600000 ![] bcast_S_S600000 : (⟨S_, .i32⟩ : BufTy).Contents (Elt F) → (⟨S600000, .i32⟩ : BufTy).Contents (Elt F)),
    binary main_v32 main_v44 main_v45 (cmpi .slt : (⟨S600000, .i32⟩ : BufTy).Contents (Elt F) → (⟨S600000, .i32⟩ : BufTy).Contents (Elt F) → (⟨S600000, .i1⟩ : BufTy).Contents (Elt F)),
    nullary main_c_9 (constantI S_ 32 100000#32),
    unary main_c_9 main_v46 (broadcastInDim S600000 ![] bcast_S_S600000 : (⟨S_, .i32⟩ : BufTy).Contents (Elt F) → (⟨S600000, .i32⟩ : BufTy).Contents (Elt F)),
    binary main_v32 main_v46 main_v47 (addi : (⟨S600000, .i32⟩ : BufTy).Contents (Elt F) → (⟨S600000, .i32⟩ : BufTy).Contents (Elt F) → (⟨S600000, .i32⟩ : BufTy).Contents (Elt F)),
    ternary main_v45 main_v47 main_v32 main_v48 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v48 main_v49 (broadcastInDim S600000x1 ![0] bcast_S600000_S600000x1_0 : (⟨S600000, .i32⟩ : BufTy).Contents (Elt F) → (⟨S600000x1, .i32⟩ : BufTy).Contents (Elt F)),
    binary main_v43 main_v49 main_v50 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_10 (constantI S_ 32 0#32),
    unary main_c_10 main_v51 (broadcastInDim S600000 ![] bcast_S_S600000 : (⟨S_, .i32⟩ : BufTy).Contents (Elt F) → (⟨S600000, .i32⟩ : BufTy).Contents (Elt F)),
    binary main_v35 main_v51 main_v52 (cmpi .slt : (⟨S600000, .i32⟩ : BufTy).Contents (Elt F) → (⟨S600000, .i32⟩ : BufTy).Contents (Elt F) → (⟨S600000, .i1⟩ : BufTy).Contents (Elt F)),
    nullary main_c_11 (constantI S_ 32 100000#32),
    unary main_c_11 main_v53 (broadcastInDim S600000 ![] bcast_S_S600000 : (⟨S_, .i32⟩ : BufTy).Contents (Elt F) → (⟨S600000, .i32⟩ : BufTy).Contents (Elt F)),
    binary main_v35 main_v53 main_v54 (addi : (⟨S600000, .i32⟩ : BufTy).Contents (Elt F) → (⟨S600000, .i32⟩ : BufTy).Contents (Elt F) → (⟨S600000, .i32⟩ : BufTy).Contents (Elt F)),
    ternary main_v52 main_v54 main_v35 main_v55 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v55 main_v56 (broadcastInDim S600000x1 ![0] bcast_S600000_S600000x1_0 : (⟨S600000, .i32⟩ : BufTy).Contents (Elt F) → (⟨S600000x1, .i32⟩ : BufTy).Contents (Elt F)),
    binary main_v43 main_v56 main_v57 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v50 main_v57 main_v58 (mulf : (⟨S600000, .f32⟩ : BufTy).Contents (Elt F) → (⟨S600000, .f32⟩ : BufTy).Contents (Elt F) → (⟨S600000, .f32⟩ : BufTy).Contents (Elt F)),
    binary main_arg1 main_arg15 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v60 (broadcastInDim S600000 ![] bcast_S_S600000 : (⟨S_, .i32⟩ : BufTy).Contents (Elt F) → (⟨S600000, .i32⟩ : BufTy).Contents (Elt F)),
    binary main_v32 main_v60 main_v61 (cmpi .slt : (⟨S600000, .i32⟩ : BufTy).Contents (Elt F) → (⟨S600000, .i32⟩ : BufTy).Contents (Elt F) → (⟨S600000, .i1⟩ : BufTy).Contents (Elt F)),
    nullary main_c_13 (constantI S_ 32 100000#32),
    unary main_c_13 main_v62 (broadcastInDim S600000 ![] bcast_S_S600000 : (⟨S_, .i32⟩ : BufTy).Contents (Elt F) → (⟨S600000, .i32⟩ : BufTy).Contents (Elt F)),
    binary main_v32 main_v62 main_v63 (addi : (⟨S600000, .i32⟩ : BufTy).Contents (Elt F) → (⟨S600000, .i32⟩ : BufTy).Contents (Elt F) → (⟨S600000, .i32⟩ : BufTy).Contents (Elt F)),
    ternary main_v61 main_v63 main_v32 main_v64 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v64 main_v65 (broadcastInDim S600000x1 ![0] bcast_S600000_S600000x1_0 : (⟨S600000, .i32⟩ : BufTy).Contents (Elt F) → (⟨S600000x1, .i32⟩ : BufTy).Contents (Elt F)),
    binary main_v59 main_v65 main_v66 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v58 main_v67 (broadcastInDim S600000x1 ![0] bcast_S600000_S600000x1_0 : (⟨S600000, .f32⟩ : BufTy).Contents (Elt F) → (⟨S600000x1, .f32⟩ : BufTy).Contents (Elt F)),
    unary main_v67 main_v68 (broadcastInDim S600000x128 ![0, 1] bcast_S600000x1_S600000x128_0_1 : (⟨S600000x1, .f32⟩ : BufTy).Contents (Elt F) → (⟨S600000x128, .f32⟩ : BufTy).Contents (Elt F)),
    binary main_v66 main_v68 main_v69 (mulf : (⟨S600000x128, .f32⟩ : BufTy).Contents (Elt F) → (⟨S600000x128, .f32⟩ : BufTy).Contents (Elt F) → (⟨S600000x128, .f32⟩ : BufTy).Contents (Elt F)),
    nullary main_cst_14 (constant S_ .f32 0x00000000#32),
    unary main_cst_14 main_v70 (broadcastInDim S100000x128 ![] bcast_S_S100000x128 : (⟨S_, .f32⟩ : BufTy).Contents (Elt F) → (⟨S100000x128, .f32⟩ : BufTy).Contents (Elt F)),
    unary main_v35 main_v71 (broadcastInDim S600000x1 ![0] bcast_S600000_S600000x1_0 : (⟨S600000, .i32⟩ : BufTy).Contents (Elt F) → (⟨S600000x1, .i32⟩ : BufTy).Contents (Elt F)),
    ternary main_v70 main_v71 main_v69 main_v72 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg16 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (addf : (⟨S100000x128, .f32⟩ : BufTy).Contents (Elt F) → (⟨S100000x128, .f32⟩ : BufTy).Contents (Elt F) → (⟨S100000x128, .f32⟩ : BufTy).Contents (Elt F)),
    binary main_v28 main_v75 main_v76 (addf : (⟨S100000x128, .f32⟩ : BufTy).Contents (Elt F) → (⟨S100000x128, .f32⟩ : BufTy).Contents (Elt F) → (⟨S100000x128, .f32⟩ : BufTy).Contents (Elt F)) ]
set_option maxHeartbeats 2000000 in
/-- `main_v76`: `main_v28` plus the aggregation of `main_arg1 · main_arg15` along `main_arg6`, bias `main_arg16`. -/
theorem r1_v76 (V : Valuation τ sig (Elt F)) :
    after r1 V (Proc.devRef .tc main_v76)
      = addf (V (Proc.devRef .tc main_v28)) (Cert.KernelIdeal.Spec.gcnAgg128 (Cert.KernelIdeal.Spec.lin128 (V (Proc.devRef .tc main_arg1)) (V (Proc.devRef .tc main_arg15))) (V (Proc.devRef .tc main_arg6)) (V (Proc.devRef .tc main_arg16))) := by
  after_results_simp <;> rfl

/-- Operations 97–156: the `l → l` aggregation of `main_arg0 · main_arg13`. -/
abbrev r2 : List (HloOp τ sig (Elt F)) :=
  [ nullary main_v77 (iotaInDim S100000 32 0),
    unary main_arg5 main_v78 ((extractStridedSlice S1x500000 ![0, 0] · slices_S2x500000_S1x500000_0_0) : (⟨S2x500000, .i32⟩ : BufTy).Contents (Elt F) → (⟨S1x500000, .i32⟩ : BufTy).Contents (Elt F)),
    reshape main_v78 main_v79 rfl shapeCasts_S1x500000_S500000,
    binary main_v79 main_v77 main_v80 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    unary main_arg5 main_v81 ((extractStridedSlice S1x500000 ![1, 0] · slices_S2x500000_S1x500000_1_0) : (⟨S2x500000, .i32⟩ : BufTy).Contents (Elt F) → (⟨S1x500000, .i32⟩ : BufTy).Contents (Elt F)),
    reshape main_v81 main_v82 rfl shapeCasts_S1x500000_S500000,
    binary main_v82 main_v77 main_v83 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst_15 (constant S_ .f32 0x3F800000#32),
    unary main_cst_15 main_v84 (broadcastInDim S600000 ![] bcast_S_S600000 : (⟨S_, .f32⟩ : BufTy).Contents (Elt F) → (⟨S600000, .f32⟩ : BufTy).Contents (Elt F)),
    nullary main_cst_16 (constant S_ .f32 0x00000000#32),
    unary main_cst_16 main_v85 (broadcastInDim S100000 ![] bcast_S_S100000 : (⟨S_, .f32⟩ : BufTy).Contents (Elt F) → (⟨S100000, .f32⟩ : BufTy).Contents (Elt F)),
    unary main_v83 main_v86 (broadcastInDim S600000x1 ![0] bcast_S600000_S600000x1_0 : (⟨S600000, .i32⟩ : BufTy).Contents (Elt F) → (⟨S600000x1, .i32⟩ : BufTy).Contents (Elt F)),
    ternary main_v85 main_v86 main_v84 main_v87 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_17 (constant S_ .f32 0x00000000#32),
    unary main_cst_17 main_v88 (broadcastInDim S100000 ![] bcast_S_S100000 : (⟨S_, .f32⟩ : BufTy).Contents (Elt F) → (⟨S100000, .f32⟩ : BufTy).Contents (Elt F)),
    binary main_v87 main_v88 main_v89 (cmpf .ogt : (⟨S100000, .f32⟩ : BufTy).Contents (Elt F) → (⟨S100000, .f32⟩ : BufTy).Contents (Elt F) → (⟨S100000, .i1⟩ : BufTy).Contents (Elt F)),
    unary main_v87 main_v90 (Host.rsqrt : (⟨S100000, .f32⟩ : BufTy).Contents (Elt F) → (⟨S100000, .f32⟩ : BufTy).Contents (Elt F)),
    nullary main_cst_18 (constant S_ .f32 0x00000000#32),
    TRef.unary (TRef.of (T := ⟨S_, .f32⟩) main_cst_18) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v89) (TRef.of (T := ⟨S100000, .f32⟩) main_v90) (TRef.of (T := ⟨S100000, .f32⟩) main_call1_v1) (TRef.of (T := ⟨S100000, .f32⟩) main_v91) select,
    nullary main_c_19 (constantI S_ 32 0#32),
    unary main_c_19 main_v92 (broadcastInDim S600000 ![] bcast_S_S600000 : (⟨S_, .i32⟩ : BufTy).Contents (Elt F) → (⟨S600000, .i32⟩ : BufTy).Contents (Elt F)),
    binary main_v80 main_v92 main_v93 (cmpi .slt : (⟨S600000, .i32⟩ : BufTy).Contents (Elt F) → (⟨S600000, .i32⟩ : BufTy).Contents (Elt F) → (⟨S600000, .i1⟩ : BufTy).Contents (Elt F)),
    nullary main_c_20 (constantI S_ 32 100000#32),
    unary main_c_20 main_v94 (broadcastInDim S600000 ![] bcast_S_S600000 : (⟨S_, .i32⟩ : BufTy).Contents (Elt F) → (⟨S600000, .i32⟩ : BufTy).Contents (Elt F)),
    binary main_v80 main_v94 main_v95 (addi : (⟨S600000, .i32⟩ : BufTy).Contents (Elt F) → (⟨S600000, .i32⟩ : BufTy).Contents (Elt F) → (⟨S600000, .i32⟩ : BufTy).Contents (Elt F)),
    ternary main_v93 main_v95 main_v80 main_v96 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v96 main_v97 (broadcastInDim S600000x1 ![0] bcast_S600000_S600000x1_0 : (⟨S600000, .i32⟩ : BufTy).Contents (Elt F) → (⟨S600000x1, .i32⟩ : BufTy).Contents (Elt F)),
    binary main_v91 main_v97 main_v98 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_21 (constantI S_ 32 0#32),
    unary main_c_21 main_v99 (broadcastInDim S600000 ![] bcast_S_S600000 : (⟨S_, .i32⟩ : BufTy).Contents (Elt F) → (⟨S600000, .i32⟩ : BufTy).Contents (Elt F)),
    binary main_v83 main_v99 main_v100 (cmpi .slt : (⟨S600000, .i32⟩ : BufTy).Contents (Elt F) → (⟨S600000, .i32⟩ : BufTy).Contents (Elt F) → (⟨S600000, .i1⟩ : BufTy).Contents (Elt F)),
    nullary main_c_22 (constantI S_ 32 100000#32),
    unary main_c_22 main_v101 (broadcastInDim S600000 ![] bcast_S_S600000 : (⟨S_, .i32⟩ : BufTy).Contents (Elt F) → (⟨S600000, .i32⟩ : BufTy).Contents (Elt F)),
    binary main_v83 main_v101 main_v102 (addi : (⟨S600000, .i32⟩ : BufTy).Contents (Elt F) → (⟨S600000, .i32⟩ : BufTy).Contents (Elt F) → (⟨S600000, .i32⟩ : BufTy).Contents (Elt F)),
    ternary main_v100 main_v102 main_v83 main_v103 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v103 main_v104 (broadcastInDim S600000x1 ![0] bcast_S600000_S600000x1_0 : (⟨S600000, .i32⟩ : BufTy).Contents (Elt F) → (⟨S600000x1, .i32⟩ : BufTy).Contents (Elt F)),
    binary main_v91 main_v104 main_v105 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v98 main_v105 main_v106 (mulf : (⟨S600000, .f32⟩ : BufTy).Contents (Elt F) → (⟨S600000, .f32⟩ : BufTy).Contents (Elt F) → (⟨S600000, .f32⟩ : BufTy).Contents (Elt F)),
    binary main_arg0 main_arg13 main_v107 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_23 (constantI S_ 32 0#32),
    unary main_c_23 main_v108 (broadcastInDim S600000 ![] bcast_S_S600000 : (⟨S_, .i32⟩ : BufTy).Contents (Elt F) → (⟨S600000, .i32⟩ : BufTy).Contents (Elt F)),
    binary main_v80 main_v108 main_v109 (cmpi .slt : (⟨S600000, .i32⟩ : BufTy).Contents (Elt F) → (⟨S600000, .i32⟩ : BufTy).Contents (Elt F) → (⟨S600000, .i1⟩ : BufTy).Contents (Elt F)),
    nullary main_c_24 (constantI S_ 32 100000#32),
    unary main_c_24 main_v110 (broadcastInDim S600000 ![] bcast_S_S600000 : (⟨S_, .i32⟩ : BufTy).Contents (Elt F) → (⟨S600000, .i32⟩ : BufTy).Contents (Elt F)),
    binary main_v80 main_v110 main_v111 (addi : (⟨S600000, .i32⟩ : BufTy).Contents (Elt F) → (⟨S600000, .i32⟩ : BufTy).Contents (Elt F) → (⟨S600000, .i32⟩ : BufTy).Contents (Elt F)),
    ternary main_v109 main_v111 main_v80 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v112 main_v113 (broadcastInDim S600000x1 ![0] bcast_S600000_S600000x1_0 : (⟨S600000, .i32⟩ : BufTy).Contents (Elt F) → (⟨S600000x1, .i32⟩ : BufTy).Contents (Elt F)),
    binary main_v107 main_v113 main_v114 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v106 main_v115 (broadcastInDim S600000x1 ![0] bcast_S600000_S600000x1_0 : (⟨S600000, .f32⟩ : BufTy).Contents (Elt F) → (⟨S600000x1, .f32⟩ : BufTy).Contents (Elt F)),
    unary main_v115 main_v116 (broadcastInDim S600000x128 ![0, 1] bcast_S600000x1_S600000x128_0_1 : (⟨S600000x1, .f32⟩ : BufTy).Contents (Elt F) → (⟨S600000x128, .f32⟩ : BufTy).Contents (Elt F)),
    binary main_v114 main_v116 main_v117 (mulf : (⟨S600000x128, .f32⟩ : BufTy).Contents (Elt F) → (⟨S600000x128, .f32⟩ : BufTy).Contents (Elt F) → (⟨S600000x128, .f32⟩ : BufTy).Contents (Elt F)),
    nullary main_cst_25 (constant S_ .f32 0x00000000#32),
    unary main_cst_25 main_v118 (broadcastInDim S100000x128 ![] bcast_S_S100000x128 : (⟨S_, .f32⟩ : BufTy).Contents (Elt F) → (⟨S100000x128, .f32⟩ : BufTy).Contents (Elt F)),
    unary main_v83 main_v119 (broadcastInDim S600000x1 ![0] bcast_S600000_S600000x1_0 : (⟨S600000, .i32⟩ : BufTy).Contents (Elt F) → (⟨S600000x1, .i32⟩ : BufTy).Contents (Elt F)),
    ternary main_v118 main_v119 main_v117 main_v120 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg14 main_v121 (broadcastInDim S1x128 ![1] bcast_S128_S1x128_1 : (⟨S128, .f32⟩ : BufTy).Contents (Elt F) → (⟨S1x128, .f32⟩ : BufTy).Contents (Elt F)),
    unary main_v121 main_v122 (broadcastInDim S100000x128 ![0, 1] bcast_S1x128_S100000x128_0_1 : (⟨S1x128, .f32⟩ : BufTy).Contents (Elt F) → (⟨S100000x128, .f32⟩ : BufTy).Contents (Elt F)),
    binary main_v120 main_v122 main_v123 (addf : (⟨S100000x128, .f32⟩ : BufTy).Contents (Elt F) → (⟨S100000x128, .f32⟩ : BufTy).Contents (Elt F) → (⟨S100000x128, .f32⟩ : BufTy).Contents (Elt F)) ]
set_option maxHeartbeats 2000000 in
/-- `main_v123`: the aggregation of `main_arg0 · main_arg13` along `main_arg5`, bias `main_arg14`. -/
theorem r2_v123 (V : Valuation τ sig (Elt F)) :
    after r2 V (Proc.devRef .tc main_v123)
      = Cert.KernelIdeal.Spec.gcnAgg128 (Cert.KernelIdeal.Spec.lin128 (V (Proc.devRef .tc main_arg0)) (V (Proc.devRef .tc main_arg13))) (V (Proc.devRef .tc main_arg5)) (V (Proc.devRef .tc main_arg14)) := by
  after_results_simp <;> rfl

end Cert.ReferenceIdeal.RefStretch

end
-- ==== Proof.RefB.lean ====
/-
  The reference's operations 157 to 318 (graph "j", layer 2) in three stretches, each read as values from any buffer
  contents `V`: the two activations and the fused update at width 64; that plus the `p → p` aggregation; the `l → l` aggregation.
-/
import proofs.«157546_j87986700026404_1_alg».proof.Proof.Gen.ReferenceIdeal
import proofs.«157546_j87986700026404_1_alg».proof.Proof.Spec
import Idealize.ShloMosaic.Lib.StableHlo.Run

noncomputable section

namespace Cert.ReferenceIdeal.RefStretch

open Cert.ReferenceIdeal Cert.ReferenceIdeal.Gen Idealize.ShloMosaic Idealize.ShloMosaic.StableHlo

variable {F : FTy → Type} [FloatOps F]

/-- Operations 157–197: relu of `main_v123` and of `main_v76`, the mean of the first, and the fused update at width 64. -/
abbrev r3 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v123) (TRef.of (T := ⟨S100000x128, .f32⟩) main_call2_v0) (TRef.of (T := ⟨S100000x128, .f32⟩) main_v124) maximumf,
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v76) (TRef.of (T := ⟨S100000x128, .f32⟩) main_call3_v0) (TRef.of (T := ⟨S100000x128, .f32⟩) main_v125) maximumf,
    unary main_arg4 main_v126 ((extractStridedSlice S1x500000 ![0, 0] · slices_S2x500000_S1x500000_0_0) : (⟨S2x500000, .i32⟩ : BufTy).Contents (Elt F) → (⟨S1x500000, .i32⟩ : BufTy).Contents (Elt F)),
    reshape main_v126 main_v127 rfl shapeCasts_S1x500000_S500000,
    unary main_arg4 main_v128 ((extractStridedSlice S1x500000 ![1, 0] · slices_S2x500000_S1x500000_1_0) : (⟨S2x500000, .i32⟩ : BufTy).Contents (Elt F) → (⟨S1x500000, .i32⟩ : BufTy).Contents (Elt F)),
    reshape main_v128 main_v129 rfl shapeCasts_S1x500000_S500000,
    nullary main_c_26 (constantI S_ 32 0#32),
    unary main_c_26 main_v130 (broadcastInDim S500000 ![] bcast_S_S500000 : (⟨S_, .i32⟩ : BufTy).Contents (Elt F) → (⟨S500000, .i32⟩ : BufTy).Contents (Elt F)),
    binary main_v127 main_v130 main_v131 (cmpi .slt : (⟨S500000, .i32⟩ : BufTy).Contents (Elt F) → (⟨S500000, .i32⟩ : BufTy).Contents (Elt F) → (⟨S500000, .i1⟩ : BufTy).Contents (Elt F)),
    nullary main_c_27 (constantI S_ 32 100000#32),
    unary main_c_27 main_v132 (broadcastInDim S500000 ![] bcast_S_S500000 : (⟨S_, .i32⟩ : BufTy).Contents (Elt F) → (⟨S500000, .i32⟩ : BufTy).Contents (Elt F)),
    binary main_v127 main_v132 main_v133 (addi : (⟨S500000, .i32⟩ : BufTy).Contents (Elt F) → (⟨S500000, .i32⟩ : BufTy).Contents (Elt F) → (⟨S500000, .i32⟩ : BufTy).Contents (Elt F)),
    ternary main_v131 main_v133 main_v127 main_v134 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v134 main_v135 (broadcastInDim S500000x1 ![0] bcast_S500000_S500000x1_0 : (⟨S500000, .i32⟩ : BufTy).Contents (Elt F) → (⟨S500000x1, .i32⟩ : BufTy).Contents (Elt F)),
    binary main_v124 main_v135 main_v136 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_28 (constant S_ .f32 0x00000000#32),
    unary main_cst_28 main_v137 (broadcastInDim S100000x128 ![] bcast_S_S100000x128 : (⟨S_, .f32⟩ : BufTy).Contents (Elt F) → (⟨S100000x128, .f32⟩ : BufTy).Contents (Elt F)),
    unary main_v129 main_v138 (broadcastInDim S500000x1 ![0] bcast_S500000_S500000x1_0 : (⟨S500000, .i32⟩ : BufTy).Contents (Elt F) → (⟨S500000x1, .i32⟩ : BufTy).Contents (Elt F)),
    ternary main_v137 main_v138 main_v136 main_v139 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_29 (constant S_ .f32 0x3F800000#32),
    unary main_cst_29 main_v140 (broadcastInDim S500000 ![] bcast_S_S500000 : (⟨S_, .f32⟩ : BufTy).Contents (Elt F) → (⟨S500000, .f32⟩ : BufTy).Contents (Elt F)),
    nullary main_cst_30 (constant S_ .f32 0x00000000#32),
    unary main_cst_30 main_v141 (broadcastInDim S100000 ![] bcast_S_S100000 : (⟨S_, .f32⟩ : BufTy).Contents (Elt F) → (⟨S100000, .f32⟩ : BufTy).Contents (Elt F)),
    unary main_v129 main_v142 (broadcastInDim S500000x1 ![0] bcast_S500000_S500000x1_0 : (⟨S500000, .i32⟩ : BufTy).Contents (Elt F) → (⟨S500000x1, .i32⟩ : BufTy).Contents (Elt F)),
    ternary main_v141 main_v142 main_v140 main_v143 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_31 (constant S_ .f32 0x3F800000#32),
    unary main_cst_31 main_v144 (broadcastInDim S100000 ![] bcast_S_S100000 : (⟨S_, .f32⟩ : BufTy).Contents (Elt F) → (⟨S100000, .f32⟩ : BufTy).Contents (Elt F)),
    binary main_v143 main_v144 main_v145 (maximumf : (⟨S100000, .f32⟩ : BufTy).Contents (Elt F) → (⟨S100000, .f32⟩ : BufTy).Contents (Elt F) → (⟨S100000, .f32⟩ : BufTy).Contents (Elt F)),
    unary main_v145 main_v146 (broadcastInDim S100000x1 ![0] bcast_S100000_S100000x1_0 : (⟨S100000, .f32⟩ : BufTy).Contents (Elt F) → (⟨S100000x1, .f32⟩ : BufTy).Contents (Elt F)),
    unary main_v146 main_v147 (broadcastInDim S100000x128 ![0, 1] bcast_S100000x1_S100000x128_0_1 : (⟨S100000x1, .f32⟩ : BufTy).Contents (Elt F) → (⟨S100000x128, .f32⟩ : BufTy).Contents (Elt F)),
    binary main_v139 main_v147 main_v148 (Host.divf : (⟨S100000x128, .f32⟩ : BufTy).Contents (Elt F) → (⟨S100000x128, .f32⟩ : BufTy).Contents (Elt F) → (⟨S100000x128, .f32⟩ : BufTy).Contents (Elt F)),
    binary main_v148 main_arg17 main_v149 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg18 main_v150 (broadcastInDim S1x64 ![1] bcast_S64_S1x64_1 : (⟨S64, .f32⟩ : BufTy).Contents (Elt F) → (⟨S1x64, .f32⟩ : BufTy).Contents (Elt F)),
    unary main_v150 main_v151 (broadcastInDim S100000x64 ![0, 1] bcast_S1x64_S100000x64_0_1 : (⟨S1x64, .f32⟩ : BufTy).Contents (Elt F) → (⟨S100000x64, .f32⟩ : BufTy).Contents (Elt F)),
    binary main_v149 main_v151 main_v152 (addf : (⟨S100000x64, .f32⟩ : BufTy).Contents (Elt F) → (⟨S100000x64, .f32⟩ : BufTy).Contents (Elt F) → (⟨S100000x64, .f32⟩ : BufTy).Contents (Elt F)),
    binary main_v125 main_arg19 main_v153 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v152 main_v153 main_v154 (addf : (⟨S100000x64, .f32⟩ : BufTy).Contents (Elt F) → (⟨S100000x64, .f32⟩ : BufTy).Contents (Elt F) → (⟨S100000x64, .f32⟩ : BufTy).Contents (Elt F)) ]
set_option maxHeartbeats 2000000 in
/-- `main_v124`: relu of `main_v123`. -/
theorem r3_v124 (V : Valuation τ sig (Elt F)) :
    after r3 V (Proc.devRef .tc main_v124)
      = Cert.KernelIdeal.Spec.relu (V (Proc.devRef .tc main_v123)) := by
  after_results_simp <;> rfl

set_option maxHeartbeats 2000000 in
/-- `main_v125`: relu of `main_v76`. -/
theorem r3_v125 (V : Valuation τ sig (Elt F)) :
    after r3 V (Proc.devRef .tc main_v125)
      = Cert.KernelIdeal.Spec.relu (V (Proc.devRef .tc main_v76)) := by
  after_results_simp <;> rfl

set_option maxHeartbeats 2000000 in
/-- `main_v154`: the update of the mean of relu `main_v123` along `main_arg4` with relu `main_v76`. -/
theorem r3_v154 (V : Valuation τ sig (Elt F)) :
    after r3 V (Proc.devRef .tc main_v154)
      = Cert.KernelIdeal.Spec.sage64 (Cert.KernelIdeal.Spec.sageMean (Cert.KernelIdeal.Spec.relu (V (Proc.devRef .tc main_v123))) (V (Proc.devRef .tc main_arg4))) (V (Proc.devRef .tc main_arg17)) (Cert.KernelIdeal.Spec.relu (V (Proc.devRef .tc main_v76))) (V (Proc.devRef .tc main_arg19)) (V (Proc.devRef .tc main_arg18)) := by
  after_results_simp <;> rfl

/-- Operations 198–258: the `p → p` aggregation of `main_v125 · main_arg22`, added to `main_v154`. -/
abbrev r4 : List (HloOp τ sig (Elt F)) :=
  [ nullary main_v155 (iotaInDim S100000 32 0),
    unary main_arg6 main_v156 ((extractStridedSlice S1x500000 ![0, 0] · slices_S2x500000_S1x500000_0_0) : (⟨S2x500000, .i32⟩ : BufTy).Contents (Elt F) → (⟨S1x500000, .i32⟩ : BufTy).Contents (Elt F)),
    reshape main_v156 main_v157 rfl shapeCasts_S1x500000_S500000,
    binary main_v157 main_v155 main_v158 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    unary main_arg6 main_v159 ((extractStridedSlice S1x500000 ![1, 0] · slices_S2x500000_S1x500000_1_0) : (⟨S2x500000, .i32⟩ : BufTy).Contents (Elt F) → (⟨S1x500000, .i32⟩ : BufTy).Contents (Elt F)),
    reshape main_v159 main_v160 rfl shapeCasts_S1x500000_S500000,
    binary main_v160 main_v155 main_v161 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst_32 (constant S_ .f32 0x3F800000#32),
    unary main_cst_32 main_v162 (broadcastInDim S600000 ![] bcast_S_S600000 : (⟨S_, .f32⟩ : BufTy).Contents (Elt F) → (⟨S600000, .f32⟩ : BufTy).Contents (Elt F)),
    nullary main_cst_33 (constant S_ .f32 0x00000000#32),
    unary main_cst_33 main_v163 (broadcastInDim S100000 ![] bcast_S_S100000 : (⟨S_, .f32⟩ : BufTy).Contents (Elt F) → (⟨S100000, .f32⟩ : BufTy).Contents (Elt F)),
    unary main_v161 main_v164 (broadcastInDim S600000x1 ![0] bcast_S600000_S600000x1_0 : (⟨S600000, .i32⟩ : BufTy).Contents (Elt F) → (⟨S600000x1, .i32⟩ : BufTy).Contents (Elt F)),
    ternary main_v163 main_v164 main_v162 main_v165 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_34 (constant S_ .f32 0x00000000#32),
    unary main_cst_34 main_v166 (broadcastInDim S100000 ![] bcast_S_S100000 : (⟨S_, .f32⟩ : BufTy).Contents (Elt F) → (⟨S100000, .f32⟩ : BufTy).Contents (Elt F)),
    binary main_v165 main_v166 main_v167 (cmpf .ogt : (⟨S100000, .f32⟩ : BufTy).Contents (Elt F) → (⟨S100000, .f32⟩ : BufTy).Contents (Elt F) → (⟨S100000, .i1⟩ : BufTy).Contents (Elt F)),
    unary main_v165 main_v168 (Host.rsqrt : (⟨S100000, .f32⟩ : BufTy).Contents (Elt F) → (⟨S100000, .f32⟩ : BufTy).Contents (Elt F)),
    nullary main_cst_35 (constant S_ .f32 0x00000000#32),
    TRef.unary (TRef.of (T := ⟨S_, .f32⟩) main_cst_35) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v167) (TRef.of (T := ⟨S100000, .f32⟩) main_v168) (TRef.of (T := ⟨S100000, .f32⟩) main_call4_v1) (TRef.of (T := ⟨S100000, .f32⟩) main_v169) select,
    nullary main_c_36 (constantI S_ 32 0#32),
    unary main_c_36 main_v170 (broadcastInDim S600000 ![] bcast_S_S600000 : (⟨S_, .i32⟩ : BufTy).Contents (Elt F) → (⟨S600000, .i32⟩ : BufTy).Contents (Elt F)),
    binary main_v158 main_v170 main_v171 (cmpi .slt : (⟨S600000, .i32⟩ : BufTy).Contents (Elt F) → (⟨S600000, .i32⟩ : BufTy).Contents (Elt F) → (⟨S600000, .i1⟩ : BufTy).Contents (Elt F)),
    nullary main_c_37 (constantI S_ 32 100000#32),
    unary main_c_37 main_v172 (broadcastInDim S600000 ![] bcast_S_S600000 : (⟨S_, .i32⟩ : BufTy).Contents (Elt F) → (⟨S600000, .i32⟩ : BufTy).Contents (Elt F)),
    binary main_v158 main_v172 main_v173 (addi : (⟨S600000, .i32⟩ : BufTy).Contents (Elt F) → (⟨S600000, .i32⟩ : BufTy).Contents (Elt F) → (⟨S600000, .i32⟩ : BufTy).Contents (Elt F)),
    ternary main_v171 main_v173 main_v158 main_v174 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v174 main_v175 (broadcastInDim S600000x1 ![0] bcast_S600000_S600000x1_0 : (⟨S600000, .i32⟩ : BufTy).Contents (Elt F) → (⟨S600000x1, .i32⟩ : BufTy).Contents (Elt F)),
    binary main_v169 main_v175 main_v176 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_38 (constantI S_ 32 0#32),
    unary main_c_38 main_v177 (broadcastInDim S600000 ![] bcast_S_S600000 : (⟨S_, .i32⟩ : BufTy).Contents (Elt F) → (⟨S600000, .i32⟩ : BufTy).Contents (Elt F)),
    binary main_v161 main_v177 main_v178 (cmpi .slt : (⟨S600000, .i32⟩ : BufTy).Contents (Elt F) → (⟨S600000, .i32⟩ : BufTy).Contents (Elt F) → (⟨S600000, .i1⟩ : BufTy).Contents (Elt F)),
    nullary main_c_39 (constantI S_ 32 100000#32),
    unary main_c_39 main_v179 (broadcastInDim S600000 ![] bcast_S_S600000 : (⟨S_, .i32⟩ : BufTy).Contents (Elt F) → (⟨S600000, .i32⟩ : BufTy).Contents (Elt F)),
    binary main_v161 main_v179 main_v180 (addi : (⟨S600000, .i32⟩ : BufTy).Contents (Elt F) → (⟨S600000, .i32⟩ : BufTy).Contents (Elt F) → (⟨S600000, .i32⟩ : BufTy).Contents (Elt F)),
    ternary main_v178 main_v180 main_v161 main_v181 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v181 main_v182 (broadcastInDim S600000x1 ![0] bcast_S600000_S600000x1_0 : (⟨S600000, .i32⟩ : BufTy).Contents (Elt F) → (⟨S600000x1, .i32⟩ : BufTy).Contents (Elt F)),
    binary main_v169 main_v182 main_v183 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v176 main_v183 main_v184 (mulf : (⟨S600000, .f32⟩ : BufTy).Contents (Elt F) → (⟨S600000, .f32⟩ : BufTy).Contents (Elt F) → (⟨S600000, .f32⟩ : BufTy).Contents (Elt F)),
    binary main_v125 main_arg22 main_v185 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_40 (constantI S_ 32 0#32),
    unary main_c_40 main_v186 (broadcastInDim S600000 ![] bcast_S_S600000 : (⟨S_, .i32⟩ : BufTy).Contents (Elt F) → (⟨S600000, .i32⟩ : BufTy).Contents (Elt F)),
    binary main_v158 main_v186 main_v187 (cmpi .slt : (⟨S600000, .i32⟩ : BufTy).Contents (Elt F) → (⟨S600000, .i32⟩ : BufTy).Contents (Elt F) → (⟨S600000, .i1⟩ : BufTy).Contents (Elt F)),
    nullary main_c_41 (constantI S_ 32 100000#32),
    unary main_c_41 main_v188 (broadcastInDim S600000 ![] bcast_S_S600000 : (⟨S_, .i32⟩ : BufTy).Contents (Elt F) → (⟨S600000, .i32⟩ : BufTy).Contents (Elt F)),
    binary main_v158 main_v188 main_v189 (addi : (⟨S600000, .i32⟩ : BufTy).Contents (Elt F) → (⟨S600000, .i32⟩ : BufTy).Contents (Elt F) → (⟨S600000, .i32⟩ : BufTy).Contents (Elt F)),
    ternary main_v187 main_v189 main_v158 main_v190 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v190 main_v191 (broadcastInDim S600000x1 ![0] bcast_S600000_S600000x1_0 : (⟨S600000, .i32⟩ : BufTy).Contents (Elt F) → (⟨S600000x1, .i32⟩ : BufTy).Contents (Elt F)),
    binary main_v185 main_v191 main_v192 ((fun x i => Host.gather gather_S100000x64_S600000x1_S600000x64_1_0_n_n_0_1_164 x i) : (⟨S100000x64, .f32⟩ : BufTy).Contents (Elt F) → (⟨S600000x1, .i32⟩ : BufTy).Contents (Elt F) → (⟨S600000x64, .f32⟩ : BufTy).Contents (Elt F)),
    unary main_v184 main_v193 (broadcastInDim S600000x1 ![0] bcast_S600000_S600000x1_0 : (⟨S600000, .f32⟩ : BufTy).Contents (Elt F) → (⟨S600000x1, .f32⟩ : BufTy).Contents (Elt F)),
    unary main_v193 main_v194 (broadcastInDim S600000x64 ![0, 1] bcast_S600000x1_S600000x64_0_1 : (⟨S600000x1, .f32⟩ : BufTy).Contents (Elt F) → (⟨S600000x64, .f32⟩ : BufTy).Contents (Elt F)),
    binary main_v192 main_v194 main_v195 (mulf : (⟨S600000x64, .f32⟩ : BufTy).Contents (Elt F) → (⟨S600000x64, .f32⟩ : BufTy).Contents (Elt F) → (⟨S600000x64, .f32⟩ : BufTy).Contents (Elt F)),
    nullary main_cst_42 (constant S_ .f32 0x00000000#32),
    unary main_cst_42 main_v196 (broadcastInDim S100000x64 ![] bcast_S_S100000x64 : (⟨S_, .f32⟩ : BufTy).Contents (Elt F) → (⟨S100000x64, .f32⟩ : BufTy).Contents (Elt F)),
    unary main_v161 main_v197 (broadcastInDim S600000x1 ![0] bcast_S600000_S600000x1_0 : (⟨S600000, .i32⟩ : BufTy).Contents (Elt F) → (⟨S600000x1, .i32⟩ : BufTy).Contents (Elt F)),
    ternary main_v196 main_v197 main_v195 main_v198 ((fun x i u => Host.scatterAdd scatter_S100000x64_S600000x1_S600000x64_1_0_0_1 x i u) : (⟨S100000x64, .f32⟩ : BufTy).Contents (Elt F) → (⟨S600000x1, .i32⟩ : BufTy).Contents (Elt F) → (⟨S600000x64, .f32⟩ : BufTy).Contents (Elt F) → (⟨S100000x64, .f32⟩ : BufTy).Contents (Elt F)),
    unary main_arg23 main_v199 (broadcastInDim S1x64 ![1] bcast_S64_S1x64_1 : (⟨S64, .f32⟩ : BufTy).Contents (Elt F) → (⟨S1x64, .f32⟩ : BufTy).Contents (Elt F)),
    unary main_v199 main_v200 (broadcastInDim S100000x64 ![0, 1] bcast_S1x64_S100000x64_0_1 : (⟨S1x64, .f32⟩ : BufTy).Contents (Elt F) → (⟨S100000x64, .f32⟩ : BufTy).Contents (Elt F)),
    binary main_v198 main_v200 main_v201 (addf : (⟨S100000x64, .f32⟩ : BufTy).Contents (Elt F) → (⟨S100000x64, .f32⟩ : BufTy).Contents (Elt F) → (⟨S100000x64, .f32⟩ : BufTy).Contents (Elt F)),
    binary main_v154 main_v201 main_v202 (addf : (⟨S100000x64, .f32⟩ : BufTy).Contents (Elt F) → (⟨S100000x64, .f32⟩ : BufTy).Contents (Elt F) → (⟨S100000x64, .f32⟩ : BufTy).Contents (Elt F)) ]
set_option maxHeartbeats 2000000 in
/-- `main_v202`: `main_v154` plus the aggregation of `main_v125 · main_arg22` along `main_arg6`, bias `main_arg23`. -/
theorem r4_v202 (V : Valuation τ sig (Elt F)) :
    after r4 V (Proc.devRef .tc main_v202)
      = addf (V (Proc.devRef .tc main_v154)) (Cert.KernelIdeal.Spec.gcnAgg64 (Cert.KernelIdeal.Spec.lin64 (V (Proc.devRef .tc main_v125)) (V (Proc.devRef .tc main_arg22))) (V (Proc.devRef .tc main_arg6)) (V (Proc.devRef .tc main_arg23))) := by
  after_results_simp <;> rfl

/-- Operations 259–318: the `l → l` aggregation of `main_v124 · main_arg20`. -/
abbrev r5 : List (HloOp τ sig (Elt F)) :=
  [ nullary main_v203 (iotaInDim S100000 32 0),
    unary main_arg5 main_v204 ((extractStridedSlice S1x500000 ![0, 0] · slices_S2x500000_S1x500000_0_0) : (⟨S2x500000, .i32⟩ : BufTy).Contents (Elt F) → (⟨S1x500000, .i32⟩ : BufTy).Contents (Elt F)),
    reshape main_v204 main_v205 rfl shapeCasts_S1x500000_S500000,
    binary main_v205 main_v203 main_v206 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    unary main_arg5 main_v207 ((extractStridedSlice S1x500000 ![1, 0] · slices_S2x500000_S1x500000_1_0) : (⟨S2x500000, .i32⟩ : BufTy).Contents (Elt F) → (⟨S1x500000, .i32⟩ : BufTy).Contents (Elt F)),
    reshape main_v207 main_v208 rfl shapeCasts_S1x500000_S500000,
    binary main_v208 main_v203 main_v209 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst_43 (constant S_ .f32 0x3F800000#32),
    unary main_cst_43 main_v210 (broadcastInDim S600000 ![] bcast_S_S600000 : (⟨S_, .f32⟩ : BufTy).Contents (Elt F) → (⟨S600000, .f32⟩ : BufTy).Contents (Elt F)),
    nullary main_cst_44 (constant S_ .f32 0x00000000#32),
    unary main_cst_44 main_v211 (broadcastInDim S100000 ![] bcast_S_S100000 : (⟨S_, .f32⟩ : BufTy).Contents (Elt F) → (⟨S100000, .f32⟩ : BufTy).Contents (Elt F)),
    unary main_v209 main_v212 (broadcastInDim S600000x1 ![0] bcast_S600000_S600000x1_0 : (⟨S600000, .i32⟩ : BufTy).Contents (Elt F) → (⟨S600000x1, .i32⟩ : BufTy).Contents (Elt F)),
    ternary main_v211 main_v212 main_v210 main_v213 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_45 (constant S_ .f32 0x00000000#32),
    unary main_cst_45 main_v214 (broadcastInDim S100000 ![] bcast_S_S100000 : (⟨S_, .f32⟩ : BufTy).Contents (Elt F) → (⟨S100000, .f32⟩ : BufTy).Contents (Elt F)),
    binary main_v213 main_v214 main_v215 (cmpf .ogt : (⟨S100000, .f32⟩ : BufTy).Contents (Elt F) → (⟨S100000, .f32⟩ : BufTy).Contents (Elt F) → (⟨S100000, .i1⟩ : BufTy).Contents (Elt F)),
    unary main_v213 main_v216 (Host.rsqrt : (⟨S100000, .f32⟩ : BufTy).Contents (Elt F) → (⟨S100000, .f32⟩ : BufTy).Contents (Elt F)),
    nullary main_cst_46 (constant S_ .f32 0x00000000#32),
    TRef.unary (TRef.of (T := ⟨S_, .f32⟩) main_cst_46) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.ternary (TRef.of (T := ⟨S100000, .i1⟩) main_v215) (TRef.of (T := ⟨S100000, .f32⟩) main_v216) (TRef.of (T := ⟨S100000, .f32⟩) main_call5_v1) (TRef.of (T := ⟨S100000, .f32⟩) main_v217) select,
    nullary main_c_47 (constantI S_ 32 0#32),
    unary main_c_47 main_v218 (broadcastInDim S600000 ![] bcast_S_S600000 : (⟨S_, .i32⟩ : BufTy).Contents (Elt F) → (⟨S600000, .i32⟩ : BufTy).Contents (Elt F)),
    binary main_v206 main_v218 main_v219 (cmpi .slt : (⟨S600000, .i32⟩ : BufTy).Contents (Elt F) → (⟨S600000, .i32⟩ : BufTy).Contents (Elt F) → (⟨S600000, .i1⟩ : BufTy).Contents (Elt F)),
    nullary main_c_48 (constantI S_ 32 100000#32),
    unary main_c_48 main_v220 (broadcastInDim S600000 ![] bcast_S_S600000 : (⟨S_, .i32⟩ : BufTy).Contents (Elt F) → (⟨S600000, .i32⟩ : BufTy).Contents (Elt F)),
    binary main_v206 main_v220 main_v221 (addi : (⟨S600000, .i32⟩ : BufTy).Contents (Elt F) → (⟨S600000, .i32⟩ : BufTy).Contents (Elt F) → (⟨S600000, .i32⟩ : BufTy).Contents (Elt F)),
    ternary main_v219 main_v221 main_v206 main_v222 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v222 main_v223 (broadcastInDim S600000x1 ![0] bcast_S600000_S600000x1_0 : (⟨S600000, .i32⟩ : BufTy).Contents (Elt F) → (⟨S600000x1, .i32⟩ : BufTy).Contents (Elt F)),
    binary main_v217 main_v223 main_v224 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_49 (constantI S_ 32 0#32),
    unary main_c_49 main_v225 (broadcastInDim S600000 ![] bcast_S_S600000 : (⟨S_, .i32⟩ : BufTy).Contents (Elt F) → (⟨S600000, .i32⟩ : BufTy).Contents (Elt F)),
    binary main_v209 main_v225 main_v226 (cmpi .slt : (⟨S600000, .i32⟩ : BufTy).Contents (Elt F) → (⟨S600000, .i32⟩ : BufTy).Contents (Elt F) → (⟨S600000, .i1⟩ : BufTy).Contents (Elt F)),
    nullary main_c_50 (constantI S_ 32 100000#32),
    unary main_c_50 main_v227 (broadcastInDim S600000 ![] bcast_S_S600000 : (⟨S_, .i32⟩ : BufTy).Contents (Elt F) → (⟨S600000, .i32⟩ : BufTy).Contents (Elt F)),
    binary main_v209 main_v227 main_v228 (addi : (⟨S600000, .i32⟩ : BufTy).Contents (Elt F) → (⟨S600000, .i32⟩ : BufTy).Contents (Elt F) → (⟨S600000, .i32⟩ : BufTy).Contents (Elt F)),
    ternary main_v226 main_v228 main_v209 main_v229 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v229 main_v230 (broadcastInDim S600000x1 ![0] bcast_S600000_S600000x1_0 : (⟨S600000, .i32⟩ : BufTy).Contents (Elt F) → (⟨S600000x1, .i32⟩ : BufTy).Contents (Elt F)),
    binary main_v217 main_v230 main_v231 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v224 main_v231 main_v232 (mulf : (⟨S600000, .f32⟩ : BufTy).Contents (Elt F) → (⟨S600000, .f32⟩ : BufTy).Contents (Elt F) → (⟨S600000, .f32⟩ : BufTy).Contents (Elt F)),
    binary main_v124 main_arg20 main_v233 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_51 (constantI S_ 32 0#32),
    unary main_c_51 main_v234 (broadcastInDim S600000 ![] bcast_S_S600000 : (⟨S_, .i32⟩ : BufTy).Contents (Elt F) → (⟨S600000, .i32⟩ : BufTy).Contents (Elt F)),
    binary main_v206 main_v234 main_v235 (cmpi .slt : (⟨S600000, .i32⟩ : BufTy).Contents (Elt F) → (⟨S600000, .i32⟩ : BufTy).Contents (Elt F) → (⟨S600000, .i1⟩ : BufTy).Contents (Elt F)),
    nullary main_c_52 (constantI S_ 32 100000#32),
    unary main_c_52 main_v236 (broadcastInDim S600000 ![] bcast_S_S600000 : (⟨S_, .i32⟩ : BufTy).Contents (Elt F) → (⟨S600000, .i32⟩ : BufTy).Contents (Elt F)),
    binary main_v206 main_v236 main_v237 (addi : (⟨S600000, .i32⟩ : BufTy).Contents (Elt F) → (⟨S600000, .i32⟩ : BufTy).Contents (Elt F) → (⟨S600000, .i32⟩ : BufTy).Contents (Elt F)),
    ternary main_v235 main_v237 main_v206 main_v238 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v238 main_v239 (broadcastInDim S600000x1 ![0] bcast_S600000_S600000x1_0 : (⟨S600000, .i32⟩ : BufTy).Contents (Elt F) → (⟨S600000x1, .i32⟩ : BufTy).Contents (Elt F)),
    binary main_v233 main_v239 main_v240 ((fun x i => Host.gather gather_S100000x64_S600000x1_S600000x64_1_0_n_n_0_1_164 x i) : (⟨S100000x64, .f32⟩ : BufTy).Contents (Elt F) → (⟨S600000x1, .i32⟩ : BufTy).Contents (Elt F) → (⟨S600000x64, .f32⟩ : BufTy).Contents (Elt F)),
    unary main_v232 main_v241 (broadcastInDim S600000x1 ![0] bcast_S600000_S600000x1_0 : (⟨S600000, .f32⟩ : BufTy).Contents (Elt F) → (⟨S600000x1, .f32⟩ : BufTy).Contents (Elt F)),
    unary main_v241 main_v242 (broadcastInDim S600000x64 ![0, 1] bcast_S600000x1_S600000x64_0_1 : (⟨S600000x1, .f32⟩ : BufTy).Contents (Elt F) → (⟨S600000x64, .f32⟩ : BufTy).Contents (Elt F)),
    binary main_v240 main_v242 main_v243 (mulf : (⟨S600000x64, .f32⟩ : BufTy).Contents (Elt F) → (⟨S600000x64, .f32⟩ : BufTy).Contents (Elt F) → (⟨S600000x64, .f32⟩ : BufTy).Contents (Elt F)),
    nullary main_cst_53 (constant S_ .f32 0x00000000#32),
    unary main_cst_53 main_v244 (broadcastInDim S100000x64 ![] bcast_S_S100000x64 : (⟨S_, .f32⟩ : BufTy).Contents (Elt F) → (⟨S100000x64, .f32⟩ : BufTy).Contents (Elt F)),
    unary main_v209 main_v245 (broadcastInDim S600000x1 ![0] bcast_S600000_S600000x1_0 : (⟨S600000, .i32⟩ : BufTy).Contents (Elt F) → (⟨S600000x1, .i32⟩ : BufTy).Contents (Elt F)),
    ternary main_v244 main_v245 main_v243 main_v246 ((fun x i u => Host.scatterAdd scatter_S100000x64_S600000x1_S600000x64_1_0_0_1 x i u) : (⟨S100000x64, .f32⟩ : BufTy).Contents (Elt F) → (⟨S600000x1, .i32⟩ : BufTy).Contents (Elt F) → (⟨S600000x64, .f32⟩ : BufTy).Contents (Elt F) → (⟨S100000x64, .f32⟩ : BufTy).Contents (Elt F)),
    unary main_arg21 main_v247 (broadcastInDim S1x64 ![1] bcast_S64_S1x64_1 : (⟨S64, .f32⟩ : BufTy).Contents (Elt F) → (⟨S1x64, .f32⟩ : BufTy).Contents (Elt F)),
    unary main_v247 main_v248 (broadcastInDim S100000x64 ![0, 1] bcast_S1x64_S100000x64_0_1 : (⟨S1x64, .f32⟩ : BufTy).Contents (Elt F) → (⟨S100000x64, .f32⟩ : BufTy).Contents (Elt F)),
    binary main_v246 main_v248 main_v249 (addf : (⟨S100000x64, .f32⟩ : BufTy).Contents (Elt F) → (⟨S100000x64, .f32⟩ : BufTy).Contents (Elt F) → (⟨S100000x64, .f32⟩ : BufTy).Contents (Elt F)) ]
set_option maxHeartbeats 2000000 in
/-- `main_v249`: the aggregation of `main_v124 · main_arg20` along `main_arg5`, bias `main_arg21`. -/
theorem r5_v249 (V : Valuation τ sig (Elt F)) :
    after r5 V (Proc.devRef .tc main_v249)
      = Cert.KernelIdeal.Spec.gcnAgg64 (Cert.KernelIdeal.Spec.lin64 (V (Proc.devRef .tc main_v124)) (V (Proc.devRef .tc main_arg20))) (V (Proc.devRef .tc main_arg5)) (V (Proc.devRef .tc main_arg21)) := by
  after_results_simp <;> rfl

end Cert.ReferenceIdeal.RefStretch

end
-- ==== Proof.RefC.lean ====
/-
  The reference's operations 319 to 474 (graph "b", layer 1) in three stretches, each read as values from any buffer contents
  `V`: the fused update at the `p` nodes; that plus the `p → p` aggregation; the `l → l` aggregation.
-/
import proofs.«157546_j87986700026404_1_alg».proof.Proof.Gen.ReferenceIdeal
import proofs.«157546_j87986700026404_1_alg».proof.Proof.Spec
import Idealize.ShloMosaic.Lib.StableHlo.Run

noncomputable section

namespace Cert.ReferenceIdeal.RefStretch

open Cert.ReferenceIdeal Cert.ReferenceIdeal.Gen Idealize.ShloMosaic Idealize.ShloMosaic.StableHlo

variable {F : FTy → Type} [FloatOps F]

/-- Operations 319–353: the mean over incoming `l → p` edges and the fused update. -/
abbrev r6 : List (HloOp τ sig (Elt F)) :=
  [ unary main_arg7 main_v250 ((extractStridedSlice S1x500000 ![0, 0] · slices_S2x500000_S1x500000_0_0) : (⟨S2x500000, .i32⟩ : BufTy).Contents (Elt F) → (⟨S1x500000, .i32⟩ : BufTy).Contents (Elt F)),
    reshape main_v250 main_v251 rfl shapeCasts_S1x500000_S500000,
    unary main_arg7 main_v252 ((extractStridedSlice S1x500000 ![1, 0] · slices_S2x500000_S1x500000_1_0) : (⟨S2x500000, .i32⟩ : BufTy).Contents (Elt F) → (⟨S1x500000, .i32⟩ : BufTy).Contents (Elt F)),
    reshape main_v252 main_v253 rfl shapeCasts_S1x500000_S500000,
    nullary main_c_54 (constantI S_ 32 0#32),
    unary main_c_54 main_v254 (broadcastInDim S500000 ![] bcast_S_S500000 : (⟨S_, .i32⟩ : BufTy).Contents (Elt F) → (⟨S500000, .i32⟩ : BufTy).Contents (Elt F)),
    binary main_v251 main_v254 main_v255 (cmpi .slt : (⟨S500000, .i32⟩ : BufTy).Contents (Elt F) → (⟨S500000, .i32⟩ : BufTy).Contents (Elt F) → (⟨S500000, .i1⟩ : BufTy).Contents (Elt F)),
    nullary main_c_55 (constantI S_ 32 100000#32),
    unary main_c_55 main_v256 (broadcastInDim S500000 ![] bcast_S_S500000 : (⟨S_, .i32⟩ : BufTy).Contents (Elt F) → (⟨S500000, .i32⟩ : BufTy).Contents (Elt F)),
    binary main_v251 main_v256 main_v257 (addi : (⟨S500000, .i32⟩ : BufTy).Contents (Elt F) → (⟨S500000, .i32⟩ : BufTy).Contents (Elt F) → (⟨S500000, .i32⟩ : BufTy).Contents (Elt F)),
    ternary main_v255 main_v257 main_v251 main_v258 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v258 main_v259 (broadcastInDim S500000x1 ![0] bcast_S500000_S500000x1_0 : (⟨S500000, .i32⟩ : BufTy).Contents (Elt F) → (⟨S500000x1, .i32⟩ : BufTy).Contents (Elt F)),
    binary main_arg2 main_v259 main_v260 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_56 (constant S_ .f32 0x00000000#32),
    unary main_cst_56 main_v261 (broadcastInDim S100000x128 ![] bcast_S_S100000x128 : (⟨S_, .f32⟩ : BufTy).Contents (Elt F) → (⟨S100000x128, .f32⟩ : BufTy).Contents (Elt F)),
    unary main_v253 main_v262 (broadcastInDim S500000x1 ![0] bcast_S500000_S500000x1_0 : (⟨S500000, .i32⟩ : BufTy).Contents (Elt F) → (⟨S500000x1, .i32⟩ : BufTy).Contents (Elt F)),
    ternary main_v261 main_v262 main_v260 main_v263 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_57 (constant S_ .f32 0x3F800000#32),
    unary main_cst_57 main_v264 (broadcastInDim S500000 ![] bcast_S_S500000 : (⟨S_, .f32⟩ : BufTy).Contents (Elt F) → (⟨S500000, .f32⟩ : BufTy).Contents (Elt F)),
    nullary main_cst_58 (constant S_ .f32 0x00000000#32),
    unary main_cst_58 main_v265 (broadcastInDim S100000 ![] bcast_S_S100000 : (⟨S_, .f32⟩ : BufTy).Contents (Elt F) → (⟨S100000, .f32⟩ : BufTy).Contents (Elt F)),
    unary main_v253 main_v266 (broadcastInDim S500000x1 ![0] bcast_S500000_S500000x1_0 : (⟨S500000, .i32⟩ : BufTy).Contents (Elt F) → (⟨S500000x1, .i32⟩ : BufTy).Contents (Elt F)),
    ternary main_v265 main_v266 main_v264 main_v267 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_59 (constant S_ .f32 0x3F800000#32),
    unary main_cst_59 main_v268 (broadcastInDim S100000 ![] bcast_S_S100000 : (⟨S_, .f32⟩ : BufTy).Contents (Elt F) → (⟨S100000, .f32⟩ : BufTy).Contents (Elt F)),
    binary main_v267 main_v268 main_v269 (maximumf : (⟨S100000, .f32⟩ : BufTy).Contents (Elt F) → (⟨S100000, .f32⟩ : BufTy).Contents (Elt F) → (⟨S100000, .f32⟩ : BufTy).Contents (Elt F)),
    unary main_v269 main_v270 (broadcastInDim S100000x1 ![0] bcast_S100000_S100000x1_0 : (⟨S100000, .f32⟩ : BufTy).Contents (Elt F) → (⟨S100000x1, .f32⟩ : BufTy).Contents (Elt F)),
    unary main_v270 main_v271 (broadcastInDim S100000x128 ![0, 1] bcast_S100000x1_S100000x128_0_1 : (⟨S100000x1, .f32⟩ : BufTy).Contents (Elt F) → (⟨S100000x128, .f32⟩ : BufTy).Contents (Elt F)),
    binary main_v263 main_v271 main_v272 (Host.divf : (⟨S100000x128, .f32⟩ : BufTy).Contents (Elt F) → (⟨S100000x128, .f32⟩ : BufTy).Contents (Elt F) → (⟨S100000x128, .f32⟩ : BufTy).Contents (Elt F)),
    binary main_v272 main_arg24 main_v273 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg25 main_v274 (broadcastInDim S1x128 ![1] bcast_S128_S1x128_1 : (⟨S128, .f32⟩ : BufTy).Contents (Elt F) → (⟨S1x128, .f32⟩ : BufTy).Contents (Elt F)),
    unary main_v274 main_v275 (broadcastInDim S100000x128 ![0, 1] bcast_S1x128_S100000x128_0_1 : (⟨S1x128, .f32⟩ : BufTy).Contents (Elt F) → (⟨S100000x128, .f32⟩ : BufTy).Contents (Elt F)),
    binary main_v273 main_v275 main_v276 (addf : (⟨S100000x128, .f32⟩ : BufTy).Contents (Elt F) → (⟨S100000x128, .f32⟩ : BufTy).Contents (Elt F) → (⟨S100000x128, .f32⟩ : BufTy).Contents (Elt F)),
    binary main_arg3 main_arg26 main_v277 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v276 main_v277 main_v278 (addf : (⟨S100000x128, .f32⟩ : BufTy).Contents (Elt F) → (⟨S100000x128, .f32⟩ : BufTy).Contents (Elt F) → (⟨S100000x128, .f32⟩ : BufTy).Contents (Elt F)) ]
set_option maxHeartbeats 2000000 in
/-- `main_v278`: the update of the mean of `main_arg2` along `main_arg7` with `main_arg3`. -/
theorem r6_v278 (V : Valuation τ sig (Elt F)) :
    after r6 V (Proc.devRef .tc main_v278)
      = Cert.KernelIdeal.Spec.sage128 (Cert.KernelIdeal.Spec.sageMean (V (Proc.devRef .tc main_arg2)) (V (Proc.devRef .tc main_arg7))) (V (Proc.devRef .tc main_arg24)) (V (Proc.devRef .tc main_arg3)) (V (Proc.devRef .tc main_arg26)) (V (Proc.devRef .tc main_arg25)) := by
  after_results_simp <;> rfl

/-- Operations 354–414: the `p → p` aggregation of `main_arg3 · main_arg29`, added to `main_v278`. -/
abbrev r7 : List (HloOp τ sig (Elt F)) :=
  [ nullary main_v279 (iotaInDim S100000 32 0),
    unary main_arg9 main_v280 ((extractStridedSlice S1x500000 ![0, 0] · slices_S2x500000_S1x500000_0_0) : (⟨S2x500000, .i32⟩ : BufTy).Contents (Elt F) → (⟨S1x500000, .i32⟩ : BufTy).Contents (Elt F)),
    reshape main_v280 main_v281 rfl shapeCasts_S1x500000_S500000,
    binary main_v281 main_v279 main_v282 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    unary main_arg9 main_v283 ((extractStridedSlice S1x500000 ![1, 0] · slices_S2x500000_S1x500000_1_0) : (⟨S2x500000, .i32⟩ : BufTy).Contents (Elt F) → (⟨S1x500000, .i32⟩ : BufTy).Contents (Elt F)),
    reshape main_v283 main_v284 rfl shapeCasts_S1x500000_S500000,
    binary main_v284 main_v279 main_v285 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst_60 (constant S_ .f32 0x3F800000#32),
    unary main_cst_60 main_v286 (broadcastInDim S600000 ![] bcast_S_S600000 : (⟨S_, .f32⟩ : BufTy).Contents (Elt F) → (⟨S600000, .f32⟩ : BufTy).Contents (Elt F)),
    nullary main_cst_61 (constant S_ .f32 0x00000000#32),
    unary main_cst_61 main_v287 (broadcastInDim S100000 ![] bcast_S_S100000 : (⟨S_, .f32⟩ : BufTy).Contents (Elt F) → (⟨S100000, .f32⟩ : BufTy).Contents (Elt F)),
    unary main_v285 main_v288 (broadcastInDim S600000x1 ![0] bcast_S600000_S600000x1_0 : (⟨S600000, .i32⟩ : BufTy).Contents (Elt F) → (⟨S600000x1, .i32⟩ : BufTy).Contents (Elt F)),
    ternary main_v287 main_v288 main_v286 main_v289 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_62 (constant S_ .f32 0x00000000#32),
    unary main_cst_62 main_v290 (broadcastInDim S100000 ![] bcast_S_S100000 : (⟨S_, .f32⟩ : BufTy).Contents (Elt F) → (⟨S100000, .f32⟩ : BufTy).Contents (Elt F)),
    binary main_v289 main_v290 main_v291 (cmpf .ogt : (⟨S100000, .f32⟩ : BufTy).Contents (Elt F) → (⟨S100000, .f32⟩ : BufTy).Contents (Elt F) → (⟨S100000, .i1⟩ : BufTy).Contents (Elt F)),
    unary main_v289 main_v292 (Host.rsqrt : (⟨S100000, .f32⟩ : BufTy).Contents (Elt F) → (⟨S100000, .f32⟩ : BufTy).Contents (Elt F)),
    nullary main_cst_63 (constant S_ .f32 0x00000000#32),
    TRef.unary (TRef.of (T := ⟨S_, .f32⟩) main_cst_63) (TRef.of (T := ⟨S_, .f32⟩) main_call6_v0) id,
    TRef.unary (TRef.of (T := ⟨S_, .f32⟩) main_call6_v0) (TRef.of (T := ⟨S100000, .f32⟩) main_call6_v1) (broadcastInDim S100000 ![] bcast_S_S100000),
    TRef.ternary (TRef.of (T := ⟨S100000, .i1⟩) main_v291) (TRef.of (T := ⟨S100000, .f32⟩) main_v292) (TRef.of (T := ⟨S100000, .f32⟩) main_call6_v1) (TRef.of (T := ⟨S100000, .f32⟩) main_v293) select,
    nullary main_c_64 (constantI S_ 32 0#32),
    unary main_c_64 main_v294 (broadcastInDim S600000 ![] bcast_S_S600000 : (⟨S_, .i32⟩ : BufTy).Contents (Elt F) → (⟨S600000, .i32⟩ : BufTy).Contents (Elt F)),
    binary main_v282 main_v294 main_v295 (cmpi .slt : (⟨S600000, .i32⟩ : BufTy).Contents (Elt F) → (⟨S600000, .i32⟩ : BufTy).Contents (Elt F) → (⟨S600000, .i1⟩ : BufTy).Contents (Elt F)),
    nullary main_c_65 (constantI S_ 32 100000#32),
    unary main_c_65 main_v296 (broadcastInDim S600000 ![] bcast_S_S600000 : (⟨S_, .i32⟩ : BufTy).Contents (Elt F) → (⟨S600000, .i32⟩ : BufTy).Contents (Elt F)),
    binary main_v282 main_v296 main_v297 (addi : (⟨S600000, .i32⟩ : BufTy).Contents (Elt F) → (⟨S600000, .i32⟩ : BufTy).Contents (Elt F) → (⟨S600000, .i32⟩ : BufTy).Contents (Elt F)),
    ternary main_v295 main_v297 main_v282 main_v298 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v298 main_v299 (broadcastInDim S600000x1 ![0] bcast_S600000_S600000x1_0 : (⟨S600000, .i32⟩ : BufTy).Contents (Elt F) → (⟨S600000x1, .i32⟩ : BufTy).Contents (Elt F)),
    binary main_v293 main_v299 main_v300 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_66 (constantI S_ 32 0#32),
    unary main_c_66 main_v301 (broadcastInDim S600000 ![] bcast_S_S600000 : (⟨S_, .i32⟩ : BufTy).Contents (Elt F) → (⟨S600000, .i32⟩ : BufTy).Contents (Elt F)),
    binary main_v285 main_v301 main_v302 (cmpi .slt : (⟨S600000, .i32⟩ : BufTy).Contents (Elt F) → (⟨S600000, .i32⟩ : BufTy).Contents (Elt F) → (⟨S600000, .i1⟩ : BufTy).Contents (Elt F)),
    nullary main_c_67 (constantI S_ 32 100000#32),
    unary main_c_67 main_v303 (broadcastInDim S600000 ![] bcast_S_S600000 : (⟨S_, .i32⟩ : BufTy).Contents (Elt F) → (⟨S600000, .i32⟩ : BufTy).Contents (Elt F)),
    binary main_v285 main_v303 main_v304 (addi : (⟨S600000, .i32⟩ : BufTy).Contents (Elt F) → (⟨S600000, .i32⟩ : BufTy).Contents (Elt F) → (⟨S600000, .i32⟩ : BufTy).Contents (Elt F)),
    ternary main_v302 main_v304 main_v285 main_v305 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v305 main_v306 (broadcastInDim S600000x1 ![0] bcast_S600000_S600000x1_0 : (⟨S600000, .i32⟩ : BufTy).Contents (Elt F) → (⟨S600000x1, .i32⟩ : BufTy).Contents (Elt F)),
    binary main_v293 main_v306 main_v307 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v300 main_v307 main_v308 (mulf : (⟨S600000, .f32⟩ : BufTy).Contents (Elt F) → (⟨S600000, .f32⟩ : BufTy).Contents (Elt F) → (⟨S600000, .f32⟩ : BufTy).Contents (Elt F)),
    binary main_arg3 main_arg29 main_v309 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_68 (constantI S_ 32 0#32),
    unary main_c_68 main_v310 (broadcastInDim S600000 ![] bcast_S_S600000 : (⟨S_, .i32⟩ : BufTy).Contents (Elt F) → (⟨S600000, .i32⟩ : BufTy).Contents (Elt F)),
    binary main_v282 main_v310 main_v311 (cmpi .slt : (⟨S600000, .i32⟩ : BufTy).Contents (Elt F) → (⟨S600000, .i32⟩ : BufTy).Contents (Elt F) → (⟨S600000, .i1⟩ : BufTy).Contents (Elt F)),
    nullary main_c_69 (constantI S_ 32 100000#32),
    unary main_c_69 main_v312 (broadcastInDim S600000 ![] bcast_S_S600000 : (⟨S_, .i32⟩ : BufTy).Contents (Elt F) → (⟨S600000, .i32⟩ : BufTy).Contents (Elt F)),
    binary main_v282 main_v312 main_v313 (addi : (⟨S600000, .i32⟩ : BufTy).Contents (Elt F) → (⟨S600000, .i32⟩ : BufTy).Contents (Elt F) → (⟨S600000, .i32⟩ : BufTy).Contents (Elt F)),
    ternary main_v311 main_v313 main_v282 main_v314 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v314 main_v315 (broadcastInDim S600000x1 ![0] bcast_S600000_S600000x1_0 : (⟨S600000, .i32⟩ : BufTy).Contents (Elt F) → (⟨S600000x1, .i32⟩ : BufTy).Contents (Elt F)),
    binary main_v309 main_v315 main_v316 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v308 main_v317 (broadcastInDim S600000x1 ![0] bcast_S600000_S600000x1_0 : (⟨S600000, .f32⟩ : BufTy).Contents (Elt F) → (⟨S600000x1, .f32⟩ : BufTy).Contents (Elt F)),
    unary main_v317 main_v318 (broadcastInDim S600000x128 ![0, 1] bcast_S600000x1_S600000x128_0_1 : (⟨S600000x1, .f32⟩ : BufTy).Contents (Elt F) → (⟨S600000x128, .f32⟩ : BufTy).Contents (Elt F)),
    binary main_v316 main_v318 main_v319 (mulf : (⟨S600000x128, .f32⟩ : BufTy).Contents (Elt F) → (⟨S600000x128, .f32⟩ : BufTy).Contents (Elt F) → (⟨S600000x128, .f32⟩ : BufTy).Contents (Elt F)),
    nullary main_cst_70 (constant S_ .f32 0x00000000#32),
    unary main_cst_70 main_v320 (broadcastInDim S100000x128 ![] bcast_S_S100000x128 : (⟨S_, .f32⟩ : BufTy).Contents (Elt F) → (⟨S100000x128, .f32⟩ : BufTy).Contents (Elt F)),
    unary main_v285 main_v321 (broadcastInDim S600000x1 ![0] bcast_S600000_S600000x1_0 : (⟨S600000, .i32⟩ : BufTy).Contents (Elt F) → (⟨S600000x1, .i32⟩ : BufTy).Contents (Elt F)),
    ternary main_v320 main_v321 main_v319 main_v322 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg30 main_v323 (broadcastInDim S1x128 ![1] bcast_S128_S1x128_1 : (⟨S128, .f32⟩ : BufTy).Contents (Elt F) → (⟨S1x128, .f32⟩ : BufTy).Contents (Elt F)),
    unary main_v323 main_v324 (broadcastInDim S100000x128 ![0, 1] bcast_S1x128_S100000x128_0_1 : (⟨S1x128, .f32⟩ : BufTy).Contents (Elt F) → (⟨S100000x128, .f32⟩ : BufTy).Contents (Elt F)),
    binary main_v322 main_v324 main_v325 (addf : (⟨S100000x128, .f32⟩ : BufTy).Contents (Elt F) → (⟨S100000x128, .f32⟩ : BufTy).Contents (Elt F) → (⟨S100000x128, .f32⟩ : BufTy).Contents (Elt F)),
    binary main_v278 main_v325 main_v326 (addf : (⟨S100000x128, .f32⟩ : BufTy).Contents (Elt F) → (⟨S100000x128, .f32⟩ : BufTy).Contents (Elt F) → (⟨S100000x128, .f32⟩ : BufTy).Contents (Elt F)) ]
set_option maxHeartbeats 2000000 in
/-- `main_v326`: `main_v278` plus the aggregation of `main_arg3 · main_arg29` along `main_arg9`, bias `main_arg30`. -/
theorem r7_v326 (V : Valuation τ sig (Elt F)) :
    after r7 V (Proc.devRef .tc main_v326)
      = addf (V (Proc.devRef .tc main_v278)) (Cert.KernelIdeal.Spec.gcnAgg128 (Cert.KernelIdeal.Spec.lin128 (V (Proc.devRef .tc main_arg3)) (V (Proc.devRef .tc main_arg29))) (V (Proc.devRef .tc main_arg9)) (V (Proc.devRef .tc main_arg30))) := by
  after_results_simp <;> rfl

/-- Operations 415–474: the `l → l` aggregation of `main_arg2 · main_arg27`. -/
abbrev r8 : List (HloOp τ sig (Elt F)) :=
  [ nullary main_v327 (iotaInDim S100000 32 0),
    unary main_arg8 main_v328 ((extractStridedSlice S1x500000 ![0, 0] · slices_S2x500000_S1x500000_0_0) : (⟨S2x500000, .i32⟩ : BufTy).Contents (Elt F) → (⟨S1x500000, .i32⟩ : BufTy).Contents (Elt F)),
    reshape main_v328 main_v329 rfl shapeCasts_S1x500000_S500000,
    binary main_v329 main_v327 main_v330 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    unary main_arg8 main_v331 ((extractStridedSlice S1x500000 ![1, 0] · slices_S2x500000_S1x500000_1_0) : (⟨S2x500000, .i32⟩ : BufTy).Contents (Elt F) → (⟨S1x500000, .i32⟩ : BufTy).Contents (Elt F)),
    reshape main_v331 main_v332 rfl shapeCasts_S1x500000_S500000,
    binary main_v332 main_v327 main_v333 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst_71 (constant S_ .f32 0x3F800000#32),
    unary main_cst_71 main_v334 (broadcastInDim S600000 ![] bcast_S_S600000 : (⟨S_, .f32⟩ : BufTy).Contents (Elt F) → (⟨S600000, .f32⟩ : BufTy).Contents (Elt F)),
    nullary main_cst_72 (constant S_ .f32 0x00000000#32),
    unary main_cst_72 main_v335 (broadcastInDim S100000 ![] bcast_S_S100000 : (⟨S_, .f32⟩ : BufTy).Contents (Elt F) → (⟨S100000, .f32⟩ : BufTy).Contents (Elt F)),
    unary main_v333 main_v336 (broadcastInDim S600000x1 ![0] bcast_S600000_S600000x1_0 : (⟨S600000, .i32⟩ : BufTy).Contents (Elt F) → (⟨S600000x1, .i32⟩ : BufTy).Contents (Elt F)),
    ternary main_v335 main_v336 main_v334 main_v337 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_73 (constant S_ .f32 0x00000000#32),
    unary main_cst_73 main_v338 (broadcastInDim S100000 ![] bcast_S_S100000 : (⟨S_, .f32⟩ : BufTy).Contents (Elt F) → (⟨S100000, .f32⟩ : BufTy).Contents (Elt F)),
    binary main_v337 main_v338 main_v339 (cmpf .ogt : (⟨S100000, .f32⟩ : BufTy).Contents (Elt F) → (⟨S100000, .f32⟩ : BufTy).Contents (Elt F) → (⟨S100000, .i1⟩ : BufTy).Contents (Elt F)),
    unary main_v337 main_v340 (Host.rsqrt : (⟨S100000, .f32⟩ : BufTy).Contents (Elt F) → (⟨S100000, .f32⟩ : BufTy).Contents (Elt F)),
    nullary main_cst_74 (constant S_ .f32 0x00000000#32),
    TRef.unary (TRef.of (T := ⟨S_, .f32⟩) main_cst_74) (TRef.of (T := ⟨S_, .f32⟩) main_call7_v0) id,
    TRef.unary (TRef.of (T := ⟨S_, .f32⟩) main_call7_v0) (TRef.of (T := ⟨S100000, .f32⟩) main_call7_v1) (broadcastInDim S100000 ![] bcast_S_S100000),
    TRef.ternary (TRef.of (T := ⟨S100000, .i1⟩) main_v339) (TRef.of (T := ⟨S100000, .f32⟩) main_v340) (TRef.of (T := ⟨S100000, .f32⟩) main_call7_v1) (TRef.of (T := ⟨S100000, .f32⟩) main_v341) select,
    nullary main_c_75 (constantI S_ 32 0#32),
    unary main_c_75 main_v342 (broadcastInDim S600000 ![] bcast_S_S600000 : (⟨S_, .i32⟩ : BufTy).Contents (Elt F) → (⟨S600000, .i32⟩ : BufTy).Contents (Elt F)),
    binary main_v330 main_v342 main_v343 (cmpi .slt : (⟨S600000, .i32⟩ : BufTy).Contents (Elt F) → (⟨S600000, .i32⟩ : BufTy).Contents (Elt F) → (⟨S600000, .i1⟩ : BufTy).Contents (Elt F)),
    nullary main_c_76 (constantI S_ 32 100000#32),
    unary main_c_76 main_v344 (broadcastInDim S600000 ![] bcast_S_S600000 : (⟨S_, .i32⟩ : BufTy).Contents (Elt F) → (⟨S600000, .i32⟩ : BufTy).Contents (Elt F)),
    binary main_v330 main_v344 main_v345 (addi : (⟨S600000, .i32⟩ : BufTy).Contents (Elt F) → (⟨S600000, .i32⟩ : BufTy).Contents (Elt F) → (⟨S600000, .i32⟩ : BufTy).Contents (Elt F)),
    ternary main_v343 main_v345 main_v330 main_v346 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v346 main_v347 (broadcastInDim S600000x1 ![0] bcast_S600000_S600000x1_0 : (⟨S600000, .i32⟩ : BufTy).Contents (Elt F) → (⟨S600000x1, .i32⟩ : BufTy).Contents (Elt F)),
    binary main_v341 main_v347 main_v348 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_77 (constantI S_ 32 0#32),
    unary main_c_77 main_v349 (broadcastInDim S600000 ![] bcast_S_S600000 : (⟨S_, .i32⟩ : BufTy).Contents (Elt F) → (⟨S600000, .i32⟩ : BufTy).Contents (Elt F)),
    binary main_v333 main_v349 main_v350 (cmpi .slt : (⟨S600000, .i32⟩ : BufTy).Contents (Elt F) → (⟨S600000, .i32⟩ : BufTy).Contents (Elt F) → (⟨S600000, .i1⟩ : BufTy).Contents (Elt F)),
    nullary main_c_78 (constantI S_ 32 100000#32),
    unary main_c_78 main_v351 (broadcastInDim S600000 ![] bcast_S_S600000 : (⟨S_, .i32⟩ : BufTy).Contents (Elt F) → (⟨S600000, .i32⟩ : BufTy).Contents (Elt F)),
    binary main_v333 main_v351 main_v352 (addi : (⟨S600000, .i32⟩ : BufTy).Contents (Elt F) → (⟨S600000, .i32⟩ : BufTy).Contents (Elt F) → (⟨S600000, .i32⟩ : BufTy).Contents (Elt F)),
    ternary main_v350 main_v352 main_v333 main_v353 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v353 main_v354 (broadcastInDim S600000x1 ![0] bcast_S600000_S600000x1_0 : (⟨S600000, .i32⟩ : BufTy).Contents (Elt F) → (⟨S600000x1, .i32⟩ : BufTy).Contents (Elt F)),
    binary main_v341 main_v354 main_v355 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v348 main_v355 main_v356 (mulf : (⟨S600000, .f32⟩ : BufTy).Contents (Elt F) → (⟨S600000, .f32⟩ : BufTy).Contents (Elt F) → (⟨S600000, .f32⟩ : BufTy).Contents (Elt F)),
    binary main_arg2 main_arg27 main_v357 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_79 (constantI S_ 32 0#32),
    unary main_c_79 main_v358 (broadcastInDim S600000 ![] bcast_S_S600000 : (⟨S_, .i32⟩ : BufTy).Contents (Elt F) → (⟨S600000, .i32⟩ : BufTy).Contents (Elt F)),
    binary main_v330 main_v358 main_v359 (cmpi .slt : (⟨S600000, .i32⟩ : BufTy).Contents (Elt F) → (⟨S600000, .i32⟩ : BufTy).Contents (Elt F) → (⟨S600000, .i1⟩ : BufTy).Contents (Elt F)),
    nullary main_c_80 (constantI S_ 32 100000#32),
    unary main_c_80 main_v360 (broadcastInDim S600000 ![] bcast_S_S600000 : (⟨S_, .i32⟩ : BufTy).Contents (Elt F) → (⟨S600000, .i32⟩ : BufTy).Contents (Elt F)),
    binary main_v330 main_v360 main_v361 (addi : (⟨S600000, .i32⟩ : BufTy).Contents (Elt F) → (⟨S600000, .i32⟩ : BufTy).Contents (Elt F) → (⟨S600000, .i32⟩ : BufTy).Contents (Elt F)),
    ternary main_v359 main_v361 main_v330 main_v362 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v362 main_v363 (broadcastInDim S600000x1 ![0] bcast_S600000_S600000x1_0 : (⟨S600000, .i32⟩ : BufTy).Contents (Elt F) → (⟨S600000x1, .i32⟩ : BufTy).Contents (Elt F)),
    binary main_v357 main_v363 main_v364 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v356 main_v365 (broadcastInDim S600000x1 ![0] bcast_S600000_S600000x1_0 : (⟨S600000, .f32⟩ : BufTy).Contents (Elt F) → (⟨S600000x1, .f32⟩ : BufTy).Contents (Elt F)),
    unary main_v365 main_v366 (broadcastInDim S600000x128 ![0, 1] bcast_S600000x1_S600000x128_0_1 : (⟨S600000x1, .f32⟩ : BufTy).Contents (Elt F) → (⟨S600000x128, .f32⟩ : BufTy).Contents (Elt F)),
    binary main_v364 main_v366 main_v367 (mulf : (⟨S600000x128, .f32⟩ : BufTy).Contents (Elt F) → (⟨S600000x128, .f32⟩ : BufTy).Contents (Elt F) → (⟨S600000x128, .f32⟩ : BufTy).Contents (Elt F)),
    nullary main_cst_81 (constant S_ .f32 0x00000000#32),
    unary main_cst_81 main_v368 (broadcastInDim S100000x128 ![] bcast_S_S100000x128 : (⟨S_, .f32⟩ : BufTy).Contents (Elt F) → (⟨S100000x128, .f32⟩ : BufTy).Contents (Elt F)),
    unary main_v333 main_v369 (broadcastInDim S600000x1 ![0] bcast_S600000_S600000x1_0 : (⟨S600000, .i32⟩ : BufTy).Contents (Elt F) → (⟨S600000x1, .i32⟩ : BufTy).Contents (Elt F)),
    ternary main_v368 main_v369 main_v367 main_v370 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg28 main_v371 (broadcastInDim S1x128 ![1] bcast_S128_S1x128_1 : (⟨S128, .f32⟩ : BufTy).Contents (Elt F) → (⟨S1x128, .f32⟩ : BufTy).Contents (Elt F)),
    unary main_v371 main_v372 (broadcastInDim S100000x128 ![0, 1] bcast_S1x128_S100000x128_0_1 : (⟨S1x128, .f32⟩ : BufTy).Contents (Elt F) → (⟨S100000x128, .f32⟩ : BufTy).Contents (Elt F)),
    binary main_v370 main_v372 main_v373 (addf : (⟨S100000x128, .f32⟩ : BufTy).Contents (Elt F) → (⟨S100000x128, .f32⟩ : BufTy).Contents (Elt F) → (⟨S100000x128, .f32⟩ : BufTy).Contents (Elt F)) ]
set_option maxHeartbeats 2000000 in
/-- `main_v373`: the aggregation of `main_arg2 · main_arg27` along `main_arg8`, bias `main_arg28`. -/
theorem r8_v373 (V : Valuation τ sig (Elt F)) :
    after r8 V (Proc.devRef .tc main_v373)
      = Cert.KernelIdeal.Spec.gcnAgg128 (Cert.KernelIdeal.Spec.lin128 (V (Proc.devRef .tc main_arg2)) (V (Proc.devRef .tc main_arg27))) (V (Proc.devRef .tc main_arg8)) (V (Proc.devRef .tc main_arg28)) := by
  after_results_simp <;> rfl

end Cert.ReferenceIdeal.RefStretch

end
-- ==== Proof.RefD.lean ====
/-
  The reference's operations 475 to 638 (graph "b", layer 2, and the two results) in three stretches, each read as values
  from any buffer contents `V`.
-/
import proofs.«157546_j87986700026404_1_alg».proof.Proof.Gen.ReferenceIdeal
import proofs.«157546_j87986700026404_1_alg».proof.Proof.Spec
import Idealize.ShloMosaic.Lib.StableHlo.Run

noncomputable section

namespace Cert.ReferenceIdeal.RefStretch

open Cert.ReferenceIdeal Cert.ReferenceIdeal.Gen Idealize.ShloMosaic Idealize.ShloMosaic.StableHlo

variable {F : FTy → Type} [FloatOps F]

/-- Operations 475–515: relu of `main_v373` and of `main_v326`, the mean of the first, and the fused update at width 64. -/
abbrev r9 : List (HloOp τ sig (Elt F)) :=
  [ TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v373) (TRef.of (T := ⟨S100000x128, .f32⟩) main_call8_v0) (TRef.of (T := ⟨S100000x128, .f32⟩) main_v374) maximumf,
    TRef.nullary (TRef.of (T := ⟨S_, .f32⟩) main_call9_cst) (constant S_ .f32 0x00000000#32),
    TRef.unary (TRef.of (T := ⟨S_, .f32⟩) main_call9_cst) (TRef.of (T := ⟨S100000x128, .f32⟩) main_call9_v0) (broadcastInDim S100000x128 ![] bcast_S_S100000x128),
    TRef.binary (TRef.of (T := ⟨S100000x128, .f32⟩) main_v326) (TRef.of (T := ⟨S100000x128, .f32⟩) main_call9_v0) (TRef.of (T := ⟨S100000x128, .f32⟩) main_v375) maximumf,
    unary main_arg7 main_v376 ((extractStridedSlice S1x500000 ![0, 0] · slices_S2x500000_S1x500000_0_0) : (⟨S2x500000, .i32⟩ : BufTy).Contents (Elt F) → (⟨S1x500000, .i32⟩ : BufTy).Contents (Elt F)),
    reshape main_v376 main_v377 rfl shapeCasts_S1x500000_S500000,
    unary main_arg7 main_v378 ((extractStridedSlice S1x500000 ![1, 0] · slices_S2x500000_S1x500000_1_0) : (⟨S2x500000, .i32⟩ : BufTy).Contents (Elt F) → (⟨S1x500000, .i32⟩ : BufTy).Contents (Elt F)),
    reshape main_v378 main_v379 rfl shapeCasts_S1x500000_S500000,
    nullary main_c_82 (constantI S_ 32 0#32),
    unary main_c_82 main_v380 (broadcastInDim S500000 ![] bcast_S_S500000 : (⟨S_, .i32⟩ : BufTy).Contents (Elt F) → (⟨S500000, .i32⟩ : BufTy).Contents (Elt F)),
    binary main_v377 main_v380 main_v381 (cmpi .slt : (⟨S500000, .i32⟩ : BufTy).Contents (Elt F) → (⟨S500000, .i32⟩ : BufTy).Contents (Elt F) → (⟨S500000, .i1⟩ : BufTy).Contents (Elt F)),
    nullary main_c_83 (constantI S_ 32 100000#32),
    unary main_c_83 main_v382 (broadcastInDim S500000 ![] bcast_S_S500000 : (⟨S_, .i32⟩ : BufTy).Contents (Elt F) → (⟨S500000, .i32⟩ : BufTy).Contents (Elt F)),
    binary main_v377 main_v382 main_v383 (addi : (⟨S500000, .i32⟩ : BufTy).Contents (Elt F) → (⟨S500000, .i32⟩ : BufTy).Contents (Elt F) → (⟨S500000, .i32⟩ : BufTy).Contents (Elt F)),
    ternary main_v381 main_v383 main_v377 main_v384 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v384 main_v385 (broadcastInDim S500000x1 ![0] bcast_S500000_S500000x1_0 : (⟨S500000, .i32⟩ : BufTy).Contents (Elt F) → (⟨S500000x1, .i32⟩ : BufTy).Contents (Elt F)),
    binary main_v374 main_v385 main_v386 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_84 (constant S_ .f32 0x00000000#32),
    unary main_cst_84 main_v387 (broadcastInDim S100000x128 ![] bcast_S_S100000x128 : (⟨S_, .f32⟩ : BufTy).Contents (Elt F) → (⟨S100000x128, .f32⟩ : BufTy).Contents (Elt F)),
    unary main_v379 main_v388 (broadcastInDim S500000x1 ![0] bcast_S500000_S500000x1_0 : (⟨S500000, .i32⟩ : BufTy).Contents (Elt F) → (⟨S500000x1, .i32⟩ : BufTy).Contents (Elt F)),
    ternary main_v387 main_v388 main_v386 main_v389 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_85 (constant S_ .f32 0x3F800000#32),
    unary main_cst_85 main_v390 (broadcastInDim S500000 ![] bcast_S_S500000 : (⟨S_, .f32⟩ : BufTy).Contents (Elt F) → (⟨S500000, .f32⟩ : BufTy).Contents (Elt F)),
    nullary main_cst_86 (constant S_ .f32 0x00000000#32),
    unary main_cst_86 main_v391 (broadcastInDim S100000 ![] bcast_S_S100000 : (⟨S_, .f32⟩ : BufTy).Contents (Elt F) → (⟨S100000, .f32⟩ : BufTy).Contents (Elt F)),
    unary main_v379 main_v392 (broadcastInDim S500000x1 ![0] bcast_S500000_S500000x1_0 : (⟨S500000, .i32⟩ : BufTy).Contents (Elt F) → (⟨S500000x1, .i32⟩ : BufTy).Contents (Elt F)),
    ternary main_v391 main_v392 main_v390 main_v393 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_87 (constant S_ .f32 0x3F800000#32),
    unary main_cst_87 main_v394 (broadcastInDim S100000 ![] bcast_S_S100000 : (⟨S_, .f32⟩ : BufTy).Contents (Elt F) → (⟨S100000, .f32⟩ : BufTy).Contents (Elt F)),
    binary main_v393 main_v394 main_v395 (maximumf : (⟨S100000, .f32⟩ : BufTy).Contents (Elt F) → (⟨S100000, .f32⟩ : BufTy).Contents (Elt F) → (⟨S100000, .f32⟩ : BufTy).Contents (Elt F)),
    unary main_v395 main_v396 (broadcastInDim S100000x1 ![0] bcast_S100000_S100000x1_0 : (⟨S100000, .f32⟩ : BufTy).Contents (Elt F) → (⟨S100000x1, .f32⟩ : BufTy).Contents (Elt F)),
    unary main_v396 main_v397 (broadcastInDim S100000x128 ![0, 1] bcast_S100000x1_S100000x128_0_1 : (⟨S100000x1, .f32⟩ : BufTy).Contents (Elt F) → (⟨S100000x128, .f32⟩ : BufTy).Contents (Elt F)),
    binary main_v389 main_v397 main_v398 (Host.divf : (⟨S100000x128, .f32⟩ : BufTy).Contents (Elt F) → (⟨S100000x128, .f32⟩ : BufTy).Contents (Elt F) → (⟨S100000x128, .f32⟩ : BufTy).Contents (Elt F)),
    binary main_v398 main_arg31 main_v399 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg32 main_v400 (broadcastInDim S1x64 ![1] bcast_S64_S1x64_1 : (⟨S64, .f32⟩ : BufTy).Contents (Elt F) → (⟨S1x64, .f32⟩ : BufTy).Contents (Elt F)),
    unary main_v400 main_v401 (broadcastInDim S100000x64 ![0, 1] bcast_S1x64_S100000x64_0_1 : (⟨S1x64, .f32⟩ : BufTy).Contents (Elt F) → (⟨S100000x64, .f32⟩ : BufTy).Contents (Elt F)),
    binary main_v399 main_v401 main_v402 (addf : (⟨S100000x64, .f32⟩ : BufTy).Contents (Elt F) → (⟨S100000x64, .f32⟩ : BufTy).Contents (Elt F) → (⟨S100000x64, .f32⟩ : BufTy).Contents (Elt F)),
    binary main_v375 main_arg33 main_v403 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v402 main_v403 main_v404 (addf : (⟨S100000x64, .f32⟩ : BufTy).Contents (Elt F) → (⟨S100000x64, .f32⟩ : BufTy).Contents (Elt F) → (⟨S100000x64, .f32⟩ : BufTy).Contents (Elt F)) ]
set_option maxHeartbeats 2000000 in
/-- `main_v374`: relu of `main_v373`. -/
theorem r9_v374 (V : Valuation τ sig (Elt F)) :
    after r9 V (Proc.devRef .tc main_v374)
      = Cert.KernelIdeal.Spec.relu (V (Proc.devRef .tc main_v373)) := by
  after_results_simp <;> rfl

set_option maxHeartbeats 2000000 in
/-- `main_v375`: relu of `main_v326`. -/
theorem r9_v375 (V : Valuation τ sig (Elt F)) :
    after r9 V (Proc.devRef .tc main_v375)
      = Cert.KernelIdeal.Spec.relu (V (Proc.devRef .tc main_v326)) := by
  after_results_simp <;> rfl

set_option maxHeartbeats 2000000 in
/-- `main_v404`: the update of the mean of relu `main_v373` along `main_arg7` with relu `main_v326`. -/
theorem r9_v404 (V : Valuation τ sig (Elt F)) :
    after r9 V (Proc.devRef .tc main_v404)
      = Cert.KernelIdeal.Spec.sage64 (Cert.KernelIdeal.Spec.sageMean (Cert.KernelIdeal.Spec.relu (V (Proc.devRef .tc main_v373))) (V (Proc.devRef .tc main_arg7))) (V (Proc.devRef .tc main_arg31)) (Cert.KernelIdeal.Spec.relu (V (Proc.devRef .tc main_v326))) (V (Proc.devRef .tc main_arg33)) (V (Proc.devRef .tc main_arg32)) := by
  after_results_simp <;> rfl

/-- Operations 516–576: the `p → p` aggregation of `main_v375 · main_arg36`, added to `main_v404`. -/
abbrev r10 : List (HloOp τ sig (Elt F)) :=
  [ nullary main_v405 (iotaInDim S100000 32 0),
    unary main_arg9 main_v406 ((extractStridedSlice S1x500000 ![0, 0] · slices_S2x500000_S1x500000_0_0) : (⟨S2x500000, .i32⟩ : BufTy).Contents (Elt F) → (⟨S1x500000, .i32⟩ : BufTy).Contents (Elt F)),
    reshape main_v406 main_v407 rfl shapeCasts_S1x500000_S500000,
    binary main_v407 main_v405 main_v408 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    unary main_arg9 main_v409 ((extractStridedSlice S1x500000 ![1, 0] · slices_S2x500000_S1x500000_1_0) : (⟨S2x500000, .i32⟩ : BufTy).Contents (Elt F) → (⟨S1x500000, .i32⟩ : BufTy).Contents (Elt F)),
    reshape main_v409 main_v410 rfl shapeCasts_S1x500000_S500000,
    binary main_v410 main_v405 main_v411 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst_88 (constant S_ .f32 0x3F800000#32),
    unary main_cst_88 main_v412 (broadcastInDim S600000 ![] bcast_S_S600000 : (⟨S_, .f32⟩ : BufTy).Contents (Elt F) → (⟨S600000, .f32⟩ : BufTy).Contents (Elt F)),
    nullary main_cst_89 (constant S_ .f32 0x00000000#32),
    unary main_cst_89 main_v413 (broadcastInDim S100000 ![] bcast_S_S100000 : (⟨S_, .f32⟩ : BufTy).Contents (Elt F) → (⟨S100000, .f32⟩ : BufTy).Contents (Elt F)),
    unary main_v411 main_v414 (broadcastInDim S600000x1 ![0] bcast_S600000_S600000x1_0 : (⟨S600000, .i32⟩ : BufTy).Contents (Elt F) → (⟨S600000x1, .i32⟩ : BufTy).Contents (Elt F)),
    ternary main_v413 main_v414 main_v412 main_v415 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_90 (constant S_ .f32 0x00000000#32),
    unary main_cst_90 main_v416 (broadcastInDim S100000 ![] bcast_S_S100000 : (⟨S_, .f32⟩ : BufTy).Contents (Elt F) → (⟨S100000, .f32⟩ : BufTy).Contents (Elt F)),
    binary main_v415 main_v416 main_v417 (cmpf .ogt : (⟨S100000, .f32⟩ : BufTy).Contents (Elt F) → (⟨S100000, .f32⟩ : BufTy).Contents (Elt F) → (⟨S100000, .i1⟩ : BufTy).Contents (Elt F)),
    unary main_v415 main_v418 (Host.rsqrt : (⟨S100000, .f32⟩ : BufTy).Contents (Elt F) → (⟨S100000, .f32⟩ : BufTy).Contents (Elt F)),
    nullary main_cst_91 (constant S_ .f32 0x00000000#32),
    TRef.unary (TRef.of (T := ⟨S_, .f32⟩) main_cst_91) (TRef.of (T := ⟨S_, .f32⟩) main_call10_v0) id,
    TRef.unary (TRef.of (T := ⟨S_, .f32⟩) main_call10_v0) (TRef.of (T := ⟨S100000, .f32⟩) main_call10_v1) (broadcastInDim S100000 ![] bcast_S_S100000),
    TRef.ternary (TRef.of (T := ⟨S100000, .i1⟩) main_v417) (TRef.of (T := ⟨S100000, .f32⟩) main_v418) (TRef.of (T := ⟨S100000, .f32⟩) main_call10_v1) (TRef.of (T := ⟨S100000, .f32⟩) main_v419) select,
    nullary main_c_92 (constantI S_ 32 0#32),
    unary main_c_92 main_v420 (broadcastInDim S600000 ![] bcast_S_S600000 : (⟨S_, .i32⟩ : BufTy).Contents (Elt F) → (⟨S600000, .i32⟩ : BufTy).Contents (Elt F)),
    binary main_v408 main_v420 main_v421 (cmpi .slt : (⟨S600000, .i32⟩ : BufTy).Contents (Elt F) → (⟨S600000, .i32⟩ : BufTy).Contents (Elt F) → (⟨S600000, .i1⟩ : BufTy).Contents (Elt F)),
    nullary main_c_93 (constantI S_ 32 100000#32),
    unary main_c_93 main_v422 (broadcastInDim S600000 ![] bcast_S_S600000 : (⟨S_, .i32⟩ : BufTy).Contents (Elt F) → (⟨S600000, .i32⟩ : BufTy).Contents (Elt F)),
    binary main_v408 main_v422 main_v423 (addi : (⟨S600000, .i32⟩ : BufTy).Contents (Elt F) → (⟨S600000, .i32⟩ : BufTy).Contents (Elt F) → (⟨S600000, .i32⟩ : BufTy).Contents (Elt F)),
    ternary main_v421 main_v423 main_v408 main_v424 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v424 main_v425 (broadcastInDim S600000x1 ![0] bcast_S600000_S600000x1_0 : (⟨S600000, .i32⟩ : BufTy).Contents (Elt F) → (⟨S600000x1, .i32⟩ : BufTy).Contents (Elt F)),
    binary main_v419 main_v425 main_v426 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_94 (constantI S_ 32 0#32),
    unary main_c_94 main_v427 (broadcastInDim S600000 ![] bcast_S_S600000 : (⟨S_, .i32⟩ : BufTy).Contents (Elt F) → (⟨S600000, .i32⟩ : BufTy).Contents (Elt F)),
    binary main_v411 main_v427 main_v428 (cmpi .slt : (⟨S600000, .i32⟩ : BufTy).Contents (Elt F) → (⟨S600000, .i32⟩ : BufTy).Contents (Elt F) → (⟨S600000, .i1⟩ : BufTy).Contents (Elt F)),
    nullary main_c_95 (constantI S_ 32 100000#32),
    unary main_c_95 main_v429 (broadcastInDim S600000 ![] bcast_S_S600000 : (⟨S_, .i32⟩ : BufTy).Contents (Elt F) → (⟨S600000, .i32⟩ : BufTy).Contents (Elt F)),
    binary main_v411 main_v429 main_v430 (addi : (⟨S600000, .i32⟩ : BufTy).Contents (Elt F) → (⟨S600000, .i32⟩ : BufTy).Contents (Elt F) → (⟨S600000, .i32⟩ : BufTy).Contents (Elt F)),
    ternary main_v428 main_v430 main_v411 main_v431 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v431 main_v432 (broadcastInDim S600000x1 ![0] bcast_S600000_S600000x1_0 : (⟨S600000, .i32⟩ : BufTy).Contents (Elt F) → (⟨S600000x1, .i32⟩ : BufTy).Contents (Elt F)),
    binary main_v419 main_v432 main_v433 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v426 main_v433 main_v434 (mulf : (⟨S600000, .f32⟩ : BufTy).Contents (Elt F) → (⟨S600000, .f32⟩ : BufTy).Contents (Elt F) → (⟨S600000, .f32⟩ : BufTy).Contents (Elt F)),
    binary main_v375 main_arg36 main_v435 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_96 (constantI S_ 32 0#32),
    unary main_c_96 main_v436 (broadcastInDim S600000 ![] bcast_S_S600000 : (⟨S_, .i32⟩ : BufTy).Contents (Elt F) → (⟨S600000, .i32⟩ : BufTy).Contents (Elt F)),
    binary main_v408 main_v436 main_v437 (cmpi .slt : (⟨S600000, .i32⟩ : BufTy).Contents (Elt F) → (⟨S600000, .i32⟩ : BufTy).Contents (Elt F) → (⟨S600000, .i1⟩ : BufTy).Contents (Elt F)),
    nullary main_c_97 (constantI S_ 32 100000#32),
    unary main_c_97 main_v438 (broadcastInDim S600000 ![] bcast_S_S600000 : (⟨S_, .i32⟩ : BufTy).Contents (Elt F) → (⟨S600000, .i32⟩ : BufTy).Contents (Elt F)),
    binary main_v408 main_v438 main_v439 (addi : (⟨S600000, .i32⟩ : BufTy).Contents (Elt F) → (⟨S600000, .i32⟩ : BufTy).Contents (Elt F) → (⟨S600000, .i32⟩ : BufTy).Contents (Elt F)),
    ternary main_v437 main_v439 main_v408 main_v440 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v440 main_v441 (broadcastInDim S600000x1 ![0] bcast_S600000_S600000x1_0 : (⟨S600000, .i32⟩ : BufTy).Contents (Elt F) → (⟨S600000x1, .i32⟩ : BufTy).Contents (Elt F)),
    binary main_v435 main_v441 main_v442 ((fun x i => Host.gather gather_S100000x64_S600000x1_S600000x64_1_0_n_n_0_1_164 x i) : (⟨S100000x64, .f32⟩ : BufTy).Contents (Elt F) → (⟨S600000x1, .i32⟩ : BufTy).Contents (Elt F) → (⟨S600000x64, .f32⟩ : BufTy).Contents (Elt F)),
    unary main_v434 main_v443 (broadcastInDim S600000x1 ![0] bcast_S600000_S600000x1_0 : (⟨S600000, .f32⟩ : BufTy).Contents (Elt F) → (⟨S600000x1, .f32⟩ : BufTy).Contents (Elt F)),
    unary main_v443 main_v444 (broadcastInDim S600000x64 ![0, 1] bcast_S600000x1_S600000x64_0_1 : (⟨S600000x1, .f32⟩ : BufTy).Contents (Elt F) → (⟨S600000x64, .f32⟩ : BufTy).Contents (Elt F)),
    binary main_v442 main_v444 main_v445 (mulf : (⟨S600000x64, .f32⟩ : BufTy).Contents (Elt F) → (⟨S600000x64, .f32⟩ : BufTy).Contents (Elt F) → (⟨S600000x64, .f32⟩ : BufTy).Contents (Elt F)),
    nullary main_cst_98 (constant S_ .f32 0x00000000#32),
    unary main_cst_98 main_v446 (broadcastInDim S100000x64 ![] bcast_S_S100000x64 : (⟨S_, .f32⟩ : BufTy).Contents (Elt F) → (⟨S100000x64, .f32⟩ : BufTy).Contents (Elt F)),
    unary main_v411 main_v447 (broadcastInDim S600000x1 ![0] bcast_S600000_S600000x1_0 : (⟨S600000, .i32⟩ : BufTy).Contents (Elt F) → (⟨S600000x1, .i32⟩ : BufTy).Contents (Elt F)),
    ternary main_v446 main_v447 main_v445 main_v448 ((fun x i u => Host.scatterAdd scatter_S100000x64_S600000x1_S600000x64_1_0_0_1 x i u) : (⟨S100000x64, .f32⟩ : BufTy).Contents (Elt F) → (⟨S600000x1, .i32⟩ : BufTy).Contents (Elt F) → (⟨S600000x64, .f32⟩ : BufTy).Contents (Elt F) → (⟨S100000x64, .f32⟩ : BufTy).Contents (Elt F)),
    unary main_arg37 main_v449 (broadcastInDim S1x64 ![1] bcast_S64_S1x64_1 : (⟨S64, .f32⟩ : BufTy).Contents (Elt F) → (⟨S1x64, .f32⟩ : BufTy).Contents (Elt F)),
    unary main_v449 main_v450 (broadcastInDim S100000x64 ![0, 1] bcast_S1x64_S100000x64_0_1 : (⟨S1x64, .f32⟩ : BufTy).Contents (Elt F) → (⟨S100000x64, .f32⟩ : BufTy).Contents (Elt F)),
    binary main_v448 main_v450 main_v451 (addf : (⟨S100000x64, .f32⟩ : BufTy).Contents (Elt F) → (⟨S100000x64, .f32⟩ : BufTy).Contents (Elt F) → (⟨S100000x64, .f32⟩ : BufTy).Contents (Elt F)),
    binary main_v404 main_v451 main_v452 (addf : (⟨S100000x64, .f32⟩ : BufTy).Contents (Elt F) → (⟨S100000x64, .f32⟩ : BufTy).Contents (Elt F) → (⟨S100000x64, .f32⟩ : BufTy).Contents (Elt F)) ]
set_option maxHeartbeats 2000000 in
/-- `main_v452`: `main_v404` plus the aggregation of `main_v375 · main_arg36` along `main_arg9`, bias `main_arg37`. -/
theorem r10_v452 (V : Valuation τ sig (Elt F)) :
    after r10 V (Proc.devRef .tc main_v452)
      = addf (V (Proc.devRef .tc main_v404)) (Cert.KernelIdeal.Spec.gcnAgg64 (Cert.KernelIdeal.Spec.lin64 (V (Proc.devRef .tc main_v375)) (V (Proc.devRef .tc main_arg36))) (V (Proc.devRef .tc main_arg9)) (V (Proc.devRef .tc main_arg37))) := by
  after_results_simp <;> rfl

/-- Operations 577–638: the `l → l` aggregation of `main_v374 · main_arg34`, and the two results. -/
abbrev r11 : List (HloOp τ sig (Elt F)) :=
  [ nullary main_v453 (iotaInDim S100000 32 0),
    unary main_arg8 main_v454 ((extractStridedSlice S1x500000 ![0, 0] · slices_S2x500000_S1x500000_0_0) : (⟨S2x500000, .i32⟩ : BufTy).Contents (Elt F) → (⟨S1x500000, .i32⟩ : BufTy).Contents (Elt F)),
    reshape main_v454 main_v455 rfl shapeCasts_S1x500000_S500000,
    binary main_v455 main_v453 main_v456 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    unary main_arg8 main_v457 ((extractStridedSlice S1x500000 ![1, 0] · slices_S2x500000_S1x500000_1_0) : (⟨S2x500000, .i32⟩ : BufTy).Contents (Elt F) → (⟨S1x500000, .i32⟩ : BufTy).Contents (Elt F)),
    reshape main_v457 main_v458 rfl shapeCasts_S1x500000_S500000,
    binary main_v458 main_v453 main_v459 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst_99 (constant S_ .f32 0x3F800000#32),
    unary main_cst_99 main_v460 (broadcastInDim S600000 ![] bcast_S_S600000 : (⟨S_, .f32⟩ : BufTy).Contents (Elt F) → (⟨S600000, .f32⟩ : BufTy).Contents (Elt F)),
    nullary main_cst_100 (constant S_ .f32 0x00000000#32),
    unary main_cst_100 main_v461 (broadcastInDim S100000 ![] bcast_S_S100000 : (⟨S_, .f32⟩ : BufTy).Contents (Elt F) → (⟨S100000, .f32⟩ : BufTy).Contents (Elt F)),
    unary main_v459 main_v462 (broadcastInDim S600000x1 ![0] bcast_S600000_S600000x1_0 : (⟨S600000, .i32⟩ : BufTy).Contents (Elt F) → (⟨S600000x1, .i32⟩ : BufTy).Contents (Elt F)),
    ternary main_v461 main_v462 main_v460 main_v463 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_101 (constant S_ .f32 0x00000000#32),
    unary main_cst_101 main_v464 (broadcastInDim S100000 ![] bcast_S_S100000 : (⟨S_, .f32⟩ : BufTy).Contents (Elt F) → (⟨S100000, .f32⟩ : BufTy).Contents (Elt F)),
    binary main_v463 main_v464 main_v465 (cmpf .ogt : (⟨S100000, .f32⟩ : BufTy).Contents (Elt F) → (⟨S100000, .f32⟩ : BufTy).Contents (Elt F) → (⟨S100000, .i1⟩ : BufTy).Contents (Elt F)),
    unary main_v463 main_v466 (Host.rsqrt : (⟨S100000, .f32⟩ : BufTy).Contents (Elt F) → (⟨S100000, .f32⟩ : BufTy).Contents (Elt F)),
    nullary main_cst_102 (constant S_ .f32 0x00000000#32),
    TRef.unary (TRef.of (T := ⟨S_, .f32⟩) main_cst_102) (TRef.of (T := ⟨S_, .f32⟩) main_call11_v0) id,
    TRef.unary (TRef.of (T := ⟨S_, .f32⟩) main_call11_v0) (TRef.of (T := ⟨S100000, .f32⟩) main_call11_v1) (broadcastInDim S100000 ![] bcast_S_S100000),
    TRef.ternary (TRef.of (T := ⟨S100000, .i1⟩) main_v465) (TRef.of (T := ⟨S100000, .f32⟩) main_v466) (TRef.of (T := ⟨S100000, .f32⟩) main_call11_v1) (TRef.of (T := ⟨S100000, .f32⟩) main_v467) select,
    nullary main_c_103 (constantI S_ 32 0#32),
    unary main_c_103 main_v468 (broadcastInDim S600000 ![] bcast_S_S600000 : (⟨S_, .i32⟩ : BufTy).Contents (Elt F) → (⟨S600000, .i32⟩ : BufTy).Contents (Elt F)),
    binary main_v456 main_v468 main_v469 (cmpi .slt : (⟨S600000, .i32⟩ : BufTy).Contents (Elt F) → (⟨S600000, .i32⟩ : BufTy).Contents (Elt F) → (⟨S600000, .i1⟩ : BufTy).Contents (Elt F)),
    nullary main_c_104 (constantI S_ 32 100000#32),
    unary main_c_104 main_v470 (broadcastInDim S600000 ![] bcast_S_S600000 : (⟨S_, .i32⟩ : BufTy).Contents (Elt F) → (⟨S600000, .i32⟩ : BufTy).Contents (Elt F)),
    binary main_v456 main_v470 main_v471 (addi : (⟨S600000, .i32⟩ : BufTy).Contents (Elt F) → (⟨S600000, .i32⟩ : BufTy).Contents (Elt F) → (⟨S600000, .i32⟩ : BufTy).Contents (Elt F)),
    ternary main_v469 main_v471 main_v456 main_v472 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v472 main_v473 (broadcastInDim S600000x1 ![0] bcast_S600000_S600000x1_0 : (⟨S600000, .i32⟩ : BufTy).Contents (Elt F) → (⟨S600000x1, .i32⟩ : BufTy).Contents (Elt F)),
    binary main_v467 main_v473 main_v474 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_105 (constantI S_ 32 0#32),
    unary main_c_105 main_v475 (broadcastInDim S600000 ![] bcast_S_S600000 : (⟨S_, .i32⟩ : BufTy).Contents (Elt F) → (⟨S600000, .i32⟩ : BufTy).Contents (Elt F)),
    binary main_v459 main_v475 main_v476 (cmpi .slt : (⟨S600000, .i32⟩ : BufTy).Contents (Elt F) → (⟨S600000, .i32⟩ : BufTy).Contents (Elt F) → (⟨S600000, .i1⟩ : BufTy).Contents (Elt F)),
    nullary main_c_106 (constantI S_ 32 100000#32),
    unary main_c_106 main_v477 (broadcastInDim S600000 ![] bcast_S_S600000 : (⟨S_, .i32⟩ : BufTy).Contents (Elt F) → (⟨S600000, .i32⟩ : BufTy).Contents (Elt F)),
    binary main_v459 main_v477 main_v478 (addi : (⟨S600000, .i32⟩ : BufTy).Contents (Elt F) → (⟨S600000, .i32⟩ : BufTy).Contents (Elt F) → (⟨S600000, .i32⟩ : BufTy).Contents (Elt F)),
    ternary main_v476 main_v478 main_v459 main_v479 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v479 main_v480 (broadcastInDim S600000x1 ![0] bcast_S600000_S600000x1_0 : (⟨S600000, .i32⟩ : BufTy).Contents (Elt F) → (⟨S600000x1, .i32⟩ : BufTy).Contents (Elt F)),
    binary main_v467 main_v480 main_v481 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v474 main_v481 main_v482 (mulf : (⟨S600000, .f32⟩ : BufTy).Contents (Elt F) → (⟨S600000, .f32⟩ : BufTy).Contents (Elt F) → (⟨S600000, .f32⟩ : BufTy).Contents (Elt F)),
    binary main_v374 main_arg34 main_v483 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_107 (constantI S_ 32 0#32),
    unary main_c_107 main_v484 (broadcastInDim S600000 ![] bcast_S_S600000 : (⟨S_, .i32⟩ : BufTy).Contents (Elt F) → (⟨S600000, .i32⟩ : BufTy).Contents (Elt F)),
    binary main_v456 main_v484 main_v485 (cmpi .slt : (⟨S600000, .i32⟩ : BufTy).Contents (Elt F) → (⟨S600000, .i32⟩ : BufTy).Contents (Elt F) → (⟨S600000, .i1⟩ : BufTy).Contents (Elt F)),
    nullary main_c_108 (constantI S_ 32 100000#32),
    unary main_c_108 main_v486 (broadcastInDim S600000 ![] bcast_S_S600000 : (⟨S_, .i32⟩ : BufTy).Contents (Elt F) → (⟨S600000, .i32⟩ : BufTy).Contents (Elt F)),
    binary main_v456 main_v486 main_v487 (addi : (⟨S600000, .i32⟩ : BufTy).Contents (Elt F) → (⟨S600000, .i32⟩ : BufTy).Contents (Elt F) → (⟨S600000, .i32⟩ : BufTy).Contents (Elt F)),
    ternary main_v485 main_v487 main_v456 main_v488 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v488 main_v489 (broadcastInDim S600000x1 ![0] bcast_S600000_S600000x1_0 : (⟨S600000, .i32⟩ : BufTy).Contents (Elt F) → (⟨S600000x1, .i32⟩ : BufTy).Contents (Elt F)),
    binary main_v483 main_v489 main_v490 ((fun x i => Host.gather gather_S100000x64_S600000x1_S600000x64_1_0_n_n_0_1_164 x i) : (⟨S100000x64, .f32⟩ : BufTy).Contents (Elt F) → (⟨S600000x1, .i32⟩ : BufTy).Contents (Elt F) → (⟨S600000x64, .f32⟩ : BufTy).Contents (Elt F)),
    unary main_v482 main_v491 (broadcastInDim S600000x1 ![0] bcast_S600000_S600000x1_0 : (⟨S600000, .f32⟩ : BufTy).Contents (Elt F) → (⟨S600000x1, .f32⟩ : BufTy).Contents (Elt F)),
    unary main_v491 main_v492 (broadcastInDim S600000x64 ![0, 1] bcast_S600000x1_S600000x64_0_1 : (⟨S600000x1, .f32⟩ : BufTy).Contents (Elt F) → (⟨S600000x64, .f32⟩ : BufTy).Contents (Elt F)),
    binary main_v490 main_v492 main_v493 (mulf : (⟨S600000x64, .f32⟩ : BufTy).Contents (Elt F) → (⟨S600000x64, .f32⟩ : BufTy).Contents (Elt F) → (⟨S600000x64, .f32⟩ : BufTy).Contents (Elt F)),
    nullary main_cst_109 (constant S_ .f32 0x00000000#32),
    unary main_cst_109 main_v494 (broadcastInDim S100000x64 ![] bcast_S_S100000x64 : (⟨S_, .f32⟩ : BufTy).Contents (Elt F) → (⟨S100000x64, .f32⟩ : BufTy).Contents (Elt F)),
    unary main_v459 main_v495 (broadcastInDim S600000x1 ![0] bcast_S600000_S600000x1_0 : (⟨S600000, .i32⟩ : BufTy).Contents (Elt F) → (⟨S600000x1, .i32⟩ : BufTy).Contents (Elt F)),
    ternary main_v494 main_v495 main_v493 main_v496 ((fun x i u => Host.scatterAdd scatter_S100000x64_S600000x1_S600000x64_1_0_0_1 x i u) : (⟨S100000x64, .f32⟩ : BufTy).Contents (Elt F) → (⟨S600000x1, .i32⟩ : BufTy).Contents (Elt F) → (⟨S600000x64, .f32⟩ : BufTy).Contents (Elt F) → (⟨S100000x64, .f32⟩ : BufTy).Contents (Elt F)),
    unary main_arg35 main_v497 (broadcastInDim S1x64 ![1] bcast_S64_S1x64_1 : (⟨S64, .f32⟩ : BufTy).Contents (Elt F) → (⟨S1x64, .f32⟩ : BufTy).Contents (Elt F)),
    unary main_v497 main_v498 (broadcastInDim S100000x64 ![0, 1] bcast_S1x64_S100000x64_0_1 : (⟨S1x64, .f32⟩ : BufTy).Contents (Elt F) → (⟨S100000x64, .f32⟩ : BufTy).Contents (Elt F)),
    binary main_v496 main_v498 main_v499 (addf : (⟨S100000x64, .f32⟩ : BufTy).Contents (Elt F) → (⟨S100000x64, .f32⟩ : BufTy).Contents (Elt F) → (⟨S100000x64, .f32⟩ : BufTy).Contents (Elt F)),
    binary main_v249 main_v499 main_v500 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v202 main_v452 main_v501 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) ]
set_option maxHeartbeats 2000000 in
/-- `main_v500`: `main_v249` beside the aggregation of `main_v374 · main_arg34` along `main_arg8`, bias `main_arg35`. -/
theorem r11_v500 (V : Valuation τ sig (Elt F)) :
    after r11 V (Proc.devRef .tc main_v500)
      = Cert.KernelIdeal.Spec.sideBySide (V (Proc.devRef .tc main_v249)) (Cert.KernelIdeal.Spec.gcnAgg64 (Cert.KernelIdeal.Spec.lin64 (V (Proc.devRef .tc main_v374)) (V (Proc.devRef .tc main_arg34))) (V (Proc.devRef .tc main_arg8)) (V (Proc.devRef .tc main_arg35))) := by
  after_results_simp <;> rfl

set_option maxHeartbeats 2000000 in
/-- `main_v501`: `main_v202` beside `main_v452`. -/
theorem r11_v501 (V : Valuation τ sig (Elt F)) :
    after r11 V (Proc.devRef .tc main_v501)
      = Cert.KernelIdeal.Spec.sideBySide (V (Proc.devRef .tc main_v202)) (V (Proc.devRef .tc main_v452)) := by
  after_results_simp <;> rfl

end Cert.ReferenceIdeal.RefStretch

end
-- ==== Proof.RefKeep.lean ====
/-
  What each of the reference's twelve stretches of operations leaves untouched, for any float family: a stretch rewrites
  only its operations' result buffers. Stated at a variable buffer and any contents, so that one lemma per stretch
  carries every buffer the stretch does not write across it.
-/
import proofs.«157546_j87986700026404_1_alg».proof.Proof.RefA
import proofs.«157546_j87986700026404_1_alg».proof.Proof.RefB
import proofs.«157546_j87986700026404_1_alg».proof.Proof.RefC
import proofs.«157546_j87986700026404_1_alg».proof.Proof.RefD
import Idealize.ShloMosaic.Lib.StableHlo.Run

noncomputable section

namespace Cert.ReferenceIdeal.RefStretch

open Cert.ReferenceIdeal Cert.ReferenceIdeal.Gen Idealize.ShloMosaic

variable {F : FTy → Type} [FloatOps F]

/-- A buffer named in a list is, as a device buffer, in the set of the list's device buffers: the shape in which a
    single operation's write set is compared with a stretch's list of written buffers. -/
theorem rw_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffers `r0` (the reference's operations 1–35) writes: each operation's result, in order. -/
abbrev rw0 : List (Ref sig .tc) :=
  [main_v0, main_v1, main_v2, main_v3, main_c, main_v4, main_v5, main_c_0, main_v6, main_v7, main_v8, main_v9,
    main_v10, main_cst, main_v11, main_v12, main_v13, main_cst_1, main_v14, main_cst_2, main_v15, main_v16,
    main_v17, main_cst_3, main_v18, main_v19, main_v20, main_v21, main_v22, main_v23, main_v24, main_v25, main_v26,
    main_v27, main_v28]

/-- `r0` rewrites only its operations' results: any other buffer holds after it what it held before. -/
theorem rkeep0 (V : Valuation τ sig (Elt F)) (b : Ref sig .tc) (hb : b ∉ rw0) :
    StableHlo.after r0 V (Proc.devRef .tc b) = V (Proc.devRef .tc b) :=
  StableHlo.after_of_writes_sub (W := rw0) r0 V (by
    simp only [r0, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r0 V (Proc.devRef .tc main_arg0) = V (Proc.devRef .tc main_arg0) :=
  rkeep0 V main_arg0 (by decide)

/-- The buffers `r1` (the reference's operations 36–96) writes: each operation's result, in order. -/
abbrev rw1 : List (Ref sig .tc) :=
  [main_v29, main_v30, main_v31, main_v32, main_v33, main_v34, main_v35, main_cst_4, main_v36, main_cst_5,
    main_v37, main_v38, main_v39, main_cst_6, main_v40, main_v41, main_v42, main_cst_7, main_call0_v0,
    main_call0_v1, main_v43, main_c_8, main_v44, main_v45, main_c_9, main_v46, main_v47, main_v48, main_v49,
    main_v50, main_c_10, main_v51, main_v52, main_c_11, main_v53, main_v54, main_v55, main_v56, main_v57, main_v58,
    main_v59, main_c_12, main_v60, main_v61, main_c_13, main_v62, main_v63, main_v64, main_v65, main_v66, main_v67,
    main_v68, main_v69, main_cst_14, main_v70, main_v71, main_v72, main_v73, main_v74, main_v75, main_v76]

/-- `r1` rewrites only its operations' results: any other buffer holds after it what it held before. -/
theorem rkeep1 (V : Valuation τ sig (Elt F)) (b : Ref sig .tc) (hb : b ∉ rw1) :
    StableHlo.after r1 V (Proc.devRef .tc b) = V (Proc.devRef .tc b) :=
  StableHlo.after_of_writes_sub (W := rw1) r1 V (by
    simp only [r1, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r1 V (Proc.devRef .tc main_v28) = V (Proc.devRef .tc main_v28) :=
  rkeep1 V main_v28 (by decide)

/-- The buffers `r2` (the reference's operations 97–156) writes: each operation's result, in order. -/
abbrev rw2 : List (Ref sig .tc) :=
  [main_v77, main_v78, main_v79, main_v80, main_v81, main_v82, main_v83, main_cst_15, main_v84, main_cst_16,
    main_v85, main_v86, main_v87, main_cst_17, main_v88, main_v89, main_v90, main_cst_18, main_call1_v0,
    main_call1_v1, main_v91, main_c_19, main_v92, main_v93, main_c_20, main_v94, main_v95, main_v96, main_v97,
    main_v98, main_c_21, main_v99, main_v100, main_c_22, main_v101, main_v102, main_v103, main_v104, main_v105,
    main_v106, main_v107, main_c_23, main_v108, main_v109, main_c_24, main_v110, main_v111, main_v112, main_v113,
    main_v114, main_v115, main_v116, main_v117, main_cst_25, main_v118, main_v119, main_v120, main_v121, main_v122,
    main_v123]

/-- `r2` rewrites only its operations' results: any other buffer holds after it what it held before. -/
theorem rkeep2 (V : Valuation τ sig (Elt F)) (b : Ref sig .tc) (hb : b ∉ rw2) :
    StableHlo.after r2 V (Proc.devRef .tc b) = V (Proc.devRef .tc b) :=
  StableHlo.after_of_writes_sub (W := rw2) r2 V (by
    simp only [r2, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r2 V (Proc.devRef .tc main_v76) = V (Proc.devRef .tc main_v76) :=
  rkeep2 V main_v76 (by decide)

/-- The buffers `r3` (the reference's operations 157–197) writes: each operation's result, in order. -/
abbrev rw3 : List (Ref sig .tc) :=
  [main_call2_cst, main_call2_v0, main_v124, main_call3_cst, main_call3_v0, main_v125, main_v126, main_v127,
    main_v128, main_v129, main_c_26, main_v130, main_v131, main_c_27, main_v132, main_v133, main_v134, main_v135,
    main_v136, main_cst_28, main_v137, main_v138, main_v139, main_cst_29, main_v140, main_cst_30, main_v141,
    main_v142, main_v143, main_cst_31, main_v144, main_v145, main_v146, main_v147, main_v148, main_v149, main_v150,
    main_v151, main_v152, main_v153, main_v154]

/-- `r3` rewrites only its operations' results: any other buffer holds after it what it held before. -/
theorem rkeep3 (V : Valuation τ sig (Elt F)) (b : Ref sig .tc) (hb : b ∉ rw3) :
    StableHlo.after r3 V (Proc.devRef .tc b) = V (Proc.devRef .tc b) :=
  StableHlo.after_of_writes_sub (W := rw3) r3 V (by
    simp only [r3, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r3 V (Proc.devRef .tc main_v123) = V (Proc.devRef .tc main_v123) :=
  rkeep3 V main_v123 (by decide)

/-- The buffers `r4` (the reference's operations 198–258) writes: each operation's result, in order. -/
abbrev rw4 : List (Ref sig .tc) :=
  [main_v155, main_v156, main_v157, main_v158, main_v159, main_v160, main_v161, main_cst_32, main_v162,
    main_cst_33, main_v163, main_v164, main_v165, main_cst_34, main_v166, main_v167, main_v168, main_cst_35,
    main_call4_v0, main_call4_v1, main_v169, main_c_36, main_v170, main_v171, main_c_37, main_v172, main_v173,
    main_v174, main_v175, main_v176, main_c_38, main_v177, main_v178, main_c_39, main_v179, main_v180, main_v181,
    main_v182, main_v183, main_v184, main_v185, main_c_40, main_v186, main_v187, main_c_41, main_v188, main_v189,
    main_v190, main_v191, main_v192, main_v193, main_v194, main_v195, main_cst_42, main_v196, main_v197, main_v198,
    main_v199, main_v200, main_v201, main_v202]

/-- `r4` rewrites only its operations' results: any other buffer holds after it what it held before. -/
theorem rkeep4 (V : Valuation τ sig (Elt F)) (b : Ref sig .tc) (hb : b ∉ rw4) :
    StableHlo.after r4 V (Proc.devRef .tc b) = V (Proc.devRef .tc b) :=
  StableHlo.after_of_writes_sub (W := rw4) r4 V (by
    simp only [r4, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r4 V (Proc.devRef .tc main_v154) = V (Proc.devRef .tc main_v154) :=
  rkeep4 V main_v154 (by decide)

/-- The buffers `r5` (the reference's operations 259–318) writes: each operation's result, in order. -/
abbrev rw5 : List (Ref sig .tc) :=
  [main_v203, main_v204, main_v205, main_v206, main_v207, main_v208, main_v209, main_cst_43, main_v210,
    main_cst_44, main_v211, main_v212, main_v213, main_cst_45, main_v214, main_v215, main_v216, main_cst_46,
    main_call5_v0, main_call5_v1, main_v217, main_c_47, main_v218, main_v219, main_c_48, main_v220, main_v221,
    main_v222, main_v223, main_v224, main_c_49, main_v225, main_v226, main_c_50, main_v227, main_v228, main_v229,
    main_v230, main_v231, main_v232, main_v233, main_c_51, main_v234, main_v235, main_c_52, main_v236, main_v237,
    main_v238, main_v239, main_v240, main_v241, main_v242, main_v243, main_cst_53, main_v244, main_v245, main_v246,
    main_v247, main_v248, main_v249]

/-- `r5` rewrites only its operations' results: any other buffer holds after it what it held before. -/
theorem rkeep5 (V : Valuation τ sig (Elt F)) (b : Ref sig .tc) (hb : b ∉ rw5) :
    StableHlo.after r5 V (Proc.devRef .tc b) = V (Proc.devRef .tc b) :=
  StableHlo.after_of_writes_sub (W := rw5) r5 V (by
    simp only [r5, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r5 V (Proc.devRef .tc main_v202) = V (Proc.devRef .tc main_v202) :=
  rkeep5 V main_v202 (by decide)

/-- The buffers `r6` (the reference's operations 319–353) writes: each operation's result, in order. -/
abbrev rw6 : List (Ref sig .tc) :=
  [main_v250, main_v251, main_v252, main_v253, main_c_54, main_v254, main_v255, main_c_55, main_v256, main_v257,
    main_v258, main_v259, main_v260, main_cst_56, main_v261, main_v262, main_v263, main_cst_57, main_v264,
    main_cst_58, main_v265, main_v266, main_v267, main_cst_59, main_v268, main_v269, main_v270, main_v271,
    main_v272, main_v273, main_v274, main_v275, main_v276, main_v277, main_v278]

/-- `r6` rewrites only its operations' results: any other buffer holds after it what it held before. -/
theorem rkeep6 (V : Valuation τ sig (Elt F)) (b : Ref sig .tc) (hb : b ∉ rw6) :
    StableHlo.after r6 V (Proc.devRef .tc b) = V (Proc.devRef .tc b) :=
  StableHlo.after_of_writes_sub (W := rw6) r6 V (by
    simp only [r6, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r6 V (Proc.devRef .tc main_v249) = V (Proc.devRef .tc main_v249) :=
  rkeep6 V main_v249 (by decide)

/-- The buffers `r7` (the reference's operations 354–414) writes: each operation's result, in order. -/
abbrev rw7 : List (Ref sig .tc) :=
  [main_v279, main_v280, main_v281, main_v282, main_v283, main_v284, main_v285, main_cst_60, main_v286,
    main_cst_61, main_v287, main_v288, main_v289, main_cst_62, main_v290, main_v291, main_v292, main_cst_63,
    main_call6_v0, main_call6_v1, main_v293, main_c_64, main_v294, main_v295, main_c_65, main_v296, main_v297,
    main_v298, main_v299, main_v300, main_c_66, main_v301, main_v302, main_c_67, main_v303, main_v304, main_v305,
    main_v306, main_v307, main_v308, main_v309, main_c_68, main_v310, main_v311, main_c_69, main_v312, main_v313,
    main_v314, main_v315, main_v316, main_v317, main_v318, main_v319, main_cst_70, main_v320, main_v321, main_v322,
    main_v323, main_v324, main_v325, main_v326]

/-- `r7` rewrites only its operations' results: any other buffer holds after it what it held before. -/
theorem rkeep7 (V : Valuation τ sig (Elt F)) (b : Ref sig .tc) (hb : b ∉ rw7) :
    StableHlo.after r7 V (Proc.devRef .tc b) = V (Proc.devRef .tc b) :=
  StableHlo.after_of_writes_sub (W := rw7) r7 V (by
    simp only [r7, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r7 V (Proc.devRef .tc main_v278) = V (Proc.devRef .tc main_v278) :=
  rkeep7 V main_v278 (by decide)

/-- The buffers `r8` (the reference's operations 415–474) writes: each operation's result, in order. -/
abbrev rw8 : List (Ref sig .tc) :=
  [main_v327, main_v328, main_v329, main_v330, main_v331, main_v332, main_v333, main_cst_71, main_v334,
    main_cst_72, main_v335, main_v336, main_v337, main_cst_73, main_v338, main_v339, main_v340, main_cst_74,
    main_call7_v0, main_call7_v1, main_v341, main_c_75, main_v342, main_v343, main_c_76, main_v344, main_v345,
    main_v346, main_v347, main_v348, main_c_77, main_v349, main_v350, main_c_78, main_v351, main_v352, main_v353,
    main_v354, main_v355, main_v356, main_v357, main_c_79, main_v358, main_v359, main_c_80, main_v360, main_v361,
    main_v362, main_v363, main_v364, main_v365, main_v366, main_v367, main_cst_81, main_v368, main_v369, main_v370,
    main_v371, main_v372, main_v373]

/-- `r8` rewrites only its operations' results: any other buffer holds after it what it held before. -/
theorem rkeep8 (V : Valuation τ sig (Elt F)) (b : Ref sig .tc) (hb : b ∉ rw8) :
    StableHlo.after r8 V (Proc.devRef .tc b) = V (Proc.devRef .tc b) :=
  StableHlo.after_of_writes_sub (W := rw8) r8 V (by
    simp only [r8, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r8 V (Proc.devRef .tc main_v326) = V (Proc.devRef .tc main_v326) :=
  rkeep8 V main_v326 (by decide)

/-- The buffers `r9` (the reference's operations 475–515) writes: each operation's result, in order. -/
abbrev rw9 : List (Ref sig .tc) :=
  [main_call8_cst, main_call8_v0, main_v374, main_call9_cst, main_call9_v0, main_v375, main_v376, main_v377,
    main_v378, main_v379, main_c_82, main_v380, main_v381, main_c_83, main_v382, main_v383, main_v384, main_v385,
    main_v386, main_cst_84, main_v387, main_v388, main_v389, main_cst_85, main_v390, main_cst_86, main_v391,
    main_v392, main_v393, main_cst_87, main_v394, main_v395, main_v396, main_v397, main_v398, main_v399, main_v400,
    main_v401, main_v402, main_v403, main_v404]

/-- `r9` rewrites only its operations' results: any other buffer holds after it what it held before. -/
theorem rkeep9 (V : Valuation τ sig (Elt F)) (b : Ref sig .tc) (hb : b ∉ rw9) :
    StableHlo.after r9 V (Proc.devRef .tc b) = V (Proc.devRef .tc b) :=
  StableHlo.after_of_writes_sub (W := rw9) r9 V (by
    simp only [r9, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r9 V (Proc.devRef .tc main_v373) = V (Proc.devRef .tc main_v373) :=
  rkeep9 V main_v373 (by decide)

/-- The buffers `r10` (the reference's operations 516–576) writes: each operation's result, in order. -/
abbrev rw10 : List (Ref sig .tc) :=
  [main_v405, main_v406, main_v407, main_v408, main_v409, main_v410, main_v411, main_cst_88, main_v412,
    main_cst_89, main_v413, main_v414, main_v415, main_cst_90, main_v416, main_v417, main_v418, main_cst_91,
    main_call10_v0, main_call10_v1, main_v419, main_c_92, main_v420, main_v421, main_c_93, main_v422, main_v423,
    main_v424, main_v425, main_v426, main_c_94, main_v427, main_v428, main_c_95, main_v429, main_v430, main_v431,
    main_v432, main_v433, main_v434, main_v435, main_c_96, main_v436, main_v437, main_c_97, main_v438, main_v439,
    main_v440, main_v441, main_v442, main_v443, main_v444, main_v445, main_cst_98, main_v446, main_v447, main_v448,
    main_v449, main_v450, main_v451, main_v452]

/-- `r10` rewrites only its operations' results: any other buffer holds after it what it held before. -/
theorem rkeep10 (V : Valuation τ sig (Elt F)) (b : Ref sig .tc) (hb : b ∉ rw10) :
    StableHlo.after r10 V (Proc.devRef .tc b) = V (Proc.devRef .tc b) :=
  StableHlo.after_of_writes_sub (W := rw10) r10 V (by
    simp only [r10, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r10 V (Proc.devRef .tc main_v404) = V (Proc.devRef .tc main_v404) :=
  rkeep10 V main_v404 (by decide)

/-- The buffers `r11` (the reference's operations 577–638) writes: each operation's result, in order. -/
abbrev rw11 : List (Ref sig .tc) :=
  [main_v453, main_v454, main_v455, main_v456, main_v457, main_v458, main_v459, main_cst_99, main_v460,
    main_cst_100, main_v461, main_v462, main_v463, main_cst_101, main_v464, main_v465, main_v466, main_cst_102,
    main_call11_v0, main_call11_v1, main_v467, main_c_103, main_v468, main_v469, main_c_104, main_v470, main_v471,
    main_v472, main_v473, main_v474, main_c_105, main_v475, main_v476, main_c_106, main_v477, main_v478, main_v479,
    main_v480, main_v481, main_v482, main_v483, main_c_107, main_v484, main_v485, main_c_108, main_v486, main_v487,
    main_v488, main_v489, main_v490, main_v491, main_v492, main_v493, main_cst_109, main_v494, main_v495,
    main_v496, main_v497, main_v498, main_v499, main_v500, main_v501]

/-- `r11` rewrites only its operations' results: any other buffer holds after it what it held before. -/
theorem rkeep11 (V : Valuation τ sig (Elt F)) (b : Ref sig .tc) (hb : b ∉ rw11) :
    StableHlo.after r11 V (Proc.devRef .tc b) = V (Proc.devRef .tc b) :=
  StableHlo.after_of_writes_sub (W := rw11) r11 V (by
    simp only [r11, List.Forall,
      StableHlo.nullary_writes, StableHlo.unary_writes, StableHlo.binary_writes, StableHlo.ternary_writes, StableHlo.reshape_writes]
    repeat' apply And.intro
    all_goals exact rw_sub_of_mem (by decide)) hb

example (V : Valuation τ sig (Elt F)) : StableHlo.after r11 V (Proc.devRef .tc main_v452) = V (Proc.devRef .tc main_v452) :=
  rkeep11 V main_v452 (by decide)

end Cert.ReferenceIdeal.RefStretch

end
-- ==== Proof.RefRun.lean ====
/-
  The reference's run over its operation list cut in twelve stretches: @main is the straight line of the stretches one
  after the other, every operation touches TensorCore references only and determines its results, so every execution
  ends with each buffer at the fold of the operations' results over the launch contents.
-/
import proofs.«157546_j87986700026404_1_alg».proof.Proof.RefA
import proofs.«157546_j87986700026404_1_alg».proof.Proof.RefB
import proofs.«157546_j87986700026404_1_alg».proof.Proof.RefC
import proofs.«157546_j87986700026404_1_alg».proof.Proof.RefD
import Idealize.ShloMosaic.Lib.StableHlo.Run
import Idealize.ShloMosaic.Lib.Pipeline.Frame

noncomputable section

namespace Cert.ReferenceIdeal.RefStretch

open Cert.ReferenceIdeal Cert.ReferenceIdeal.Gen Idealize.ShloMosaic Idealize.ShloMosaic.TcCoe Idealize.SL.Sem
  Idealize.ShloMosaic.StableHlo

variable {F : FTy → Type} [FloatOps F]

/-- The reference's 638 operations, in order: the twelve stretches one after the other. -/
abbrev rops : List (HloOp τ sig (Elt F)) :=
  r0 ++ (r1 ++ (r2 ++ (r3 ++ (r4 ++ (r5 ++ (r6 ++ (r7 ++ (r8 ++ (r9 ++ (r10 ++ r11))))))))))

set_option maxRecDepth 65536 in
set_option maxHeartbeats 4000000 in
/-- @main is the straight line of those operations (a called function's operations stand in its call's place). -/
theorem rmain_eq (c : Dev nD) : main (F := F) c = seq rops := rfl

/-- The signature scopes no buffer and no semaphore. -/
theorem scopedRefs_eq' : (Finset.univ.filter fun b : Ref sig .tc => b.isScoped) = ∅ := by decide
theorem scopedSems_eq' : (Finset.univ.filter fun sm : SemLoc sig => sm.isScoped .tc) = ∅ := by decide

/-! ### Every operation touches TensorCore references only: stretch by stretch, then over the whole line -/

theorem r0_sub : (r0 : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    unary_bufs_sub .., ternary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., unary_bufs_sub .., binary_bufs_sub .., binary_bufs_sub ..,
    unary_bufs_sub .., unary_bufs_sub .., binary_bufs_sub .., binary_bufs_sub .., binary_bufs_sub ..⟩
theorem r1_sub : (r1 : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..,
    binary_bufs_sub ..⟩
theorem r2_sub : (r2 : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..⟩
theorem r3_sub : (r3 : List (HloOp τ sig (Elt F))).Forall fun op => op.bufs ⊆ tcRefs τ sig :=
  ⟨nullary_bufs_sub .., unary_bufs_sub .., binary_bufs_sub .., nullary_bufs_sub .., unary_bufs_sub ..,
    binary_bufs_sub .., unary_bufs_sub .., reshape_bufs_sub .., unary_bufs_sub .., reshape_bufs_sub ..,
    nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub .., unary_bufs_sub .., unary_bufs_sub .., binary_bufs_sub ..,
    binary_bufs_sub .., unary_bufs_sub .., unary_bufs_sub .., binary_bufs_sub .., binary_bufs_sub ..,
    binary_bufs_sub ..⟩
theorem r4_sub : (r4 : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..,
    binary_bufs_sub ..⟩
theorem r5_sub : (r5 : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..⟩
theorem r6_sub : (r6 : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    unary_bufs_sub .., ternary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., unary_bufs_sub .., binary_bufs_sub .., binary_bufs_sub ..,
    unary_bufs_sub .., unary_bufs_sub .., binary_bufs_sub .., binary_bufs_sub .., binary_bufs_sub ..⟩
theorem r7_sub : (r7 : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..,
    binary_bufs_sub ..⟩
theorem r8_sub : (r8 : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..⟩
theorem r9_sub : (r9 : List (HloOp τ sig (Elt F))).Forall fun op => op.bufs ⊆ tcRefs τ sig :=
  ⟨nullary_bufs_sub .., unary_bufs_sub .., binary_bufs_sub .., nullary_bufs_sub .., unary_bufs_sub ..,
    binary_bufs_sub .., unary_bufs_sub .., reshape_bufs_sub .., unary_bufs_sub .., reshape_bufs_sub ..,
    nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub .., unary_bufs_sub .., unary_bufs_sub .., binary_bufs_sub ..,
    binary_bufs_sub .., unary_bufs_sub .., unary_bufs_sub .., binary_bufs_sub .., binary_bufs_sub ..,
    binary_bufs_sub ..⟩
theorem r10_sub : (r10 : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..,
    binary_bufs_sub ..⟩
theorem r11_sub : (r11 : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..,
    binary_bufs_sub .., binary_bufs_sub ..⟩

theorem rops_sub : (rops : List (HloOp τ sig (Elt F))).Forall fun op => op.bufs ⊆ tcRefs τ sig :=
  List.forall_iff_forall_mem.mpr fun op h => by
    simp only [rops, List.mem_append] at h
    rcases h with h | h | h | h | h | h | h | h | h | h | h | h
    exacts [List.forall_iff_forall_mem.mp r0_sub op h,
      List.forall_iff_forall_mem.mp r1_sub op h,
      List.forall_iff_forall_mem.mp r2_sub op h,
      List.forall_iff_forall_mem.mp r3_sub op h,
      List.forall_iff_forall_mem.mp r4_sub op h,
      List.forall_iff_forall_mem.mp r5_sub op h,
      List.forall_iff_forall_mem.mp r6_sub op h,
      List.forall_iff_forall_mem.mp r7_sub op h,
      List.forall_iff_forall_mem.mp r8_sub op h,
      List.forall_iff_forall_mem.mp r9_sub op h,
      List.forall_iff_forall_mem.mp r10_sub op h,
      List.forall_iff_forall_mem.mp r11_sub op h]

/-! ### Every operation determines its results (none allocates): stretch by stretch, then over the whole line -/

theorem r0_fresh : ∀ op ∈ (r0 : List (HloOp τ sig (Elt F))), op.fresh = ∅ := by
  intro _ h; (repeat (cases h with | head => rfl | tail _ h => ?_)); exact nomatch h
theorem r1_fresh : ∀ op ∈ (r1 : List (HloOp τ sig (Elt F))), op.fresh = ∅ := by
  intro _ h; (repeat (cases h with | head => rfl | tail _ h => ?_)); exact nomatch h
theorem r2_fresh : ∀ op ∈ (r2 : List (HloOp τ sig (Elt F))), op.fresh = ∅ := by
  intro _ h; (repeat (cases h with | head => rfl | tail _ h => ?_)); exact nomatch h
theorem r3_fresh : ∀ op ∈ (r3 : List (HloOp τ sig (Elt F))), op.fresh = ∅ := by
  intro _ h; (repeat (cases h with | head => rfl | tail _ h => ?_)); exact nomatch h
theorem r4_fresh : ∀ op ∈ (r4 : List (HloOp τ sig (Elt F))), op.fresh = ∅ := by
  intro _ h; (repeat (cases h with | head => rfl | tail _ h => ?_)); exact nomatch h
theorem r5_fresh : ∀ op ∈ (r5 : List (HloOp τ sig (Elt F))), op.fresh = ∅ := by
  intro _ h; (repeat (cases h with | head => rfl | tail _ h => ?_)); exact nomatch h
theorem r6_fresh : ∀ op ∈ (r6 : List (HloOp τ sig (Elt F))), op.fresh = ∅ := by
  intro _ h; (repeat (cases h with | head => rfl | tail _ h => ?_)); exact nomatch h
theorem r7_fresh : ∀ op ∈ (r7 : List (HloOp τ sig (Elt F))), op.fresh = ∅ := by
  intro _ h; (repeat (cases h with | head => rfl | tail _ h => ?_)); exact nomatch h
theorem r8_fresh : ∀ op ∈ (r8 : List (HloOp τ sig (Elt F))), op.fresh = ∅ := by
  intro _ h; (repeat (cases h with | head => rfl | tail _ h => ?_)); exact nomatch h
theorem r9_fresh : ∀ op ∈ (r9 : List (HloOp τ sig (Elt F))), op.fresh = ∅ := by
  intro _ h; (repeat (cases h with | head => rfl | tail _ h => ?_)); exact nomatch h
theorem r10_fresh : ∀ op ∈ (r10 : List (HloOp τ sig (Elt F))), op.fresh = ∅ := by
  intro _ h; (repeat (cases h with | head => rfl | tail _ h => ?_)); exact nomatch h
theorem r11_fresh : ∀ op ∈ (r11 : List (HloOp τ sig (Elt F))), op.fresh = ∅ := by
  intro _ h; (repeat (cases h with | head => rfl | tail _ h => ?_)); exact nomatch h

theorem rops_fresh : ∀ op ∈ (rops : List (HloOp τ sig (Elt F))), op.fresh = ∅ := fun op h => by
  simp only [rops, List.mem_append] at h
  rcases h with h | h | h | h | h | h | h | h | h | h | h | h
  exacts [r0_fresh op h, r1_fresh op h, r2_fresh op h, r3_fresh op h, r4_fresh op h, r5_fresh op h, r6_fresh op h, r7_fresh op h, r8_fresh op h, r9_fresh op h, r10_fresh op h, r11_fresh op h]

/-- On every device, for any float values, from any memory with zero counters: every weakly fair execution of @main
    terminates with each TensorCore buffer at the fold of the 638 operations' results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after rops (launchContents m d) (Proc.devRef .tc b) :=
  run_seq scopedRefs_eq' scopedSems_eq' defs main (fun _ => rops) rmain_eq (fun _ => rops_sub) m ρ (fun _ => rops_fresh)

end Cert.ReferenceIdeal.RefStretch

end
-- ==== Proof.RefValue.lean ====
/-
  The reference program's run and its two results as the network's function (Spec) of the argument arrays, for any float
  family. Its 638 operations are cut into twelve stretches (RefA … RefD), each read as values; here they are chained:
  a value a later stretch reads is the earlier stretch's result, carried over the stretches in between that do not write
  it. The run itself is the library's `run_seq` over the twelve stretches in order (RefRun.lean).
-/
import proofs.«157546_j87986700026404_1_alg».proof.Proof.RefA
import proofs.«157546_j87986700026404_1_alg».proof.Proof.RefB
import proofs.«157546_j87986700026404_1_alg».proof.Proof.RefC
import proofs.«157546_j87986700026404_1_alg».proof.Proof.RefD
import proofs.«157546_j87986700026404_1_alg».proof.Proof.RefKeep
import proofs.«157546_j87986700026404_1_alg».proof.Proof.RefRun
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefStretch

variable {F : FTy → Type} [FloatOps F]

/-- One step back through the stretches: a buffer a stretch does not write holds what it held before the stretch. -/
macro "rcarry_step" : tactic => `(tactic| first
  | ((with_reducible refine (Cert.ReferenceIdeal.RefStretch.rkeep11 _ _ ?_).trans ?_); decide)
  | ((with_reducible refine (Cert.ReferenceIdeal.RefStretch.rkeep10 _ _ ?_).trans ?_); decide)
  | ((with_reducible refine (Cert.ReferenceIdeal.RefStretch.rkeep9 _ _ ?_).trans ?_); decide)
  | ((with_reducible refine (Cert.ReferenceIdeal.RefStretch.rkeep8 _ _ ?_).trans ?_); decide)
  | ((with_reducible refine (Cert.ReferenceIdeal.RefStretch.rkeep7 _ _ ?_).trans ?_); decide)
  | ((with_reducible refine (Cert.ReferenceIdeal.RefStretch.rkeep6 _ _ ?_).trans ?_); decide)
  | ((with_reducible refine (Cert.ReferenceIdeal.RefStretch.rkeep5 _ _ ?_).trans ?_); decide)
  | ((with_reducible refine (Cert.ReferenceIdeal.RefStretch.rkeep4 _ _ ?_).trans ?_); decide)
  | ((with_reducible refine (Cert.ReferenceIdeal.RefStretch.rkeep3 _ _ ?_).trans ?_); decide)
  | ((with_reducible refine (Cert.ReferenceIdeal.RefStretch.rkeep2 _ _ ?_).trans ?_); decide)
  | ((with_reducible refine (Cert.ReferenceIdeal.RefStretch.rkeep1 _ _ ?_).trans ?_); decide)
  | ((with_reducible refine (Cert.ReferenceIdeal.RefStretch.rkeep0 _ _ ?_).trans ?_); decide))

/-- A buffer's contents after some stretches are its contents after fewer (or before all), when none in between writes it. -/
macro "rcarry" : tactic => `(tactic| (repeat (first | with_reducible rfl | rcarry_step); try rfl))

/-- The contents before the first stretch. -/
abbrev U0 (V : Valuation τ sig (Elt F)) : Valuation τ sig (Elt F) := V
/-- The contents after the first 1 of the twelve stretches. -/
abbrev U1 (V : Valuation τ sig (Elt F)) : Valuation τ sig (Elt F) := after r0 (U0 V)
/-- The contents after the first 2 of the twelve stretches. -/
abbrev U2 (V : Valuation τ sig (Elt F)) : Valuation τ sig (Elt F) := after r1 (U1 V)
/-- The contents after the first 3 of the twelve stretches. -/
abbrev U3 (V : Valuation τ sig (Elt F)) : Valuation τ sig (Elt F) := after r2 (U2 V)
/-- The contents after the first 4 of the twelve stretches. -/
abbrev U4 (V : Valuation τ sig (Elt F)) : Valuation τ sig (Elt F) := after r3 (U3 V)
/-- The contents after the first 5 of the twelve stretches. -/
abbrev U5 (V : Valuation τ sig (Elt F)) : Valuation τ sig (Elt F) := after r4 (U4 V)
/-- The contents after the first 6 of the twelve stretches. -/
abbrev U6 (V : Valuation τ sig (Elt F)) : Valuation τ sig (Elt F) := after r5 (U5 V)
/-- The contents after the first 7 of the twelve stretches. -/
abbrev U7 (V : Valuation τ sig (Elt F)) : Valuation τ sig (Elt F) := after r6 (U6 V)
/-- The contents after the first 8 of the twelve stretches. -/
abbrev U8 (V : Valuation τ sig (Elt F)) : Valuation τ sig (Elt F) := after r7 (U7 V)
/-- The contents after the first 9 of the twelve stretches. -/
abbrev U9 (V : Valuation τ sig (Elt F)) : Valuation τ sig (Elt F) := after r8 (U8 V)
/-- The contents after the first 10 of the twelve stretches. -/
abbrev U10 (V : Valuation τ sig (Elt F)) : Valuation τ sig (Elt F) := after r9 (U9 V)
/-- The contents after the first 11 of the twelve stretches. -/
abbrev U11 (V : Valuation τ sig (Elt F)) : Valuation τ sig (Elt F) := after r10 (U10 V)
/-- The contents after the first 12 of the twelve stretches. -/
abbrev U12 (V : Valuation τ sig (Elt F)) : Valuation τ sig (Elt F) := after r11 (U11 V)

/-! ## Graph "j" -/

/-- Layer 1's mean update at the `p` nodes. -/
theorem u1_v28 (V : Valuation τ sig (Elt F)) : U1 V (Proc.devRef .tc main_v28) = Cert.KernelIdeal.Spec.sage128 (Cert.KernelIdeal.Spec.sageMean (V (Proc.devRef .tc main_arg0)) (V (Proc.devRef .tc main_arg4))) (V (Proc.devRef .tc main_arg10)) (V (Proc.devRef .tc main_arg1)) (V (Proc.devRef .tc main_arg12)) (V (Proc.devRef .tc main_arg11)) := by
  refine (r0_v28 (U0 V)).trans ?_
  rw [show U0 V (Proc.devRef .tc main_arg0) = V (Proc.devRef .tc main_arg0) from by rcarry, show U0 V (Proc.devRef .tc main_arg4) = V (Proc.devRef .tc main_arg4) from by rcarry, show U0 V (Proc.devRef .tc main_arg10) = V (Proc.devRef .tc main_arg10) from by rcarry, show U0 V (Proc.devRef .tc main_arg1) = V (Proc.devRef .tc main_arg1) from by rcarry, show U0 V (Proc.devRef .tc main_arg12) = V (Proc.devRef .tc main_arg12) from by rcarry, show U0 V (Proc.devRef .tc main_arg11) = V (Proc.devRef .tc main_arg11) from by rcarry]

/-- Layer 1 at the `p` nodes, before relu. -/
theorem u2_v76 (V : Valuation τ sig (Elt F)) : U2 V (Proc.devRef .tc main_v76) = Cert.KernelIdeal.Spec.hP (V (Proc.devRef .tc main_arg0)) (V (Proc.devRef .tc main_arg1)) (V (Proc.devRef .tc main_arg4)) (V (Proc.devRef .tc main_arg6)) (V (Proc.devRef .tc main_arg10)) (V (Proc.devRef .tc main_arg11)) (V (Proc.devRef .tc main_arg12)) (V (Proc.devRef .tc main_arg15)) (V (Proc.devRef .tc main_arg16)) := by
  refine (r1_v76 (U1 V)).trans ?_
  rw [u1_v28 V, show U1 V (Proc.devRef .tc main_arg1) = V (Proc.devRef .tc main_arg1) from by rcarry, show U1 V (Proc.devRef .tc main_arg15) = V (Proc.devRef .tc main_arg15) from by rcarry, show U1 V (Proc.devRef .tc main_arg6) = V (Proc.devRef .tc main_arg6) from by rcarry, show U1 V (Proc.devRef .tc main_arg16) = V (Proc.devRef .tc main_arg16) from by rcarry]
  rfl

/-- Layer 1 at the `l` nodes, before relu. -/
theorem u3_v123 (V : Valuation τ sig (Elt F)) : U3 V (Proc.devRef .tc main_v123) = Cert.KernelIdeal.Spec.hL (V (Proc.devRef .tc main_arg0)) (V (Proc.devRef .tc main_arg5)) (V (Proc.devRef .tc main_arg13)) (V (Proc.devRef .tc main_arg14)) := by
  refine (r2_v123 (U2 V)).trans ?_
  rw [show U2 V (Proc.devRef .tc main_arg0) = V (Proc.devRef .tc main_arg0) from by rcarry, show U2 V (Proc.devRef .tc main_arg13) = V (Proc.devRef .tc main_arg13) from by rcarry, show U2 V (Proc.devRef .tc main_arg5) = V (Proc.devRef .tc main_arg5) from by rcarry, show U2 V (Proc.devRef .tc main_arg14) = V (Proc.devRef .tc main_arg14) from by rcarry]
  rfl

/-- Layer 1's activation at the `l` nodes. -/
theorem u4_v124 (V : Valuation τ sig (Elt F)) : U4 V (Proc.devRef .tc main_v124) = Cert.KernelIdeal.Spec.relu (Cert.KernelIdeal.Spec.hL (V (Proc.devRef .tc main_arg0)) (V (Proc.devRef .tc main_arg5)) (V (Proc.devRef .tc main_arg13)) (V (Proc.devRef .tc main_arg14))) := by
  refine (r3_v124 (U3 V)).trans ?_
  rw [u3_v123 V]

/-- Layer 1's activation at the `p` nodes. -/
theorem u4_v125 (V : Valuation τ sig (Elt F)) : U4 V (Proc.devRef .tc main_v125) = Cert.KernelIdeal.Spec.relu (Cert.KernelIdeal.Spec.hP (V (Proc.devRef .tc main_arg0)) (V (Proc.devRef .tc main_arg1)) (V (Proc.devRef .tc main_arg4)) (V (Proc.devRef .tc main_arg6)) (V (Proc.devRef .tc main_arg10)) (V (Proc.devRef .tc main_arg11)) (V (Proc.devRef .tc main_arg12)) (V (Proc.devRef .tc main_arg15)) (V (Proc.devRef .tc main_arg16))) := by
  refine (r3_v125 (U3 V)).trans ?_
  rw [show U3 V (Proc.devRef .tc main_v76) = _ from (by rcarry : U3 V (Proc.devRef .tc main_v76) = U2 V (Proc.devRef .tc main_v76)).trans (u2_v76 V)]

/-- Layer 2's mean update at the `p` nodes. -/
theorem u4_v154 (V : Valuation τ sig (Elt F)) : U4 V (Proc.devRef .tc main_v154) = Cert.KernelIdeal.Spec.sage64 (Cert.KernelIdeal.Spec.sageMean (Cert.KernelIdeal.Spec.relu (Cert.KernelIdeal.Spec.hL (V (Proc.devRef .tc main_arg0)) (V (Proc.devRef .tc main_arg5)) (V (Proc.devRef .tc main_arg13)) (V (Proc.devRef .tc main_arg14)))) (V (Proc.devRef .tc main_arg4))) (V (Proc.devRef .tc main_arg17)) (Cert.KernelIdeal.Spec.relu (Cert.KernelIdeal.Spec.hP (V (Proc.devRef .tc main_arg0)) (V (Proc.devRef .tc main_arg1)) (V (Proc.devRef .tc main_arg4)) (V (Proc.devRef .tc main_arg6)) (V (Proc.devRef .tc main_arg10)) (V (Proc.devRef .tc main_arg11)) (V (Proc.devRef .tc main_arg12)) (V (Proc.devRef .tc main_arg15)) (V (Proc.devRef .tc main_arg16)))) (V (Proc.devRef .tc main_arg19)) (V (Proc.devRef .tc main_arg18)) := by
  refine (r3_v154 (U3 V)).trans ?_
  rw [u3_v123 V, show U3 V (Proc.devRef .tc main_v76) = _ from (by rcarry : U3 V (Proc.devRef .tc main_v76) = U2 V (Proc.devRef .tc main_v76)).trans (u2_v76 V),
    show U3 V (Proc.devRef .tc main_arg4) = V (Proc.devRef .tc main_arg4) from by rcarry, show U3 V (Proc.devRef .tc main_arg17) = V (Proc.devRef .tc main_arg17) from by rcarry, show U3 V (Proc.devRef .tc main_arg19) = V (Proc.devRef .tc main_arg19) from by rcarry, show U3 V (Proc.devRef .tc main_arg18) = V (Proc.devRef .tc main_arg18) from by rcarry]

/-- Graph "j"'s output at the `p` nodes. -/
theorem u5_v202 (V : Valuation τ sig (Elt F)) : U5 V (Proc.devRef .tc main_v202) = Cert.KernelIdeal.Spec.outP (V (Proc.devRef .tc main_arg0)) (V (Proc.devRef .tc main_arg1)) (V (Proc.devRef .tc main_arg4)) (V (Proc.devRef .tc main_arg5)) (V (Proc.devRef .tc main_arg6)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg22)) (V (Proc.devRef .tc main_arg23)) := by
  refine (r4_v202 (U4 V)).trans ?_
  rw [u4_v154 V, u4_v125 V, show U4 V (Proc.devRef .tc main_arg22) = V (Proc.devRef .tc main_arg22) from by rcarry, show U4 V (Proc.devRef .tc main_arg6) = V (Proc.devRef .tc main_arg6) from by rcarry, show U4 V (Proc.devRef .tc main_arg23) = V (Proc.devRef .tc main_arg23) from by rcarry]
  rfl

/-- Graph "j"'s output at the `l` nodes. -/
theorem u6_v249 (V : Valuation τ sig (Elt F)) : U6 V (Proc.devRef .tc main_v249) = Cert.KernelIdeal.Spec.outL (V (Proc.devRef .tc main_arg0)) (V (Proc.devRef .tc main_arg5)) (V (Proc.devRef .tc main_arg13)) (V (Proc.devRef .tc main_arg14)) (V (Proc.devRef .tc main_arg20)) (V (Proc.devRef .tc main_arg21)) := by
  refine (r5_v249 (U5 V)).trans ?_
  rw [show U5 V (Proc.devRef .tc main_v124) = _ from (by rcarry : U5 V (Proc.devRef .tc main_v124) = U4 V (Proc.devRef .tc main_v124)).trans (u4_v124 V), show U5 V (Proc.devRef .tc main_arg20) = V (Proc.devRef .tc main_arg20) from by rcarry, show U5 V (Proc.devRef .tc main_arg5) = V (Proc.devRef .tc main_arg5) from by rcarry, show U5 V (Proc.devRef .tc main_arg21) = V (Proc.devRef .tc main_arg21) from by rcarry]
  rfl

/-! ## Graph "b" -/

/-- Layer 1's mean update at the `p` nodes. -/
theorem u7_v278 (V : Valuation τ sig (Elt F)) : U7 V (Proc.devRef .tc main_v278) = Cert.KernelIdeal.Spec.sage128 (Cert.KernelIdeal.Spec.sageMean (V (Proc.devRef .tc main_arg2)) (V (Proc.devRef .tc main_arg7))) (V (Proc.devRef .tc main_arg24)) (V (Proc.devRef .tc main_arg3)) (V (Proc.devRef .tc main_arg26)) (V (Proc.devRef .tc main_arg25)) := by
  refine (r6_v278 (U6 V)).trans ?_
  rw [show U6 V (Proc.devRef .tc main_arg2) = V (Proc.devRef .tc main_arg2) from by rcarry, show U6 V (Proc.devRef .tc main_arg7) = V (Proc.devRef .tc main_arg7) from by rcarry, show U6 V (Proc.devRef .tc main_arg24) = V (Proc.devRef .tc main_arg24) from by rcarry, show U6 V (Proc.devRef .tc main_arg3) = V (Proc.devRef .tc main_arg3) from by rcarry, show U6 V (Proc.devRef .tc main_arg26) = V (Proc.devRef .tc main_arg26) from by rcarry, show U6 V (Proc.devRef .tc main_arg25) = V (Proc.devRef .tc main_arg25) from by rcarry]

/-- Layer 1 at the `p` nodes, before relu. -/
theorem u8_v326 (V : Valuation τ sig (Elt F)) : U8 V (Proc.devRef .tc main_v326) = Cert.KernelIdeal.Spec.hP (V (Proc.devRef .tc main_arg2)) (V (Proc.devRef .tc main_arg3)) (V (Proc.devRef .tc main_arg7)) (V (Proc.devRef .tc main_arg9)) (V (Proc.devRef .tc main_arg24)) (V (Proc.devRef .tc main_arg25)) (V (Proc.devRef .tc main_arg26)) (V (Proc.devRef .tc main_arg29)) (V (Proc.devRef .tc main_arg30)) := by
  refine (r7_v326 (U7 V)).trans ?_
  rw [u7_v278 V, show U7 V (Proc.devRef .tc main_arg3) = V (Proc.devRef .tc main_arg3) from by rcarry, show U7 V (Proc.devRef .tc main_arg29) = V (Proc.devRef .tc main_arg29) from by rcarry, show U7 V (Proc.devRef .tc main_arg9) = V (Proc.devRef .tc main_arg9) from by rcarry, show U7 V (Proc.devRef .tc main_arg30) = V (Proc.devRef .tc main_arg30) from by rcarry]
  rfl

/-- Layer 1 at the `l` nodes, before relu. -/
theorem u9_v373 (V : Valuation τ sig (Elt F)) : U9 V (Proc.devRef .tc main_v373) = Cert.KernelIdeal.Spec.hL (V (Proc.devRef .tc main_arg2)) (V (Proc.devRef .tc main_arg8)) (V (Proc.devRef .tc main_arg27)) (V (Proc.devRef .tc main_arg28)) := by
  refine (r8_v373 (U8 V)).trans ?_
  rw [show U8 V (Proc.devRef .tc main_arg2) = V (Proc.devRef .tc main_arg2) from by rcarry, show U8 V (Proc.devRef .tc main_arg27) = V (Proc.devRef .tc main_arg27) from by rcarry, show U8 V (Proc.devRef .tc main_arg8) = V (Proc.devRef .tc main_arg8) from by rcarry, show U8 V (Proc.devRef .tc main_arg28) = V (Proc.devRef .tc main_arg28) from by rcarry]
  rfl

/-- Layer 1's activation at the `l` nodes. -/
theorem u10_v374 (V : Valuation τ sig (Elt F)) : U10 V (Proc.devRef .tc main_v374) = Cert.KernelIdeal.Spec.relu (Cert.KernelIdeal.Spec.hL (V (Proc.devRef .tc main_arg2)) (V (Proc.devRef .tc main_arg8)) (V (Proc.devRef .tc main_arg27)) (V (Proc.devRef .tc main_arg28))) := by
  refine (r9_v374 (U9 V)).trans ?_
  rw [u9_v373 V]

/-- Layer 1's activation at the `p` nodes. -/
theorem u10_v375 (V : Valuation τ sig (Elt F)) : U10 V (Proc.devRef .tc main_v375) = Cert.KernelIdeal.Spec.relu (Cert.KernelIdeal.Spec.hP (V (Proc.devRef .tc main_arg2)) (V (Proc.devRef .tc main_arg3)) (V (Proc.devRef .tc main_arg7)) (V (Proc.devRef .tc main_arg9)) (V (Proc.devRef .tc main_arg24)) (V (Proc.devRef .tc main_arg25)) (V (Proc.devRef .tc main_arg26)) (V (Proc.devRef .tc main_arg29)) (V (Proc.devRef .tc main_arg30))) := by
  refine (r9_v375 (U9 V)).trans ?_
  rw [show U9 V (Proc.devRef .tc main_v326) = _ from (by rcarry : U9 V (Proc.devRef .tc main_v326) = U8 V (Proc.devRef .tc main_v326)).trans (u8_v326 V)]

/-- Layer 2's mean update at the `p` nodes. -/
theorem u10_v404 (V : Valuation τ sig (Elt F)) : U10 V (Proc.devRef .tc main_v404) = Cert.KernelIdeal.Spec.sage64 (Cert.KernelIdeal.Spec.sageMean (Cert.KernelIdeal.Spec.relu (Cert.KernelIdeal.Spec.hL (V (Proc.devRef .tc main_arg2)) (V (Proc.devRef .tc main_arg8)) (V (Proc.devRef .tc main_arg27)) (V (Proc.devRef .tc main_arg28)))) (V (Proc.devRef .tc main_arg7))) (V (Proc.devRef .tc main_arg31)) (Cert.KernelIdeal.Spec.relu (Cert.KernelIdeal.Spec.hP (V (Proc.devRef .tc main_arg2)) (V (Proc.devRef .tc main_arg3)) (V (Proc.devRef .tc main_arg7)) (V (Proc.devRef .tc main_arg9)) (V (Proc.devRef .tc main_arg24)) (V (Proc.devRef .tc main_arg25)) (V (Proc.devRef .tc main_arg26)) (V (Proc.devRef .tc main_arg29)) (V (Proc.devRef .tc main_arg30)))) (V (Proc.devRef .tc main_arg33)) (V (Proc.devRef .tc main_arg32)) := by
  refine (r9_v404 (U9 V)).trans ?_
  rw [u9_v373 V, show U9 V (Proc.devRef .tc main_v326) = _ from (by rcarry : U9 V (Proc.devRef .tc main_v326) = U8 V (Proc.devRef .tc main_v326)).trans (u8_v326 V),
    show U9 V (Proc.devRef .tc main_arg7) = V (Proc.devRef .tc main_arg7) from by rcarry, show U9 V (Proc.devRef .tc main_arg31) = V (Proc.devRef .tc main_arg31) from by rcarry, show U9 V (Proc.devRef .tc main_arg33) = V (Proc.devRef .tc main_arg33) from by rcarry, show U9 V (Proc.devRef .tc main_arg32) = V (Proc.devRef .tc main_arg32) from by rcarry]

/-- Graph "b"'s output at the `p` nodes. -/
theorem u11_v452 (V : Valuation τ sig (Elt F)) : U11 V (Proc.devRef .tc main_v452) = Cert.KernelIdeal.Spec.outP (V (Proc.devRef .tc main_arg2)) (V (Proc.devRef .tc main_arg3)) (V (Proc.devRef .tc main_arg7)) (V (Proc.devRef .tc main_arg8)) (V (Proc.devRef .tc main_arg9)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg36)) (V (Proc.devRef .tc main_arg37)) := by
  refine (r10_v452 (U10 V)).trans ?_
  rw [u10_v404 V, u10_v375 V, show U10 V (Proc.devRef .tc main_arg36) = V (Proc.devRef .tc main_arg36) from by rcarry, show U10 V (Proc.devRef .tc main_arg9) = V (Proc.devRef .tc main_arg9) from by rcarry, show U10 V (Proc.devRef .tc main_arg37) = V (Proc.devRef .tc main_arg37) from by rcarry]
  rfl

/-! ## The two results -/

/-- The first result: the two graphs' outputs at the `l` nodes side by side. -/
theorem u12_v500 (V : Valuation τ sig (Elt F)) :
    U12 V (Proc.devRef .tc main_v500) = Cert.KernelIdeal.Spec.sideBySide (Cert.KernelIdeal.Spec.outL (V (Proc.devRef .tc main_arg0)) (V (Proc.devRef .tc main_arg5)) (V (Proc.devRef .tc main_arg13)) (V (Proc.devRef .tc main_arg14)) (V (Proc.devRef .tc main_arg20)) (V (Proc.devRef .tc main_arg21))) (Cert.KernelIdeal.Spec.outL (V (Proc.devRef .tc main_arg2)) (V (Proc.devRef .tc main_arg8)) (V (Proc.devRef .tc main_arg27)) (V (Proc.devRef .tc main_arg28)) (V (Proc.devRef .tc main_arg34)) (V (Proc.devRef .tc main_arg35))) := by
  refine (r11_v500 (U11 V)).trans ?_
  rw [show U11 V (Proc.devRef .tc main_v249) = _ from (by rcarry : U11 V (Proc.devRef .tc main_v249) = U6 V (Proc.devRef .tc main_v249)).trans (u6_v249 V), show U11 V (Proc.devRef .tc main_v374) = _ from (by rcarry : U11 V (Proc.devRef .tc main_v374) = U10 V (Proc.devRef .tc main_v374)).trans (u10_v374 V), show U11 V (Proc.devRef .tc main_arg34) = V (Proc.devRef .tc main_arg34) from by rcarry, show U11 V (Proc.devRef .tc main_arg8) = V (Proc.devRef .tc main_arg8) from by rcarry, show U11 V (Proc.devRef .tc main_arg35) = V (Proc.devRef .tc main_arg35) from by rcarry]
  rfl

/-- The second result: the two graphs' outputs at the `p` nodes side by side. -/
theorem u12_v501 (V : Valuation τ sig (Elt F)) :
    U12 V (Proc.devRef .tc main_v501) = Cert.KernelIdeal.Spec.sideBySide (Cert.KernelIdeal.Spec.outP (V (Proc.devRef .tc main_arg0)) (V (Proc.devRef .tc main_arg1)) (V (Proc.devRef .tc main_arg4)) (V (Proc.devRef .tc main_arg5)) (V (Proc.devRef .tc main_arg6)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg22)) (V (Proc.devRef .tc main_arg23))) (Cert.KernelIdeal.Spec.outP (V (Proc.devRef .tc main_arg2)) (V (Proc.devRef .tc main_arg3)) (V (Proc.devRef .tc main_arg7)) (V (Proc.devRef .tc main_arg8)) (V (Proc.devRef .tc main_arg9)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg36)) (V (Proc.devRef .tc main_arg37))) := by
  refine (r11_v501 (U11 V)).trans ?_
  rw [show U11 V (Proc.devRef .tc main_v202) = _ from (by rcarry : U11 V (Proc.devRef .tc main_v202) = U5 V (Proc.devRef .tc main_v202)).trans (u5_v202 V), u11_v452 V]

/-! ## The run -/

/-- The contents after all 638 operations are the contents after the twelve stretches. -/
theorem after_ops (V : Valuation τ sig (Elt F)) : after rops V = U12 V := by
  simp only [rops, StableHlo.after_append]

/-- No operation writes an argument array. -/
theorem kept_arg (V : Valuation τ sig (Elt F)) (b : Ref sig .tc)
    (hb : b ∉ rw0 ∧ b ∉ rw1 ∧ b ∉ rw2 ∧ b ∉ rw3 ∧ b ∉ rw4 ∧ b ∉ rw5 ∧ b ∉ rw6 ∧ b ∉ rw7 ∧ b ∉ rw8 ∧ b ∉ rw9 ∧ b ∉ rw10 ∧ b ∉ rw11) :
    after rops V (Proc.devRef .tc b) = V (Proc.devRef .tc b) := by
  obtain ⟨h0, h1, h2, h3, h4, h5, h6, h7, h8, h9, h10, h11⟩ := hb
  rw [after_ops]
  exact (rkeep11 _ b h11).trans ((rkeep10 _ b h10).trans ((rkeep9 _ b h9).trans ((rkeep8 _ b h8).trans ((rkeep7 _ b h7).trans
    ((rkeep6 _ b h6).trans ((rkeep5 _ b h5).trans ((rkeep4 _ b h4).trans ((rkeep3 _ b h3).trans ((rkeep2 _ b h2).trans
    ((rkeep1 _ b h1).trans (rkeep0 _ b h0)))))))))))

/-- The first result as the network's function of the argument arrays. -/
abbrev res0 (m : (ℓ : Loc nD τ sig) → Buf (Elt F) ℓ) (c : Dev nD) : Buf (Elt F) ((c.tc : Thread nD τ).loc main_v500) :=
  Cert.KernelIdeal.Spec.sideBySide (Cert.KernelIdeal.Spec.outL (m ((c.tc : Thread nD τ).loc main_arg0)) (m ((c.tc : Thread nD τ).loc main_arg5)) (m ((c.tc : Thread nD τ).loc main_arg13)) (m ((c.tc : Thread nD τ).loc main_arg14)) (m ((c.tc : Thread nD τ).loc main_arg20)) (m ((c.tc : Thread nD τ).loc main_arg21))) (Cert.KernelIdeal.Spec.outL (m ((c.tc : Thread nD τ).loc main_arg2)) (m ((c.tc : Thread nD τ).loc main_arg8)) (m ((c.tc : Thread nD τ).loc main_arg27)) (m ((c.tc : Thread nD τ).loc main_arg28)) (m ((c.tc : Thread nD τ).loc main_arg34)) (m ((c.tc : Thread nD τ).loc main_arg35)))

/-- The second result as the network's function of the argument arrays. -/
abbrev res1 (m : (ℓ : Loc nD τ sig) → Buf (Elt F) ℓ) (c : Dev nD) : Buf (Elt F) ((c.tc : Thread nD τ).loc main_v501) :=
  Cert.KernelIdeal.Spec.sideBySide (Cert.KernelIdeal.Spec.outP (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg22)) (m ((c.tc : Thread nD τ).loc main_arg23))) (Cert.KernelIdeal.Spec.outP (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg36)) (m ((c.tc : Thread nD τ).loc main_arg37)))

/-- Every weakly fair execution of the reference terminates with the two results at the network's function of the
    argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v500) = res0 m c
      ∧ r.2.mem ((c.tc : Thread nD τ).loc main_v501) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37) :=
  (θ_run defs _ _).mono (fun _ h c =>
    ⟨(h c main_v500).trans ((congrFun (after_ops (launchContents m c)) _).trans (u12_v500 (launchContents m c))),
      (h c main_v501).trans ((congrFun (after_ops (launchContents m c)) _).trans (u12_v501 (launchContents m c))),
      (h c main_arg0).trans (kept_arg (launchContents m c) main_arg0 (by decide)),
      (h c main_arg1).trans (kept_arg (launchContents m c) main_arg1 (by decide)),
      (h c main_arg2).trans (kept_arg (launchContents m c) main_arg2 (by decide)),
      (h c main_arg3).trans (kept_arg (launchContents m c) main_arg3 (by decide)),
      (h c main_arg4).trans (kept_arg (launchContents m c) main_arg4 (by decide)),
      (h c main_arg5).trans (kept_arg (launchContents m c) main_arg5 (by decide)),
      (h c main_arg6).trans (kept_arg (launchContents m c) main_arg6 (by decide)),
      (h c main_arg7).trans (kept_arg (launchContents m c) main_arg7 (by decide)),
      (h c main_arg8).trans (kept_arg (launchContents m c) main_arg8 (by decide)),
      (h c main_arg9).trans (kept_arg (launchContents m c) main_arg9 (by decide)),
      (h c main_arg10).trans (kept_arg (launchContents m c) main_arg10 (by decide)),
      (h c main_arg11).trans (kept_arg (launchContents m c) main_arg11 (by decide)),
      (h c main_arg12).trans (kept_arg (launchContents m c) main_arg12 (by decide)),
      (h c main_arg13).trans (kept_arg (launchContents m c) main_arg13 (by decide)),
      (h c main_arg14).trans (kept_arg (launchContents m c) main_arg14 (by decide)),
      (h c main_arg15).trans (kept_arg (launchContents m c) main_arg15 (by decide)),
      (h c main_arg16).trans (kept_arg (launchContents m c) main_arg16 (by decide)),
      (h c main_arg17).trans (kept_arg (launchContents m c) main_arg17 (by decide)),
      (h c main_arg18).trans (kept_arg (launchContents m c) main_arg18 (by decide)),
      (h c main_arg19).trans (kept_arg (launchContents m c) main_arg19 (by decide)),
      (h c main_arg20).trans (kept_arg (launchContents m c) main_arg20 (by decide)),
      (h c main_arg21).trans (kept_arg (launchContents m c) main_arg21 (by decide)),
      (h c main_arg22).trans (kept_arg (launchContents m c) main_arg22 (by decide)),
      (h c main_arg23).trans (kept_arg (launchContents m c) main_arg23 (by decide)),
      (h c main_arg24).trans (kept_arg (launchContents m c) main_arg24 (by decide)),
      (h c main_arg25).trans (kept_arg (launchContents m c) main_arg25 (by decide)),
      (h c main_arg26).trans (kept_arg (launchContents m c) main_arg26 (by decide)),
      (h c main_arg27).trans (kept_arg (launchContents m c) main_arg27 (by decide)),
      (h c main_arg28).trans (kept_arg (launchContents m c) main_arg28 (by decide)),
      (h c main_arg29).trans (kept_arg (launchContents m c) main_arg29 (by decide)),
      (h c main_arg30).trans (kept_arg (launchContents m c) main_arg30 (by decide)),
      (h c main_arg31).trans (kept_arg (launchContents m c) main_arg31 (by decide)),
      (h c main_arg32).trans (kept_arg (launchContents m c) main_arg32 (by decide)),
      (h c main_arg33).trans (kept_arg (launchContents m c) main_arg33 (by decide)),
      (h c main_arg34).trans (kept_arg (launchContents m c) main_arg34 (by decide)),
      (h c main_arg35).trans (kept_arg (launchContents m c) main_arg35 (by decide)),
      (h c main_arg36).trans (kept_arg (launchContents m c) main_arg36 (by decide)),
      (h c main_arg37).trans (kept_arg (launchContents m c) main_arg37 (by decide))⟩)
    (run_raw m ρ)

end Cert.ReferenceIdeal.RefValue

end
-- ==== Proof.lean ====
/-
  The certificate's claim. Both programs compute one two-layer heterogeneous graph network (Proof/Spec.lean): per graph, mean
  aggregation over `l → p` edges fed to a fused linear update, and symmetric-normalised aggregation with self loops over
  `p → p` and `l → l` edges of a linear layer's output; two graphs, their outputs side by side per node type.

  The kernel program runs the twelve linear layers as Pallas regions (row blocks of 5000 nodes, bf16 operands, f32
  accumulation) among the plain-jax gather / scatter-add glue; the reference runs everything on the host. At the ideal
  instance a change of float format is the identity and a matmul into a zero accumulator is the host's contraction, so every
  matmul region's output array is `x · w` (Proof/RegMM128.lean, RegMM64.lean), and every fused region's is
  `(a · wl + b · wr) + bias` (RegSage128.lean, RegSage64.lean), which is the reference's `(a · wl + bias) + b · wr` because
  addition of extended reals is commutative and associative at every value (Proof/Alg.lean): no finiteness is used, and the
  precondition is never opened. The glue is the same jax code in both programs; each host stretch is read as the network's
  named function of what it reads, for any float family (Stretch*.lean for the kernel program, RefA … RefD for the
  reference), and the values are chained through the runs (Carry.lean, WalkJ.lean, WalkB.lean, WalkOut.lean; RefValue.lean).

  Frames: the kernel programs' are the generated ones (cited from their copies Proof/FrameK*.lean, FrameKI*.lean); the reference's is its run with the results dropped.
  `preserves`: the ideal pass rewrote nothing, so the conjunct is `True`.
-/
import proofs.«157546_j87986700026404_1_alg».proof.Defs
import proofs.«157546_j87986700026404_1_alg».proof.Proof.Gen.Kernel
import proofs.«157546_j87986700026404_1_alg».proof.Proof.FrameKc
import proofs.«157546_j87986700026404_1_alg».proof.Proof.Gen.KernelIdeal
import proofs.«157546_j87986700026404_1_alg».proof.Proof.FrameKIc
import proofs.«157546_j87986700026404_1_alg».proof.Proof.Gen.ReferenceIdeal
import proofs.«157546_j87986700026404_1_alg».proof.Proof.Gen.Pre_finite_inputs
import proofs.«157546_j87986700026404_1_alg».proof.Proof.RunNamed
import proofs.«157546_j87986700026404_1_alg».proof.Proof.WalkOut
import proofs.«157546_j87986700026404_1_alg».proof.Proof.RefValue
import Idealize.ShloMosaic.Adequacy
import Idealize.ShloMosaic.Init

noncomputable section

namespace Cert.Proof

open Idealize.ShloMosaic Idealize.SL.Sem

/-- The word-level kernel program runs and leaves its arguments as launched: the generated frame. -/
theorem frame_k : Cert.frame_Kernel := fun m ρ _ => Cert.Kernel.GenP.frame m ρ

/-- The idealized kernel program runs and leaves its arguments as launched: the generated frame. -/
theorem frame_ki : Cert.frame_KernelIdeal := fun m ρ _ => Cert.KernelIdeal.GenP.frame m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.RefValue.run (F := Ideal) m ρ)

set_option maxHeartbeats 4000000 in
/-- At the ideal instance both programs end with the network's two outputs of the argument arrays: the kernel program by
    the walk through its run, the reference by its run; from memories that agree on the arguments these are equal. -/
theorem algebraic : Cert.algebraic_KernelIdeal_ReferenceIdeal := by
  intro m ρ m' ρ' _ hagree
  refine ⟨fun c => Cert.KernelIdeal.Spec.sideBySide (Cert.KernelIdeal.Spec.outL (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) (Cert.KernelIdeal.Spec.outL (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))),
    fun c => Cert.KernelIdeal.Spec.sideBySide (Cert.KernelIdeal.Spec.outP (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) (Cert.KernelIdeal.Spec.outP (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg36)) (m ((c.tc : Thread Cert.KernelIdeal.nD Cert.KernelIdeal.τ).loc Cert.KernelIdeal.main_arg37))),
    ?_, ?_⟩
  · exact (θ_run Cert.KernelIdeal.defs _ _).mono
      (fun r h c => ⟨(h c).1.trans (Cert.KernelIdeal.Walk.w43_v484 m ρ c), (h c).2.1.trans (Cert.KernelIdeal.Walk.w43_v485 m ρ c), (h c).2.2⟩)
      (Cert.KernelIdeal.GenRun.run_named (F := Ideal) m ρ)
  · refine (θ_run Cert.ReferenceIdeal.defs _ _).mono (fun r h c => ⟨(h c).1.trans ?_, (h c).2.1.trans ?_, (h c).2.2⟩)
      (Cert.ReferenceIdeal.RefValue.run (F := Ideal) m' ρ')
    · obtain ⟨h0, h1, h2, h3, h4, h5, h6, h7, h8, h9, h10, h11, h12, h13, h14, h15, h16, h17, h18, h19, h20, h21, h22, h23, h24, h25, h26, h27, h28, h29, h30, h31, h32, h33, h34, h35, h36, h37⟩ := hagree c
      show Cert.KernelIdeal.Spec.sideBySide _ _ = Cert.KernelIdeal.Spec.sideBySide _ _
      rw [h0, h5, h13, h14, h20, h21, h2, h8, h27, h28, h34, h35]
    · obtain ⟨h0, h1, h2, h3, h4, h5, h6, h7, h8, h9, h10, h11, h12, h13, h14, h15, h16, h17, h18, h19, h20, h21, h22, h23, h24, h25, h26, h27, h28, h29, h30, h31, h32, h33, h34, h35, h36, h37⟩ := hagree c
      show Cert.KernelIdeal.Spec.sideBySide _ _ = Cert.KernelIdeal.Spec.sideBySide _ _
      rw [h0, h1, h4, h5, h6, h10, h11, h12, h13, h14, h15, h16, h17, h18, h19, h22, h23,
        h2, h3, h7, h8, h9, h24, h25, h26, h27, h28, h29, h30, h31, h32, h33, h36, h37]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
